-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x256x128 : Shape := ⟨3, ![2, 256, 128]⟩
abbrev S2x128x256 : Shape := ⟨3, ![2, 128, 256]⟩
abbrev S2x256x256 : Shape := ⟨3, ![2, 256, 256]⟩
abbrev S2x256 : Shape := ⟨2, ![2, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2x256x128 : S_.BroadcastsInDim S2x256x128 (![] : Fin 0 → Fin S2x256x128.rank)
  reducesTo_S2x256x128_S_d0_1_2 : S2x256x128.ReducesTo [0, 1, 2] S_
  bcast_S_S2x128x256 : S_.BroadcastsInDim S2x128x256 (![] : Fin 0 → Fin S2x128x256.rank)
  reducesTo_S2x128x256_S_d0_1_2 : S2x128x256.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg4 : FVec F S2x128x256 .f32) (main_arg5 : FVec F S2x256x256 .f32) (main_arg6 : FVec F S2x256 .f32) (main_v13 : IVec S_ 1) (main_v16 : IVec S2x256x128 1) : IVec S_ 1 :=
  let main_c_5 : IVec S_ 1 := constantI S_ 1 1#1
  let main_v17 : IVec S_ 1 := (fun x v => Host.reduce IntOp.andi x v reducesTo_S2x256x128_S_d0_1_2 h_S_) main_v16 main_c_5
  let main_v18 : IVec S_ 1 := andi main_v13 main_v17
  let main_v19 : FVec F S2x128x256 .f32 := Host.absf main_arg4
  let main_cst_6 : FVec F S_ .f32 := constant S_ .f32 0x7F800000#32
  let main_v20 : FVec F S2x128x256 .f32 := broadcastInDim S2x128x256 ![] bcast_S_S2x128x256 main_cst_6
  let main_v21 : IVec S2x128x256 1 := cmpf .olt main_v19 main_v20
  let main_c_7 : IVec S_ 1 := constantI S_ 1 1#1
  let main_v22 : IVec S_ 1 := (fun x v => Host.reduce IntOp.andi x v reducesTo_S2x128x256_S_d0_1_2 h_S_) main_v21 main_c_7
  let main_v23 : IVec S_ 1 := andi main_v18 main_v22
  let main_v24 : FVec F S2x256x256 .f32 := Host.absf main_arg5
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg6
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S8192x256 .f32) (main_arg1 : FVec F S2x256x128 .f32) (main_arg2 : FVec F S2x256x128 .f32) (main_arg3 : FVec F S2x256x128 .f32) (main_arg4 : FVec F S2x128x256 .f32) (main_arg5 : FVec F S2x256x256 .f32) (main_arg6 : FVec F S2x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2x256x128 .f32 := Host.absf main_arg1
  let main_cst_0 : FVec F S_ .f32 := constant S_ .f32 0x7F800000#32
  let main_v5 : FVec F S2x256x128 .f32 := broadcastInDim S2x256x128 ![] bcast_S_S2x256x128 main_cst_0
  let main_v6 : IVec S2x256x128 1 := cmpf .olt main_v4 main_v5
  let main_c_1 : IVec S_ 1 := constantI S_ 1 1#1
  let main_v7 : IVec S_ 1 := (fun x v => Host.reduce IntOp.andi x v reducesTo_S2x256x128_S_d0_1_2 h_S_) main_v6 main_c_1
  let main_v8 : IVec S_ 1 := andi main_v3 main_v7
  let main_v9 : FVec F S2x256x128 .f32 := Host.absf main_arg2
  let main_cst_2 : FVec F S_ .f32 := constant S_ .f32 0x7F800000#32
  let main_v10 : FVec F S2x256x128 .f32 := broadcastInDim S2x256x128 ![] bcast_S_S2x256x128 main_cst_2
  let main_v11 : IVec S2x256x128 1 := cmpf .olt main_v9 main_v10
  let main_c_3 : IVec S_ 1 := constantI S_ 1 1#1
  let main_v12 : IVec S_ 1 := (fun x v => Host.reduce IntOp.andi x v reducesTo_S2x256x128_S_d0_1_2 h_S_) main_v11 main_c_3
  let main_v13 : IVec S_ 1 := andi main_v8 main_v12
  let main_v14 : FVec F S2x256x128 .f32 := Host.absf main_arg3
  let main_cst_4 : FVec F S_ .f32 := constant S_ .f32 0x7F800000#32
  let main_v15 : FVec F S2x256x128 .f32 := broadcastInDim S2x256x128 ![] bcast_S_S2x256x128 main_cst_4
  let main_v16 : IVec S2x256x128 1 := cmpf .olt main_v14 main_v15
  fn_part1 (F := F) main_arg4 main_arg5 main_arg6 main_v13 main_v16
-- ==== Kernel.lean ====
abbrev S8192x256 : Shape := ⟨2, ![8192, 256]⟩
abbrev S2x256x128 : Shape := ⟨3, ![2, 256, 128]⟩
abbrev S2x128x256 : Shape := ⟨3, ![2, 128, 256]⟩
abbrev S2x256x256 : Shape := ⟨3, ![2, 256, 256]⟩
abbrev S2x256 : Shape := ⟨2, ![2, 256]⟩
abbrev S1x256 : Shape := ⟨2, ![1, 256]⟩
abbrev S2048x256 : Shape := ⟨2, ![2048, 256]⟩
abbrev S256 : Shape := ⟨1, ![256]⟩
abbrev S_ : Shape := ⟨0, ![]⟩
abbrev S256x2x128 : Shape := ⟨3, ![256, 2, 128]⟩
abbrev S256x256 : Shape := ⟨2, ![256, 256]⟩
abbrev S256x768 : Shape := ⟨2, ![256, 768]⟩
abbrev S8192x768 : Shape := ⟨2, ![8192, 768]⟩
abbrev S2048x768 : Shape := ⟨2, ![2048, 768]⟩
abbrev S8192x2x128 : Shape := ⟨3, ![8192, 2, 128]⟩
abbrev S2x8192x128 : Shape := ⟨3, ![2, 8192, 128]⟩
abbrev S4x1x256 : Shape := ⟨3, ![4, 1, 256]⟩
abbrev S1x2048x128 : Shape := ⟨3, ![1, 2048, 128]⟩
abbrev S1x128x256 : Shape := ⟨3, ![1, 128, 256]⟩
abbrev S1x1x256 : Shape := ⟨3, ![1, 1, 256]⟩
abbrev S2048x1 : Shape := ⟨2, ![2048, 1]⟩
abbrev S2048x128 : Shape := ⟨2, ![2048, 128]⟩
abbrev S2048x2048 : Shape := ⟨2, ![2048, 2048]⟩
abbrev S2048 : Shape := ⟨1, ![2048]⟩
abbrev S128x256 : Shape := ⟨2, ![128, 256]⟩
abbrev S1x256x256 : Shape := ⟨3, ![1, 256, 256]⟩

abbrev nBuf : Space → Nat
  | .hbm => 55
  | .vmem => 40
  | .smem => 0
  | _ => 0

abbrev bufTy : (tb : Table) → Fin (tcTables nBuf tb) → BufTy
  | .hbm, ⟨0, _⟩ => ⟨S8192x256, .f32⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S2x128x256, .f32⟩
  | .hbm, ⟨5, _⟩ => ⟨S2x256x256, .f32⟩
  | .hbm, ⟨6, _⟩ => ⟨S2x256, .f32⟩
  | .hbm, ⟨7, _⟩ => ⟨S1x256, .f32⟩
  | .hbm, ⟨8, _⟩ => ⟨S1x256, .f32⟩
  | .hbm, ⟨9, _⟩ => ⟨S_, .f32⟩
  | .hbm, ⟨10, _⟩ => ⟨S1x256, .f32⟩
  | .hbm, ⟨11, _⟩ => ⟨S1x256, .f32⟩
  | .hbm, ⟨12, _⟩ => ⟨S_, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S256x2x128, .f32⟩
  | .hbm, ⟨18, _⟩ => ⟨S256x256, .f32⟩
  | .hbm, ⟨19, _⟩ => ⟨S256x2x128, .f32⟩
  | .hbm, ⟨20, _⟩ => ⟨S256x256, .f32⟩
  | .hbm, ⟨21, _⟩ => ⟨S256x2x128, .f32⟩
  | .hbm, ⟨22, _⟩ => ⟨S256x256, .f32⟩
  | .hbm, ⟨23, _⟩ => ⟨S256x768, .f32⟩
  | .hbm, ⟨24, _⟩ => ⟨S256x768, .bf16⟩
  | .hbm, ⟨25, _⟩ => ⟨S8192x256, .f32⟩
  | .hbm, ⟨26, _⟩ => ⟨S8192x768, .bf16⟩
  | .hbm, ⟨27, _⟩ => ⟨S8192x256, .bf16⟩
  | .hbm, ⟨28, _⟩ => ⟨S8192x256, .bf16⟩
  | .hbm, ⟨29, _⟩ => ⟨S8192x256, .bf16⟩
  | .hbm, ⟨30, _⟩ => ⟨S8192x2x128, .bf16⟩
  | .hbm, ⟨31, _⟩ => ⟨S2x8192x128, .bf16⟩
  | .hbm, ⟨32, _⟩ => ⟨S8192x2x128, .bf16⟩
  | .hbm, ⟨33, _⟩ => ⟨S2x8192x128, .bf16⟩
  | .hbm, ⟨34, _⟩ => ⟨S8192x2x128, .bf16⟩
  | .hbm, ⟨35, _⟩ => ⟨S2x8192x128, .bf16⟩
  | .hbm, ⟨36, _⟩ => ⟨S2x128x256, .bf16⟩
  | .hbm, ⟨37, _⟩ => ⟨S8192x256, .f32⟩
  | .hbm, ⟨38, _⟩ => ⟨S4x1x256, .f32⟩
  | .hbm, ⟨39, _⟩ => ⟨S4x1x256, .f32⟩
  | .hbm, ⟨40, _⟩ => ⟨S_, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S2x256x256, .f32⟩
  | .hbm, ⟨53, _⟩ => ⟨S2x256x256, .bf16⟩
  | .hbm, ⟨54, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S256x768, .bf16⟩
  | .local _ .vmem, ⟨9, _⟩ => ⟨S2048x256, .f32⟩
  | .local _ .vmem, ⟨10, _⟩ => ⟨S2048x256, .f32⟩
  | .local _ .vmem, ⟨11, _⟩ => ⟨S2048x768, .bf16⟩
  | .local _ .vmem, ⟨12, _⟩ => ⟨S2048x768, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x128x256, .bf16⟩
  | .local _ .vmem, ⟨20, _⟩ => ⟨S1x128x256, .bf16⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S2048x1, .f32⟩
  | .local _ .vmem, ⟨30, _⟩ => ⟨S2048x1, .f32⟩
  | .local _ .vmem, ⟨31, _⟩ => ⟨S2048x128, .f32⟩
  | .local _ .vmem, ⟨32, _⟩ => ⟨S2048x256, .f32⟩
  | .local _ .vmem, ⟨33, _⟩ => ⟨S2048x256, .f32⟩
  | .local _ .vmem, ⟨34, _⟩ => ⟨S1x256, .f32⟩
  | .local _ .vmem, ⟨35, _⟩ => ⟨S1x256, .f32⟩
  | .local _ .vmem, ⟨36, _⟩ => ⟨S2x256x256, .bf16⟩
  | .local _ .vmem, ⟨37, _⟩ => ⟨S2x256, .f32⟩
  | .local _ .vmem, ⟨38, _⟩ => ⟨S2048x256, .f32⟩
  | .local _ .vmem, ⟨39, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_cst_1 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_scratch0 : Ref sig .tc := ⟨.vmem, 29, rfl⟩
abbrev cc2_scratch1 : Ref sig .tc := ⟨.vmem, 30, rfl⟩
abbrev cc2_scratch2 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨3, ![4, 2, 4], ![false, false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k2_cond3 (i : grid2.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_29 : BitVec 32 := 0#32
  let v47 : BitVec 1 := Scalar.cmpi .ne v46 c0_i32_29
  v47

def k2_cond4 (i : grid2.Coords) : BitVec 1 :=
  let arg2 : BitVec 32 := BitVec.ofNat 32 (i 2).val
  let c3_i32_30 : BitVec 32 := 3#32
  let v48 : BitVec 1 := Scalar.cmpi .eq arg2 c3_i32_30
  let arg1 : BitVec 32 := BitVec.ofNat 32 (i 1).val
  let c1_i32 : BitVec 32 := 1#32
  let v49 : BitVec 1 := Scalar.cmpi .eq arg1 c1_i32
  let v50 : BitVec 1 := Scalar.andi v48 v49
  let v51 : BitVec 32 := Scalar.extui v50
  let c0_i32_31 : BitVec 32 := 0#32
  let v52 : BitVec 1 := Scalar.cmpi .ne v51 c0_i32_31
  v52

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x128x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S1x256_S1x256_0_0 : ∀ a, (![0, 0] : Fin 2 → Nat) a + S1x256.size a ≤ S1x256.size a
  h_S1x256 : 0 < S1x256.numel
  inb_S2048x256_S2048x256_0_0 : ∀ a, (![0, 0] : Fin 2 → Nat) a + S2048x256.size a ≤ S2048x256.size a
  h_S2048x256 : 0 < S2048x256.numel
  shapeCasts_S1x256_S1x256 : S1x256.ShapeCasts S1x256
  reduces_S2048x256_S256 : S2048x256.Reduces [0] S256
  shapeCasts_S256_S1x256 : S256.ShapeCasts S1x256
  bcast_S_S1x256 : S_.BroadcastsInDim S1x256 (![] : Fin 0 → Fin S1x256.rank)
  transposes_S2x256x128_S256x2x128_1_0_2 : S2x256x128.Transposes [1, 0, 2] S256x2x128
  shapeCasts_S256x2x128_S256x256 : S256x2x128.ShapeCasts S256x256
  concatenates_S256x256_S256x256_S256x256_S256x768_d1 : Shape.Concatenates [S256x256, S256x256, S256x256] S256x768 1
  bitsLt_bf16_f32 : FTy.bits .bf16 < FTy.bits .f32
  broadcasts_S1x256_S2048x256 : S1x256.Broadcasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S2048x768_S2048x768_0_0 : ∀ a, (![0, 0] : Fin 2 → Nat) a + S2048x768.size a ≤ S2048x768.size a
  h_S2048x768 : 0 < S2048x768.numel
  packedbf16_S2048x768_S2048x768_0_0 : (Rect.unit (s := S2048x768) ![0, 0] S2048x768.size inb_S2048x768_S2048x768_0_0).PackedRows (EltTy.packing .bf16)
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  shapeCasts_S8192x256_S8192x2x128 : S8192x256.ShapeCasts S8192x2x128
  transposes_S8192x2x128_S2x8192x128_1_0_2 : S8192x2x128.Transposes [1, 0, 2] S2x8192x128
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x2048_S2048 : S2048x2048.Reduces [1] S2048
  shapeCasts_S2048_S2048x1 : S2048.ShapeCasts S2048x1
  broadcasts_S2048x1_S2048x2048 : S2048x1.Broadcasts S2048x2048
  broadcasts_S2048x1_S2048x128 : S2048x1.Broadcasts S2048x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S4x1x256_S1x256_d0 : S4x1x256.ReducesTo [0] S1x256
  h_S_ : 0 < S_.numel
  transposes_S2x256x256_S2x256x256_0_2_1 : S2x256x256.Transposes [0, 2, 1] S2x256x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S2x256_S1x256_0_0 : ∀ a, (![0, 0] : Fin 2 → Nat) a + S1x256.size a ≤ S2x256.size a
  shapeCasts_S1x256_S256 : S1x256.ShapeCasts S256
  inb_S2x256x256_S1x256x256_1_0_0 : ∀ a, (![1, 0, 0] : Fin 3 → Nat) a + S1x256x256.size a ≤ S2x256x256.size a
  inb_S2x256_S1x256_1_0 : ∀ a, (![1, 0] : Fin 2 → Nat) a + S1x256.size a ≤ S2x256.size a
  dot_S2048x256_S256x768_S2048x768_1_0_0_1_n_n_wf : DotDims.WF S2048x256 S256x768 S2048x768 [1] [0] [0] [1] [] []
  dot_S2048x128_S2048x128_S2048x2048_1_1_0_0_n_n_wf : DotDims.WF S2048x128 S2048x128 S2048x2048 [1] [1] [0] [0] [] []
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .bf16 = 32 ∨ (Rect.block (s := S256x768) S256x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S8192x256.size a
  hwx1_4 : ∀ i : grid1.Coords, EltTy.bits .f32 = 32 ∨ (Rect.block (s := S8192x256) S2048x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x768.size a ≤ S8192x768.size a
  hwx1_5 : ∀ i : grid1.Coords, EltTy.bits .bf16 = 32 ∨ (Rect.block (s := S8192x768) S2048x768.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x128.size a ≤ S2x8192x128.size a
  hwx2_0 : ∀ i : grid2.Coords, EltTy.bits .bf16 = 32 ∨ (Rect.block (s := S2x8192x128) S1x2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S2x8192x128.size a
  hwx2_1 : ∀ i : grid2.Coords, EltTy.bits .bf16 = 32 ∨ (Rect.block (s := S2x8192x128) S1x2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x128.size a ≤ S2x8192x128.size a
  hwx2_2 : ∀ i : grid2.Coords, EltTy.bits .bf16 = 32 ∨ (Rect.block (s := S2x8192x128) S1x2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x256.size a ≤ S2x128x256.size a
  hwx2_3 : ∀ i : grid2.Coords, EltTy.bits .bf16 = 32 ∨ (Rect.block (s := S2x128x256) S1x128x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S8192x256.size a
  hwx2_4 : ∀ i : grid2.Coords, EltTy.bits .f32 = 32 ∨ (Rect.block (s := S8192x256) S2048x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S8192x256.size a
  hwx2_5 : ∀ i : grid2.Coords, EltTy.bits .f32 = 32 ∨ (Rect.block (s := S8192x256) S2048x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x256.size a ≤ S4x1x256.size a
  hwx2_6 : ∀ i : grid2.Coords, EltTy.bits .f32 = 32 ∨ (Rect.block (s := S4x1x256) S1x1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x256.size a ≤ S4x1x256.size a
  hwx2_7 : ∀ i : grid2.Coords, EltTy.bits .f32 = 32 ∨ (Rect.block (s := S4x1x256) S1x1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .f32 = 32 ∨ (Rect.block (s := S8192x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x256x256.size a ≤ S2x256x256.size a
  hwx3_3 : ∀ i : grid3.Coords, EltTy.bits .bf16 = 32 ∨ (Rect.block (s := S2x256x256) S2x256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x256.size a ≤ S2x256.size a
  hwx3_4 : ∀ i : grid3.Coords, EltTy.bits .f32 = 32 ∨ (Rect.block (s := S2x256) S2x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S8192x256.size a
  hwx3_5 : ∀ i : grid3.Coords, EltTy.bits .f32 = 32 ∨ (Rect.block (s := S8192x256) S2048x256.size (cc3_transform_5 i) (hinb3_5 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S2048x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S2048x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S1x2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_0) S2048x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v26_0) S2048x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v26_1) S1x1x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v26_2) S1x1x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun i => !(k2_cond1 i == 1#1) && !(k2_cond3 i == 1#1) | 6 => fun i => !(k2_cond4 i == 1#1) | 7 => fun i => !(k2_cond4 i == 1#1) | ⟨_ + 8, h⟩ => absurd h (Nat.not_lt.2 (Nat.le_add_left _ _))

abbrev win3_0 : Pipeline.Window sig grid3 :=
  Pipeline.Window.ofSpec (Memref.whole main_v26_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S2x256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S2x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S2048x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8192x256 : Shape := ⟨2, ![8192, 256]⟩
abbrev S2x256x128 : Shape := ⟨3, ![2, 256, 128]⟩
abbrev S2x128x256 : Shape := ⟨3, ![2, 128, 256]⟩
abbrev S2x256x256 : Shape := ⟨3, ![2, 256, 256]⟩
abbrev S2x256 : Shape := ⟨2, ![2, 256]⟩
abbrev S_ : Shape := ⟨0, ![]⟩
abbrev S256 : Shape := ⟨1, ![256]⟩
abbrev S1x256 : Shape := ⟨2, ![1, 256]⟩
abbrev S1x256x128 : Shape := ⟨3, ![1, 256, 128]⟩
abbrev S256x128 : Shape := ⟨2, ![256, 128]⟩
abbrev S8192x128 : Shape := ⟨2, ![8192, 128]⟩
abbrev S128x8192 : Shape := ⟨2, ![128, 8192]⟩
abbrev S8192x8192 : Shape := ⟨2, ![8192, 8192]⟩
abbrev S8192 : Shape := ⟨1, ![8192]⟩
abbrev S8192x1 : Shape := ⟨2, ![8192, 1]⟩
abbrev S1x128x256 : Shape := ⟨3, ![1, 128, 256]⟩
abbrev S128x256 : Shape := ⟨2, ![128, 256]⟩
abbrev S1x256x256 : Shape := ⟨3, ![1, 256, 256]⟩
abbrev S256x256 : Shape := ⟨2, ![256, 256]⟩

abbrev nBuf : Space → Nat
  | .hbm => 170
  | .vmem => 0
  | .smem => 0
  | _ => 0

abbrev hbmTy0_0 (i : Nat) : BufTy := match i % 128 with
  | 0 => ⟨S8192x256, .f32⟩
  | 1 => ⟨S2x256x128, .f32⟩
  | 2 => ⟨S2x256x128, .f32⟩
  | 3 => ⟨S2x256x128, .f32⟩
  | 4 => ⟨S2x128x256, .f32⟩
  | 5 => ⟨S2x256x256, .f32⟩
  | 6 => ⟨S2x256, .f32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S8192x256, .f32⟩
  | 21 => ⟨S8192x256, .f32⟩
  | 22 => ⟨S8192x256, .f32⟩
  | 23 => ⟨S_, .f32⟩
  | 24 => ⟨S_, .f32⟩
  | 25 => ⟨S_, .f32⟩
  | 26 => ⟨S_, .f32⟩
  | 27 => ⟨S256, .f32⟩
  | 28 => ⟨S1x256, .f32⟩
  | 29 => ⟨S1x256, .f32⟩
  | 30 => ⟨S1x256, .f32⟩
  | 31 => ⟨S_, .f32⟩
  | 32 => ⟨S_, .i1⟩
  | 33 => ⟨S_, .f32⟩
  | 34 => ⟨S_, .f32⟩
  | 35 => ⟨S1x256, .f32⟩
  | 36 => ⟨S1x256, .f32⟩
  | 37 => ⟨S8192x256, .f32⟩
  | 38 => ⟨S8192x256, .f32⟩
  | 39 => ⟨S_, .f32⟩
  | 40 => ⟨S1x256, .f32⟩
  | 41 => ⟨S1x256, .f32⟩
  | 42 => ⟨S1x256, .f32⟩
  | 43 => ⟨S8192x256, .f32⟩
  | 44 => ⟨S8192x256, .f32⟩
  | 45 => ⟨S_, .f32⟩
  | 46 => ⟨S8192x256, .f32⟩
  | 47 => ⟨S1x256x128, .f32⟩
  | 48 => ⟨S256x128, .f32⟩
  | 49 => ⟨S8192x128, .f32⟩
  | 50 => ⟨S1x256x128, .f32⟩
  | 51 => ⟨S256x128, .f32⟩
  | 52 => ⟨S8192x128, .f32⟩
  | 53 => ⟨S128x8192, .f32⟩
  | 54 => ⟨S8192x8192, .f32⟩
  | 55 => ⟨S_, .f32⟩
  | 56 => ⟨S8192, .f32⟩
  | 57 => ⟨S_, .f32⟩
  | 58 => ⟨S8192, .f32⟩
  | 59 => ⟨S8192, .f32⟩
  | 60 => ⟨S8192x1, .f32⟩
  | 61 => ⟨S8192x8192, .f32⟩
  | 62 => ⟨S8192x8192, .f32⟩
  | 63 => ⟨S8192x8192, .f32⟩
  | 64 => ⟨S_, .f32⟩
  | 65 => ⟨S8192, .f32⟩
  | 66 => ⟨S8192x1, .f32⟩
  | 67 => ⟨S8192x8192, .f32⟩
  | 68 => ⟨S8192x8192, .f32⟩
  | 69 => ⟨S1x256x128, .f32⟩
  | 70 => ⟨S256x128, .f32⟩
  | 71 => ⟨S8192x128, .f32⟩
  | 72 => ⟨S8192x128, .f32⟩
  | 73 => ⟨S1x128x256, .f32⟩
  | 74 => ⟨S128x256, .f32⟩
  | 75 => ⟨S8192x256, .f32⟩
  | 76 => ⟨S8192x256, .f32⟩
  | 77 => ⟨S1x256x128, .f32⟩
  | 78 => ⟨S256x128, .f32⟩
  | 79 => ⟨S8192x128, .f32⟩
  | 80 => ⟨S1x256x128, .f32⟩
  | 81 => ⟨S256x128, .f32⟩
  | 82 => ⟨S8192x128, .f32⟩
  | 83 => ⟨S128x8192, .f32⟩
  | 84 => ⟨S8192x8192, .f32⟩
  | 85 => ⟨S_, .f32⟩
  | 86 => ⟨S8192, .f32⟩
  | 87 => ⟨S_, .f32⟩
  | 88 => ⟨S8192, .f32⟩
  | 89 => ⟨S8192, .f32⟩
  | 90 => ⟨S8192x1, .f32⟩
  | 91 => ⟨S8192x8192, .f32⟩
  | 92 => ⟨S8192x8192, .f32⟩
  | 93 => ⟨S8192x8192, .f32⟩
  | 94 => ⟨S_, .f32⟩
  | 95 => ⟨S8192, .f32⟩
  | 96 => ⟨S8192x1, .f32⟩
  | 97 => ⟨S8192x8192, .f32⟩
  | 98 => ⟨S8192x8192, .f32⟩
  | 99 => ⟨S1x256x128, .f32⟩
  | 100 => ⟨S256x128, .f32⟩
  | 101 => ⟨S8192x128, .f32⟩
  | 102 => ⟨S8192x128, .f32⟩
  | 103 => ⟨S1x128x256, .f32⟩
  | 104 => ⟨S128x256, .f32⟩
  | 105 => ⟨S8192x256, .f32⟩
  | 106 => ⟨S8192x256, .f32⟩
  | 107 => ⟨S8192x256, .f32⟩
  | 108 => ⟨S_, .f32⟩
  | 109 => ⟨S256, .f32⟩
  | 110 => ⟨S1x256, .f32⟩
  | 111 => ⟨S_, .f32⟩
  | 112 => ⟨S1x256, .f32⟩
  | 113 => ⟨S1x256, .f32⟩
  | 114 => ⟨S_, .i32⟩
  | 115 => ⟨S_, .f32⟩
  | 116 => ⟨S256, .f32⟩
  | 117 => ⟨S1x256, .f32⟩
  | 118 => ⟨S_, .f32⟩
  | 119 => ⟨S1x256, .f32⟩
  | 120 => ⟨S1x256, .f32⟩
  | 121 => ⟨S8192x256, .f32⟩
  | 122 => ⟨S8192x256, .f32⟩
  | 123 => ⟨S8192x256, .f32⟩
  | 124 => ⟨S_, .f32⟩
  | 125 => ⟨S_, .f32⟩
  | 126 => ⟨S_, .f32⟩
  | 127 => ⟨S_, .f32⟩
  | _ => ⟨S8192x256, .f32⟩

abbrev hbmTy0_1 (i : Nat) : BufTy := match i % 128 with
  | 0 => ⟨S256, .f32⟩
  | 1 => ⟨S1x256, .f32⟩
  | 2 => ⟨S1x256, .f32⟩
  | 3 => ⟨S1x256, .f32⟩
  | 4 => ⟨S_, .f32⟩
  | 5 => ⟨S_, .i1⟩
  | 6 => ⟨S_, .f32⟩
  | 7 => ⟨S_, .f32⟩
  | 8 => ⟨S1x256, .f32⟩
  | 9 => ⟨S1x256, .f32⟩
  | 10 => ⟨S8192x256, .f32⟩
  | 11 => ⟨S8192x256, .f32⟩
  | 12 => ⟨S_, .f32⟩
  | 13 => ⟨S1x256, .f32⟩
  | 14 => ⟨S1x256, .f32⟩
  | 15 => ⟨S1x256, .f32⟩
  | 16 => ⟨S8192x256, .f32⟩
  | 17 => ⟨S8192x256, .f32⟩
  | 18 => ⟨S1x256x256, .f32⟩
  | 19 => ⟨S256x256, .f32⟩
  | 20 => ⟨S256x256, .f32⟩
  | 21 => ⟨S8192x256, .f32⟩
  | 22 => ⟨S1x256, .f32⟩
  | 23 => ⟨S256, .f32⟩
  | 24 => ⟨S1x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S1x256x256, .f32⟩
  | 31 => ⟨S256x256, .f32⟩
  | 32 => ⟨S256x256, .f32⟩
  | 33 => ⟨S8192x256, .f32⟩
  | 34 => ⟨S1x256, .f32⟩
  | 35 => ⟨S256, .f32⟩
  | 36 => ⟨S1x256, .f32⟩
  | 37 => ⟨S8192x256, .f32⟩
  | 38 => ⟨S8192x256, .f32⟩
  | 39 => ⟨S_, .f32⟩
  | 40 => ⟨S8192x256, .f32⟩
  | 41 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_cst_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_6 : Ref sig .tc := ⟨.hbm, 85, rfl⟩
abbrev main_v48 : Ref sig .tc := ⟨.hbm, 86, rfl⟩
abbrev main_cst_7 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_8 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_9 : Ref sig .tc := ⟨.hbm, 108, rfl⟩
abbrev main_v68 : Ref sig .tc := ⟨.hbm, 109, rfl⟩
abbrev main_v69 : Ref sig .tc := ⟨.hbm, 110, rfl⟩
abbrev main_cst_10 : Ref sig .tc := ⟨.hbm, 111, rfl⟩
abbrev main_v70 : Ref sig .tc := ⟨.hbm, 112, rfl⟩
abbrev main_v71 : Ref sig .tc := ⟨.hbm, 113, rfl⟩
abbrev main_c_11 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_cst_3 : Ref sig .tc := ⟨.hbm, 132, rfl⟩
abbrev main_call1_v13 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_cst_12 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_call2_cst : Ref sig .tc := ⟨.hbm, 155, rfl⟩
abbrev main_call2_v0 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_call3_cst : Ref sig .tc := ⟨.hbm, 167, rfl⟩
abbrev main_call3_v0 : Ref sig .tc := ⟨.hbm, 168, rfl⟩
abbrev main_v99 : Ref sig .tc := ⟨.hbm, 169, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  slices_S2x256x128_S1x256x128_0_0_0 : S2x256x128.Slices ![0, 0, 0] S1x256x128
  shapeCasts_S1x256x128_S256x128 : S1x256x128.ShapeCasts S256x128
  transposes_S8192x128_S128x8192_1_0 : S8192x128.Transposes [1, 0] S128x8192
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  slices_S2x128x256_S1x128x256_0_0_0 : S2x128x256.Slices ![0, 0, 0] S1x128x256
  shapeCasts_S1x128x256_S128x256 : S1x128x256.ShapeCasts S128x256
  slices_S2x256x128_S1x256x128_1_0_0 : S2x256x128.Slices ![1, 0, 0] S1x256x128
  slices_S2x128x256_S1x128x256_1_0_0 : S2x128x256.Slices ![1, 0, 0] S1x128x256
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  dot_S8192x256_S256x128_S8192x128_1_0_0_1_n_n_wf : DotDims.WF S8192x256 S256x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.BitsReg0.lean ====
import proofs.«408560_j30485677867710_3_alg».proof.Proof.Gen.Kernel.Launch
import proofs.«408560_j30485677867710_3_alg».proof.Proof.Gen.Kernel.Skeleton
import proofs.«408560_j30485677867710_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 0: the batch statistics (column sums and column sums of squares), at the entry contents `V` -/

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's block of 2048 rows at point `t`, at its literal type. -/
abbrev xblk (c : Dev nD) (t : Fin cfg0.N) : Vec F S2048x256 .f32 := iblk V c 0 t

/-- The input window's current staging buffer holds its block at every point, fetched there or not, for any proof
    data whose array is `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch of the body -/

/-- The condition of the body's conditional (the reset of the two accumulators), from the grid coordinates. -/
abbrev cond (i : grid0.Coords) : Prop :=
  (Scalar.cmpi .ne (Scalar.extui (Scalar.cmpi .eq (BitVec.ofNat 32 (i 0).val) 0#32)) 0#32) = 1#1

/-- It holds at the first point only: decided over the grid. -/
theorem hcond : ∀ t : Fin cfg0.N, cond (grid0.coords t) ↔ t.val = 0 :=
  (by decide +kernel : ∀ t : Fin grid0.N, cond (grid0.coords t) ↔ t.val = 0)

/-! ## What the body leaves in the two accumulators -/

/-- The sum's staging buffer after the point at position `n`: at the first point the zero fill plus the block's column
    sums, later what the point before left plus the block's column sums. -/
def acc1 (c : Dev nD) : (n : ℕ) → n < cfg0.N → Vec F S1x256 .f32
  | 0, hn => k0_pay3 (xblk V c ⟨0, hn⟩) k0_pay1
  | n + 1, hn => k0_pay3 (xblk V c ⟨n + 1, hn⟩) (acc1 c n (Nat.lt_of_succ_lt hn))

/-- The sum of squares' staging buffer after the point at position `n`, likewise. -/
def acc2 (c : Dev nD) : (n : ℕ) → n < cfg0.N → Vec F S1x256 .f32
  | 0, hn => k0_pay4 (xblk V c ⟨0, hn⟩) k0_pay2
  | n + 1, hn => k0_pay4 (xblk V c ⟨n + 1, hn⟩) (acc2 c n (Nat.lt_of_succ_lt hn))

theorem acc1_first (c : Dev nD) (t : Fin cfg0.N) (h : t.val = 0) :
    acc1 V c t.val t.isLt = k0_pay3 (xblk V c t) k0_pay1 := by
  obtain ⟨n, hn⟩ := t
  cases n with
  | zero => rfl
  | succ n => exact absurd h (Nat.succ_ne_zero n)

theorem acc1_later (c : Dev nD) (t : Fin cfg0.N) (h : t.val ≠ 0) :
    acc1 V c t.val t.isLt = k0_pay3 (xblk V c t) (acc1 V c (t.val - 1) (Nat.lt_of_le_of_lt (Nat.sub_le _ _) t.isLt)) := by
  obtain ⟨n, hn⟩ := t
  cases n with
  | zero => exact absurd rfl h
  | succ n => rfl

theorem acc2_first (c : Dev nD) (t : Fin cfg0.N) (h : t.val = 0) :
    acc2 V c t.val t.isLt = k0_pay4 (xblk V c t) k0_pay2 := by
  obtain ⟨n, hn⟩ := t
  cases n with
  | zero => rfl
  | succ n => exact absurd h (Nat.succ_ne_zero n)

theorem acc2_later (c : Dev nD) (t : Fin cfg0.N) (h : t.val ≠ 0) :
    acc2 V c t.val t.isLt = k0_pay4 (xblk V c t) (acc2 V c (t.val - 1) (Nat.lt_of_le_of_lt (Nat.sub_le _ _) t.isLt)) := by
  obtain ⟨n, hn⟩ := t
  cases n with
  | zero => exact absurd rfl h
  | succ n => rfl

/-! ## The body's triple, case by case -/

/-- The offsets of every access of the body: zero on both axes. -/
theorem hz : (![0, 0] : Fin 2 → Nat) = fun _ => 0 := funext fun a => by fin_cases a <;> rfl

set_option maxHeartbeats 1000000 in
/-- At the first point: on whole staging memrefs, the input's at read contents `x0` and the outputs' at anything, the
    body runs to the continuation holding the input's as it was and each accumulator at its zero fill plus the block's
    contribution. -/
theorem sound_kernel_first (c : Dev nD) (E : Set ℕ) (i : grid0.Coords) (hc : cond i)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay3 x0 k0_pay1)
            ∗ owns (c : Thread nD τ) arg3 fullShare (k0_pay4 x0 k0_pay2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (fun y => ⟨_, List.mem_cons_self, View.mem_set_unit_zero (S := S1x256) hz inb_S1x256_S1x256_0_0 y⟩)]
    rw [View.canon_cons_unit_zero (S := S1x256) hz, View.readCov_unit_zero (S := S1x256) _ hz]
    simp only [View.readAt_eq_ld, View.ld_unit_zero (S := S2048x256) hz]
  · iexists _; isplitr
    swap; · iexact H2
    ipureintro
    sl_unfold_words
    rw [View.read_writes_eq_canon _ _ _ (fun y => ⟨_, List.mem_cons_self, View.mem_set_unit_zero (S := S1x256) hz inb_S1x256_S1x256_0_0 y⟩)]
    rw [View.canon_cons_unit_zero (S := S1x256) hz, View.readCov_unit_zero (S := S1x256) _ hz]
    simp only [View.readAt_eq_ld, View.ld_unit_zero (S := S2048x256) hz]

set_option maxHeartbeats 1000000 in
/-- At a later point: the accumulators' memrefs at read contents `a1`, `a2`, the body runs to the continuation holding
    each at what it held plus the block's contribution. -/
theorem sound_kernel_later (c : Dev nD) (E : Set ℕ) (i : grid0.Coords) (hc : ¬cond i)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole)
    (x0 : Vec F S2048x256 .f32) (a1 a2 : Vec F S1x256 .f32) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (k0_pay3 x0 a1)
            ∗ owns (c : Thread nD τ) arg3 fullShare (k0_pay4 x0 a2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%f1, %hf1, H1⟩, ⟨%f2, %hf2, H2⟩, Hk⟩
  subst hf0; subst hf1; subst hf2
  sl_exec (disch := exact hc)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_singleton_self _, View.mem_set_unit_zero (S := S1x256) hz inb_S1x256_S1x256_0_0 y⟩)]
    rw [View.canon_unit_zero (S := S1x256) hz]
    simp only [View.readAt_eq_ld, View.ld_unit_zero (S := S2048x256) hz, View.ld_unit_zero (S := S1x256) hz]
  · iexists _; isplitr
    swap; · iexact H2
    ipureintro
    rw [View.read_writes_eq_canon _ _ _ (fun y => ⟨_, List.mem_singleton_self _, View.mem_set_unit_zero (S := S1x256) hz inb_S1x256_S1x256_0_0 y⟩)]
    rw [View.canon_unit_zero (S := S1x256) hz]
    simp only [View.readAt_eq_ld, View.ld_unit_zero (S := S2048x256) hz, View.ld_unit_zero (S := S1x256) hz]

/-! ## The pipeline's proof data -/

/-- The proof data of the region on core `c`: the arrays as the region finds them (`V`); after the body at point `t`
    the input's buffer at its block and the two accumulators' at their running contents; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => acc1 V c t.val t.isLt
    | ⟨2, _⟩ => acc2 V c t.val t.isLt
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = acc1 V c t.val t.isLt := by dsimp only [dat]
theorem after_2 (c : Dev nD) (t : Fin cfg0.N) : (dat V c).after 2 t = acc2 V c t.val t.isLt := by dsimp only [dat]

/-- The input's current staging buffer holds its block at every point. -/
theorem before_0 (c : Dev nD) (t : Fin cfg0.N) (d) : (dat V c).before 0 t d = iblk V c 0 t :=
  before_in_of V (dat V c) (A_eq V c 0) (after_0 V c) t d

/-- After the first point the sum's staging buffer holds what the body left at the point before: it is written back
    after the last point only, the window is live and uncut. -/
theorem before_1_later (c : Dev nD) (t : Fin cfg0.N) (h0 : t.val ≠ 0) (d) :
    (dat V c).before 1 t d = acc1 V c (t.val - 1) (Nat.lt_of_le_of_lt (Nat.sub_le _ _) t.isLt) := by
  have hN : t.val < 4 := lt_of_lt_of_eq t.isLt (show cfg0.N = 4 from N_0)
  rw [Dat.before_out_kept _ 1 rfl t h0 (Bool.eq_false_iff.mpr fun h => by have := (flush0_1 _).mp h; dsimp only at this; omega)
    (fun _ => rfl) (fun _ _ => rfl)]
  dsimp only [dat]

/-- The same of the sum of squares' staging buffer. -/
theorem before_2_later (c : Dev nD) (t : Fin cfg0.N) (h0 : t.val ≠ 0) (d) :
    (dat V c).before 2 t d = acc2 V c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 800000 in
/-- The body at any point: the input's memref holds its block; at the first point the accumulators' hold anything and
    the first case's triple applies, later they hold what the point before left and the later case's does; the
    invariant and the core's tallies pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1, after_2]
  by_cases h0 : t.val = 0
  · rw [acc1_first V c t h0, acc2_first V c t h0]
    iintro ⟨HΦ, Ho, ⟨%d0, H0⟩, ⟨%d1, H1⟩, ⟨%d2, H2⟩⟩
    iapply (sound_kernel_first c Set.univ (grid0.coords t) ((hcond t).mpr h0) _ _ _ _ _ _ (xblk V c t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_later V c t h0, acc2_later V c t h0]
    simp only [before_1_later V c t h0, before_2_later V c t h0]
    iintro ⟨HΦ, Ho, ⟨%d0, H0⟩, ⟨%d1, H1⟩, ⟨%d2, H2⟩⟩
    iapply (sound_kernel_later c Set.univ (grid0.coords t) (fun h => h0 ((hcond t).mp h)) _ _ _ _ _ _ (xblk V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.BitsReg1.lean ====
/- Kernel region 1 (the batch-norm-then-projection kernel) at a parameter `V`, the TensorCore's buffer contents when the
   region is entered: what each window's block is at a grid point, what the body leaves in the two output windows'
   staging buffers (through the skeleton's payloads), the body's triple, the pipeline's proof data and its body
   obligation. Generic in the float instance. -/
import proofs.«408560_j30485677867710_3_alg».proof.Proof.Gen.Kernel.Launch
import proofs.«408560_j30485677867710_3_alg».proof.Proof.Gen.Kernel.Skeleton
import proofs.«408560_j30485677867710_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. The four input windows are uncut and never idle. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rX : Rect S2048x256 := Rect.unit (s := S2048x256) ![0, 0] S2048x256.size inb_S2048x256_S2048x256_0_0
abbrev rS : Rect S1x256 := Rect.unit (s := S1x256) ![0, 0] S1x256.size inb_S1x256_S1x256_0_0
abbrev rW : Rect S256x768 := Rect.unit (s := S256x768) ![0, 0] S256x768.size inb_S256x768_S256x768_0_0
abbrev rP : Rect S2048x768 := Rect.unit (s := S2048x768) ![0, 0] S2048x768.size inb_S2048x768_S2048x768_0_0

/-! ## What the body leaves in each output window's buffer -/

/-- Window 4 (the normalised block) after the body, from the blocks of the input, the mean and the variance: its
    one store, whole, of the skeleton's first payload. -/
def out4 (x : Vec F S2048x256 .f32) (mean : Vec F S1x256 .f32) (var : Vec F S1x256 .f32) : Vec F S2048x256 .f32 :=
  View.canon [⟨rX, k1_pay1 (View.ld var rS) (View.ld x rX) (View.ld mean rS)⟩]

/-- Window 5 (the projected block) after the body, from those and the weights' block: its one store, whole, of
    the skeleton's second payload. -/
def out5 (x : Vec F S2048x256 .f32) (mean : Vec F S1x256 .f32) (var : Vec F S1x256 .f32) (wts : Vec F S256x768 .bf16) :
    Vec F S2048x768 .bf16 :=
  View.canon [⟨rP, k1_pay2 (View.ld var rS) (View.ld x rX) (View.ld mean rS) (View.ld wts rW)⟩]

/-- One whole store covers its buffer. -/
theorem cover4 (p0 : Vec F S2048x256 .f32) (y : S2048x256.Idx) :
    ∃ pc ∈ ([⟨rX, p0⟩] : List (View.Piece (Elt F) S2048x256 .f32)), y ∈ pc.1.set :=
  View.cover_of_tiled [⟨rX, p0⟩] S2048x256.size (by rfl) y

theorem cover5 (p0 : Vec F S2048x768 .bf16) (y : S2048x768.Idx) :
    ∃ pc ∈ ([⟨rP, p0⟩] : List (View.Piece (Elt F) S2048x768 .bf16)), y ∈ pc.1.set :=
  View.cover_of_tiled [⟨rP, p0⟩] S2048x768.size (by rfl) y

/-! ## The body's triple -/

set_option maxHeartbeats 1000000 in
/-- The kernel body on whole staging memrefs, the inputs' at read contents and the outputs' at anything, runs to the
    continuation holding the inputs' as they were and each output's at what its one whole store leaves. -/
theorem sound_kernel (c : Dev nD) (E : Set ℕ) (i : grid1.Coords)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S256x768 .bf16) (harg4 : arg4.IsWhole)
    (arg5 : Memref sig .tc .vmem S2048x256 .f32) (harg5 : arg5.IsWhole) (arg6 : Memref sig .tc .vmem S2048x768 .bf16) (harg6 : arg6.IsWhole)
    (x : Vec F S2048x256 .f32) (mean : Vec F S1x256 .f32) (var : Vec F S1x256 .f32) (wts : Vec F S256x768 .bf16)
    (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare wts
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare wts
            ∗ owns (c : Thread nD τ) arg5 fullShare (out4 x mean var)
            ∗ owns (c : Thread nD τ) arg6 fullShare (out5 x mean var wts)) -∗ K ⟨⟩))
      ⊢ wp frame (wpE (defs₀ (F := F)) Variants.none c none) E
          (cc1__bn_proj_kernel i arg1 harg1 arg2 harg2 arg3 harg3 arg4 harg4 arg5 harg5 arg6 harg6) K := by
  simp only [cc1__bn_proj_kernel_eq_skeleton]; unfold cc1__bn_proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4 _)
  iexists _; isplitr
  swap; · iexact H6
  ipureintro
  exact View.read_writes_eq_canon _ _ _ (cover5 _)

/-! ## The pipeline's proof data -/

/-- What the body leaves in output window 4's staging buffer at point `t`: the normalised block of the input
    blocks there. -/
def after4 (c : Dev nD) (t : Fin cfg1.N) : Vec F S2048x256 .f32 :=
  out4 (iblk V c 0 t) (iblk V c 1 t) (iblk V c 2 t)

/-- What the body leaves in output window 5's staging buffer at point `t`: the projected block of the input
    blocks there. -/
def after5 (c : Dev nD) (t : Fin cfg1.N) : Vec F S2048x768 .bf16 :=
  out5 (iblk V c 0 t) (iblk V c 1 t) (iblk V c 2 t) (iblk V c 3 t)

/-- The proof data of the region on core `c`: the arrays as the region finds them; after the body at a point each
    input's buffer at its block and each output's at what the body's whole store leaves; the invariant the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => after4 V c t
    | ⟨5, _⟩ => after5 V c t
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = after4 V c t := by dsimp only [dat]
theorem after_5 (c : Dev nD) (t : Fin cfg1.N) : (dat V c).after 5 t = after5 V c t := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant and
    the core's tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The input windows' arrays after the run -/

/-- An input window's array is never written: after any number of points it holds the entry contents. -/
theorem arrAt_in_0 (c : Dev nD) (n : Nat) : (dat V c).arrAt 0 n = V c (Pipeline.arrRef spec1 0) :=
  ((dat V c).arrAt_in 0 rfl n).trans (A_eq V c 0)
theorem arrAt_in_1 (c : Dev nD) (n : Nat) : (dat V c).arrAt 1 n = V c (Pipeline.arrRef spec1 1) :=
  ((dat V c).arrAt_in 1 rfl n).trans (A_eq V c 1)
theorem arrAt_in_2 (c : Dev nD) (n : Nat) : (dat V c).arrAt 2 n = V c (Pipeline.arrRef spec1 2) :=
  ((dat V c).arrAt_in 2 rfl n).trans (A_eq V c 2)
theorem arrAt_in_3 (c : Dev nD) (n : Nat) : (dat V c).arrAt 3 n = V c (Pipeline.arrRef spec1 3) :=
  ((dat V c).arrAt_in 3 rfl n).trans (A_eq V c 3)

end Cert.Kernel.Reg1

end
-- ==== Proof.BitsReg2Defs.lean ====
import proofs.«408560_j30485677867710_3_alg».proof.Proof.Gen.Kernel.Launch
import proofs.«408560_j30485677867710_3_alg».proof.Proof.Gen.Kernel.Skeleton
import proofs.«408560_j30485677867710_3_alg».proof.Proof.Gen.Kernel.Points

noncomputable section

namespace Cert.Kernel.Reg2

open Cert.Kernel Cert.Kernel.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The five input blocks at a point, at their literal types: the query, key and value blocks of the head, the
    head's output projection, and the residual block the output is seeded with. -/
abbrev qblk (c : Dev nD) (t : Fin cfg2.N) : Vec F S1x2048x128 .bf16 := iblk V c 0 t
abbrev kblk (c : Dev nD) (t : Fin cfg2.N) : Vec F S1x2048x128 .bf16 := iblk V c 1 t
abbrev vblk (c : Dev nD) (t : Fin cfg2.N) : Vec F S1x2048x128 .bf16 := iblk V c 2 t
abbrev ublk (c : Dev nD) (t : Fin cfg2.N) : Vec F S1x128x256 .bf16 := iblk V c 3 t
abbrev hblk (c : Dev nD) (t : Fin cfg2.N) : Vec F S2048x256 .f32 := iblk V c 4 t

/-! ## The carried state -/

/-- What is carried from point to point: the running row maximum `m`, the running denominator `l`, the running
    weighted sum `acc` (the three scratch buffers), and the output block's staging buffer `o`. -/
structure St (F : FTy → Type) where
  m : Vec F S2048x1 .f32
  l : Vec F S2048x1 .f32
  acc : Vec F S2048x128 .f32
  o : Vec F S2048x256 .f32

/-- One point of the grid, at position `n` (key block `n % 4`, head `(n / 4) % 2`), on the point's blocks: the
    output is seeded with the residual block at the first key block of the first head; the scratch is reset at the
    first key block of each head; the online-softmax update of `m`, `l`, `acc` with the key block; at the last key
    block of each head the normalized sum, projected, is added into the output. -/
def stepAt (n : ℕ) (q k v : Vec F S1x2048x128 .bf16) (u : Vec F S1x128x256 .bf16) (h : Vec F S2048x256 .f32) (s : St F) : St F :=
  let o1 : Vec F S2048x256 .f32 := if n % 8 = 0 then k2_pay8 h else s.o
  let m0 : Vec F S2048x1 .f32 := if n % 4 = 0 then k2_pay9 else s.m
  let l0 : Vec F S2048x1 .f32 := if n % 4 = 0 then k2_pay10 else s.l
  let a0 : Vec F S2048x128 .f32 := if n % 4 = 0 then k2_pay11 else s.acc
  let m1 : Vec F S2048x1 .f32 := k2_pay3 (k2_pay14 q k m0)
  let l1 : Vec F S2048x1 .f32 := k2_pay1 (k2_pay17 q k m0 m0 l0)
  let a1 : Vec F S2048x128 .f32 := k2_pay2 (k2_pay12 v) (k2_pay15 q k m0 m0) (k2_pay16 q k m0) a0
  let o2 : Vec F S2048x256 .f32 := if n % 4 = 3 then k2_pay4 a1 l1 u o1 else o1
  ⟨m1, l1, a1, o2⟩

/-- The state after `n` points (before point `n`). Before the first point nothing is known of the buffers; the
    value here is a placeholder no later state depends on (point 0 resets the scratch and seeds the output). -/
def stAt (c : Dev nD) : ℕ → St F
  | 0 => ⟨k2_pay9, k2_pay10, k2_pay11, constant S2048x256 .f32 0x00000000#32⟩
  | n + 1 =>
    if h : n < cfg2.N then
      stepAt n (qblk V c ⟨n, h⟩) (kblk V c ⟨n, h⟩) (vblk V c ⟨n, h⟩) (ublk V c ⟨n, h⟩) (hblk V c ⟨n, h⟩) (stAt c n)
    else stAt c n

theorem stAt_succ (c : Dev nD) (t : Fin cfg2.N) :
    stAt V c (t.val + 1) = stepAt t.val (qblk V c t) (kblk V c t) (vblk V c t) (ublk V c t) (hblk V c t) (stAt V c t.val) := by
  rw [stAt, dif_pos t.isLt]

/-- What the body leaves in the two reduction outputs' staging buffers where it stores them: the column sums of the
    output block and of its squares. -/
abbrev psumOf (o : Vec F S2048x256 .f32) : Vec F S1x1x256 .f32 := k2_pay6 o
abbrev psumsqOf (o : Vec F S2048x256 .f32) : Vec F S1x1x256 .f32 := k2_pay7 o

end Cert.Kernel.Reg2

end
-- ==== Proof.BitsReg2Runs.lean ====
import proofs.«408560_j30485677867710_3_alg».proof.Proof.BitsReg2Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the scratch reset (the first key block), from the grid coordinates. -/
abbrev condR (i : grid2.Coords) : Prop :=
  (Scalar.cmpi .ne (Scalar.extui (Scalar.cmpi .eq (BitVec.ofNat 32 (i 2).val) 0#32)) 0#32) = 1#1

theorem hcond1 : ∀ t : Fin cfg2.N, k2_cond1 (grid2.coords t) = 1#1 ↔ t.val % 8 = 0 :=
  (by decide +kernel : ∀ t : Fin grid2.N, k2_cond1 (grid2.coords t) = 1#1 ↔ t.val % 8 = 0)
theorem hcondR : ∀ t : Fin cfg2.N, condR (grid2.coords t) ↔ t.val % 4 = 0 :=
  (by decide +kernel : ∀ t : Fin grid2.N, condR (grid2.coords t) ↔ t.val % 4 = 0)
theorem hcond3 : ∀ t : Fin cfg2.N, k2_cond3 (grid2.coords t) = 1#1 ↔ t.val % 4 = 3 :=
  (by decide +kernel : ∀ t : Fin grid2.N, k2_cond3 (grid2.coords t) = 1#1 ↔ t.val % 4 = 3)
theorem hcond4 : ∀ t : Fin cfg2.N, k2_cond4 (grid2.coords t) = 1#1 ↔ t.val % 8 = 7 :=
  (by decide +kernel : ∀ t : Fin grid2.N, k2_cond4 (grid2.coords t) = 1#1 ↔ t.val % 8 = 7)

/-! ## Where the output windows are idle, and where they are written back -/

theorem idle5_iff : ∀ t : Fin cfg2.N, cfg2.idle 5 (grid2.coords t) = true ↔ (¬ t.val % 8 = 0 ∧ ¬ t.val % 4 = 3) :=
  (by decide +kernel : ∀ t : Fin grid2.N, cfg2.idle 5 (grid2.coords t) = true ↔ (¬ t.val % 8 = 0 ∧ ¬ t.val % 4 = 3))
theorem idle6_iff : ∀ t : Fin cfg2.N, cfg2.idle 6 (grid2.coords t) = true ↔ ¬ t.val % 8 = 7 :=
  (by decide +kernel : ∀ t : Fin grid2.N, cfg2.idle 6 (grid2.coords t) = true ↔ ¬ t.val % 8 = 7)
theorem idle7_iff : ∀ t : Fin cfg2.N, cfg2.idle 7 (grid2.coords t) = true ↔ ¬ t.val % 8 = 7 :=
  (by decide +kernel : ∀ t : Fin grid2.N, cfg2.idle 7 (grid2.coords t) = true ↔ ¬ t.val % 8 = 7)

theorem hz2 : (![0, 0] : Fin 2 → ℕ) = fun _ => 0 := by funext a; fin_cases a <;> rfl
theorem hz3 : (![0, 0, 0] : Fin 3 → ℕ) = fun _ => 0 := by funext a; fin_cases a <;> rfl

/-! ## The body's accesses: each whole buffer, through the unit rectangle at zero offsets -/

abbrev r3 : Rect S1x2048x128 := Rect.unit (s := S1x2048x128) ![0, 0, 0] S1x2048x128.size inb_S1x2048x128_S1x2048x128_0_0_0
abbrev r6 : Rect S1x128x256 := Rect.unit (s := S1x128x256) ![0, 0, 0] S1x128x256.size inb_S1x128x256_S1x128x256_0_0_0
abbrev r8 : Rect S2048x256 := Rect.unit (s := S2048x256) ![0, 0] S2048x256.size inb_S2048x256_S2048x256_0_0
abbrev r9 : Rect S1x1x256 := Rect.unit (s := S1x1x256) ![0, 0, 0] S1x1x256.size inb_S1x1x256_S1x1x256_0_0_0
abbrev r11 : Rect S2048x1 := Rect.unit (s := S2048x1) ![0, 0] S2048x1.size inb_S2048x1_S2048x1_0_0
abbrev r13 : Rect S2048x128 := Rect.unit (s := S2048x128) ![0, 0] S2048x128.size inb_S2048x128_S2048x128_0_0

theorem cov8 (L : List (View.Piece (Elt F) S2048x256 .f32)) (p : S2048x256.Idx → Elt F .f32) (y : S2048x256.Idx) :
    ∃ pc ∈ ((⟨r8, p⟩ : View.Piece (Elt F) S2048x256 .f32) :: L), y ∈ pc.1.set :=
  ⟨_, List.mem_cons_self .., View.mem_set_unit_zero (S := S2048x256) hz2 inb_S2048x256_S2048x256_0_0 y⟩
theorem cov9 (L : List (View.Piece (Elt F) S1x1x256 .f32)) (p : S1x1x256.Idx → Elt F .f32) (y : S1x1x256.Idx) :
    ∃ pc ∈ ((⟨r9, p⟩ : View.Piece (Elt F) S1x1x256 .f32) :: L), y ∈ pc.1.set :=
  ⟨_, List.mem_cons_self .., View.mem_set_unit_zero (S := S1x1x256) hz3 inb_S1x1x256_S1x1x256_0_0_0 y⟩
theorem cov11 (L : List (View.Piece (Elt F) S2048x1 .f32)) (p : S2048x1.Idx → Elt F .f32) (y : S2048x1.Idx) :
    ∃ pc ∈ ((⟨r11, p⟩ : View.Piece (Elt F) S2048x1 .f32) :: L), y ∈ pc.1.set :=
  ⟨_, List.mem_cons_self .., View.mem_set_unit_zero (S := S2048x1) hz2 inb_S2048x1_S2048x1_0_0 y⟩
theorem cov13 (L : List (View.Piece (Elt F) S2048x128 .f32)) (p : S2048x128.Idx → Elt F .f32) (y : S2048x128.Idx) :
    ∃ pc ∈ ((⟨r13, p⟩ : View.Piece (Elt F) S2048x128 .f32) :: L), y ∈ pc.1.set :=
  ⟨_, List.mem_cons_self .., View.mem_set_unit_zero (S := S2048x128) hz2 inb_S2048x128_S2048x128_0_0 y⟩

end Cert.Kernel.Reg2

end
-- ==== Proof.BitsReg2RunA.lean ====
import proofs.«408560_j30485677867710_3_alg».proof.Proof.BitsReg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key block of the first head: the output is seeded with the residual block, the scratch is reset, then the online-softmax update. -/
theorem run_A (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : k2_cond1 i = 1#1) (h2 : condR i) (h3 : ¬ k2_cond3 i = 1#1) (h4 : ¬ k2_cond4 i = 1#1)
    (q k v : Vec F S1x2048x128 .bf16) (h : Vec F S2048x256 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg7 fullShare h
        ∗ (∃ d, owns (c : Thread nD τ) arg8 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg3 fullShare q
            ∗ owns (c : Thread nD τ) arg4 fullShare k
            ∗ owns (c : Thread nD τ) arg5 fullShare v
            ∗ owns (c : Thread nD τ) arg7 fullShare h
            ∗ owns (c : Thread nD τ) arg8 fullShare (k2_pay8 h)
            ∗ owns (c : Thread nD τ) arg11 fullShare (k2_pay3 (k2_pay14 q k k2_pay9))
            ∗ owns (c : Thread nD τ) arg12 fullShare (k2_pay1 (k2_pay17 q k k2_pay9 k2_pay9 k2_pay10))
            ∗ owns (c : Thread nD τ) arg13 fullShare (k2_pay2 (k2_pay12 v) (k2_pay15 q k k2_pay9 k2_pay9) (k2_pay16 q k k2_pay9) k2_pay11)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f7, %hf7, H7⟩, ⟨%d8, %f8, -, H8⟩, ⟨%d11, %f11, -, H11⟩, ⟨%d12, %f12, -, H12⟩, ⟨%d13, %f13, -, H13⟩, Hk⟩
  subst hf3; subst hf4; subst hf5; subst hf7
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists f7; isplitr; · ipureintro; rfl
    iexact H7
  isplitl [H8]
  · iexists _; isplitr
    swap; · iexact H8
    ipureintro
    refine (View.read_writes_eq_canon _ _ _ (cov8 _ _)).trans ?_
    sl_unfold_words
    rw [View.canon_cons_unit_zero (S := S2048x256) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 8 failed"
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.Kernel.Reg2

end
-- ==== Proof.BitsReg2RunB.lean ====
import proofs.«408560_j30485677867710_3_alg».proof.Proof.BitsReg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that is neither the first nor the last key block of a head: only the online-softmax update. -/
theorem run_B (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : ¬ condR i) (h3 : ¬ k2_cond3 i = 1#1) (h4 : ¬ k2_cond4 i = 1#1)
    (q k v : Vec F S1x2048x128 .bf16) (m l : Vec F S2048x1 .f32) (a : Vec F S2048x128 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg11 fullShare m
        ∗ owns (c : Thread nD τ) arg12 fullShare l
        ∗ owns (c : Thread nD τ) arg13 fullShare a
        ∗ (iprop(owns (c : Thread nD τ) arg3 fullShare q
            ∗ owns (c : Thread nD τ) arg4 fullShare k
            ∗ owns (c : Thread nD τ) arg5 fullShare v
            ∗ owns (c : Thread nD τ) arg11 fullShare (k2_pay3 (k2_pay14 q k m))
            ∗ owns (c : Thread nD τ) arg12 fullShare (k2_pay1 (k2_pay17 q k m m l))
            ∗ owns (c : Thread nD τ) arg13 fullShare (k2_pay2 (k2_pay12 v) (k2_pay15 q k m m) (k2_pay16 q k m) a)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f11, %hf11, H11⟩, ⟨%f12, %hf12, H12⟩, ⟨%f13, %hf13, H13⟩, Hk⟩
  subst hf3; subst hf4; subst hf5; subst hf11; subst hf12; subst hf13
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.Kernel.Reg2

end
-- ==== Proof.BitsReg2RunC.lean ====
import proofs.«408560_j30485677867710_3_alg».proof.Proof.BitsReg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block of the first head: the update, then the normalized sum, projected, is added into the output. -/
theorem run_C (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : ¬ condR i) (h3 : k2_cond3 i = 1#1) (h4 : ¬ k2_cond4 i = 1#1)
    (q k v : Vec F S1x2048x128 .bf16) (u : Vec F S1x128x256 .bf16) (o : Vec F S2048x256 .f32) (m l : Vec F S2048x1 .f32) (a : Vec F S2048x128 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare u
        ∗ owns (c : Thread nD τ) arg8 fullShare o
        ∗ owns (c : Thread nD τ) arg11 fullShare m
        ∗ owns (c : Thread nD τ) arg12 fullShare l
        ∗ owns (c : Thread nD τ) arg13 fullShare a
        ∗ (iprop(owns (c : Thread nD τ) arg3 fullShare q
            ∗ owns (c : Thread nD τ) arg4 fullShare k
            ∗ owns (c : Thread nD τ) arg5 fullShare v
            ∗ owns (c : Thread nD τ) arg6 fullShare u
            ∗ owns (c : Thread nD τ) arg8 fullShare (k2_pay4 (k2_pay2 (k2_pay12 v) (k2_pay15 q k m m) (k2_pay16 q k m) a) (k2_pay1 (k2_pay17 q k m m l)) u o)
            ∗ owns (c : Thread nD τ) arg11 fullShare (k2_pay3 (k2_pay14 q k m))
            ∗ owns (c : Thread nD τ) arg12 fullShare (k2_pay1 (k2_pay17 q k m m l))
            ∗ owns (c : Thread nD τ) arg13 fullShare (k2_pay2 (k2_pay12 v) (k2_pay15 q k m m) (k2_pay16 q k m) a)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f8, %hf8, H8⟩, ⟨%f11, %hf11, H11⟩, ⟨%f12, %hf12, H12⟩, ⟨%f13, %hf13, H13⟩, Hk⟩
  subst hf3; subst hf4; subst hf5; subst hf6; subst hf8; subst hf11; subst hf12; subst hf13
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    refine (View.read_writes_eq_canon _ _ _ (cov8 _ _)).trans ?_
    sl_unfold_words
    rw [View.canon_cons_unit_zero (S := S2048x256) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 8 failed"
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.Kernel.Reg2

end
-- ==== Proof.BitsReg2RunD.lean ====
import proofs.«408560_j30485677867710_3_alg».proof.Proof.BitsReg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key block of the second head: the scratch is reset, then the online-softmax update. -/
theorem run_D (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : condR i) (h3 : ¬ k2_cond3 i = 1#1) (h4 : ¬ k2_cond4 i = 1#1)
    (q k v : Vec F S1x2048x128 .bf16) (K : PUnit → sProp 𝕄) :
    iprop(owns (c : Thread nD τ) arg3 fullShare q
        ∗ owns (c : Thread nD τ) arg4 fullShare k
        ∗ owns (c : Thread nD τ) arg5 fullShare v
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg3 fullShare q
            ∗ owns (c : Thread nD τ) arg4 fullShare k
            ∗ owns (c : Thread nD τ) arg5 fullShare v
            ∗ owns (c : Thread nD τ) arg11 fullShare (k2_pay3 (k2_pay14 q k k2_pay9))
            ∗ owns (c : Thread nD τ) arg12 fullShare (k2_pay1 (k2_pay17 q k k2_pay9 k2_pay9 k2_pay10))
            ∗ owns (c : Thread nD τ) arg13 fullShare (k2_pay2 (k2_pay12 v) (k2_pay15 q k k2_pay9 k2_pay9) (k2_pay16 q k k2_pay9) k2_pay11)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%d11, %f11, -, H11⟩, ⟨%d12, %f12, -, H12⟩, ⟨%d13, %f13, -, H13⟩, Hk⟩
  subst hf3; subst hf4; subst hf5
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.Kernel.Reg2

end
-- ==== Proof.BitsReg2RunE.lean ====
import proofs.«408560_j30485677867710_3_alg».proof.Proof.BitsReg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block of the second head: the update, the projected normalized sum added into the output, and the output's column sums and sums of squares stored. -/
theorem run_E (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : ¬ condR i) (h3 : k2_cond3 i = 1#1) (h4 : k2_cond4 i = 1#1)
    (q k v : Vec F S1x2048x128 .bf16) (u : Vec F S1x128x256 .bf16) (o : Vec F S2048x256 .f32) (m l : Vec F S2048x1 .f32) (a : Vec F S2048x128 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare u
        ∗ owns (c : Thread nD τ) arg8 fullShare o
        ∗ (∃ d, owns (c : Thread nD τ) arg9 fullShare d)
        ∗ (∃ d, owns (c : Thread nD τ) arg10 fullShare d)
        ∗ owns (c : Thread nD τ) arg11 fullShare m
        ∗ owns (c : Thread nD τ) arg12 fullShare l
        ∗ owns (c : Thread nD τ) arg13 fullShare a
        ∗ (iprop(owns (c : Thread nD τ) arg3 fullShare q
            ∗ owns (c : Thread nD τ) arg4 fullShare k
            ∗ owns (c : Thread nD τ) arg5 fullShare v
            ∗ owns (c : Thread nD τ) arg6 fullShare u
            ∗ owns (c : Thread nD τ) arg8 fullShare (k2_pay4 (k2_pay2 (k2_pay12 v) (k2_pay15 q k m m) (k2_pay16 q k m) a) (k2_pay1 (k2_pay17 q k m m l)) u o)
            ∗ owns (c : Thread nD τ) arg9 fullShare (k2_pay6 (k2_pay4 (k2_pay2 (k2_pay12 v) (k2_pay15 q k m m) (k2_pay16 q k m) a) (k2_pay1 (k2_pay17 q k m m l)) u o))
            ∗ owns (c : Thread nD τ) arg10 fullShare (k2_pay7 (k2_pay4 (k2_pay2 (k2_pay12 v) (k2_pay15 q k m m) (k2_pay16 q k m) a) (k2_pay1 (k2_pay17 q k m m l)) u o))
            ∗ owns (c : Thread nD τ) arg11 fullShare (k2_pay3 (k2_pay14 q k m))
            ∗ owns (c : Thread nD τ) arg12 fullShare (k2_pay1 (k2_pay17 q k m m l))
            ∗ owns (c : Thread nD τ) arg13 fullShare (k2_pay2 (k2_pay12 v) (k2_pay15 q k m m) (k2_pay16 q k m) a)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf8; subst hf11; subst hf12; subst hf13
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    refine (View.read_writes_eq_canon _ _ _ (cov8 _ _)).trans ?_
    sl_unfold_words
    rw [View.canon_cons_unit_zero (S := S2048x256) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 8 failed"
  isplitl [H9]
  · iexists _; isplitr
    swap; · iexact H9
    ipureintro
    refine (View.read_writes_eq_canon _ _ _ (cov9 _ _)).trans ?_
    sl_unfold_words
    rw [View.canon_cons_unit_zero (S := S1x1x256) hz3]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 9 failed"
  isplitl [H10]
  · iexists _; isplitr
    swap; · iexact H10
    ipureintro
    refine (View.read_writes_eq_canon _ _ _ (cov9 _ _)).trans ?_
    sl_unfold_words
    rw [View.canon_cons_unit_zero (S := S1x1x256) hz3]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 10 failed"
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.Kernel.Reg2

end
-- ==== Proof.BitsReg2.lean ====
import proofs.«408560_j30485677867710_3_alg».proof.Proof.BitsReg2RunA
import proofs.«408560_j30485677867710_3_alg».proof.Proof.BitsReg2RunB
import proofs.«408560_j30485677867710_3_alg».proof.Proof.BitsReg2RunC
import proofs.«408560_j30485677867710_3_alg».proof.Proof.BitsReg2RunD
import proofs.«408560_j30485677867710_3_alg».proof.Proof.BitsReg2RunE

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The three scratch operands as memrefs: whole scoped buffers of the kernel's own. -/
abbrev sc0 : Memref sig .tc .vmem S2048x1 .f32 := Memref.whole cc2_scratch0
abbrev sc1 : Memref sig .tc .vmem S2048x1 .f32 := Memref.whole cc2_scratch1
abbrev sc2 : Memref sig .tc .vmem S2048x128 .f32 := Memref.whole cc2_scratch2

/-- The region invariant before position `n`: the generator register at some state, every scoped buffer that is
    neither a staging buffer of the region nor one of its three scratch buffers at some contents, and the three
    scratch buffers at the carried state's running maximum, denominator and weighted sum — except before the first
    key block of a head, where the body resets them and nothing is said of what they hold. -/
def Phi (c : Dev nD) (n : ℕ) : sProp 𝕄 :=
  iprop((∃ r, prngReg c r)
    ∗ Pipeline.scopedRestBut (Ix := Unit) (Name := ℕ) (U := UR sig nD τ) (Lvl := ℕ) (Val := Elt F) spec2 c [cc2_scratch0, cc2_scratch1, cc2_scratch2]
    ∗ (∃ (x0 : Vec F S2048x1 .f32) (x1 : Vec F S2048x1 .f32) (x2 : Vec F S2048x128 .f32),
        ⌜¬ n % 4 = 0 → x0 = (stAt V c n).m ∧ x1 = (stAt V c n).l ∧ x2 = (stAt V c n).acc⌝
        ∗ owns (c : Thread nD τ) sc0 fullShare x0 ∗ owns (c : Thread nD τ) sc1 fullShare x1 ∗ owns (c : Thread nD τ) sc2 fullShare x2))

/-- The proof data of the region on core `c`: the arrays as the region finds them; after the body each input's
    buffer at its block, the output block's buffer at the carried state's output after the point, the two reduction
    outputs' at its column sums; the invariant `Phi`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (stAt V c (t.val + 1)).o
    | ⟨6, _⟩ => psumOf (stAt V c (t.val + 1)).o
    | ⟨7, _⟩ => psumsqOf (stAt V c (t.val + 1)).o
  Φ t := Phi V c t.val
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
/-- What the body leaves in the output block's staging buffer at a point where it stores it (and what the write-back
    at the head pair's last point writes): the carried state's output after the point. -/
theorem after_5 (c : Dev nD) (t : Fin cfg2.N) : (dat V c).after 5 t = (stAt V c (t.val + 1)).o := by dsimp only [dat]
theorem after_6 (c : Dev nD) (t : Fin cfg2.N) : (dat V c).after 6 t = k2_pay6 (stAt V c (t.val + 1)).o := by dsimp only [dat]
theorem after_7 (c : Dev nD) (t : Fin cfg2.N) : (dat V c).after 7 t = k2_pay7 (stAt V c (t.val + 1)).o := by dsimp only [dat]

theorem Phi_castSucc (c : Dev nD) (t : Fin cfg2.N) : (dat V c).Φ t.castSucc = Phi V c t.val := by
  dsimp only [dat]; simp only [Fin.coe_castSucc]
theorem Phi_succ (c : Dev nD) (t : Fin cfg2.N) : (dat V c).Φ t.succ = Phi V c (t.val + 1) := by
  dsimp only [dat]; simp only [Fin.val_succ]

/-! ## What the body finds in each staging buffer -/

/-- Input window 0's current staging buffer holds its block at every point, fetched there or not. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- Input window 1's current staging buffer holds its block at every point, fetched there or not. -/
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- Input window 2's current staging buffer holds its block at every point, fetched there or not. -/
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Input window 3's current staging buffer holds its block at every point, fetched there or not. -/
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Input window 4's current staging buffer holds its block at every point, fetched there or not. -/
theorem before4 (c : Dev nD) (t : Fin cfg2.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- A point that neither seeds nor adds into the output leaves it as it was. -/
theorem stepAt_o_idle (n : ℕ) (h0 : ¬ n % 8 = 0) (h3 : ¬ n % 4 = 3) (q k v : Vec F S1x2048x128 .bf16) (u : Vec F S1x128x256 .bf16)
    (h : Vec F S2048x256 .f32) (s : St F) : (stepAt n q k v u h s).o = s.o := by
  unfold stepAt; dsimp only; rw [if_neg h3, if_neg h0]

/-- The output block's staging buffer, at a point that is not the first of a head pair, holds the carried state's
    output: what the last storing point left, through the idle points since (no write-back falls between). -/
theorem before5 (c : Dev nD) : ∀ (n : ℕ) (t : Fin cfg2.N), t.val = n → ¬ t.val % 8 = 0 → ∀ d, (dat V c).before 5 t d = (stAt V c t.val).o := by
  intro n
  induction n using Nat.strong_induction_on with
  | _ n ih =>
    intro t hn ht d
    have ht0 : t.val ≠ 0 := fun h => ht (by rw [h])
    have hlt : t.val - 1 < cfg2.N := Nat.lt_of_le_of_lt (Nat.sub_le _ _) t.isLt
    rw [(dat V c).before_of_pos 5 t ht0 ((cfg2.win 5).fetch_out rfl t)]
    have hfl : (cfg2.win 5).flush ⟨t.val - 1, hlt⟩ = false := by
      rw [Bool.eq_false_iff]; intro h
      have := (flush2_5 ⟨t.val - 1, hlt⟩).mp h
      dsimp only at this; omega
    rw [hfl, if_neg Bool.false_ne_true]
    have hst : stAt V c t.val = stAt V c ((⟨t.val - 1, hlt⟩ : Fin cfg2.N).val + 1) := by
      congr 1; dsimp only; omega
    unfold Dat.left
    by_cases hidle : (¬ (t.val - 1) % 8 = 0 ∧ ¬ (t.val - 1) % 4 = 3)
    · rw [(idle5_iff ⟨t.val - 1, hlt⟩).mpr hidle]
      dsimp only
      rw [ih (t.val - 1) (by omega) ⟨t.val - 1, hlt⟩ rfl hidle.1 d, hst, stAt_succ, stepAt_o_idle _ hidle.1 hidle.2]
    · have hlive : cfg2.idle 5 (cfg2.grid.coords ⟨t.val - 1, hlt⟩) = false := by
        rw [Bool.eq_false_iff]; exact fun h => hidle ((idle5_iff ⟨t.val - 1, hlt⟩).mp h)
      rw [hlive]
      dsimp only
      unfold Dat.kept
      rw [Pipeline.fill_of_clip_none (cfg := cfg2) 5 _ (fun _ => rfl) d ((dat V c).after 5 ⟨t.val - 1, hlt⟩) _, Window.fill_cut, after_5, hst]

theorem before5' (c : Dev nD) (t : Fin cfg2.N) (h8 : ¬ t.val % 8 = 0) (d) : (dat V c).before 5 t d = (stAt V c t.val).o :=
  before5 V c t.val t rfl h8 d

/-! ## Where the output windows are live, idle, written back -/

theorem live5_of (t : Fin cfg2.N) (h : t.val % 8 = 0 ∨ t.val % 4 = 3) : cfg2.idle 5 (cfg2.grid.coords t) = false := by
  rw [Bool.eq_false_iff]; intro hi
  obtain ⟨a, b⟩ := (idle5_iff t).mp hi
  rcases h with h | h
  · exact a h
  · exact b h
theorem idle5_of (t : Fin cfg2.N) (h8 : ¬ t.val % 8 = 0) (h3 : ¬ t.val % 4 = 3) : cfg2.idle 5 (cfg2.grid.coords t) = true :=
  (idle5_iff t).mpr ⟨h8, h3⟩
theorem live6_of (t : Fin cfg2.N) (h7 : t.val % 8 = 7) : cfg2.idle 6 (cfg2.grid.coords t) = false := by
  rw [Bool.eq_false_iff]; intro hi; exact (idle6_iff t).mp hi h7
theorem idle6_of (t : Fin cfg2.N) (h7 : ¬ t.val % 8 = 7) : cfg2.idle 6 (cfg2.grid.coords t) = true := (idle6_iff t).mpr h7
theorem live7_of (t : Fin cfg2.N) (h7 : t.val % 8 = 7) : cfg2.idle 7 (cfg2.grid.coords t) = false := by
  rw [Bool.eq_false_iff]; intro hi; exact (idle7_iff t).mp hi h7
theorem idle7_of (t : Fin cfg2.N) (h7 : ¬ t.val % 8 = 7) : cfg2.idle 7 (cfg2.grid.coords t) = true := (idle7_iff t).mpr h7
theorem noflush5_of (t : Fin cfg2.N) (h7 : ¬ t.val % 8 = 7) : (cfg2.win 5).flush t = false := by
  rw [Bool.eq_false_iff]; intro h; exact h7 ((flush2_5 t).mp h)
theorem noflush6_of (t : Fin cfg2.N) (h7 : ¬ t.val % 8 = 7) : (cfg2.win 6).flush t = false := by
  rw [Bool.eq_false_iff]; intro h; exact h7 ((flush2_6 t).mp h)
theorem noflush7_of (t : Fin cfg2.N) (h7 : ¬ t.val % 8 = 7) : (cfg2.win 7).flush t = false := by
  rw [Bool.eq_false_iff]; intro h; exact h7 ((flush2_7 t).mp h)

/-- At a point live for the window the body obligation's post is the buffer at what the proof data states. -/
theorem leaves_live (w : Fin cfg2.W) (c : Dev nD) (t : Fin cfg2.N) (h : cfg2.idle w (cfg2.grid.coords t) = false) :
    (dat V c).leavesExact w t = owns (c : Thread nD τ) ((cfg2.win w).stage (cfg2.slots t w)) fullShare ((dat V c).after w t) := by
  unfold Dat.leavesExact; rw [h]

theorem leaves0 (c : Dev nD) (t : Fin cfg2.N) : (dat V c).leavesExact 0 t = owns (c : Thread nD τ) (st2_0 t) fullShare (iblk V c 0 t) := by
  rw [leaves_live V 0 c t rfl, after0]
theorem leaves1 (c : Dev nD) (t : Fin cfg2.N) : (dat V c).leavesExact 1 t = owns (c : Thread nD τ) (st2_1 t) fullShare (iblk V c 1 t) := by
  rw [leaves_live V 1 c t rfl, after1]
theorem leaves2 (c : Dev nD) (t : Fin cfg2.N) : (dat V c).leavesExact 2 t = owns (c : Thread nD τ) (st2_2 t) fullShare (iblk V c 2 t) := by
  rw [leaves_live V 2 c t rfl, after2]
theorem leaves3 (c : Dev nD) (t : Fin cfg2.N) : (dat V c).leavesExact 3 t = owns (c : Thread nD τ) (st2_3 t) fullShare (iblk V c 3 t) := by
  rw [leaves_live V 3 c t rfl, after3]
theorem leaves4 (c : Dev nD) (t : Fin cfg2.N) : (dat V c).leavesExact 4 t = owns (c : Thread nD τ) (st2_4 t) fullShare (iblk V c 4 t) := by
  rw [leaves_live V 4 c t rfl, after4]

/-! ## The step, case by case -/

theorem stepAt_A (n : ℕ) (h8 : n % 8 = 0) (q k v : Vec F S1x2048x128 .bf16) (u : Vec F S1x128x256 .bf16) (h : Vec F S2048x256 .f32) (s : St F) :
    stepAt n q k v u h s = ⟨k2_pay3 (k2_pay14 q k k2_pay9), k2_pay1 (k2_pay17 q k k2_pay9 k2_pay9 k2_pay10), k2_pay2 (k2_pay12 v) (k2_pay15 q k k2_pay9 k2_pay9) (k2_pay16 q k k2_pay9) k2_pay11, k2_pay8 h⟩ := by
  have h4 : n % 4 = 0 := by omega
  have h3 : ¬ n % 4 = 3 := by omega
  unfold stepAt; simp only [if_pos h8, if_pos h4, if_neg h3]
theorem stepAt_D (n : ℕ) (h8 : ¬ n % 8 = 0) (h4 : n % 4 = 0) (q k v : Vec F S1x2048x128 .bf16) (u : Vec F S1x128x256 .bf16) (h : Vec F S2048x256 .f32) (s : St F) :
    stepAt n q k v u h s = ⟨k2_pay3 (k2_pay14 q k k2_pay9), k2_pay1 (k2_pay17 q k k2_pay9 k2_pay9 k2_pay10), k2_pay2 (k2_pay12 v) (k2_pay15 q k k2_pay9 k2_pay9) (k2_pay16 q k k2_pay9) k2_pay11, s.o⟩ := by
  have h3 : ¬ n % 4 = 3 := by omega
  unfold stepAt; simp only [if_neg h8, if_pos h4, if_neg h3]
theorem stepAt_B (n : ℕ) (h4 : ¬ n % 4 = 0) (h3 : ¬ n % 4 = 3) (q k v : Vec F S1x2048x128 .bf16) (u : Vec F S1x128x256 .bf16) (h : Vec F S2048x256 .f32) (s : St F) :
    stepAt n q k v u h s = ⟨k2_pay3 (k2_pay14 q k s.m), k2_pay1 (k2_pay17 q k s.m s.m s.l), k2_pay2 (k2_pay12 v) (k2_pay15 q k s.m s.m) (k2_pay16 q k s.m) s.acc, s.o⟩ := by
  have h8 : ¬ n % 8 = 0 := by omega
  unfold stepAt; simp only [if_neg h8, if_neg h4, if_neg h3]
theorem stepAt_C (n : ℕ) (h3 : n % 4 = 3) (q k v : Vec F S1x2048x128 .bf16) (u : Vec F S1x128x256 .bf16) (h : Vec F S2048x256 .f32) (s : St F) :
    stepAt n q k v u h s = ⟨k2_pay3 (k2_pay14 q k s.m), k2_pay1 (k2_pay17 q k s.m s.m s.l), k2_pay2 (k2_pay12 v) (k2_pay15 q k s.m s.m) (k2_pay16 q k s.m) s.acc,
      k2_pay4 (k2_pay2 (k2_pay12 v) (k2_pay15 q k s.m s.m) (k2_pay16 q k s.m) s.acc) (k2_pay1 (k2_pay17 q k s.m s.m s.l)) u s.o⟩ := by
  have h8 : ¬ n % 8 = 0 := by omega
  have h4 : ¬ n % 4 = 0 := by omega
  unfold stepAt; simp only [if_neg h8, if_neg h4, if_pos h3]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t)

set_option maxHeartbeats 4000000 in
/-- The body at any point: the inputs' buffers hold their blocks; the closed forms of the branch conditions say which of
    the five control cases the point is in; the scratch is handed at the carried state (at anything where the body
    resets it) and taken back at the next state; the output block's buffer holds the carried output except at the
    first point of a head pair, where the body seeds it; an output the case does not store is handed back untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl]
  rw [Phi_succ, Phi_castSucc, leaves0, leaves1, leaves2, leaves3, leaves4]
  unfold Phi
  have hN : t.val < 32 := lt_of_lt_of_eq t.isLt (show cfg2.N = 32 from N_2)
  by_cases h8 : t.val % 8 = 0
  ·
    have h4 : t.val % 4 = 0 := by omega
    have h3 : ¬ t.val % 4 = 3 := by omega
    have h7 : ¬ t.val % 8 = 7 := by omega
    have c1 : k2_cond1 (grid2.coords t) = 1#1 := (hcond1 t).mpr h8
    have cR : condR (grid2.coords t) := (hcondR t).mpr h4
    have c3 : ¬ k2_cond3 (grid2.coords t) = 1#1 := fun h => h3 ((hcond3 t).mp h)
    have c4 : ¬ k2_cond4 (grid2.coords t) = 1#1 := fun h => h7 ((hcond4 t).mp h)
    rw [leaves_live V 5 c t (live5_of t (.inl h8)), after_5]
    rw [Dat.leavesExact_idle (dat V c) 6 t (idle6_of t h7) (noflush6_of t h7), Dat.leavesExact_idle (dat V c) 7 t (idle7_of t h7) (noflush7_of t h7)]
    rw [stAt_succ V c t, stepAt_A _ h8]
    dsimp only
    iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c Set.univ (grid2.coords t) _ _ _ _ _ _ _ _ _ _ _ _ _ _ _ _ _ _ _ _ _ _ c1 cR c3 c4 (qblk V c t) (kblk V c t) (vblk V c t) (hblk V c t) _)
    isplitl [H0]; · iexact H0
    isplitl [H1]; · iexact H1
    isplitl [H2]; · iexact H2
    isplitl [H4]; · iexact H4
    isplitl [H5]; · iexists _; iexact H5
    isplitl [HS0]; · iexists _; iexact HS0
    isplitl [HS1]; · iexists _; iexact HS1
    isplitl [HS2]; · iexists _; iexact HS2
    iintro ⟨H0, H1, H2, H4, H5, HS0, HS1, HS2⟩
    isplitl [Hg Hrest HS0 HS1 HS2]
    · isplitl [Hg]; · iexact Hg
      isplitl [Hrest]; · iexact Hrest
      iexists _; iexists _; iexists _
      isplitr; · ipureintro; exact fun _ => ⟨rfl, rfl, rfl⟩
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

  by_cases h4 : t.val % 4 = 0
  ·
    have h3 : ¬ t.val % 4 = 3 := by omega
    have h7 : ¬ t.val % 8 = 7 := by omega
    have c1 : ¬ k2_cond1 (grid2.coords t) = 1#1 := fun h => h8 ((hcond1 t).mp h)
    have cR : condR (grid2.coords t) := (hcondR t).mpr h4
    have c3 : ¬ k2_cond3 (grid2.coords t) = 1#1 := fun h => h3 ((hcond3 t).mp h)
    have c4 : ¬ k2_cond4 (grid2.coords t) = 1#1 := fun h => h7 ((hcond4 t).mp h)
    rw [Dat.leavesExact_idle (dat V c) 5 t (idle5_of t h8 h3) (noflush5_of t h7)]
    rw [Dat.leavesExact_idle (dat V c) 6 t (idle6_of t h7) (noflush6_of t h7), Dat.leavesExact_idle (dat V c) 7 t (idle7_of t h7) (noflush7_of t h7)]
    rw [stAt_succ V c t, stepAt_D _ h8 h4]
    dsimp only
    iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_D c Set.univ (grid2.coords t) _ _ _ _ _ _ _ _ _ _ _ _ _ _ _ _ _ _ _ _ _ _ c1 cR c3 c4 (qblk V c t) (kblk V c t) (vblk V c t) _)
    isplitl [H0]; · iexact H0
    isplitl [H1]; · iexact H1
    isplitl [H2]; · iexact H2
    isplitl [HS0]; · iexists _; iexact HS0
    isplitl [HS1]; · iexists _; iexact HS1
    isplitl [HS2]; · iexists _; iexact HS2
    iintro ⟨H0, H1, H2, HS0, HS1, HS2⟩
    isplitl [Hg Hrest HS0 HS1 HS2]
    · isplitl [Hg]; · iexact Hg
      isplitl [Hrest]; · iexact Hrest
      iexists _; iexists _; iexists _
      isplitr; · ipureintro; exact fun _ => ⟨rfl, rfl, rfl⟩
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

  by_cases h3 : t.val % 4 = 3
  · by_cases h7 : t.val % 8 = 7
    ·
      have c1 : ¬ k2_cond1 (grid2.coords t) = 1#1 := fun h => h8 ((hcond1 t).mp h)
      have cR : ¬ condR (grid2.coords t) := fun h => h4 ((hcondR t).mp h)
      have c3 : k2_cond3 (grid2.coords t) = 1#1 := (hcond3 t).mpr h3
      have c4 : k2_cond4 (grid2.coords t) = 1#1 := (hcond4 t).mpr h7
      rw [leaves_live V 5 c t (live5_of t (.inr h3)), after_5]
      rw [leaves_live V 6 c t (live6_of t h7), after_6, leaves_live V 7 c t (live7_of t h7), after_7]
      rw [stAt_succ V c t, stepAt_C _ h3]
      dsimp only
      simp only [before5' V c t h8]
      iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl, rfl⟩ := hx h4
      iapply (run_E c Set.univ (grid2.coords t) _ _ _ _ _ _ _ _ _ _ _ _ _ _ _ _ _ _ _ _ _ _ c1 cR c3 c4 (qblk V c t) (kblk V c t) (vblk V c t) (ublk V c t) (stAt V c t.val).o (stAt V c t.val).m (stAt V c t.val).l (stAt V c t.val).acc _)
      isplitl [H0]; · iexact H0
      isplitl [H1]; · iexact H1
      isplitl [H2]; · iexact H2
      isplitl [H3]; · iexact H3
      isplitl [H5]; · iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H5, H6, H7, HS0, HS1, HS2⟩
      isplitl [Hg Hrest HS0 HS1 HS2]
      · isplitl [Hg]; · iexact Hg
        isplitl [Hrest]; · iexact Hrest
        iexists _; iexists _; iexists _
        isplitr; · ipureintro; exact fun _ => ⟨rfl, rfl, rfl⟩
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

    ·
      have c1 : ¬ k2_cond1 (grid2.coords t) = 1#1 := fun h => h8 ((hcond1 t).mp h)
      have cR : ¬ condR (grid2.coords t) := fun h => h4 ((hcondR t).mp h)
      have c3 : k2_cond3 (grid2.coords t) = 1#1 := (hcond3 t).mpr h3
      have c4 : ¬ k2_cond4 (grid2.coords t) = 1#1 := fun h => h7 ((hcond4 t).mp h)
      rw [leaves_live V 5 c t (live5_of t (.inr h3)), after_5]
      rw [Dat.leavesExact_idle (dat V c) 6 t (idle6_of t h7) (noflush6_of t h7), Dat.leavesExact_idle (dat V c) 7 t (idle7_of t h7) (noflush7_of t h7)]
      rw [stAt_succ V c t, stepAt_C _ h3]
      dsimp only
      simp only [before5' V c t h8]
      iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl, rfl⟩ := hx h4
      iapply (run_C c Set.univ (grid2.coords t) _ _ _ _ _ _ _ _ _ _ _ _ _ _ _ _ _ _ _ _ _ _ c1 cR c3 c4 (qblk V c t) (kblk V c t) (vblk V c t) (ublk V c t) (stAt V c t.val).o (stAt V c t.val).m (stAt V c t.val).l (stAt V c t.val).acc _)
      isplitl [H0]; · iexact H0
      isplitl [H1]; · iexact H1
      isplitl [H2]; · iexact H2
      isplitl [H3]; · iexact H3
      isplitl [H5]; · iexact H5
      isplitl [HS0]; · iexact HS0
      isplitl [HS1]; · iexact HS1
      isplitl [HS2]; · iexact HS2
      iintro ⟨H0, H1, H2, H3, H5, HS0, HS1, HS2⟩
      isplitl [Hg Hrest HS0 HS1 HS2]
      · isplitl [Hg]; · iexact Hg
        isplitl [Hrest]; · iexact Hrest
        iexists _; iexists _; iexists _
        isplitr; · ipureintro; exact fun _ => ⟨rfl, rfl, rfl⟩
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

  ·
    have h7 : ¬ t.val % 8 = 7 := by omega
    have c1 : ¬ k2_cond1 (grid2.coords t) = 1#1 := fun h => h8 ((hcond1 t).mp h)
    have cR : ¬ condR (grid2.coords t) := fun h => h4 ((hcondR t).mp h)
    have c3 : ¬ k2_cond3 (grid2.coords t) = 1#1 := fun h => h3 ((hcond3 t).mp h)
    have c4 : ¬ k2_cond4 (grid2.coords t) = 1#1 := fun h => h7 ((hcond4 t).mp h)
    rw [Dat.leavesExact_idle (dat V c) 5 t (idle5_of t h8 h3) (noflush5_of t h7)]
    rw [Dat.leavesExact_idle (dat V c) 6 t (idle6_of t h7) (noflush6_of t h7), Dat.leavesExact_idle (dat V c) 7 t (idle7_of t h7) (noflush7_of t h7)]
    rw [stAt_succ V c t, stepAt_B _ h4 h3]
    dsimp only
    iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain ⟨rfl, rfl, rfl⟩ := hx h4
    iapply (run_B c Set.univ (grid2.coords t) _ _ _ _ _ _ _ _ _ _ _ _ _ _ _ _ _ _ _ _ _ _ c1 cR c3 c4 (qblk V c t) (kblk V c t) (vblk V c t) (stAt V c t.val).m (stAt V c t.val).l (stAt V c t.val).acc _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [Hg Hrest HS0 HS1 HS2]
    · isplitl [Hg]; · iexact Hg
      isplitl [Hrest]; · iexact Hrest
      iexists _; iexists _; iexists _
      isplitr; · ipureintro; exact fun _ => ⟨rfl, rfl, rfl⟩
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

/-- The library's body obligation, at every point. -/
theorem body_obligation (c : Dev nD) : BodyObligation (dat (F := F) V c) (defs₀ (F := F)) Variants.none () Set.univ := fun t => by
  rw [bigSep_W2, bigSep_W2]
  exact sound_body V c t

/-! ## Entering and leaving the region -/

/-- The scoped buffers no window stages, split at the region's three scratch buffers (each whole at some contents), the
    remainder unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f))
          ∗ Pipeline.scopedRestBut (Ix := Unit) (Name := ℕ) (U := UR sig nD τ) (Lvl := ℕ) (Val := Elt F) spec2 c [cc2_scratch0, cc2_scratch1, cc2_scratch2]) :=
  Pipeline.scopedRest_split_of_list spec2 c [cc2_scratch0, cc2_scratch1, cc2_scratch2] (by decide) (by decide)

/-- The invariant before the first point, from the generator register and the scoped buffers no window stages
    (the three scratch buffers among them, at whatever they hold). -/
theorem hin (c : Dev nD) : iprop((∃ r, prngReg c r) ∗ Pipeline.prefHeld (pcfgs (F := F) 2).pre c (fun _ => fullShare) ((cfgs 2).toPCfg_adm).1 ∗ Pipeline.scopedRest spec2 c) ⊢ ((dat V c).Φ 0 : sProp 𝕄) := by
  rw [show (dat V c).Φ 0 = Phi V c 0 from rfl]; unfold Phi
  rw [scopedRest2_split]
  iintro ⟨Hr, -, ⟨⟨%f0, H0⟩, ⟨%f1, H1⟩, ⟨%f2, H2⟩⟩, Hrest⟩
  isplitl [Hr]; · iexact Hr
  isplitl [Hrest]; · iexact Hrest
  iexists f0; iexists f1; iexists f2
  isplitr; · ipureintro; exact fun h => absurd (Nat.zero_mod 4) h
  isplitl [H0]; · rw [owns_whole]; iexact H0
  isplitl [H1]; · rw [owns_whole]; iexact H1
  rw [owns_whole]; iexact H2

/-- The invariant after the last point gives the generator register and those scoped buffers back: what the scratch
    buffers hold is forgotten. -/
theorem hout (c : Dev nD) : ((dat V c).Φ (Fin.last cfg2.N) : sProp 𝕄) ⊢ iprop((∃ r, prngReg c r) ∗ Pipeline.ownSems0 (fun k : PEmpty => k.elim) c ∗ Pipeline.scopedRest spec2 c) := by
  rw [Pipeline.ownSems0_none, show (dat V c).Φ (Fin.last cfg2.N) = Phi V c (Fin.last cfg2.N).val from rfl]; unfold Phi
  rw [scopedRest2_split]
  iintro ⟨Hr, Hrest, ⟨%x0, %x1, %x2, -, H0, H1, H2⟩⟩
  isplitl [Hr]; · iexact Hr
  isplitr; · iempintro
  isplitr [Hrest]
  · isplitl [H0]; · iexists x0; rw [← owns_whole]; iexact H0
    isplitl [H1]; · iexists x1; rw [← owns_whole]; iexact H1
    iexists x2; rw [← owns_whole]; iexact H2
  iexact Hrest

end Cert.Kernel.Reg2

end
-- ==== Proof.BitsReg3.lean ====
import proofs.«408560_j30485677867710_3_alg».proof.Proof.Gen.Kernel.Launch
import proofs.«408560_j30485677867710_3_alg».proof.Proof.Gen.Kernel.Skeleton
import proofs.«408560_j30485677867710_3_alg».proof.Proof.Gen.Kernel.Points
import Idealize.ShloMosaic.Lib.Pipeline.FrameBody
import Idealize.ShloMosaic.Lib.Pipeline.Value
import Idealize.ShloMosaic.Lib.Tactic

/-!
# Kernel region 3 (the normalisation followed by two linear layers), at any float instance

The region's pipeline stages six windows: the activations `z` (window 0, one block of 2048 rows per
grid point), the per-feature mean and variance (windows 1 and 2), the two weight matrices (window 3)
and the two bias rows (window 4) — the last four a single block, the same at every point — and the
result (window 5, one block of 2048 rows per point, written back at every point).

At each point the body reads the five input blocks and overwrites the whole of the result's block with
one value, a function of what it read.  This file states that: what each window's staging buffer holds
after the body at a point, as a function of the arrays `V` the region finds on entry; the body's
triple; and the pipeline's body obligation for proof data built from these.
-/

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not the pipeline fetched it
    there: a window not fetched at a point has the block index of the point before, and the body leaves
    the block in place. -/
theorem before_in0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether or not the pipeline fetched it
    there: a window not fetched at a point has the block index of the point before, and the body leaves
    the block in place. -/
theorem before_in1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether or not the pipeline fetched it
    there: a window not fetched at a point has the block index of the point before, and the body leaves
    the block in place. -/
theorem before_in2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether or not the pipeline fetched it
    there: a window not fetched at a point has the block index of the point before, and the body leaves
    the block in place. -/
theorem before_in3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether or not the pipeline fetched it
    there: a window not fetched at a point has the block index of the point before, and the body leaves
    the block in place. -/
theorem before_in4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of a 2048 × 256 block. -/
abbrev rZ : Rect S2048x256 := Rect.unit (s := S2048x256) ![0, 0] S2048x256.size inb_S2048x256_S2048x256_0_0
/-- The whole of a 1 × 256 row. -/
abbrev rR : Rect S1x256 := Rect.unit (s := S1x256) ![0, 0] S1x256.size inb_S1x256_S1x256_0_0
/-- The first and the second weight matrix. -/
abbrev rW0 : Rect S2x256x256 := Rect.unit (s := S2x256x256) ![0, 0, 0] S1x256x256.size inb_S2x256x256_S1x256x256_0_0_0
abbrev rW1 : Rect S2x256x256 := Rect.unit (s := S2x256x256) ![1, 0, 0] S1x256x256.size inb_S2x256x256_S1x256x256_1_0_0
/-- The first and the second bias row. -/
abbrev rB0 : Rect S2x256 := Rect.unit (s := S2x256) ![0, 0] S1x256.size inb_S2x256_S1x256_0_0
abbrev rB1 : Rect S2x256 := Rect.unit (s := S2x256) ![1, 0] S1x256.size inb_S2x256_S1x256_1_0

/-! ## What the body leaves in the result's buffer -/

/-- The value the body computes from the five input blocks `x0 … x4` (windows 0 … 4): the
    normalised activations through the two linear layers, each followed by a rectifier. -/
def pay (x0 : Vec F S2048x256 .f32) (x1 x2 : Vec F S1x256 .f32) (x3 : Vec F S2x256x256 .bf16) (x4 : Vec F S2x256 .f32) :
    Vec F S2048x256 .f32 :=
  k3_pay1 (View.ld x2 rR) (View.ld x0 rZ) (View.ld x1 rR) (View.ld x3 rW0) (View.ld x4 rB0) (View.ld x3 rW1) (View.ld x4 rB1)

/-- Window 5's staging buffer after the body, from the input windows' blocks: its one store, as a list of
    pieces. -/
def out5 (x0 : Vec F S2048x256 .f32) (x1 x2 : Vec F S1x256 .f32) (x3 : Vec F S2x256x256 .bf16) (x4 : Vec F S2x256 .f32) :
    Vec F S2048x256 .f32 :=
  View.canon [⟨rZ, pay x0 x1 x2 x3 x4⟩]

/-- The one store is of the whole block, so it covers the buffer. -/
theorem cover5 (p0 : Vec F S2048x256 .f32) (y : S2048x256.Idx) :
    ∃ pc ∈ ([⟨rZ, p0⟩] : List (View.Piece (Elt F) S2048x256 .f32)), y ∈ pc.1.set :=
  View.cover_of_tiled [⟨rZ, p0⟩] S2048x256.size (by rfl) y

/-! ## The body's triple -/

set_option maxHeartbeats 1000000 in
/-- The kernel body on whole staging memrefs, the inputs' reading `x0 … x4` and the result's holding anything,
    runs to the continuation with the inputs' as they were and the result's reading `out5` of the inputs. -/
theorem sound_kernel (c : Dev nD) (E : Set ℕ) (i : grid3.Coords)
    (arg1 : Memref sig .tc .vmem S2048x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S2x256x256 .bf16) (harg4 : arg4.IsWhole)
    (arg5 : Memref sig .tc .vmem S2x256 .f32) (harg5 : arg5.IsWhole)
    (arg6 : Memref sig .tc .vmem S2048x256 .f32) (harg6 : arg6.IsWhole)
    (x0 : Vec F S2048x256 .f32) (x1 x2 : Vec F S1x256 .f32) (x3 : Vec F S2x256x256 .bf16) (x4 : Vec F S2x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc3__norm_linear_kernel i arg1 harg1 arg2 harg2 arg3 harg3 arg4 harg4 arg5 harg5 arg6 harg6) K := by
  simp only [cc3__norm_linear_kernel_eq_skeleton]; unfold cc3__norm_linear_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-! ## The pipeline's proof data -/

/-- The proof data of the region's pipeline on core `c`: the arrays as the region finds them (`V`); after the
    body at point `t` each input's buffer at its block and the result's at `out5` of the input blocks; the
    invariant that of a body which touches nothing but its windows; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec3 c
  q _ := fullShare
  owed _ := 0

/-- The proof data's arrays are the region-entry contents. -/
theorem A_eq (c : Dev nD) (w : Fin cfg3.W) : (dat V c).A w = V c (Pipeline.arrRef spec3 w) := by
  dsimp only [dat]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) :
    (dat V c).after 5 t = out5 (iblk V c 0 t) (iblk V c 1 t) (iblk V c 2 t) (iblk V c 3 t) (iblk V c 4 t) := by dsimp only [dat]

/-- Each input's current staging buffer holds its block at every point, fetched there or not. -/
theorem before_0 (c : Dev nD) (t : Fin cfg3.N) (d) : (dat V c).before 0 t d = iblk V c 0 t :=
  before_in0_of V (dat V c) (A_eq V c 0) (after_0 V c) t d
theorem before_1 (c : Dev nD) (t : Fin cfg3.N) (d) : (dat V c).before 1 t d = iblk V c 1 t :=
  before_in1_of V (dat V c) (A_eq V c 1) (after_1 V c) t d
theorem before_2 (c : Dev nD) (t : Fin cfg3.N) (d) : (dat V c).before 2 t d = iblk V c 2 t :=
  before_in2_of V (dat V c) (A_eq V c 2) (after_2 V c) t d
theorem before_3 (c : Dev nD) (t : Fin cfg3.N) (d) : (dat V c).before 3 t d = iblk V c 3 t :=
  before_in3_of V (dat V c) (A_eq V c 3) (after_3 V c) t d
theorem before_4 (c : Dev nD) (t : Fin cfg3.N) (d) : (dat V c).before 4 t d = iblk V c 4 t :=
  before_in4_of V (dat V c) (A_eq V c 4) (after_4 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the inputs' memrefs hold their blocks, so the body's triple applies; the invariant and
    the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W3, bigSep_W3]
  exact sound_body V c t

end Cert.Kernel.Reg3

end
-- ==== Proof.BitsRunSeg.lean ====
/-
  One kernel region of the four-region program as a segment of @main between two boundaries, for ANY family of
  proof data: the thread state at a boundary is "every unscoped buffer at the boundary's contents, the generator
  register at some state, nothing owed"; the region's arrays are split out of the unscoped buffers at entry and put
  back at exit. Also a stretch of host operations as a segment between two boundaries. Generic in the float instance.
-/
import proofs.«408560_j30485677867710_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation read at the TensorCore's references. -/
abbrev atTc (W : Dev nD → Valuation τ sig (Elt F)) : (c : Dev nD) → (b : Ref sig .tc) → Buf (Elt F) ((c : Thread nD τ).loc b) :=
  fun c b => W c b

/-- No pallas_call has a prefetched table. -/
abbrev adm : (p : Fin 4) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The thread state at a boundary: every unscoped buffer at the boundary's contents, beside `R`. -/
abbrev T (W : Dev nD → Valuation τ sig (Elt F)) (c : Dev nD) : sProp 𝕄 :=
  iprop(StableHlo.held (c : Thread nD τ) (Pipeline.ucRefs τ sig) (W c) ∗ R c)

/-- A host stretch as a segment from the contents `W`, left at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (pdats : (p : Fin 4) → (c : Dev nD) → Dat τ (Elt F) Unit ℕ (UR sig nD τ) ℕ (Pipeline.pin (pcfgs (F := F)) adm p) c)

set_option backward.isDefEq.respectTransparency.types false in
/-- Pipeline `p`'s region entered from the boundary contents `Wi` and left at `Wo`, where `Wo` holds what the
    write-backs leave at the region's arrays and agrees with `Wi` elsewhere; the generator register goes into the
    pipeline's invariant and comes back (`hin`, `hout`); nothing is owed; the kernel has no semaphore of its own. -/
def regSeg (p : Fin 4) (hl : Pipeline.LaunchFacts (nD := nD) (τ := τ) cfgs p)
    (Wi Wo : Dev nD → Valuation τ sig (Elt F))
    (hbody : ∀ c, Pipeline.BodyObligationLoose (pdats p c) (defs₀ (F := F)) 𝒱₀ () Set.univ)
    (hshare : ∀ c w, (pdats p c).share w = fullShare)
    (howed : ∀ c t, (pdats p c).owed t = 0)
    (hrec : ∀ c t, (pdats p c).recorded t = Set.univ)
    (hA : ∀ c w, (pdats p c).A w = Wi c (Pipeline.arrRef (Pipeline.pin (pcfgs (F := F)) adm p).spec w))
    (hF : ∀ c w, (pdats p c).arrAt w (Pipeline.pin (pcfgs (F := F)) adm p).N = Wo c (Pipeline.arrRef (Pipeline.pin (pcfgs (F := F)) adm p).spec w))
    (hrest : ∀ c, ∀ b : Ref sig .tc, b ∉ Finset.univ.image (Pipeline.arrRef (Pipeline.pin (pcfgs (F := F)) adm p).spec) → atTc Wo c b = atTc Wi c b)
    (hin : ∀ c, iprop((∃ r, prngReg c r) ∗ Pipeline.prefHeld (pcfgs (F := F) p).pre c (fun _ => fullShare) (adm p).1
        ∗ Pipeline.scopedRest (Pipeline.pin (pcfgs (F := F)) adm p).spec c) ⊢ ((pdats p c).Φ 0 : sProp 𝕄))
    (hout : ∀ c, ((pdats p c).Φ (Fin.last (Pipeline.pin (pcfgs (F := F)) adm p).N) : sProp 𝕄)
      ⊢ iprop((∃ r, prngReg c r) ∗ Pipeline.ownSems0 (fun k : PEmpty => k.elim) c ∗ Pipeline.scopedRest (Pipeline.pin (pcfgs (F := F)) adm p).spec c)) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := T Wi c
  post c := T Wo c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wi c)
  hentry c := by
    rw [Pipeline.ownSems0_none]
    have hsplit := Pipeline.arrays_of_unscopedBufs (p := p) (pcfgs (F := F)) adm pdats hl.win hl.arr_whole c
      (hshare c) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      hl.win hl.arr_whole c pdats (hshare c)
      (atTc Wi c) (atTc Wo c) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- A pipeline whose invariant is the class's (the scoped rest and the generator register, untouched) takes the
    generator register in at the first point … -/
theorem hinA (p : Fin 4) (hΦ : ∀ c t, (pdats p c).Φ t = Pipeline.ΦA (Pipeline.pin (pcfgs (F := F)) adm p).spec c) (c : Dev nD) :
    iprop((∃ r, prngReg c r) ∗ Pipeline.prefHeld (pcfgs (F := F) p).pre c (fun _ => fullShare) (adm p).1
        ∗ Pipeline.scopedRest (Pipeline.pin (pcfgs (F := F)) adm p).spec c) ⊢ ((pdats p c).Φ 0 : sProp 𝕄) := by
  rw [hΦ c 0]; unfold Pipeline.ΦA
  iintro ⟨Hp, -, Hr⟩
  isplitl [Hr]; · iexact Hr
  iexact Hp

/-- … and gives it back at the last. -/
theorem houtA (p : Fin 4) (hΦ : ∀ c t, (pdats p c).Φ t = Pipeline.ΦA (Pipeline.pin (pcfgs (F := F)) adm p).spec c) (c : Dev nD) :
    ((pdats p c).Φ (Fin.last (Pipeline.pin (pcfgs (F := F)) adm p).N) : sProp 𝕄)
      ⊢ iprop((∃ r, prngReg c r) ∗ Pipeline.ownSems0 (fun k : PEmpty => k.elim) c ∗ Pipeline.scopedRest (Pipeline.pin (pcfgs (F := F)) adm p).spec c) := by
  rw [Pipeline.ownSems0_none, hΦ c (Fin.last _)]; unfold Pipeline.ΦA
  iintro ⟨Hr, Hp⟩
  isplitl [Hp]; · iexact Hp
  isplitr; · iempintro
  iexact Hr

end Cert.Kernel.Run

end
-- ==== Proof.BitsRun.lean ====
/-
  The run of the four-region program: the buffers' contents at each boundary between two items of @main as a fold
  from the launch memory (a host stretch applies its operations; a kernel region overwrites its arrays with what its
  write-backs leave), every region as a segment between two such boundaries, and the launch: every weakly fair
  execution terminates in a memory that holds, at every unscoped buffer, the last boundary's contents. Generic in the
  float instance.
-/
import proofs.«408560_j30485677867710_3_alg».proof.Proof.BitsReg0
import proofs.«408560_j30485677867710_3_alg».proof.Proof.BitsReg1
import proofs.«408560_j30485677867710_3_alg».proof.Proof.BitsReg2
import proofs.«408560_j30485677867710_3_alg».proof.Proof.BitsReg3
import proofs.«408560_j30485677867710_3_alg».proof.Proof.BitsRunSeg
import proofs.«408560_j30485677867710_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch (region 0's entry). -/
abbrev W0 : Dev nD → Valuation τ sig (Elt F) := fun c b => m ((c : Dev nD), b)
/-- At region 0's exit: its arrays at what its write-backs leave, every other buffer as entered. -/
def W1 (c : Dev nD) : Valuation τ sig (Elt F) :=
  Pipeline.withArrays spec0 c (W0 m c) fun w => (Reg0.dat (atTc (W0 m)) c).arrAt w cfg0.N
/-- After the first host stretch (region 1's entry). -/
abbrev W2 : Dev nD → Valuation τ sig (Elt F) := fun c => StableHlo.after hostOps1 (W1 m c)
/-- At region 1's exit. -/
def W3 (c : Dev nD) : Valuation τ sig (Elt F) :=
  Pipeline.withArrays spec1 c (W2 m c) fun w => (Reg1.dat (atTc (W2 m)) c).arrAt w cfg1.N
/-- After the second host stretch (region 2's entry). -/
abbrev W4 : Dev nD → Valuation τ sig (Elt F) := fun c => StableHlo.after hostOps2 (W3 m c)
/-- At region 2's exit. -/
def W5 (c : Dev nD) : Valuation τ sig (Elt F) :=
  Pipeline.withArrays spec2 c (W4 m c) fun w => (Reg2.dat (atTc (W4 m)) c).arrAt w cfg2.N
/-- After the third host stretch (region 3's entry). -/
abbrev W6 : Dev nD → Valuation τ sig (Elt F) := fun c => StableHlo.after hostOps3 (W5 m c)
/-- At region 3's exit: the end of @main. -/
def W7 (c : Dev nD) : Valuation τ sig (Elt F) :=
  Pipeline.withArrays spec3 c (W6 m c) fun w => (Reg3.dat (atTc (W6 m)) c).arrAt w cfg3.N

theorem W1_arr (c : Dev nD) (w : Fin cfg0.W) :
    W1 m c (Proc.devRef .tc (Pipeline.arrRef spec0 w)) = (Reg0.dat (atTc (W0 m)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (Reg1.dat (atTc (W2 m)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (Reg2.dat (atTc (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W7_arr (c : Dev nD) (w : Fin cfg3.W) :
    W7 m c (Proc.devRef .tc (Pipeline.arrRef spec3 w)) = (Reg3.dat (atTc (W6 m)) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

/-! ### A buffer that is no OUTPUT window's array of a region keeps its contents through the region -/

theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    rw [W1_arr]; exact ((Reg0.dat (atTc (W0 m)) c).arrAt_in w (hb w rfl) _).trans (Reg0.A_eq (atTc (W0 m)) c w)
  · exact W1_of_ne m c b fun w e => h ⟨w, e⟩
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    rw [W3_arr]; exact ((Reg1.dat (atTc (W2 m)) c).arrAt_in w (hb w rfl) _).trans (Reg1.A_eq (atTc (W2 m)) c w)
  · exact W3_of_ne m c b fun w e => h ⟨w, e⟩
theorem W5_keep (c : Dev nD) (b : Ref sig .tc) (hb : ∀ w, Pipeline.arrRef spec2 w = b → (cfg2.win w).isOut = false) :
    W5 m c (Proc.devRef .tc b) = W4 m c (Proc.devRef .tc b) := by
  by_cases h : ∃ w, Pipeline.arrRef spec2 w = b
  · obtain ⟨w, rfl⟩ := h
    rw [W5_arr]; exact ((Reg2.dat (atTc (W4 m)) c).arrAt_in w (hb w rfl) _).trans (Reg2.A_eq (atTc (W4 m)) c w)
  · exact W5_of_ne m c b fun w e => h ⟨w, e⟩
theorem W7_keep (c : Dev nD) (b : Ref sig .tc) (hb : ∀ w, Pipeline.arrRef spec3 w = b → (cfg3.win w).isOut = false) :
    W7 m c (Proc.devRef .tc b) = W6 m c (Proc.devRef .tc b) := by
  by_cases h : ∃ w, Pipeline.arrRef spec3 w = b
  · obtain ⟨w, rfl⟩ := h
    rw [W7_arr]; exact ((Reg3.dat (atTc (W6 m)) c).arrAt_in w (hb w rfl) _).trans (Reg3.A_eq (atTc (W6 m)) c w)
  · exact W7_of_ne m c b fun w e => h ⟨w, e⟩

/-- A buffer no host stretch writes and no region writes back into holds its launch contents at the end. -/
theorem W7_kept (c : Dev nD) (b : Ref sig .tc)
    (h0 : ∀ w, Pipeline.arrRef spec0 w = b → (cfg0.win w).isOut = false) (h1 : b ∉ hostOps1_W)
    (h2 : ∀ w, Pipeline.arrRef spec1 w = b → (cfg1.win w).isOut = false) (h3 : b ∉ hostOps2_W)
    (h4 : ∀ w, Pipeline.arrRef spec2 w = b → (cfg2.win w).isOut = false) (h5 : b ∉ hostOps3_W)
    (h6 : ∀ w, Pipeline.arrRef spec3 w = b → (cfg3.win w).isOut = false) :
    W7 m c (Proc.devRef .tc b) = m ((c : Thread nD τ).loc b) :=
  (W7_keep m c b h6).trans <| (StableHlo.after_of_writes_sub hostOps3 _ hostOps3_writes h5).trans <|
  (W5_keep m c b h4).trans <| (StableHlo.after_of_writes_sub hostOps2 _ hostOps2_writes h3).trans <|
  (W3_keep m c b h2).trans <| (StableHlo.after_of_writes_sub hostOps1 _ hostOps1_writes h1).trans <|
  (W1_keep m c b h0).trans rfl

/-! ## The proof data family -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Reg0.dat (atTc (W0 m)) c
  | ⟨1, _⟩ => fun c => Reg1.dat (atTc (W2 m)) c
  | ⟨2, _⟩ => fun c => Reg2.dat (atTc (W4 m)) c
  | ⟨3, _⟩ => fun c => Reg3.dat (atTc (W6 m)) c

/-! ## The regions as segments -/

set_option backward.isDefEq.respectTransparency.types false in
def reg0 : Pipeline.RegionSeg (pcfgs (F := F)) adm (pdats m) () defs₀ 𝒱₀ L lv 0 :=
  regSeg (pdats m) 0 launch0 (W0 m) (W1 m)
    (fun c => (Reg0.body_obligation (atTc (W0 m)) c).loose) (fun c => (pdats m 0 c).share_full fun _ => rfl) (fun _ _ => rfl) (fun _ _ => rfl)
    (fun c w => Reg0.A_eq (atTc (W0 m)) c w) (fun c w => (W1_arr m c w).symm)
    (fun c b hb => W1_of_ne m c b fun w e => hb (Finset.mem_image.mpr ⟨w, Finset.mem_univ _, e⟩))
    (hinA (pdats m) 0 fun _ _ => rfl) (houtA (pdats m) 0 fun _ _ => rfl)

set_option backward.isDefEq.respectTransparency.types false in
def reg1 : Pipeline.RegionSeg (pcfgs (F := F)) adm (pdats m) () defs₀ 𝒱₀ L lv 1 :=
  regSeg (pdats m) 1 launch1 (W2 m) (W3 m)
    (fun c => (Reg1.body_obligation (atTc (W2 m)) c).loose) (fun c => (pdats m 1 c).share_full fun _ => rfl) (fun _ _ => rfl) (fun _ _ => rfl)
    (fun c w => Reg1.A_eq (atTc (W2 m)) c w) (fun c w => (W3_arr m c w).symm)
    (fun c b hb => W3_of_ne m c b fun w e => hb (Finset.mem_image.mpr ⟨w, Finset.mem_univ _, e⟩))
    (hinA (pdats m) 1 fun _ _ => rfl) (houtA (pdats m) 1 fun _ _ => rfl)

set_option backward.isDefEq.respectTransparency.types false in
def reg2 : Pipeline.RegionSeg (pcfgs (F := F)) adm (pdats m) () defs₀ 𝒱₀ L lv 2 :=
  regSeg (pdats m) 2 launch2 (W4 m) (W5 m)
    (fun c => (Reg2.body_obligation (atTc (W4 m)) c).loose) (fun c => (pdats m 2 c).share_full fun _ => rfl) (fun _ _ => rfl) (fun _ _ => rfl)
    (fun c w => Reg2.A_eq (atTc (W4 m)) c w) (fun c w => (W5_arr m c w).symm)
    (fun c b hb => W5_of_ne m c b fun w e => hb (Finset.mem_image.mpr ⟨w, Finset.mem_univ _, e⟩))
    (fun c => Reg2.hin (atTc (W4 m)) c) (fun c => Reg2.hout (atTc (W4 m)) c)

set_option backward.isDefEq.respectTransparency.types false in
def reg3 : Pipeline.RegionSeg (pcfgs (F := F)) adm (pdats m) () defs₀ 𝒱₀ L lv 3 :=
  regSeg (pdats m) 3 launch3 (W6 m) (W7 m)
    (fun c => (Reg3.body_obligation (atTc (W6 m)) c).loose) (fun c => (pdats m 3 c).share_full fun _ => rfl) (fun _ _ => rfl) (fun _ _ => rfl)
    (fun c w => Reg3.A_eq (atTc (W6 m)) c w) (fun c w => (W7_arr m c w).symm)
    (fun c b hb => W7_of_ne m c b fun w e => hb (Finset.mem_image.mpr ⟨w, Finset.mem_univ _, e⟩))
    (hinA (pdats m) 3 fun _ _ => rfl) (houtA (pdats m) 3 fun _ _ => rfl)

/-! ## @main as segments, and the launch -/

/-- @main's seven items in order: a region per pallas_call, a host segment per stretch from its boundary's contents. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and the final memory holds, at every unscoped buffer of every core, the last boundary's contents. -/
theorem run (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show T (W7 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: every argument array ends as launched (no host stretch writes one, no region writes one back). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_kept m c main_arg0 (by decide) (by decide) (by decide) (by decide) (by decide) (by decide) (by decide)),
     (h c _ (mem_uc main_arg1 (by decide))).trans (W7_kept m c main_arg1 (by decide) (by decide) (by decide) (by decide) (by decide) (by decide) (by decide)),
     (h c _ (mem_uc main_arg2 (by decide))).trans (W7_kept m c main_arg2 (by decide) (by decide) (by decide) (by decide) (by decide) (by decide) (by decide)),
     (h c _ (mem_uc main_arg3 (by decide))).trans (W7_kept m c main_arg3 (by decide) (by decide) (by decide) (by decide) (by decide) (by decide) (by decide)),
     (h c _ (mem_uc main_arg4 (by decide))).trans (W7_kept m c main_arg4 (by decide) (by decide) (by decide) (by decide) (by decide) (by decide) (by decide)),
     (h c _ (mem_uc main_arg5 (by decide))).trans (W7_kept m c main_arg5 (by decide) (by decide) (by decide) (by decide) (by decide) (by decide) (by decide)),
     (h c _ (mem_uc main_arg6 (by decide))).trans (W7_kept m c main_arg6 (by decide) (by decide) (by decide) (by decide) (by decide) (by decide) (by decide))⟩)
    (run m ρ)

end Cert.Kernel.Run

end
-- ==== Proof.Reg0.lean ====
import proofs.«408560_j30485677867710_3_alg».proof.Proof.Gen.KernelIdeal.Launch
import proofs.«408560_j30485677867710_3_alg».proof.Proof.Gen.KernelIdeal.Skeleton
import proofs.«408560_j30485677867710_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 0: the batch statistics (column sums and column sums of squares), at the entry contents `V` -/

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's block of 2048 rows at point `t`, at its literal type. -/
abbrev xblk (c : Dev nD) (t : Fin cfg0.N) : Vec F S2048x256 .f32 := iblk V c 0 t

/-- The input window's current staging buffer holds its block at every point, fetched there or not, for any proof
    data whose array is `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch of the body -/

/-- The condition of the body's conditional (the reset of the two accumulators), from the grid coordinates. -/
abbrev cond (i : grid0.Coords) : Prop :=
  (Scalar.cmpi .ne (Scalar.extui (Scalar.cmpi .eq (BitVec.ofNat 32 (i 0).val) 0#32)) 0#32) = 1#1

/-- It holds at the first point only: decided over the grid. -/
theorem hcond : ∀ t : Fin cfg0.N, cond (grid0.coords t) ↔ t.val = 0 :=
  (by decide +kernel : ∀ t : Fin grid0.N, cond (grid0.coords t) ↔ t.val = 0)

/-! ## What the body leaves in the two accumulators -/

/-- The sum's staging buffer after the point at position `n`: at the first point the zero fill plus the block's column
    sums, later what the point before left plus the block's column sums. -/
def acc1 (c : Dev nD) : (n : ℕ) → n < cfg0.N → Vec F S1x256 .f32
  | 0, hn => k0_pay3 (xblk V c ⟨0, hn⟩) k0_pay1
  | n + 1, hn => k0_pay3 (xblk V c ⟨n + 1, hn⟩) (acc1 c n (Nat.lt_of_succ_lt hn))

/-- The sum of squares' staging buffer after the point at position `n`, likewise. -/
def acc2 (c : Dev nD) : (n : ℕ) → n < cfg0.N → Vec F S1x256 .f32
  | 0, hn => k0_pay4 (xblk V c ⟨0, hn⟩) k0_pay2
  | n + 1, hn => k0_pay4 (xblk V c ⟨n + 1, hn⟩) (acc2 c n (Nat.lt_of_succ_lt hn))

theorem acc1_first (c : Dev nD) (t : Fin cfg0.N) (h : t.val = 0) :
    acc1 V c t.val t.isLt = k0_pay3 (xblk V c t) k0_pay1 := by
  obtain ⟨n, hn⟩ := t
  cases n with
  | zero => rfl
  | succ n => exact absurd h (Nat.succ_ne_zero n)

theorem acc1_later (c : Dev nD) (t : Fin cfg0.N) (h : t.val ≠ 0) :
    acc1 V c t.val t.isLt = k0_pay3 (xblk V c t) (acc1 V c (t.val - 1) (Nat.lt_of_le_of_lt (Nat.sub_le _ _) t.isLt)) := by
  obtain ⟨n, hn⟩ := t
  cases n with
  | zero => exact absurd rfl h
  | succ n => rfl

theorem acc2_first (c : Dev nD) (t : Fin cfg0.N) (h : t.val = 0) :
    acc2 V c t.val t.isLt = k0_pay4 (xblk V c t) k0_pay2 := by
  obtain ⟨n, hn⟩ := t
  cases n with
  | zero => rfl
  | succ n => exact absurd h (Nat.succ_ne_zero n)

theorem acc2_later (c : Dev nD) (t : Fin cfg0.N) (h : t.val ≠ 0) :
    acc2 V c t.val t.isLt = k0_pay4 (xblk V c t) (acc2 V c (t.val - 1) (Nat.lt_of_le_of_lt (Nat.sub_le _ _) t.isLt)) := by
  obtain ⟨n, hn⟩ := t
  cases n with
  | zero => exact absurd rfl h
  | succ n => rfl

/-! ## The body's triple, case by case -/

/-- The offsets of every access of the body: zero on both axes. -/
theorem hz : (![0, 0] : Fin 2 → Nat) = fun _ => 0 := funext fun a => by fin_cases a <;> rfl

set_option maxHeartbeats 1000000 in
/-- At the first point: on whole staging memrefs, the input's at read contents `x0` and the outputs' at anything, the
    body runs to the continuation holding the input's as it was and each accumulator at its zero fill plus the block's
    contribution. -/
theorem sound_kernel_first (c : Dev nD) (E : Set ℕ) (i : grid0.Coords) (hc : cond i)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay3 x0 k0_pay1)
            ∗ owns (c : Thread nD τ) arg3 fullShare (k0_pay4 x0 k0_pay2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (fun y => ⟨_, List.mem_cons_self, View.mem_set_unit_zero (S := S1x256) hz inb_S1x256_S1x256_0_0 y⟩)]
    rw [View.canon_cons_unit_zero (S := S1x256) hz, View.readCov_unit_zero (S := S1x256) _ hz]
    simp only [View.readAt_eq_ld, View.ld_unit_zero (S := S2048x256) hz]
  · iexists _; isplitr
    swap; · iexact H2
    ipureintro
    sl_unfold_words
    rw [View.read_writes_eq_canon _ _ _ (fun y => ⟨_, List.mem_cons_self, View.mem_set_unit_zero (S := S1x256) hz inb_S1x256_S1x256_0_0 y⟩)]
    rw [View.canon_cons_unit_zero (S := S1x256) hz, View.readCov_unit_zero (S := S1x256) _ hz]
    simp only [View.readAt_eq_ld, View.ld_unit_zero (S := S2048x256) hz]

set_option maxHeartbeats 1000000 in
/-- At a later point: the accumulators' memrefs at read contents `a1`, `a2`, the body runs to the continuation holding
    each at what it held plus the block's contribution. -/
theorem sound_kernel_later (c : Dev nD) (E : Set ℕ) (i : grid0.Coords) (hc : ¬cond i)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole)
    (x0 : Vec F S2048x256 .f32) (a1 a2 : Vec F S1x256 .f32) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (k0_pay3 x0 a1)
            ∗ owns (c : Thread nD τ) arg3 fullShare (k0_pay4 x0 a2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%f1, %hf1, H1⟩, ⟨%f2, %hf2, H2⟩, Hk⟩
  subst hf0; subst hf1; subst hf2
  sl_exec (disch := exact hc)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_singleton_self _, View.mem_set_unit_zero (S := S1x256) hz inb_S1x256_S1x256_0_0 y⟩)]
    rw [View.canon_unit_zero (S := S1x256) hz]
    simp only [View.readAt_eq_ld, View.ld_unit_zero (S := S2048x256) hz, View.ld_unit_zero (S := S1x256) hz]
  · iexists _; isplitr
    swap; · iexact H2
    ipureintro
    rw [View.read_writes_eq_canon _ _ _ (fun y => ⟨_, List.mem_singleton_self _, View.mem_set_unit_zero (S := S1x256) hz inb_S1x256_S1x256_0_0 y⟩)]
    rw [View.canon_unit_zero (S := S1x256) hz]
    simp only [View.readAt_eq_ld, View.ld_unit_zero (S := S2048x256) hz, View.ld_unit_zero (S := S1x256) hz]

/-! ## The pipeline's proof data -/

/-- The proof data of the region on core `c`: the arrays as the region finds them (`V`); after the body at point `t`
    the input's buffer at its block and the two accumulators' at their running contents; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => acc1 V c t.val t.isLt
    | ⟨2, _⟩ => acc2 V c t.val t.isLt
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = acc1 V c t.val t.isLt := by dsimp only [dat]
theorem after_2 (c : Dev nD) (t : Fin cfg0.N) : (dat V c).after 2 t = acc2 V c t.val t.isLt := by dsimp only [dat]

/-- The input's current staging buffer holds its block at every point. -/
theorem before_0 (c : Dev nD) (t : Fin cfg0.N) (d) : (dat V c).before 0 t d = iblk V c 0 t :=
  before_in_of V (dat V c) (A_eq V c 0) (after_0 V c) t d

/-- After the first point the sum's staging buffer holds what the body left at the point before: it is written back
    after the last point only, the window is live and uncut. -/
theorem before_1_later (c : Dev nD) (t : Fin cfg0.N) (h0 : t.val ≠ 0) (d) :
    (dat V c).before 1 t d = acc1 V c (t.val - 1) (Nat.lt_of_le_of_lt (Nat.sub_le _ _) t.isLt) := by
  have hN : t.val < 4 := lt_of_lt_of_eq t.isLt (show cfg0.N = 4 from N_0)
  rw [Dat.before_out_kept _ 1 rfl t h0 (Bool.eq_false_iff.mpr fun h => by have := (flush0_1 _).mp h; dsimp only at this; omega)
    (fun _ => rfl) (fun _ _ => rfl)]
  dsimp only [dat]

/-- The same of the sum of squares' staging buffer. -/
theorem before_2_later (c : Dev nD) (t : Fin cfg0.N) (h0 : t.val ≠ 0) (d) :
    (dat V c).before 2 t d = acc2 V c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 800000 in
/-- The body at any point: the input's memref holds its block; at the first point the accumulators' hold anything and
    the first case's triple applies, later they hold what the point before left and the later case's does; the
    invariant and the core's tallies pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1, after_2]
  by_cases h0 : t.val = 0
  · rw [acc1_first V c t h0, acc2_first V c t h0]
    iintro ⟨HΦ, Ho, ⟨%d0, H0⟩, ⟨%d1, H1⟩, ⟨%d2, H2⟩⟩
    iapply (sound_kernel_first c Set.univ (grid0.coords t) ((hcond t).mpr h0) _ _ _ _ _ _ (xblk V c t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_later V c t h0, acc2_later V c t h0]
    simp only [before_1_later V c t h0, before_2_later V c t h0]
    iintro ⟨HΦ, Ho, ⟨%d0, H0⟩, ⟨%d1, H1⟩, ⟨%d2, H2⟩⟩
    iapply (sound_kernel_later c Set.univ (grid0.coords t) (fun h => h0 ((hcond t).mp h)) _ _ _ _ _ _ (xblk V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.Reg1.lean ====
/- Kernel region 1 (the batch-norm-then-projection kernel) at a parameter `V`, the TensorCore's buffer contents when the
   region is entered: what each window's block is at a grid point, what the body leaves in the two output windows'
   staging buffers (through the skeleton's payloads), the body's triple, the pipeline's proof data and its body
   obligation. Generic in the float instance. -/
import proofs.«408560_j30485677867710_3_alg».proof.Proof.Gen.KernelIdeal.Launch
import proofs.«408560_j30485677867710_3_alg».proof.Proof.Gen.KernelIdeal.Skeleton
import proofs.«408560_j30485677867710_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. The four input windows are uncut and never idle. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rX : Rect S2048x256 := Rect.unit (s := S2048x256) ![0, 0] S2048x256.size inb_S2048x256_S2048x256_0_0
abbrev rS : Rect S1x256 := Rect.unit (s := S1x256) ![0, 0] S1x256.size inb_S1x256_S1x256_0_0
abbrev rW : Rect S256x768 := Rect.unit (s := S256x768) ![0, 0] S256x768.size inb_S256x768_S256x768_0_0
abbrev rP : Rect S2048x768 := Rect.unit (s := S2048x768) ![0, 0] S2048x768.size inb_S2048x768_S2048x768_0_0

/-! ## What the body leaves in each output window's buffer -/

/-- Window 4 (the normalised block) after the body, from the blocks of the input, the mean and the variance: its
    one store, whole, of the skeleton's first payload. -/
def out4 (x : Vec F S2048x256 .f32) (mean : Vec F S1x256 .f32) (var : Vec F S1x256 .f32) : Vec F S2048x256 .f32 :=
  View.canon [⟨rX, k1_pay1 (View.ld var rS) (View.ld x rX) (View.ld mean rS)⟩]

/-- Window 5 (the projected block) after the body, from those and the weights' block: its one store, whole, of
    the skeleton's second payload. -/
def out5 (x : Vec F S2048x256 .f32) (mean : Vec F S1x256 .f32) (var : Vec F S1x256 .f32) (wts : Vec F S256x768 .bf16) :
    Vec F S2048x768 .bf16 :=
  View.canon [⟨rP, k1_pay2 (View.ld var rS) (View.ld x rX) (View.ld mean rS) (View.ld wts rW)⟩]

/-- One whole store covers its buffer. -/
theorem cover4 (p0 : Vec F S2048x256 .f32) (y : S2048x256.Idx) :
    ∃ pc ∈ ([⟨rX, p0⟩] : List (View.Piece (Elt F) S2048x256 .f32)), y ∈ pc.1.set :=
  View.cover_of_tiled [⟨rX, p0⟩] S2048x256.size (by rfl) y

theorem cover5 (p0 : Vec F S2048x768 .bf16) (y : S2048x768.Idx) :
    ∃ pc ∈ ([⟨rP, p0⟩] : List (View.Piece (Elt F) S2048x768 .bf16)), y ∈ pc.1.set :=
  View.cover_of_tiled [⟨rP, p0⟩] S2048x768.size (by rfl) y

/-! ## The body's triple -/

set_option maxHeartbeats 1000000 in
/-- The kernel body on whole staging memrefs, the inputs' at read contents and the outputs' at anything, runs to the
    continuation holding the inputs' as they were and each output's at what its one whole store leaves. -/
theorem sound_kernel (c : Dev nD) (E : Set ℕ) (i : grid1.Coords)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S256x768 .bf16) (harg4 : arg4.IsWhole)
    (arg5 : Memref sig .tc .vmem S2048x256 .f32) (harg5 : arg5.IsWhole) (arg6 : Memref sig .tc .vmem S2048x768 .bf16) (harg6 : arg6.IsWhole)
    (x : Vec F S2048x256 .f32) (mean : Vec F S1x256 .f32) (var : Vec F S1x256 .f32) (wts : Vec F S256x768 .bf16)
    (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare wts
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare wts
            ∗ owns (c : Thread nD τ) arg5 fullShare (out4 x mean var)
            ∗ owns (c : Thread nD τ) arg6 fullShare (out5 x mean var wts)) -∗ K ⟨⟩))
      ⊢ wp frame (wpE (defs₀ (F := F)) Variants.none c none) E
          (cc1__bn_proj_kernel i arg1 harg1 arg2 harg2 arg3 harg3 arg4 harg4 arg5 harg5 arg6 harg6) K := by
  simp only [cc1__bn_proj_kernel_eq_skeleton]; unfold cc1__bn_proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4 _)
  iexists _; isplitr
  swap; · iexact H6
  ipureintro
  exact View.read_writes_eq_canon _ _ _ (cover5 _)

/-! ## The pipeline's proof data -/

/-- What the body leaves in output window 4's staging buffer at point `t`: the normalised block of the input
    blocks there. -/
def after4 (c : Dev nD) (t : Fin cfg1.N) : Vec F S2048x256 .f32 :=
  out4 (iblk V c 0 t) (iblk V c 1 t) (iblk V c 2 t)

/-- What the body leaves in output window 5's staging buffer at point `t`: the projected block of the input
    blocks there. -/
def after5 (c : Dev nD) (t : Fin cfg1.N) : Vec F S2048x768 .bf16 :=
  out5 (iblk V c 0 t) (iblk V c 1 t) (iblk V c 2 t) (iblk V c 3 t)

/-- The proof data of the region on core `c`: the arrays as the region finds them; after the body at a point each
    input's buffer at its block and each output's at what the body's whole store leaves; the invariant the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => after4 V c t
    | ⟨5, _⟩ => after5 V c t
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = after4 V c t := by dsimp only [dat]
theorem after_5 (c : Dev nD) (t : Fin cfg1.N) : (dat V c).after 5 t = after5 V c t := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant and
    the core's tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The input windows' arrays after the run -/

/-- An input window's array is never written: after any number of points it holds the entry contents. -/
theorem arrAt_in_0 (c : Dev nD) (n : Nat) : (dat V c).arrAt 0 n = V c (Pipeline.arrRef spec1 0) :=
  ((dat V c).arrAt_in 0 rfl n).trans (A_eq V c 0)
theorem arrAt_in_1 (c : Dev nD) (n : Nat) : (dat V c).arrAt 1 n = V c (Pipeline.arrRef spec1 1) :=
  ((dat V c).arrAt_in 1 rfl n).trans (A_eq V c 1)
theorem arrAt_in_2 (c : Dev nD) (n : Nat) : (dat V c).arrAt 2 n = V c (Pipeline.arrRef spec1 2) :=
  ((dat V c).arrAt_in 2 rfl n).trans (A_eq V c 2)
theorem arrAt_in_3 (c : Dev nD) (n : Nat) : (dat V c).arrAt 3 n = V c (Pipeline.arrRef spec1 3) :=
  ((dat V c).arrAt_in 3 rfl n).trans (A_eq V c 3)

end Cert.KernelIdeal.Reg1

end
-- ==== Proof.Reg2Defs.lean ====
import proofs.«408560_j30485677867710_3_alg».proof.Proof.Gen.KernelIdeal.Launch
import proofs.«408560_j30485677867710_3_alg».proof.Proof.Gen.KernelIdeal.Skeleton
import proofs.«408560_j30485677867710_3_alg».proof.Proof.Gen.KernelIdeal.Points

noncomputable section

namespace Cert.KernelIdeal.Reg2

open Cert.KernelIdeal Cert.KernelIdeal.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The five input blocks at a point, at their literal types: the query, key and value blocks of the head, the
    head's output projection, and the residual block the output is seeded with. -/
abbrev qblk (c : Dev nD) (t : Fin cfg2.N) : Vec F S1x2048x128 .bf16 := iblk V c 0 t
abbrev kblk (c : Dev nD) (t : Fin cfg2.N) : Vec F S1x2048x128 .bf16 := iblk V c 1 t
abbrev vblk (c : Dev nD) (t : Fin cfg2.N) : Vec F S1x2048x128 .bf16 := iblk V c 2 t
abbrev ublk (c : Dev nD) (t : Fin cfg2.N) : Vec F S1x128x256 .bf16 := iblk V c 3 t
abbrev hblk (c : Dev nD) (t : Fin cfg2.N) : Vec F S2048x256 .f32 := iblk V c 4 t

/-! ## The carried state -/

/-- What is carried from point to point: the running row maximum `m`, the running denominator `l`, the running
    weighted sum `acc` (the three scratch buffers), and the output block's staging buffer `o`. -/
structure St (F : FTy → Type) where
  m : Vec F S2048x1 .f32
  l : Vec F S2048x1 .f32
  acc : Vec F S2048x128 .f32
  o : Vec F S2048x256 .f32

/-- One point of the grid, at position `n` (key block `n % 4`, head `(n / 4) % 2`), on the point's blocks: the
    output is seeded with the residual block at the first key block of the first head; the scratch is reset at the
    first key block of each head; the online-softmax update of `m`, `l`, `acc` with the key block; at the last key
    block of each head the normalized sum, projected, is added into the output. -/
def stepAt (n : ℕ) (q k v : Vec F S1x2048x128 .bf16) (u : Vec F S1x128x256 .bf16) (h : Vec F S2048x256 .f32) (s : St F) : St F :=
  let o1 : Vec F S2048x256 .f32 := if n % 8 = 0 then k2_pay8 h else s.o
  let m0 : Vec F S2048x1 .f32 := if n % 4 = 0 then k2_pay9 else s.m
  let l0 : Vec F S2048x1 .f32 := if n % 4 = 0 then k2_pay10 else s.l
  let a0 : Vec F S2048x128 .f32 := if n % 4 = 0 then k2_pay11 else s.acc
  let m1 : Vec F S2048x1 .f32 := k2_pay3 (k2_pay14 q k m0)
  let l1 : Vec F S2048x1 .f32 := k2_pay1 (k2_pay17 q k m0 m0 l0)
  let a1 : Vec F S2048x128 .f32 := k2_pay2 (k2_pay12 v) (k2_pay15 q k m0 m0) (k2_pay16 q k m0) a0
  let o2 : Vec F S2048x256 .f32 := if n % 4 = 3 then k2_pay4 a1 l1 u o1 else o1
  ⟨m1, l1, a1, o2⟩

/-- The state after `n` points (before point `n`). Before the first point nothing is known of the buffers; the
    value here is a placeholder no later state depends on (point 0 resets the scratch and seeds the output). -/
def stAt (c : Dev nD) : ℕ → St F
  | 0 => ⟨k2_pay9, k2_pay10, k2_pay11, constant S2048x256 .f32 0x00000000#32⟩
  | n + 1 =>
    if h : n < cfg2.N then
      stepAt n (qblk V c ⟨n, h⟩) (kblk V c ⟨n, h⟩) (vblk V c ⟨n, h⟩) (ublk V c ⟨n, h⟩) (hblk V c ⟨n, h⟩) (stAt c n)
    else stAt c n

theorem stAt_succ (c : Dev nD) (t : Fin cfg2.N) :
    stAt V c (t.val + 1) = stepAt t.val (qblk V c t) (kblk V c t) (vblk V c t) (ublk V c t) (hblk V c t) (stAt V c t.val) := by
  rw [stAt, dif_pos t.isLt]

/-- What the body leaves in the two reduction outputs' staging buffers where it stores them: the column sums of the
    output block and of its squares. -/
abbrev psumOf (o : Vec F S2048x256 .f32) : Vec F S1x1x256 .f32 := k2_pay6 o
abbrev psumsqOf (o : Vec F S2048x256 .f32) : Vec F S1x1x256 .f32 := k2_pay7 o

end Cert.KernelIdeal.Reg2

end
-- ==== Proof.Reg2Runs.lean ====
import proofs.«408560_j30485677867710_3_alg».proof.Proof.Reg2Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the scratch reset (the first key block), from the grid coordinates. -/
abbrev condR (i : grid2.Coords) : Prop :=
  (Scalar.cmpi .ne (Scalar.extui (Scalar.cmpi .eq (BitVec.ofNat 32 (i 2).val) 0#32)) 0#32) = 1#1

theorem hcond1 : ∀ t : Fin cfg2.N, k2_cond1 (grid2.coords t) = 1#1 ↔ t.val % 8 = 0 :=
  (by decide +kernel : ∀ t : Fin grid2.N, k2_cond1 (grid2.coords t) = 1#1 ↔ t.val % 8 = 0)
theorem hcondR : ∀ t : Fin cfg2.N, condR (grid2.coords t) ↔ t.val % 4 = 0 :=
  (by decide +kernel : ∀ t : Fin grid2.N, condR (grid2.coords t) ↔ t.val % 4 = 0)
theorem hcond3 : ∀ t : Fin cfg2.N, k2_cond3 (grid2.coords t) = 1#1 ↔ t.val % 4 = 3 :=
  (by decide +kernel : ∀ t : Fin grid2.N, k2_cond3 (grid2.coords t) = 1#1 ↔ t.val % 4 = 3)
theorem hcond4 : ∀ t : Fin cfg2.N, k2_cond4 (grid2.coords t) = 1#1 ↔ t.val % 8 = 7 :=
  (by decide +kernel : ∀ t : Fin grid2.N, k2_cond4 (grid2.coords t) = 1#1 ↔ t.val % 8 = 7)

/-! ## Where the output windows are idle, and where they are written back -/

theorem idle5_iff : ∀ t : Fin cfg2.N, cfg2.idle 5 (grid2.coords t) = true ↔ (¬ t.val % 8 = 0 ∧ ¬ t.val % 4 = 3) :=
  (by decide +kernel : ∀ t : Fin grid2.N, cfg2.idle 5 (grid2.coords t) = true ↔ (¬ t.val % 8 = 0 ∧ ¬ t.val % 4 = 3))
theorem idle6_iff : ∀ t : Fin cfg2.N, cfg2.idle 6 (grid2.coords t) = true ↔ ¬ t.val % 8 = 7 :=
  (by decide +kernel : ∀ t : Fin grid2.N, cfg2.idle 6 (grid2.coords t) = true ↔ ¬ t.val % 8 = 7)
theorem idle7_iff : ∀ t : Fin cfg2.N, cfg2.idle 7 (grid2.coords t) = true ↔ ¬ t.val % 8 = 7 :=
  (by decide +kernel : ∀ t : Fin grid2.N, cfg2.idle 7 (grid2.coords t) = true ↔ ¬ t.val % 8 = 7)

theorem hz2 : (![0, 0] : Fin 2 → ℕ) = fun _ => 0 := by funext a; fin_cases a <;> rfl
theorem hz3 : (![0, 0, 0] : Fin 3 → ℕ) = fun _ => 0 := by funext a; fin_cases a <;> rfl

/-! ## The body's accesses: each whole buffer, through the unit rectangle at zero offsets -/

abbrev r3 : Rect S1x2048x128 := Rect.unit (s := S1x2048x128) ![0, 0, 0] S1x2048x128.size inb_S1x2048x128_S1x2048x128_0_0_0
abbrev r6 : Rect S1x128x256 := Rect.unit (s := S1x128x256) ![0, 0, 0] S1x128x256.size inb_S1x128x256_S1x128x256_0_0_0
abbrev r8 : Rect S2048x256 := Rect.unit (s := S2048x256) ![0, 0] S2048x256.size inb_S2048x256_S2048x256_0_0
abbrev r9 : Rect S1x1x256 := Rect.unit (s := S1x1x256) ![0, 0, 0] S1x1x256.size inb_S1x1x256_S1x1x256_0_0_0
abbrev r11 : Rect S2048x1 := Rect.unit (s := S2048x1) ![0, 0] S2048x1.size inb_S2048x1_S2048x1_0_0
abbrev r13 : Rect S2048x128 := Rect.unit (s := S2048x128) ![0, 0] S2048x128.size inb_S2048x128_S2048x128_0_0

theorem cov8 (L : List (View.Piece (Elt F) S2048x256 .f32)) (p : S2048x256.Idx → Elt F .f32) (y : S2048x256.Idx) :
    ∃ pc ∈ ((⟨r8, p⟩ : View.Piece (Elt F) S2048x256 .f32) :: L), y ∈ pc.1.set :=
  ⟨_, List.mem_cons_self .., View.mem_set_unit_zero (S := S2048x256) hz2 inb_S2048x256_S2048x256_0_0 y⟩
theorem cov9 (L : List (View.Piece (Elt F) S1x1x256 .f32)) (p : S1x1x256.Idx → Elt F .f32) (y : S1x1x256.Idx) :
    ∃ pc ∈ ((⟨r9, p⟩ : View.Piece (Elt F) S1x1x256 .f32) :: L), y ∈ pc.1.set :=
  ⟨_, List.mem_cons_self .., View.mem_set_unit_zero (S := S1x1x256) hz3 inb_S1x1x256_S1x1x256_0_0_0 y⟩
theorem cov11 (L : List (View.Piece (Elt F) S2048x1 .f32)) (p : S2048x1.Idx → Elt F .f32) (y : S2048x1.Idx) :
    ∃ pc ∈ ((⟨r11, p⟩ : View.Piece (Elt F) S2048x1 .f32) :: L), y ∈ pc.1.set :=
  ⟨_, List.mem_cons_self .., View.mem_set_unit_zero (S := S2048x1) hz2 inb_S2048x1_S2048x1_0_0 y⟩
theorem cov13 (L : List (View.Piece (Elt F) S2048x128 .f32)) (p : S2048x128.Idx → Elt F .f32) (y : S2048x128.Idx) :
    ∃ pc ∈ ((⟨r13, p⟩ : View.Piece (Elt F) S2048x128 .f32) :: L), y ∈ pc.1.set :=
  ⟨_, List.mem_cons_self .., View.mem_set_unit_zero (S := S2048x128) hz2 inb_S2048x128_S2048x128_0_0 y⟩

end Cert.KernelIdeal.Reg2

end
-- ==== Proof.Reg2RunA.lean ====
import proofs.«408560_j30485677867710_3_alg».proof.Proof.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key block of the first head: the output is seeded with the residual block, the scratch is reset, then the online-softmax update. -/
theorem run_A (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : k2_cond1 i = 1#1) (h2 : condR i) (h3 : ¬ k2_cond3 i = 1#1) (h4 : ¬ k2_cond4 i = 1#1)
    (q k v : Vec F S1x2048x128 .bf16) (h : Vec F S2048x256 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg7 fullShare h
        ∗ (∃ d, owns (c : Thread nD τ) arg8 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg3 fullShare q
            ∗ owns (c : Thread nD τ) arg4 fullShare k
            ∗ owns (c : Thread nD τ) arg5 fullShare v
            ∗ owns (c : Thread nD τ) arg7 fullShare h
            ∗ owns (c : Thread nD τ) arg8 fullShare (k2_pay8 h)
            ∗ owns (c : Thread nD τ) arg11 fullShare (k2_pay3 (k2_pay14 q k k2_pay9))
            ∗ owns (c : Thread nD τ) arg12 fullShare (k2_pay1 (k2_pay17 q k k2_pay9 k2_pay9 k2_pay10))
            ∗ owns (c : Thread nD τ) arg13 fullShare (k2_pay2 (k2_pay12 v) (k2_pay15 q k k2_pay9 k2_pay9) (k2_pay16 q k k2_pay9) k2_pay11)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f7, %hf7, H7⟩, ⟨%d8, %f8, -, H8⟩, ⟨%d11, %f11, -, H11⟩, ⟨%d12, %f12, -, H12⟩, ⟨%d13, %f13, -, H13⟩, Hk⟩
  subst hf3; subst hf4; subst hf5; subst hf7
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists f7; isplitr; · ipureintro; rfl
    iexact H7
  isplitl [H8]
  · iexists _; isplitr
    swap; · iexact H8
    ipureintro
    refine (View.read_writes_eq_canon _ _ _ (cov8 _ _)).trans ?_
    sl_unfold_words
    rw [View.canon_cons_unit_zero (S := S2048x256) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 8 failed"
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.KernelIdeal.Reg2

end
-- ==== Proof.Reg2RunB.lean ====
import proofs.«408560_j30485677867710_3_alg».proof.Proof.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that is neither the first nor the last key block of a head: only the online-softmax update. -/
theorem run_B (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : ¬ condR i) (h3 : ¬ k2_cond3 i = 1#1) (h4 : ¬ k2_cond4 i = 1#1)
    (q k v : Vec F S1x2048x128 .bf16) (m l : Vec F S2048x1 .f32) (a : Vec F S2048x128 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg11 fullShare m
        ∗ owns (c : Thread nD τ) arg12 fullShare l
        ∗ owns (c : Thread nD τ) arg13 fullShare a
        ∗ (iprop(owns (c : Thread nD τ) arg3 fullShare q
            ∗ owns (c : Thread nD τ) arg4 fullShare k
            ∗ owns (c : Thread nD τ) arg5 fullShare v
            ∗ owns (c : Thread nD τ) arg11 fullShare (k2_pay3 (k2_pay14 q k m))
            ∗ owns (c : Thread nD τ) arg12 fullShare (k2_pay1 (k2_pay17 q k m m l))
            ∗ owns (c : Thread nD τ) arg13 fullShare (k2_pay2 (k2_pay12 v) (k2_pay15 q k m m) (k2_pay16 q k m) a)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f11, %hf11, H11⟩, ⟨%f12, %hf12, H12⟩, ⟨%f13, %hf13, H13⟩, Hk⟩
  subst hf3; subst hf4; subst hf5; subst hf11; subst hf12; subst hf13
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.KernelIdeal.Reg2

end
-- ==== Proof.Reg2RunC.lean ====
import proofs.«408560_j30485677867710_3_alg».proof.Proof.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block of the first head: the update, then the normalized sum, projected, is added into the output. -/
theorem run_C (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : ¬ condR i) (h3 : k2_cond3 i = 1#1) (h4 : ¬ k2_cond4 i = 1#1)
    (q k v : Vec F S1x2048x128 .bf16) (u : Vec F S1x128x256 .bf16) (o : Vec F S2048x256 .f32) (m l : Vec F S2048x1 .f32) (a : Vec F S2048x128 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare u
        ∗ owns (c : Thread nD τ) arg8 fullShare o
        ∗ owns (c : Thread nD τ) arg11 fullShare m
        ∗ owns (c : Thread nD τ) arg12 fullShare l
        ∗ owns (c : Thread nD τ) arg13 fullShare a
        ∗ (iprop(owns (c : Thread nD τ) arg3 fullShare q
            ∗ owns (c : Thread nD τ) arg4 fullShare k
            ∗ owns (c : Thread nD τ) arg5 fullShare v
            ∗ owns (c : Thread nD τ) arg6 fullShare u
            ∗ owns (c : Thread nD τ) arg8 fullShare (k2_pay4 (k2_pay2 (k2_pay12 v) (k2_pay15 q k m m) (k2_pay16 q k m) a) (k2_pay1 (k2_pay17 q k m m l)) u o)
            ∗ owns (c : Thread nD τ) arg11 fullShare (k2_pay3 (k2_pay14 q k m))
            ∗ owns (c : Thread nD τ) arg12 fullShare (k2_pay1 (k2_pay17 q k m m l))
            ∗ owns (c : Thread nD τ) arg13 fullShare (k2_pay2 (k2_pay12 v) (k2_pay15 q k m m) (k2_pay16 q k m) a)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f8, %hf8, H8⟩, ⟨%f11, %hf11, H11⟩, ⟨%f12, %hf12, H12⟩, ⟨%f13, %hf13, H13⟩, Hk⟩
  subst hf3; subst hf4; subst hf5; subst hf6; subst hf8; subst hf11; subst hf12; subst hf13
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    refine (View.read_writes_eq_canon _ _ _ (cov8 _ _)).trans ?_
    sl_unfold_words
    rw [View.canon_cons_unit_zero (S := S2048x256) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 8 failed"
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.KernelIdeal.Reg2

end
-- ==== Proof.Reg2RunD.lean ====
import proofs.«408560_j30485677867710_3_alg».proof.Proof.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key block of the second head: the scratch is reset, then the online-softmax update. -/
theorem run_D (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : condR i) (h3 : ¬ k2_cond3 i = 1#1) (h4 : ¬ k2_cond4 i = 1#1)
    (q k v : Vec F S1x2048x128 .bf16) (K : PUnit → sProp 𝕄) :
    iprop(owns (c : Thread nD τ) arg3 fullShare q
        ∗ owns (c : Thread nD τ) arg4 fullShare k
        ∗ owns (c : Thread nD τ) arg5 fullShare v
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg3 fullShare q
            ∗ owns (c : Thread nD τ) arg4 fullShare k
            ∗ owns (c : Thread nD τ) arg5 fullShare v
            ∗ owns (c : Thread nD τ) arg11 fullShare (k2_pay3 (k2_pay14 q k k2_pay9))
            ∗ owns (c : Thread nD τ) arg12 fullShare (k2_pay1 (k2_pay17 q k k2_pay9 k2_pay9 k2_pay10))
            ∗ owns (c : Thread nD τ) arg13 fullShare (k2_pay2 (k2_pay12 v) (k2_pay15 q k k2_pay9 k2_pay9) (k2_pay16 q k k2_pay9) k2_pay11)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%d11, %f11, -, H11⟩, ⟨%d12, %f12, -, H12⟩, ⟨%d13, %f13, -, H13⟩, Hk⟩
  subst hf3; subst hf4; subst hf5
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.KernelIdeal.Reg2

end
-- ==== Proof.Reg2RunE.lean ====
import proofs.«408560_j30485677867710_3_alg».proof.Proof.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block of the second head: the update, the projected normalized sum added into the output, and the output's column sums and sums of squares stored. -/
theorem run_E (c : Dev nD) (E : Set ℕ) (i : grid2.Coords)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x256 .bf16) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S1x1x256 .f32) (harg9 : arg9.IsWhole) (arg10 : Memref sig .tc .vmem S1x1x256 .f32) (harg10 : arg10.IsWhole)
    (arg11 : Memref sig .tc .vmem S2048x1 .f32) (harg11 : arg11.IsWhole) (arg12 : Memref sig .tc .vmem S2048x1 .f32) (harg12 : arg12.IsWhole)
    (arg13 : Memref sig .tc .vmem S2048x128 .f32) (harg13 : arg13.IsWhole)
    (h1 : ¬ k2_cond1 i = 1#1) (h2 : ¬ condR i) (h3 : k2_cond3 i = 1#1) (h4 : k2_cond4 i = 1#1)
    (q k v : Vec F S1x2048x128 .bf16) (u : Vec F S1x128x256 .bf16) (o : Vec F S2048x256 .f32) (m l : Vec F S2048x1 .f32) (a : Vec F S2048x128 .f32) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare u
        ∗ owns (c : Thread nD τ) arg8 fullShare o
        ∗ (∃ d, owns (c : Thread nD τ) arg9 fullShare d)
        ∗ (∃ d, owns (c : Thread nD τ) arg10 fullShare d)
        ∗ owns (c : Thread nD τ) arg11 fullShare m
        ∗ owns (c : Thread nD τ) arg12 fullShare l
        ∗ owns (c : Thread nD τ) arg13 fullShare a
        ∗ (iprop(owns (c : Thread nD τ) arg3 fullShare q
            ∗ owns (c : Thread nD τ) arg4 fullShare k
            ∗ owns (c : Thread nD τ) arg5 fullShare v
            ∗ owns (c : Thread nD τ) arg6 fullShare u
            ∗ owns (c : Thread nD τ) arg8 fullShare (k2_pay4 (k2_pay2 (k2_pay12 v) (k2_pay15 q k m m) (k2_pay16 q k m) a) (k2_pay1 (k2_pay17 q k m m l)) u o)
            ∗ owns (c : Thread nD τ) arg9 fullShare (k2_pay6 (k2_pay4 (k2_pay2 (k2_pay12 v) (k2_pay15 q k m m) (k2_pay16 q k m) a) (k2_pay1 (k2_pay17 q k m m l)) u o))
            ∗ owns (c : Thread nD τ) arg10 fullShare (k2_pay7 (k2_pay4 (k2_pay2 (k2_pay12 v) (k2_pay15 q k m m) (k2_pay16 q k m) a) (k2_pay1 (k2_pay17 q k m m l)) u o))
            ∗ owns (c : Thread nD τ) arg11 fullShare (k2_pay3 (k2_pay14 q k m))
            ∗ owns (c : Thread nD τ) arg12 fullShare (k2_pay1 (k2_pay17 q k m m l))
            ∗ owns (c : Thread nD τ) arg13 fullShare (k2_pay2 (k2_pay12 v) (k2_pay15 q k m m) (k2_pay16 q k m) a)) -∗ K ⟨⟩))
      ⊢ wp frame (wpE (defs₀ (F := F)) Variants.none c none) E
          (cc2_kernel i arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
  subst hf3; subst hf4; subst hf5; subst hf6; subst hf8; subst hf11; subst hf12; subst hf13
  sl_exec (disch := first | exact h1 | exact h2 | exact h3 | exact h4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    refine (View.read_writes_eq_canon _ _ _ (cov8 _ _)).trans ?_
    sl_unfold_words
    rw [View.canon_cons_unit_zero (S := S2048x256) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 8 failed"
  isplitl [H9]
  · iexists _; isplitr
    swap; · iexact H9
    ipureintro
    refine (View.read_writes_eq_canon _ _ _ (cov9 _ _)).trans ?_
    sl_unfold_words
    rw [View.canon_cons_unit_zero (S := S1x1x256) hz3]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 9 failed"
  isplitl [H10]
  · iexists _; isplitr
    swap; · iexact H10
    ipureintro
    refine (View.read_writes_eq_canon _ _ _ (cov9 _ _)).trans ?_
    sl_unfold_words
    rw [View.canon_cons_unit_zero (S := S1x1x256) hz3]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 10 failed"
  isplitl [H11]
  · iexists _; isplitr
    swap; · iexact H11
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 11 failed"
  isplitl [H12]
  · iexists _; isplitr
    swap; · iexact H12
    ipureintro
    refine (View.read_writes_eq_canon _ _ _ (cov11 _ _)).trans ?_
    sl_unfold_words
    rw [View.canon_cons_unit_zero (S := S2048x1) hz2]
    dsimp only
    first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 12 failed"
  iexists _; isplitr
  swap; · iexact H13
  ipureintro
  refine (View.read_writes_eq_canon _ _ _ (cov13 _ _)).trans ?_
  sl_unfold_words
  rw [View.canon_cons_unit_zero (S := S2048x128) hz2]
  dsimp only
  first | rfl | simp only [View.readAt_eq_ld, View.ld_unit_zero (S := S1x2048x128) hz3, View.ld_unit_zero (S := S1x128x256) hz3, View.ld_unit_zero (S := S2048x1) hz2, View.ld_unit_zero (S := S2048x128) hz2, View.ld_unit_zero (S := S2048x256) hz2, View.readCov_unit_zero (S := S2048x1) _ hz2, View.readCov_unit_zero (S := S2048x128) _ hz2, View.readCov_unit_zero (S := S2048x256) _ hz2] | fail "simp 13 failed"

end Cert.KernelIdeal.Reg2

end
-- ==== Proof.Reg2.lean ====
import proofs.«408560_j30485677867710_3_alg».proof.Proof.Reg2RunA
import proofs.«408560_j30485677867710_3_alg».proof.Proof.Reg2RunB
import proofs.«408560_j30485677867710_3_alg».proof.Proof.Reg2RunC
import proofs.«408560_j30485677867710_3_alg».proof.Proof.Reg2RunD
import proofs.«408560_j30485677867710_3_alg».proof.Proof.Reg2RunE

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The three scratch operands as memrefs: whole scoped buffers of the kernel's own. -/
abbrev sc0 : Memref sig .tc .vmem S2048x1 .f32 := Memref.whole cc2_scratch0
abbrev sc1 : Memref sig .tc .vmem S2048x1 .f32 := Memref.whole cc2_scratch1
abbrev sc2 : Memref sig .tc .vmem S2048x128 .f32 := Memref.whole cc2_scratch2

/-- The region invariant before position `n`: the generator register at some state, every scoped buffer that is
    neither a staging buffer of the region nor one of its three scratch buffers at some contents, and the three
    scratch buffers at the carried state's running maximum, denominator and weighted sum — except before the first
    key block of a head, where the body resets them and nothing is said of what they hold. -/
def Phi (c : Dev nD) (n : ℕ) : sProp 𝕄 :=
  iprop((∃ r, prngReg c r)
    ∗ Pipeline.scopedRestBut (Ix := Unit) (Name := ℕ) (U := UR sig nD τ) (Lvl := ℕ) (Val := Elt F) spec2 c [cc2_scratch0, cc2_scratch1, cc2_scratch2]
    ∗ (∃ (x0 : Vec F S2048x1 .f32) (x1 : Vec F S2048x1 .f32) (x2 : Vec F S2048x128 .f32),
        ⌜¬ n % 4 = 0 → x0 = (stAt V c n).m ∧ x1 = (stAt V c n).l ∧ x2 = (stAt V c n).acc⌝
        ∗ owns (c : Thread nD τ) sc0 fullShare x0 ∗ owns (c : Thread nD τ) sc1 fullShare x1 ∗ owns (c : Thread nD τ) sc2 fullShare x2))

/-- The proof data of the region on core `c`: the arrays as the region finds them; after the body each input's
    buffer at its block, the output block's buffer at the carried state's output after the point, the two reduction
    outputs' at its column sums; the invariant `Phi`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (stAt V c (t.val + 1)).o
    | ⟨6, _⟩ => psumOf (stAt V c (t.val + 1)).o
    | ⟨7, _⟩ => psumsqOf (stAt V c (t.val + 1)).o
  Φ t := Phi V c t.val
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
/-- What the body leaves in the output block's staging buffer at a point where it stores it (and what the write-back
    at the head pair's last point writes): the carried state's output after the point. -/
theorem after_5 (c : Dev nD) (t : Fin cfg2.N) : (dat V c).after 5 t = (stAt V c (t.val + 1)).o := by dsimp only [dat]
theorem after_6 (c : Dev nD) (t : Fin cfg2.N) : (dat V c).after 6 t = k2_pay6 (stAt V c (t.val + 1)).o := by dsimp only [dat]
theorem after_7 (c : Dev nD) (t : Fin cfg2.N) : (dat V c).after 7 t = k2_pay7 (stAt V c (t.val + 1)).o := by dsimp only [dat]

theorem Phi_castSucc (c : Dev nD) (t : Fin cfg2.N) : (dat V c).Φ t.castSucc = Phi V c t.val := by
  dsimp only [dat]; simp only [Fin.coe_castSucc]
theorem Phi_succ (c : Dev nD) (t : Fin cfg2.N) : (dat V c).Φ t.succ = Phi V c (t.val + 1) := by
  dsimp only [dat]; simp only [Fin.val_succ]

/-! ## What the body finds in each staging buffer -/

/-- Input window 0's current staging buffer holds its block at every point, fetched there or not. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- Input window 1's current staging buffer holds its block at every point, fetched there or not. -/
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- Input window 2's current staging buffer holds its block at every point, fetched there or not. -/
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Input window 3's current staging buffer holds its block at every point, fetched there or not. -/
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Input window 4's current staging buffer holds its block at every point, fetched there or not. -/
theorem before4 (c : Dev nD) (t : Fin cfg2.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- A point that neither seeds nor adds into the output leaves it as it was. -/
theorem stepAt_o_idle (n : ℕ) (h0 : ¬ n % 8 = 0) (h3 : ¬ n % 4 = 3) (q k v : Vec F S1x2048x128 .bf16) (u : Vec F S1x128x256 .bf16)
    (h : Vec F S2048x256 .f32) (s : St F) : (stepAt n q k v u h s).o = s.o := by
  unfold stepAt; dsimp only; rw [if_neg h3, if_neg h0]

/-- The output block's staging buffer, at a point that is not the first of a head pair, holds the carried state's
    output: what the last storing point left, through the idle points since (no write-back falls between). -/
theorem before5 (c : Dev nD) : ∀ (n : ℕ) (t : Fin cfg2.N), t.val = n → ¬ t.val % 8 = 0 → ∀ d, (dat V c).before 5 t d = (stAt V c t.val).o := by
  intro n
  induction n using Nat.strong_induction_on with
  | _ n ih =>
    intro t hn ht d
    have ht0 : t.val ≠ 0 := fun h => ht (by rw [h])
    have hlt : t.val - 1 < cfg2.N := Nat.lt_of_le_of_lt (Nat.sub_le _ _) t.isLt
    rw [(dat V c).before_of_pos 5 t ht0 ((cfg2.win 5).fetch_out rfl t)]
    have hfl : (cfg2.win 5).flush ⟨t.val - 1, hlt⟩ = false := by
      rw [Bool.eq_false_iff]; intro h
      have := (flush2_5 ⟨t.val - 1, hlt⟩).mp h
      dsimp only at this; omega
    rw [hfl, if_neg Bool.false_ne_true]
    have hst : stAt V c t.val = stAt V c ((⟨t.val - 1, hlt⟩ : Fin cfg2.N).val + 1) := by
      congr 1; dsimp only; omega
    unfold Dat.left
    by_cases hidle : (¬ (t.val - 1) % 8 = 0 ∧ ¬ (t.val - 1) % 4 = 3)
    · rw [(idle5_iff ⟨t.val - 1, hlt⟩).mpr hidle]
      dsimp only
      rw [ih (t.val - 1) (by omega) ⟨t.val - 1, hlt⟩ rfl hidle.1 d, hst, stAt_succ, stepAt_o_idle _ hidle.1 hidle.2]
    · have hlive : cfg2.idle 5 (cfg2.grid.coords ⟨t.val - 1, hlt⟩) = false := by
        rw [Bool.eq_false_iff]; exact fun h => hidle ((idle5_iff ⟨t.val - 1, hlt⟩).mp h)
      rw [hlive]
      dsimp only
      unfold Dat.kept
      rw [Pipeline.fill_of_clip_none (cfg := cfg2) 5 _ (fun _ => rfl) d ((dat V c).after 5 ⟨t.val - 1, hlt⟩) _, Window.fill_cut, after_5, hst]

theorem before5' (c : Dev nD) (t : Fin cfg2.N) (h8 : ¬ t.val % 8 = 0) (d) : (dat V c).before 5 t d = (stAt V c t.val).o :=
  before5 V c t.val t rfl h8 d

/-! ## Where the output windows are live, idle, written back -/

theorem live5_of (t : Fin cfg2.N) (h : t.val % 8 = 0 ∨ t.val % 4 = 3) : cfg2.idle 5 (cfg2.grid.coords t) = false := by
  rw [Bool.eq_false_iff]; intro hi
  obtain ⟨a, b⟩ := (idle5_iff t).mp hi
  rcases h with h | h
  · exact a h
  · exact b h
theorem idle5_of (t : Fin cfg2.N) (h8 : ¬ t.val % 8 = 0) (h3 : ¬ t.val % 4 = 3) : cfg2.idle 5 (cfg2.grid.coords t) = true :=
  (idle5_iff t).mpr ⟨h8, h3⟩
theorem live6_of (t : Fin cfg2.N) (h7 : t.val % 8 = 7) : cfg2.idle 6 (cfg2.grid.coords t) = false := by
  rw [Bool.eq_false_iff]; intro hi; exact (idle6_iff t).mp hi h7
theorem idle6_of (t : Fin cfg2.N) (h7 : ¬ t.val % 8 = 7) : cfg2.idle 6 (cfg2.grid.coords t) = true := (idle6_iff t).mpr h7
theorem live7_of (t : Fin cfg2.N) (h7 : t.val % 8 = 7) : cfg2.idle 7 (cfg2.grid.coords t) = false := by
  rw [Bool.eq_false_iff]; intro hi; exact (idle7_iff t).mp hi h7
theorem idle7_of (t : Fin cfg2.N) (h7 : ¬ t.val % 8 = 7) : cfg2.idle 7 (cfg2.grid.coords t) = true := (idle7_iff t).mpr h7
theorem noflush5_of (t : Fin cfg2.N) (h7 : ¬ t.val % 8 = 7) : (cfg2.win 5).flush t = false := by
  rw [Bool.eq_false_iff]; intro h; exact h7 ((flush2_5 t).mp h)
theorem noflush6_of (t : Fin cfg2.N) (h7 : ¬ t.val % 8 = 7) : (cfg2.win 6).flush t = false := by
  rw [Bool.eq_false_iff]; intro h; exact h7 ((flush2_6 t).mp h)
theorem noflush7_of (t : Fin cfg2.N) (h7 : ¬ t.val % 8 = 7) : (cfg2.win 7).flush t = false := by
  rw [Bool.eq_false_iff]; intro h; exact h7 ((flush2_7 t).mp h)

/-- At a point live for the window the body obligation's post is the buffer at what the proof data states. -/
theorem leaves_live (w : Fin cfg2.W) (c : Dev nD) (t : Fin cfg2.N) (h : cfg2.idle w (cfg2.grid.coords t) = false) :
    (dat V c).leavesExact w t = owns (c : Thread nD τ) ((cfg2.win w).stage (cfg2.slots t w)) fullShare ((dat V c).after w t) := by
  unfold Dat.leavesExact; rw [h]

theorem leaves0 (c : Dev nD) (t : Fin cfg2.N) : (dat V c).leavesExact 0 t = owns (c : Thread nD τ) (st2_0 t) fullShare (iblk V c 0 t) := by
  rw [leaves_live V 0 c t rfl, after0]
theorem leaves1 (c : Dev nD) (t : Fin cfg2.N) : (dat V c).leavesExact 1 t = owns (c : Thread nD τ) (st2_1 t) fullShare (iblk V c 1 t) := by
  rw [leaves_live V 1 c t rfl, after1]
theorem leaves2 (c : Dev nD) (t : Fin cfg2.N) : (dat V c).leavesExact 2 t = owns (c : Thread nD τ) (st2_2 t) fullShare (iblk V c 2 t) := by
  rw [leaves_live V 2 c t rfl, after2]
theorem leaves3 (c : Dev nD) (t : Fin cfg2.N) : (dat V c).leavesExact 3 t = owns (c : Thread nD τ) (st2_3 t) fullShare (iblk V c 3 t) := by
  rw [leaves_live V 3 c t rfl, after3]
theorem leaves4 (c : Dev nD) (t : Fin cfg2.N) : (dat V c).leavesExact 4 t = owns (c : Thread nD τ) (st2_4 t) fullShare (iblk V c 4 t) := by
  rw [leaves_live V 4 c t rfl, after4]

/-! ## The step, case by case -/

theorem stepAt_A (n : ℕ) (h8 : n % 8 = 0) (q k v : Vec F S1x2048x128 .bf16) (u : Vec F S1x128x256 .bf16) (h : Vec F S2048x256 .f32) (s : St F) :
    stepAt n q k v u h s = ⟨k2_pay3 (k2_pay14 q k k2_pay9), k2_pay1 (k2_pay17 q k k2_pay9 k2_pay9 k2_pay10), k2_pay2 (k2_pay12 v) (k2_pay15 q k k2_pay9 k2_pay9) (k2_pay16 q k k2_pay9) k2_pay11, k2_pay8 h⟩ := by
  have h4 : n % 4 = 0 := by omega
  have h3 : ¬ n % 4 = 3 := by omega
  unfold stepAt; simp only [if_pos h8, if_pos h4, if_neg h3]
theorem stepAt_D (n : ℕ) (h8 : ¬ n % 8 = 0) (h4 : n % 4 = 0) (q k v : Vec F S1x2048x128 .bf16) (u : Vec F S1x128x256 .bf16) (h : Vec F S2048x256 .f32) (s : St F) :
    stepAt n q k v u h s = ⟨k2_pay3 (k2_pay14 q k k2_pay9), k2_pay1 (k2_pay17 q k k2_pay9 k2_pay9 k2_pay10), k2_pay2 (k2_pay12 v) (k2_pay15 q k k2_pay9 k2_pay9) (k2_pay16 q k k2_pay9) k2_pay11, s.o⟩ := by
  have h3 : ¬ n % 4 = 3 := by omega
  unfold stepAt; simp only [if_neg h8, if_pos h4, if_neg h3]
theorem stepAt_B (n : ℕ) (h4 : ¬ n % 4 = 0) (h3 : ¬ n % 4 = 3) (q k v : Vec F S1x2048x128 .bf16) (u : Vec F S1x128x256 .bf16) (h : Vec F S2048x256 .f32) (s : St F) :
    stepAt n q k v u h s = ⟨k2_pay3 (k2_pay14 q k s.m), k2_pay1 (k2_pay17 q k s.m s.m s.l), k2_pay2 (k2_pay12 v) (k2_pay15 q k s.m s.m) (k2_pay16 q k s.m) s.acc, s.o⟩ := by
  have h8 : ¬ n % 8 = 0 := by omega
  unfold stepAt; simp only [if_neg h8, if_neg h4, if_neg h3]
theorem stepAt_C (n : ℕ) (h3 : n % 4 = 3) (q k v : Vec F S1x2048x128 .bf16) (u : Vec F S1x128x256 .bf16) (h : Vec F S2048x256 .f32) (s : St F) :
    stepAt n q k v u h s = ⟨k2_pay3 (k2_pay14 q k s.m), k2_pay1 (k2_pay17 q k s.m s.m s.l), k2_pay2 (k2_pay12 v) (k2_pay15 q k s.m s.m) (k2_pay16 q k s.m) s.acc,
      k2_pay4 (k2_pay2 (k2_pay12 v) (k2_pay15 q k s.m s.m) (k2_pay16 q k s.m) s.acc) (k2_pay1 (k2_pay17 q k s.m s.m s.l)) u s.o⟩ := by
  have h8 : ¬ n % 8 = 0 := by omega
  have h4 : ¬ n % 4 = 0 := by omega
  unfold stepAt; simp only [if_neg h8, if_neg h4, if_pos h3]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t)

set_option maxHeartbeats 4000000 in
/-- The body at any point: the inputs' buffers hold their blocks; the closed forms of the branch conditions say which of
    the five control cases the point is in; the scratch is handed at the carried state (at anything where the body
    resets it) and taken back at the next state; the output block's buffer holds the carried output except at the
    first point of a head pair, where the body seeds it; an output the case does not store is handed back untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl]
  rw [Phi_succ, Phi_castSucc, leaves0, leaves1, leaves2, leaves3, leaves4]
  unfold Phi
  have hN : t.val < 32 := lt_of_lt_of_eq t.isLt (show cfg2.N = 32 from N_2)
  by_cases h8 : t.val % 8 = 0
  ·
    have h4 : t.val % 4 = 0 := by omega
    have h3 : ¬ t.val % 4 = 3 := by omega
    have h7 : ¬ t.val % 8 = 7 := by omega
    have c1 : k2_cond1 (grid2.coords t) = 1#1 := (hcond1 t).mpr h8
    have cR : condR (grid2.coords t) := (hcondR t).mpr h4
    have c3 : ¬ k2_cond3 (grid2.coords t) = 1#1 := fun h => h3 ((hcond3 t).mp h)
    have c4 : ¬ k2_cond4 (grid2.coords t) = 1#1 := fun h => h7 ((hcond4 t).mp h)
    rw [leaves_live V 5 c t (live5_of t (.inl h8)), after_5]
    rw [Dat.leavesExact_idle (dat V c) 6 t (idle6_of t h7) (noflush6_of t h7), Dat.leavesExact_idle (dat V c) 7 t (idle7_of t h7) (noflush7_of t h7)]
    rw [stAt_succ V c t, stepAt_A _ h8]
    dsimp only
    iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c Set.univ (grid2.coords t) _ _ _ _ _ _ _ _ _ _ _ _ _ _ _ _ _ _ _ _ _ _ c1 cR c3 c4 (qblk V c t) (kblk V c t) (vblk V c t) (hblk V c t) _)
    isplitl [H0]; · iexact H0
    isplitl [H1]; · iexact H1
    isplitl [H2]; · iexact H2
    isplitl [H4]; · iexact H4
    isplitl [H5]; · iexists _; iexact H5
    isplitl [HS0]; · iexists _; iexact HS0
    isplitl [HS1]; · iexists _; iexact HS1
    isplitl [HS2]; · iexists _; iexact HS2
    iintro ⟨H0, H1, H2, H4, H5, HS0, HS1, HS2⟩
    isplitl [Hg Hrest HS0 HS1 HS2]
    · isplitl [Hg]; · iexact Hg
      isplitl [Hrest]; · iexact Hrest
      iexists _; iexists _; iexists _
      isplitr; · ipureintro; exact fun _ => ⟨rfl, rfl, rfl⟩
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

  by_cases h4 : t.val % 4 = 0
  ·
    have h3 : ¬ t.val % 4 = 3 := by omega
    have h7 : ¬ t.val % 8 = 7 := by omega
    have c1 : ¬ k2_cond1 (grid2.coords t) = 1#1 := fun h => h8 ((hcond1 t).mp h)
    have cR : condR (grid2.coords t) := (hcondR t).mpr h4
    have c3 : ¬ k2_cond3 (grid2.coords t) = 1#1 := fun h => h3 ((hcond3 t).mp h)
    have c4 : ¬ k2_cond4 (grid2.coords t) = 1#1 := fun h => h7 ((hcond4 t).mp h)
    rw [Dat.leavesExact_idle (dat V c) 5 t (idle5_of t h8 h3) (noflush5_of t h7)]
    rw [Dat.leavesExact_idle (dat V c) 6 t (idle6_of t h7) (noflush6_of t h7), Dat.leavesExact_idle (dat V c) 7 t (idle7_of t h7) (noflush7_of t h7)]
    rw [stAt_succ V c t, stepAt_D _ h8 h4]
    dsimp only
    iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_D c Set.univ (grid2.coords t) _ _ _ _ _ _ _ _ _ _ _ _ _ _ _ _ _ _ _ _ _ _ c1 cR c3 c4 (qblk V c t) (kblk V c t) (vblk V c t) _)
    isplitl [H0]; · iexact H0
    isplitl [H1]; · iexact H1
    isplitl [H2]; · iexact H2
    isplitl [HS0]; · iexists _; iexact HS0
    isplitl [HS1]; · iexists _; iexact HS1
    isplitl [HS2]; · iexists _; iexact HS2
    iintro ⟨H0, H1, H2, HS0, HS1, HS2⟩
    isplitl [Hg Hrest HS0 HS1 HS2]
    · isplitl [Hg]; · iexact Hg
      isplitl [Hrest]; · iexact Hrest
      iexists _; iexists _; iexists _
      isplitr; · ipureintro; exact fun _ => ⟨rfl, rfl, rfl⟩
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

  by_cases h3 : t.val % 4 = 3
  · by_cases h7 : t.val % 8 = 7
    ·
      have c1 : ¬ k2_cond1 (grid2.coords t) = 1#1 := fun h => h8 ((hcond1 t).mp h)
      have cR : ¬ condR (grid2.coords t) := fun h => h4 ((hcondR t).mp h)
      have c3 : k2_cond3 (grid2.coords t) = 1#1 := (hcond3 t).mpr h3
      have c4 : k2_cond4 (grid2.coords t) = 1#1 := (hcond4 t).mpr h7
      rw [leaves_live V 5 c t (live5_of t (.inr h3)), after_5]
      rw [leaves_live V 6 c t (live6_of t h7), after_6, leaves_live V 7 c t (live7_of t h7), after_7]
      rw [stAt_succ V c t, stepAt_C _ h3]
      dsimp only
      simp only [before5' V c t h8]
      iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl, rfl⟩ := hx h4
      iapply (run_E c Set.univ (grid2.coords t) _ _ _ _ _ _ _ _ _ _ _ _ _ _ _ _ _ _ _ _ _ _ c1 cR c3 c4 (qblk V c t) (kblk V c t) (vblk V c t) (ublk V c t) (stAt V c t.val).o (stAt V c t.val).m (stAt V c t.val).l (stAt V c t.val).acc _)
      isplitl [H0]; · iexact H0
      isplitl [H1]; · iexact H1
      isplitl [H2]; · iexact H2
      isplitl [H3]; · iexact H3
      isplitl [H5]; · iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H5, H6, H7, HS0, HS1, HS2⟩
      isplitl [Hg Hrest HS0 HS1 HS2]
      · isplitl [Hg]; · iexact Hg
        isplitl [Hrest]; · iexact Hrest
        iexists _; iexists _; iexists _
        isplitr; · ipureintro; exact fun _ => ⟨rfl, rfl, rfl⟩
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

    ·
      have c1 : ¬ k2_cond1 (grid2.coords t) = 1#1 := fun h => h8 ((hcond1 t).mp h)
      have cR : ¬ condR (grid2.coords t) := fun h => h4 ((hcondR t).mp h)
      have c3 : k2_cond3 (grid2.coords t) = 1#1 := (hcond3 t).mpr h3
      have c4 : ¬ k2_cond4 (grid2.coords t) = 1#1 := fun h => h7 ((hcond4 t).mp h)
      rw [leaves_live V 5 c t (live5_of t (.inr h3)), after_5]
      rw [Dat.leavesExact_idle (dat V c) 6 t (idle6_of t h7) (noflush6_of t h7), Dat.leavesExact_idle (dat V c) 7 t (idle7_of t h7) (noflush7_of t h7)]
      rw [stAt_succ V c t, stepAt_C _ h3]
      dsimp only
      simp only [before5' V c t h8]
      iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl, rfl⟩ := hx h4
      iapply (run_C c Set.univ (grid2.coords t) _ _ _ _ _ _ _ _ _ _ _ _ _ _ _ _ _ _ _ _ _ _ c1 cR c3 c4 (qblk V c t) (kblk V c t) (vblk V c t) (ublk V c t) (stAt V c t.val).o (stAt V c t.val).m (stAt V c t.val).l (stAt V c t.val).acc _)
      isplitl [H0]; · iexact H0
      isplitl [H1]; · iexact H1
      isplitl [H2]; · iexact H2
      isplitl [H3]; · iexact H3
      isplitl [H5]; · iexact H5
      isplitl [HS0]; · iexact HS0
      isplitl [HS1]; · iexact HS1
      isplitl [HS2]; · iexact HS2
      iintro ⟨H0, H1, H2, H3, H5, HS0, HS1, HS2⟩
      isplitl [Hg Hrest HS0 HS1 HS2]
      · isplitl [Hg]; · iexact Hg
        isplitl [Hrest]; · iexact Hrest
        iexists _; iexists _; iexists _
        isplitr; · ipureintro; exact fun _ => ⟨rfl, rfl, rfl⟩
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

  ·
    have h7 : ¬ t.val % 8 = 7 := by omega
    have c1 : ¬ k2_cond1 (grid2.coords t) = 1#1 := fun h => h8 ((hcond1 t).mp h)
    have cR : ¬ condR (grid2.coords t) := fun h => h4 ((hcondR t).mp h)
    have c3 : ¬ k2_cond3 (grid2.coords t) = 1#1 := fun h => h3 ((hcond3 t).mp h)
    have c4 : ¬ k2_cond4 (grid2.coords t) = 1#1 := fun h => h7 ((hcond4 t).mp h)
    rw [Dat.leavesExact_idle (dat V c) 5 t (idle5_of t h8 h3) (noflush5_of t h7)]
    rw [Dat.leavesExact_idle (dat V c) 6 t (idle6_of t h7) (noflush6_of t h7), Dat.leavesExact_idle (dat V c) 7 t (idle7_of t h7) (noflush7_of t h7)]
    rw [stAt_succ V c t, stepAt_B _ h4 h3]
    dsimp only
    iintro ⟨⟨Hg, Hrest, ⟨%x0, %x1, %x2, %hx, HS0, HS1, HS2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain ⟨rfl, rfl, rfl⟩ := hx h4
    iapply (run_B c Set.univ (grid2.coords t) _ _ _ _ _ _ _ _ _ _ _ _ _ _ _ _ _ _ _ _ _ _ c1 cR c3 c4 (qblk V c t) (kblk V c t) (vblk V c t) (stAt V c t.val).m (stAt V c t.val).l (stAt V c t.val).acc _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [Hg Hrest HS0 HS1 HS2]
    · isplitl [Hg]; · iexact Hg
      isplitl [Hrest]; · iexact Hrest
      iexists _; iexists _; iexists _
      isplitr; · ipureintro; exact fun _ => ⟨rfl, rfl, rfl⟩
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

/-- The library's body obligation, at every point. -/
theorem body_obligation (c : Dev nD) : BodyObligation (dat (F := F) V c) (defs₀ (F := F)) Variants.none () Set.univ := fun t => by
  rw [bigSep_W2, bigSep_W2]
  exact sound_body V c t

/-! ## Entering and leaving the region -/

/-- The scoped buffers no window stages, split at the region's three scratch buffers (each whole at some contents), the
    remainder unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f))
          ∗ Pipeline.scopedRestBut (Ix := Unit) (Name := ℕ) (U := UR sig nD τ) (Lvl := ℕ) (Val := Elt F) spec2 c [cc2_scratch0, cc2_scratch1, cc2_scratch2]) :=
  Pipeline.scopedRest_split_of_list spec2 c [cc2_scratch0, cc2_scratch1, cc2_scratch2] (by decide) (by decide)

/-- The invariant before the first point, from the generator register and the scoped buffers no window stages
    (the three scratch buffers among them, at whatever they hold). -/
theorem hin (c : Dev nD) : iprop((∃ r, prngReg c r) ∗ Pipeline.prefHeld (pcfgs (F := F) 2).pre c (fun _ => fullShare) ((cfgs 2).toPCfg_adm).1 ∗ Pipeline.scopedRest spec2 c) ⊢ ((dat V c).Φ 0 : sProp 𝕄) := by
  rw [show (dat V c).Φ 0 = Phi V c 0 from rfl]; unfold Phi
  rw [scopedRest2_split]
  iintro ⟨Hr, -, ⟨⟨%f0, H0⟩, ⟨%f1, H1⟩, ⟨%f2, H2⟩⟩, Hrest⟩
  isplitl [Hr]; · iexact Hr
  isplitl [Hrest]; · iexact Hrest
  iexists f0; iexists f1; iexists f2
  isplitr; · ipureintro; exact fun h => absurd (Nat.zero_mod 4) h
  isplitl [H0]; · rw [owns_whole]; iexact H0
  isplitl [H1]; · rw [owns_whole]; iexact H1
  rw [owns_whole]; iexact H2

/-- The invariant after the last point gives the generator register and those scoped buffers back: what the scratch
    buffers hold is forgotten. -/
theorem hout (c : Dev nD) : ((dat V c).Φ (Fin.last cfg2.N) : sProp 𝕄) ⊢ iprop((∃ r, prngReg c r) ∗ Pipeline.ownSems0 (fun k : PEmpty => k.elim) c ∗ Pipeline.scopedRest spec2 c) := by
  rw [Pipeline.ownSems0_none, show (dat V c).Φ (Fin.last cfg2.N) = Phi V c (Fin.last cfg2.N).val from rfl]; unfold Phi
  rw [scopedRest2_split]
  iintro ⟨Hr, Hrest, ⟨%x0, %x1, %x2, -, H0, H1, H2⟩⟩
  isplitl [Hr]; · iexact Hr
  isplitr; · iempintro
  isplitr [Hrest]
  · isplitl [H0]; · iexists x0; rw [← owns_whole]; iexact H0
    isplitl [H1]; · iexists x1; rw [← owns_whole]; iexact H1
    iexists x2; rw [← owns_whole]; iexact H2
  iexact Hrest

end Cert.KernelIdeal.Reg2

end
-- ==== Proof.Reg3.lean ====
import proofs.«408560_j30485677867710_3_alg».proof.Proof.Gen.KernelIdeal.Launch
import proofs.«408560_j30485677867710_3_alg».proof.Proof.Gen.KernelIdeal.Skeleton
import proofs.«408560_j30485677867710_3_alg».proof.Proof.Gen.KernelIdeal.Points
import Idealize.ShloMosaic.Lib.Pipeline.FrameBody
import Idealize.ShloMosaic.Lib.Pipeline.Value
import Idealize.ShloMosaic.Lib.Tactic

/-!
# Kernel region 3 (the normalisation followed by two linear layers), at any float instance

The region's pipeline stages six windows: the activations `z` (window 0, one block of 2048 rows per
grid point), the per-feature mean and variance (windows 1 and 2), the two weight matrices (window 3)
and the two bias rows (window 4) — the last four a single block, the same at every point — and the
result (window 5, one block of 2048 rows per point, written back at every point).

At each point the body reads the five input blocks and overwrites the whole of the result's block with
one value, a function of what it read.  This file states that: what each window's staging buffer holds
after the body at a point, as a function of the arrays `V` the region finds on entry; the body's
triple; and the pipeline's body obligation for proof data built from these.
-/

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not the pipeline fetched it
    there: a window not fetched at a point has the block index of the point before, and the body leaves
    the block in place. -/
theorem before_in0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether or not the pipeline fetched it
    there: a window not fetched at a point has the block index of the point before, and the body leaves
    the block in place. -/
theorem before_in1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether or not the pipeline fetched it
    there: a window not fetched at a point has the block index of the point before, and the body leaves
    the block in place. -/
theorem before_in2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether or not the pipeline fetched it
    there: a window not fetched at a point has the block index of the point before, and the body leaves
    the block in place. -/
theorem before_in3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether or not the pipeline fetched it
    there: a window not fetched at a point has the block index of the point before, and the body leaves
    the block in place. -/
theorem before_in4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of a 2048 × 256 block. -/
abbrev rZ : Rect S2048x256 := Rect.unit (s := S2048x256) ![0, 0] S2048x256.size inb_S2048x256_S2048x256_0_0
/-- The whole of a 1 × 256 row. -/
abbrev rR : Rect S1x256 := Rect.unit (s := S1x256) ![0, 0] S1x256.size inb_S1x256_S1x256_0_0
/-- The first and the second weight matrix. -/
abbrev rW0 : Rect S2x256x256 := Rect.unit (s := S2x256x256) ![0, 0, 0] S1x256x256.size inb_S2x256x256_S1x256x256_0_0_0
abbrev rW1 : Rect S2x256x256 := Rect.unit (s := S2x256x256) ![1, 0, 0] S1x256x256.size inb_S2x256x256_S1x256x256_1_0_0
/-- The first and the second bias row. -/
abbrev rB0 : Rect S2x256 := Rect.unit (s := S2x256) ![0, 0] S1x256.size inb_S2x256_S1x256_0_0
abbrev rB1 : Rect S2x256 := Rect.unit (s := S2x256) ![1, 0] S1x256.size inb_S2x256_S1x256_1_0

/-! ## What the body leaves in the result's buffer -/

/-- The value the body computes from the five input blocks `x0 … x4` (windows 0 … 4): the
    normalised activations through the two linear layers, each followed by a rectifier. -/
def pay (x0 : Vec F S2048x256 .f32) (x1 x2 : Vec F S1x256 .f32) (x3 : Vec F S2x256x256 .bf16) (x4 : Vec F S2x256 .f32) :
    Vec F S2048x256 .f32 :=
  k3_pay1 (View.ld x2 rR) (View.ld x0 rZ) (View.ld x1 rR) (View.ld x3 rW0) (View.ld x4 rB0) (View.ld x3 rW1) (View.ld x4 rB1)

/-- Window 5's staging buffer after the body, from the input windows' blocks: its one store, as a list of
    pieces. -/
def out5 (x0 : Vec F S2048x256 .f32) (x1 x2 : Vec F S1x256 .f32) (x3 : Vec F S2x256x256 .bf16) (x4 : Vec F S2x256 .f32) :
    Vec F S2048x256 .f32 :=
  View.canon [⟨rZ, pay x0 x1 x2 x3 x4⟩]

/-- The one store is of the whole block, so it covers the buffer. -/
theorem cover5 (p0 : Vec F S2048x256 .f32) (y : S2048x256.Idx) :
    ∃ pc ∈ ([⟨rZ, p0⟩] : List (View.Piece (Elt F) S2048x256 .f32)), y ∈ pc.1.set :=
  View.cover_of_tiled [⟨rZ, p0⟩] S2048x256.size (by rfl) y

/-! ## The body's triple -/

set_option maxHeartbeats 1000000 in
/-- The kernel body on whole staging memrefs, the inputs' reading `x0 … x4` and the result's holding anything,
    runs to the continuation with the inputs' as they were and the result's reading `out5` of the inputs. -/
theorem sound_kernel (c : Dev nD) (E : Set ℕ) (i : grid3.Coords)
    (arg1 : Memref sig .tc .vmem S2048x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S2x256x256 .bf16) (harg4 : arg4.IsWhole)
    (arg5 : Memref sig .tc .vmem S2x256 .f32) (harg5 : arg5.IsWhole)
    (arg6 : Memref sig .tc .vmem S2048x256 .f32) (harg6 : arg6.IsWhole)
    (x0 : Vec F S2048x256 .f32) (x1 x2 : Vec F S1x256 .f32) (x3 : Vec F S2x256x256 .bf16) (x4 : Vec F S2x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc3__norm_linear_kernel i arg1 harg1 arg2 harg2 arg3 harg3 arg4 harg4 arg5 harg5 arg6 harg6) K := by
  simp only [cc3__norm_linear_kernel_eq_skeleton]; unfold cc3__norm_linear_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-! ## The pipeline's proof data -/

/-- The proof data of the region's pipeline on core `c`: the arrays as the region finds them (`V`); after the
    body at point `t` each input's buffer at its block and the result's at `out5` of the input blocks; the
    invariant that of a body which touches nothing but its windows; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec3 c
  q _ := fullShare
  owed _ := 0

/-- The proof data's arrays are the region-entry contents. -/
theorem A_eq (c : Dev nD) (w : Fin cfg3.W) : (dat V c).A w = V c (Pipeline.arrRef spec3 w) := by
  dsimp only [dat]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) :
    (dat V c).after 5 t = out5 (iblk V c 0 t) (iblk V c 1 t) (iblk V c 2 t) (iblk V c 3 t) (iblk V c 4 t) := by dsimp only [dat]

/-- Each input's current staging buffer holds its block at every point, fetched there or not. -/
theorem before_0 (c : Dev nD) (t : Fin cfg3.N) (d) : (dat V c).before 0 t d = iblk V c 0 t :=
  before_in0_of V (dat V c) (A_eq V c 0) (after_0 V c) t d
theorem before_1 (c : Dev nD) (t : Fin cfg3.N) (d) : (dat V c).before 1 t d = iblk V c 1 t :=
  before_in1_of V (dat V c) (A_eq V c 1) (after_1 V c) t d
theorem before_2 (c : Dev nD) (t : Fin cfg3.N) (d) : (dat V c).before 2 t d = iblk V c 2 t :=
  before_in2_of V (dat V c) (A_eq V c 2) (after_2 V c) t d
theorem before_3 (c : Dev nD) (t : Fin cfg3.N) (d) : (dat V c).before 3 t d = iblk V c 3 t :=
  before_in3_of V (dat V c) (A_eq V c 3) (after_3 V c) t d
theorem before_4 (c : Dev nD) (t : Fin cfg3.N) (d) : (dat V c).before 4 t d = iblk V c 4 t :=
  before_in4_of V (dat V c) (A_eq V c 4) (after_4 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the inputs' memrefs hold their blocks, so the body's triple applies; the invariant and
    the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W3, bigSep_W3]
  exact sound_body V c t

end Cert.KernelIdeal.Reg3

end
-- ==== Proof.RunSeg.lean ====
/-
  One kernel region of the four-region program as a segment of @main between two boundaries, for ANY family of
  proof data: the thread state at a boundary is "every unscoped buffer at the boundary's contents, the generator
  register at some state, nothing owed"; the region's arrays are split out of the unscoped buffers at entry and put
  back at exit. Also a stretch of host operations as a segment between two boundaries. Generic in the float instance.
-/
import proofs.«408560_j30485677867710_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation read at the TensorCore's references. -/
abbrev atTc (W : Dev nD → Valuation τ sig (Elt F)) : (c : Dev nD) → (b : Ref sig .tc) → Buf (Elt F) ((c : Thread nD τ).loc b) :=
  fun c b => W c b

/-- No pallas_call has a prefetched table. -/
abbrev adm : (p : Fin 4) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The thread state at a boundary: every unscoped buffer at the boundary's contents, beside `R`. -/
abbrev T (W : Dev nD → Valuation τ sig (Elt F)) (c : Dev nD) : sProp 𝕄 :=
  iprop(StableHlo.held (c : Thread nD τ) (Pipeline.ucRefs τ sig) (W c) ∗ R c)

/-- A host stretch as a segment from the contents `W`, left at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (pdats : (p : Fin 4) → (c : Dev nD) → Dat τ (Elt F) Unit ℕ (UR sig nD τ) ℕ (Pipeline.pin (pcfgs (F := F)) adm p) c)

set_option backward.isDefEq.respectTransparency.types false in
/-- Pipeline `p`'s region entered from the boundary contents `Wi` and left at `Wo`, where `Wo` holds what the
    write-backs leave at the region's arrays and agrees with `Wi` elsewhere; the generator register goes into the
    pipeline's invariant and comes back (`hin`, `hout`); nothing is owed; the kernel has no semaphore of its own. -/
def regSeg (p : Fin 4) (hl : Pipeline.LaunchFacts (nD := nD) (τ := τ) cfgs p)
    (Wi Wo : Dev nD → Valuation τ sig (Elt F))
    (hbody : ∀ c, Pipeline.BodyObligationLoose (pdats p c) (defs₀ (F := F)) 𝒱₀ () Set.univ)
    (hshare : ∀ c w, (pdats p c).share w = fullShare)
    (howed : ∀ c t, (pdats p c).owed t = 0)
    (hrec : ∀ c t, (pdats p c).recorded t = Set.univ)
    (hA : ∀ c w, (pdats p c).A w = Wi c (Pipeline.arrRef (Pipeline.pin (pcfgs (F := F)) adm p).spec w))
    (hF : ∀ c w, (pdats p c).arrAt w (Pipeline.pin (pcfgs (F := F)) adm p).N = Wo c (Pipeline.arrRef (Pipeline.pin (pcfgs (F := F)) adm p).spec w))
    (hrest : ∀ c, ∀ b : Ref sig .tc, b ∉ Finset.univ.image (Pipeline.arrRef (Pipeline.pin (pcfgs (F := F)) adm p).spec) → atTc Wo c b = atTc Wi c b)
    (hin : ∀ c, iprop((∃ r, prngReg c r) ∗ Pipeline.prefHeld (pcfgs (F := F) p).pre c (fun _ => fullShare) (adm p).1
        ∗ Pipeline.scopedRest (Pipeline.pin (pcfgs (F := F)) adm p).spec c) ⊢ ((pdats p c).Φ 0 : sProp 𝕄))
    (hout : ∀ c, ((pdats p c).Φ (Fin.last (Pipeline.pin (pcfgs (F := F)) adm p).N) : sProp 𝕄)
      ⊢ iprop((∃ r, prngReg c r) ∗ Pipeline.ownSems0 (fun k : PEmpty => k.elim) c ∗ Pipeline.scopedRest (Pipeline.pin (pcfgs (F := F)) adm p).spec c)) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := T Wi c
  post c := T Wo c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wi c)
  hentry c := by
    rw [Pipeline.ownSems0_none]
    have hsplit := Pipeline.arrays_of_unscopedBufs (p := p) (pcfgs (F := F)) adm pdats hl.win hl.arr_whole c
      (hshare c) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      hl.win hl.arr_whole c pdats (hshare c)
      (atTc Wi c) (atTc Wo c) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- A pipeline whose invariant is the class's (the scoped rest and the generator register, untouched) takes the
    generator register in at the first point … -/
theorem hinA (p : Fin 4) (hΦ : ∀ c t, (pdats p c).Φ t = Pipeline.ΦA (Pipeline.pin (pcfgs (F := F)) adm p).spec c) (c : Dev nD) :
    iprop((∃ r, prngReg c r) ∗ Pipeline.prefHeld (pcfgs (F := F) p).pre c (fun _ => fullShare) (adm p).1
        ∗ Pipeline.scopedRest (Pipeline.pin (pcfgs (F := F)) adm p).spec c) ⊢ ((pdats p c).Φ 0 : sProp 𝕄) := by
  rw [hΦ c 0]; unfold Pipeline.ΦA
  iintro ⟨Hp, -, Hr⟩
  isplitl [Hr]; · iexact Hr
  iexact Hp

/-- … and gives it back at the last. -/
theorem houtA (p : Fin 4) (hΦ : ∀ c t, (pdats p c).Φ t = Pipeline.ΦA (Pipeline.pin (pcfgs (F := F)) adm p).spec c) (c : Dev nD) :
    ((pdats p c).Φ (Fin.last (Pipeline.pin (pcfgs (F := F)) adm p).N) : sProp 𝕄)
      ⊢ iprop((∃ r, prngReg c r) ∗ Pipeline.ownSems0 (fun k : PEmpty => k.elim) c ∗ Pipeline.scopedRest (Pipeline.pin (pcfgs (F := F)) adm p).spec c) := by
  rw [Pipeline.ownSems0_none, hΦ c (Fin.last _)]; unfold Pipeline.ΦA
  iintro ⟨Hr, Hp⟩
  isplitl [Hp]; · iexact Hp
  isplitr; · iempintro
  iexact Hr

end Cert.KernelIdeal.Run

end
-- ==== Proof.Run.lean ====
/-
  The run of the four-region program: the buffers' contents at each boundary between two items of @main as a fold
  from the launch memory (a host stretch applies its operations; a kernel region overwrites its arrays with what its
  write-backs leave), every region as a segment between two such boundaries, and the launch: every weakly fair
  execution terminates in a memory that holds, at every unscoped buffer, the last boundary's contents. Generic in the
  float instance.
-/
import proofs.«408560_j30485677867710_3_alg».proof.Proof.Reg0
import proofs.«408560_j30485677867710_3_alg».proof.Proof.Reg1
import proofs.«408560_j30485677867710_3_alg».proof.Proof.Reg2
import proofs.«408560_j30485677867710_3_alg».proof.Proof.Reg3
import proofs.«408560_j30485677867710_3_alg».proof.Proof.RunSeg
import proofs.«408560_j30485677867710_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch (region 0's entry). -/
abbrev W0 : Dev nD → Valuation τ sig (Elt F) := fun c b => m ((c : Dev nD), b)
/-- At region 0's exit: its arrays at what its write-backs leave, every other buffer as entered. -/
def W1 (c : Dev nD) : Valuation τ sig (Elt F) :=
  Pipeline.withArrays spec0 c (W0 m c) fun w => (Reg0.dat (atTc (W0 m)) c).arrAt w cfg0.N
/-- After the first host stretch (region 1's entry). -/
abbrev W2 : Dev nD → Valuation τ sig (Elt F) := fun c => StableHlo.after hostOps1 (W1 m c)
/-- At region 1's exit. -/
def W3 (c : Dev nD) : Valuation τ sig (Elt F) :=
  Pipeline.withArrays spec1 c (W2 m c) fun w => (Reg1.dat (atTc (W2 m)) c).arrAt w cfg1.N
/-- After the second host stretch (region 2's entry). -/
abbrev W4 : Dev nD → Valuation τ sig (Elt F) := fun c => StableHlo.after hostOps2 (W3 m c)
/-- At region 2's exit. -/
def W5 (c : Dev nD) : Valuation τ sig (Elt F) :=
  Pipeline.withArrays spec2 c (W4 m c) fun w => (Reg2.dat (atTc (W4 m)) c).arrAt w cfg2.N
/-- After the third host stretch (region 3's entry). -/
abbrev W6 : Dev nD → Valuation τ sig (Elt F) := fun c => StableHlo.after hostOps3 (W5 m c)
/-- At region 3's exit: the end of @main. -/
def W7 (c : Dev nD) : Valuation τ sig (Elt F) :=
  Pipeline.withArrays spec3 c (W6 m c) fun w => (Reg3.dat (atTc (W6 m)) c).arrAt w cfg3.N

theorem W1_arr (c : Dev nD) (w : Fin cfg0.W) :
    W1 m c (Proc.devRef .tc (Pipeline.arrRef spec0 w)) = (Reg0.dat (atTc (W0 m)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (Reg1.dat (atTc (W2 m)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (Reg2.dat (atTc (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W7_arr (c : Dev nD) (w : Fin cfg3.W) :
    W7 m c (Proc.devRef .tc (Pipeline.arrRef spec3 w)) = (Reg3.dat (atTc (W6 m)) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

/-! ### A buffer that is no OUTPUT window's array of a region keeps its contents through the region -/

theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    rw [W1_arr]; exact ((Reg0.dat (atTc (W0 m)) c).arrAt_in w (hb w rfl) _).trans (Reg0.A_eq (atTc (W0 m)) c w)
  · exact W1_of_ne m c b fun w e => h ⟨w, e⟩
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    rw [W3_arr]; exact ((Reg1.dat (atTc (W2 m)) c).arrAt_in w (hb w rfl) _).trans (Reg1.A_eq (atTc (W2 m)) c w)
  · exact W3_of_ne m c b fun w e => h ⟨w, e⟩
theorem W5_keep (c : Dev nD) (b : Ref sig .tc) (hb : ∀ w, Pipeline.arrRef spec2 w = b → (cfg2.win w).isOut = false) :
    W5 m c (Proc.devRef .tc b) = W4 m c (Proc.devRef .tc b) := by
  by_cases h : ∃ w, Pipeline.arrRef spec2 w = b
  · obtain ⟨w, rfl⟩ := h
    rw [W5_arr]; exact ((Reg2.dat (atTc (W4 m)) c).arrAt_in w (hb w rfl) _).trans (Reg2.A_eq (atTc (W4 m)) c w)
  · exact W5_of_ne m c b fun w e => h ⟨w, e⟩
theorem W7_keep (c : Dev nD) (b : Ref sig .tc) (hb : ∀ w, Pipeline.arrRef spec3 w = b → (cfg3.win w).isOut = false) :
    W7 m c (Proc.devRef .tc b) = W6 m c (Proc.devRef .tc b) := by
  by_cases h : ∃ w, Pipeline.arrRef spec3 w = b
  · obtain ⟨w, rfl⟩ := h
    rw [W7_arr]; exact ((Reg3.dat (atTc (W6 m)) c).arrAt_in w (hb w rfl) _).trans (Reg3.A_eq (atTc (W6 m)) c w)
  · exact W7_of_ne m c b fun w e => h ⟨w, e⟩

/-- A buffer no host stretch writes and no region writes back into holds its launch contents at the end. -/
theorem W7_kept (c : Dev nD) (b : Ref sig .tc)
    (h0 : ∀ w, Pipeline.arrRef spec0 w = b → (cfg0.win w).isOut = false) (h1 : b ∉ hostOps1_W)
    (h2 : ∀ w, Pipeline.arrRef spec1 w = b → (cfg1.win w).isOut = false) (h3 : b ∉ hostOps2_W)
    (h4 : ∀ w, Pipeline.arrRef spec2 w = b → (cfg2.win w).isOut = false) (h5 : b ∉ hostOps3_W)
    (h6 : ∀ w, Pipeline.arrRef spec3 w = b → (cfg3.win w).isOut = false) :
    W7 m c (Proc.devRef .tc b) = m ((c : Thread nD τ).loc b) :=
  (W7_keep m c b h6).trans <| (StableHlo.after_of_writes_sub hostOps3 _ hostOps3_writes h5).trans <|
  (W5_keep m c b h4).trans <| (StableHlo.after_of_writes_sub hostOps2 _ hostOps2_writes h3).trans <|
  (W3_keep m c b h2).trans <| (StableHlo.after_of_writes_sub hostOps1 _ hostOps1_writes h1).trans <|
  (W1_keep m c b h0).trans rfl

/-! ## The proof data family -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Reg0.dat (atTc (W0 m)) c
  | ⟨1, _⟩ => fun c => Reg1.dat (atTc (W2 m)) c
  | ⟨2, _⟩ => fun c => Reg2.dat (atTc (W4 m)) c
  | ⟨3, _⟩ => fun c => Reg3.dat (atTc (W6 m)) c

/-! ## The regions as segments -/

set_option backward.isDefEq.respectTransparency.types false in
def reg0 : Pipeline.RegionSeg (pcfgs (F := F)) adm (pdats m) () defs₀ 𝒱₀ L lv 0 :=
  regSeg (pdats m) 0 launch0 (W0 m) (W1 m)
    (fun c => (Reg0.body_obligation (atTc (W0 m)) c).loose) (fun c => (pdats m 0 c).share_full fun _ => rfl) (fun _ _ => rfl) (fun _ _ => rfl)
    (fun c w => Reg0.A_eq (atTc (W0 m)) c w) (fun c w => (W1_arr m c w).symm)
    (fun c b hb => W1_of_ne m c b fun w e => hb (Finset.mem_image.mpr ⟨w, Finset.mem_univ _, e⟩))
    (hinA (pdats m) 0 fun _ _ => rfl) (houtA (pdats m) 0 fun _ _ => rfl)

set_option backward.isDefEq.respectTransparency.types false in
def reg1 : Pipeline.RegionSeg (pcfgs (F := F)) adm (pdats m) () defs₀ 𝒱₀ L lv 1 :=
  regSeg (pdats m) 1 launch1 (W2 m) (W3 m)
    (fun c => (Reg1.body_obligation (atTc (W2 m)) c).loose) (fun c => (pdats m 1 c).share_full fun _ => rfl) (fun _ _ => rfl) (fun _ _ => rfl)
    (fun c w => Reg1.A_eq (atTc (W2 m)) c w) (fun c w => (W3_arr m c w).symm)
    (fun c b hb => W3_of_ne m c b fun w e => hb (Finset.mem_image.mpr ⟨w, Finset.mem_univ _, e⟩))
    (hinA (pdats m) 1 fun _ _ => rfl) (houtA (pdats m) 1 fun _ _ => rfl)

set_option backward.isDefEq.respectTransparency.types false in
def reg2 : Pipeline.RegionSeg (pcfgs (F := F)) adm (pdats m) () defs₀ 𝒱₀ L lv 2 :=
  regSeg (pdats m) 2 launch2 (W4 m) (W5 m)
    (fun c => (Reg2.body_obligation (atTc (W4 m)) c).loose) (fun c => (pdats m 2 c).share_full fun _ => rfl) (fun _ _ => rfl) (fun _ _ => rfl)
    (fun c w => Reg2.A_eq (atTc (W4 m)) c w) (fun c w => (W5_arr m c w).symm)
    (fun c b hb => W5_of_ne m c b fun w e => hb (Finset.mem_image.mpr ⟨w, Finset.mem_univ _, e⟩))
    (fun c => Reg2.hin (atTc (W4 m)) c) (fun c => Reg2.hout (atTc (W4 m)) c)

set_option backward.isDefEq.respectTransparency.types false in
def reg3 : Pipeline.RegionSeg (pcfgs (F := F)) adm (pdats m) () defs₀ 𝒱₀ L lv 3 :=
  regSeg (pdats m) 3 launch3 (W6 m) (W7 m)
    (fun c => (Reg3.body_obligation (atTc (W6 m)) c).loose) (fun c => (pdats m 3 c).share_full fun _ => rfl) (fun _ _ => rfl) (fun _ _ => rfl)
    (fun c w => Reg3.A_eq (atTc (W6 m)) c w) (fun c w => (W7_arr m c w).symm)
    (fun c b hb => W7_of_ne m c b fun w e => hb (Finset.mem_image.mpr ⟨w, Finset.mem_univ _, e⟩))
    (hinA (pdats m) 3 fun _ _ => rfl) (houtA (pdats m) 3 fun _ _ => rfl)

/-! ## @main as segments, and the launch -/

/-- @main's seven items in order: a region per pallas_call, a host segment per stretch from its boundary's contents. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and the final memory holds, at every unscoped buffer of every core, the last boundary's contents. -/
theorem run (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show T (W7 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: every argument array ends as launched (no host stretch writes one, no region writes one back). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_kept m c main_arg0 (by decide) (by decide) (by decide) (by decide) (by decide) (by decide) (by decide)),
     (h c _ (mem_uc main_arg1 (by decide))).trans (W7_kept m c main_arg1 (by decide) (by decide) (by decide) (by decide) (by decide) (by decide) (by decide)),
     (h c _ (mem_uc main_arg2 (by decide))).trans (W7_kept m c main_arg2 (by decide) (by decide) (by decide) (by decide) (by decide) (by decide) (by decide)),
     (h c _ (mem_uc main_arg3 (by decide))).trans (W7_kept m c main_arg3 (by decide) (by decide) (by decide) (by decide) (by decide) (by decide) (by decide)),
     (h c _ (mem_uc main_arg4 (by decide))).trans (W7_kept m c main_arg4 (by decide) (by decide) (by decide) (by decide) (by decide) (by decide) (by decide)),
     (h c _ (mem_uc main_arg5 (by decide))).trans (W7_kept m c main_arg5 (by decide) (by decide) (by decide) (by decide) (by decide) (by decide) (by decide)),
     (h c _ (mem_uc main_arg6 (by decide))).trans (W7_kept m c main_arg6 (by decide) (by decide) (by decide) (by decide) (by decide) (by decide) (by decide))⟩)
    (run m ρ)

end Cert.KernelIdeal.Run

end
-- ==== Proof.Spec.lean ====
/-
  The network both programs compute, as formulas on the extended reals, index by index.

  Rows r, r' range over the 8192 samples, l and j over the 256 features, d over the 128 hidden
  coordinates, i over the two heads.  Two families of formulas are stated side by side where the two
  programs arrange the arithmetic differently:
  * the column VARIANCE: E[z²] − E[z]² (sums of the entries and of their squares, then the difference)
    against E[(z − E z)²] (the centred squares summed);
  * the ATTENTION row: (Σ_r' e(r,r')·v(r',d)) / Σ_r' e(r,r')  against  Σ_r' (e(r,r') / Σ_r'' e(r,r''))·v(r',d),
    with e(r,r') = exp(s(r,r') − max_r'' s(r,r''));
  * the accumulation over the heads: (h + p₀) + p₁ against h + ((0 + p₀) + p₁).
  Everything else (the projections, the normalisation, the two linear layers with their rectifiers) is one
  formula.  Float literals are kept as the exact values of their binary words.
-/
import Idealize.ShloMosaic.PureOps.Ideal
import Idealize.ShloMosaic.Lib.ValueIdx
import Mathlib.Algebra.BigOperators.Fin
import Mathlib.Order.Fin.Basic

noncomputable section

namespace Cert.Spec

open Idealize.ShloMosaic
open scoped BigOperators

/-- An array of extended reals with `A` rows and `B` columns. -/
abbrev Mat (A B : Nat) : Type := Fin A → Fin B → EReal
/-- Two such arrays, one per head or per layer. -/
abbrev Mat2 (A B : Nat) : Type := Fin 2 → Fin A → Fin B → EReal

/-- The binary word of the kernel's and the reference's ε (the float nearest to 10⁻⁵). -/
def eps : EReal := Ideal.ofBits .f32 0x3727C5AC#32
/-- The binary word of 8192.0, the number of rows. -/
def rows : EReal := Ideal.ofBits .f32 0x46000000#32
/-- The binary word of 0.0. -/
def zero : EReal := Ideal.ofBits .f32 0x00000000#32
/-- The binary word of −∞. -/
def ninf : EReal := Ideal.ofBits .f32 0xFF800000#32

/-! ## Batch normalisation over the rows -/

/-- The column sums. -/
def colSum (z : Mat 8192 256) (j : Fin 256) : EReal := ∑ r : Fin 8192, z r j
/-- The column sums of the squares. -/
def colSumSq (z : Mat 8192 256) (j : Fin 256) : EReal := ∑ r : Fin 8192, z r j * z r j
/-- The column mean: the column sum over the number of rows. -/
def mean (z : Mat 8192 256) (j : Fin 256) : EReal := Ideal.div (colSum z j) rows
/-- The column variance as the mean of the squares less the square of the mean. -/
def varK (z : Mat 8192 256) (j : Fin 256) : EReal := Ideal.div (colSumSq z j) rows - mean z j * mean z j
/-- The column variance as the mean of the centred squares. -/
def varR (z : Mat 8192 256) (j : Fin 256) : EReal :=
  Ideal.div (∑ r : Fin 8192, (z r j - mean z j) * (z r j - mean z j)) rows
/-- Normalisation of every column by a given variance: (z − mean) · (var + ε)^(−1/2). -/
def norm (z : Mat 8192 256) (v : Fin 256 → EReal) : Mat 8192 256 :=
  fun r j => (z r j - mean z j) * Ideal.rsqrt (v j + eps)

/-! ## One attention head -/

/-- The projection of the normalised rows by one head's weights. -/
def proj (h : Mat 8192 256) (w : Mat 256 128) : Mat 8192 128 := fun r d => ∑ l : Fin 256, h r l * w l d
/-- The logits: query row r against key row r'. -/
def logit (q k : Mat 8192 128) (r r' : Fin 8192) : EReal := ∑ d : Fin 128, q r d * k r' d
/-- The row maximum of the logits, from −∞. -/
def rowMax (s : Fin 8192 → Fin 8192 → EReal) (r : Fin 8192) : EReal := max ninf (Finset.univ.sup' Finset.univ_nonempty (s r))
/-- The shifted exponentials. -/
def expo (s : Fin 8192 → Fin 8192 → EReal) (r r' : Fin 8192) : EReal := Ideal.exp (s r r' - rowMax s r)
/-- Their row sums. -/
def denom (s : Fin 8192 → Fin 8192 → EReal) (r : Fin 8192) : EReal := ∑ r' : Fin 8192, expo s r r'
/-- The attention row, the weighted sum divided once by the row sum. -/
def attK (s : Fin 8192 → Fin 8192 → EReal) (v : Mat 8192 128) : Mat 8192 128 :=
  fun r d => Ideal.div (∑ r' : Fin 8192, expo s r r' * v r' d) (denom s r)
/-- The attention row, every weight divided by the row sum before the sum. -/
def attR (s : Fin 8192 → Fin 8192 → EReal) (v : Mat 8192 128) : Mat 8192 128 :=
  fun r d => ∑ r' : Fin 8192, Ideal.div (expo s r r') (denom s r) * v r' d
/-- The projection back to the features. -/
def up (a : Mat 8192 128) (vu : Mat 128 256) : Mat 8192 256 := fun r j => ∑ d : Fin 128, a r d * vu d j

/-- One head's contribution, the quotient taken once per row. -/
def headK (h : Mat 8192 256) (Q K Vd : Mat2 256 128) (Vu : Mat2 128 256) (i : Fin 2) : Mat 8192 256 :=
  up (attK (logit (proj h (Q i)) (proj h (K i))) (proj h (Vd i))) (Vu i)
/-- One head's contribution, the weights normalised first. -/
def headR (h : Mat 8192 256) (Q K Vd : Mat2 256 128) (Vu : Mat2 128 256) (i : Fin 2) : Mat 8192 256 :=
  up (attR (logit (proj h (Q i)) (proj h (K i))) (proj h (Vd i))) (Vu i)

/-! ## The two linear layers -/

/-- One linear layer with its rectifier: max (Σ_l y(r,l)·W(j,l) + b(j)) 0. -/
def layer (y : Mat 8192 256) (W : Mat 256 256) (b : Fin 256 → EReal) : Mat 8192 256 :=
  fun r j => max ((∑ l : Fin 256, y r l * W j l) + b j) zero

/-! ## The whole network, in the two arrangements -/

/-- As the kernel arranges it. -/
def netK (x : Mat 8192 256) (Q K Vd : Mat2 256 128) (Vu : Mat2 128 256) (W : Mat2 256 256) (b : Fin 2 → Fin 256 → EReal) :
    Mat 8192 256 :=
  let h := norm x (varK x)
  let o : Mat 8192 256 := fun r j => (h r j + headK h Q K Vd Vu 0 r j) + headK h Q K Vd Vu 1 r j
  layer (layer (norm o (varK o)) (W 0) (b 0)) (W 1) (b 1)

/-- As the reference arranges it. -/
def netR (x : Mat 8192 256) (Q K Vd : Mat2 256 128) (Vu : Mat2 128 256) (W : Mat2 256 256) (b : Fin 2 → Fin 256 → EReal) :
    Mat 8192 256 :=
  let h := norm x (varR x)
  let o : Mat 8192 256 := fun r j => h r j + ((zero + headR h Q K Vd Vu 0 r j) + headR h Q K Vd Vu 1 r j)
  layer (layer (norm o (varR o)) (W 0) (b 0)) (W 1) (b 1)

/-! ## Arrays of the programs against the indexed families above -/

/-- A rank-2 array of the programs, read by its two coordinates. -/
def mat2 {A B : Nat} (v : (⟨2, ![A, B]⟩ : Shape).Idx → EReal) : Fin A → Fin B → EReal := fun a b => v (ValueIdx.ix2 a b)
/-- A rank-3 array of the programs, read by its three coordinates. -/
def mat3 {A B C : Nat} (v : (⟨3, ![A, B, C]⟩ : Shape).Idx → EReal) : Fin A → Fin B → Fin C → EReal :=
  fun a b c => v (ValueIdx.ix3 a b c)
/-- A family indexed by two coordinates as a rank-2 array of the programs. -/
def arr2 {A B : Nat} (f : Fin A → Fin B → EReal) : (⟨2, ![A, B]⟩ : Shape).Idx → EReal := fun i => f (i 0) (i 1)

theorem mat2_arr2 {A B : Nat} (f : Fin A → Fin B → EReal) : mat2 (arr2 f) = f := rfl
theorem arr2_mat2 {A B : Nat} (v : (⟨2, ![A, B]⟩ : Shape).Idx → EReal) : arr2 (mat2 v) = v := by
  funext i; exact congrArg v (ValueIdx.eq_ix2 i).symm

/-- Every entry of an array is a real number. -/
def Finite2 {A B : Nat} (z : Fin A → Fin B → EReal) : Prop := ∀ a b, z a b ≠ ⊤ ∧ z a b ≠ ⊥
/-- Every entry of a pair of arrays is a real number. -/
def Finite3 {A B : Nat} (z : Fin 2 → Fin A → Fin B → EReal) : Prop := ∀ i a b, z i a b ≠ ⊤ ∧ z i a b ≠ ⊥

end Cert.Spec

end
-- ==== Proof.NetEqBase.lean ====
/-
  Real arithmetic inside the extended reals, over arbitrary finite index types.

  An extended real is a real number when it is neither infinity.  The real numbers are closed under the
  operations a normalised attention network is made of; on them the two arrangements of a variance
  (the mean of the centred squares against the mean of the squares less the squared mean) and the two
  arrangements of a normalised weighted sum (the quotient taken once against every weight divided first)
  are identities of the field of reals.
-/
import Idealize.ShloMosaic.PureOps.Ideal

noncomputable section

namespace Cert.Spec

open Idealize.ShloMosaic
open scoped BigOperators

/-! ## Real, positive and non-negative extended reals -/

/-- An extended real that is a real number. -/
def IsR (a : EReal) : Prop := ∃ r : ℝ, a = (r : EReal)

/-- An extended real that is a positive real number. -/
def IsPos (a : EReal) : Prop := ∃ r : ℝ, 0 < r ∧ a = (r : EReal)

/-- An extended real that is a real number not below zero. -/
def IsNonneg (a : EReal) : Prop := ∃ r : ℝ, 0 ≤ r ∧ a = (r : EReal)

/-- A real number is exactly an extended real that is neither infinity. -/
theorem isR_iff {a : EReal} : IsR a ↔ a ≠ ⊤ ∧ a ≠ ⊥ := by
  constructor
  · rintro ⟨r, rfl⟩; exact ⟨EReal.coe_ne_top r, EReal.coe_ne_bot r⟩
  · rintro ⟨h1, h2⟩; exact ⟨a.toReal, (EReal.coe_toReal h1 h2).symm⟩

theorem IsPos.isR {a : EReal} (h : IsPos a) : IsR a := let ⟨r, _, e⟩ := h; ⟨r, e⟩

theorem IsNonneg.isR {a : EReal} (h : IsNonneg a) : IsR a := let ⟨r, _, e⟩ := h; ⟨r, e⟩

/-- A real number is the embedding of its real part. -/
theorem IsR.coe_toReal {a : EReal} (h : IsR a) : ((a.toReal : ℝ) : EReal) = a := by
  obtain ⟨r, rfl⟩ := h; rw [EReal.toReal_coe]

/-- A family of real numbers is the embedding of a real family. -/
theorem exists_real_family {ι : Type*} (z : ι → EReal) (hz : ∀ i, IsR (z i)) :
    ∃ f : ι → ℝ, z = fun i => (f i : EReal) :=
  ⟨fun i => (z i).toReal, funext fun i => ((hz i).coe_toReal).symm⟩

theorem IsR.add {a b : EReal} (ha : IsR a) (hb : IsR b) : IsR (a + b) := by
  obtain ⟨p, rfl⟩ := ha; obtain ⟨q, rfl⟩ := hb; exact ⟨p + q, (EReal.coe_add p q).symm⟩

theorem IsR.sub {a b : EReal} (ha : IsR a) (hb : IsR b) : IsR (a - b) := by
  obtain ⟨p, rfl⟩ := ha; obtain ⟨q, rfl⟩ := hb; exact ⟨p - q, (EReal.coe_sub p q).symm⟩

theorem IsR.mul {a b : EReal} (ha : IsR a) (hb : IsR b) : IsR (a * b) := by
  obtain ⟨p, rfl⟩ := ha; obtain ⟨q, rfl⟩ := hb; exact ⟨p * q, (EReal.coe_mul p q).symm⟩

theorem IsR.max {a b : EReal} (ha : IsR a) (hb : IsR b) : IsR (max a b) := by
  rcases le_total a b with h | h
  · rw [max_eq_right h]; exact hb
  · rw [max_eq_left h]; exact ha

/-- The embedding of the reals carries a finite sum to the finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of real numbers is a real number. -/
theorem IsR.sum {ι : Type*} (s : Finset ι) (f : ι → EReal) (h : ∀ i ∈ s, IsR (f i)) : IsR (∑ i ∈ s, f i) :=
  Finset.sum_induction f IsR (fun _ _ => IsR.add) ⟨0, rfl⟩ h

/-- A sum of positive real numbers over a finite type that is not empty is a positive real number. -/
theorem IsPos.sum {ι : Type*} [Fintype ι] [Nonempty ι] (e : ι → EReal) (he : ∀ i, IsPos (e i)) :
    IsPos (∑ i, e i) := by
  obtain ⟨f, rfl⟩ := exists_real_family e fun i => (he i).isR
  have hpos : ∀ i, 0 < f i := fun i => by
    obtain ⟨r, hr, h⟩ := he i
    have h' : f i = r := EReal.coe_eq_coe_iff.mp h
    rw [h']; exact hr
  exact ⟨∑ i, f i, Finset.sum_pos (fun i _ => hpos i) Finset.univ_nonempty, (coe_sum _ _).symm⟩

/-- A real number not below zero plus a positive real number is a positive real number. -/
theorem IsNonneg.add_pos {a b : EReal} (ha : IsNonneg a) (hb : IsPos b) : IsPos (a + b) := by
  obtain ⟨p, hp, rfl⟩ := ha; obtain ⟨q, hq, rfl⟩ := hb
  exact ⟨p + q, by linarith, (EReal.coe_add p q).symm⟩

/-! ## The operations with corners, off their corners -/

/-- The quotient of two real numbers, the divisor not zero, is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- A real number over a positive real number is a real number. -/
theorem IsR.div_pos {a b : EReal} (ha : IsR a) (hb : IsPos b) : IsR (Ideal.div a b) := by
  obtain ⟨p, rfl⟩ := ha; obtain ⟨q, hq, rfl⟩ := hb
  exact ⟨p / q, div_coe_coe p hq.ne'⟩

/-- The inverse square root of a positive real number is a positive real number. -/
theorem IsPos.rsqrt {a : EReal} (h : IsPos a) : IsPos (Ideal.rsqrt a) := by
  obtain ⟨r, hr, rfl⟩ := h
  refine ⟨(Real.sqrt r)⁻¹, inv_pos.mpr (Real.sqrt_pos.mpr hr), ?_⟩
  rw [Ideal.rsqrt_coe, if_neg (not_lt.mpr hr.le), if_neg hr.ne']

/-- The exponential of a real number is a positive real number. -/
theorem IsR.exp_pos {a : EReal} (h : IsR a) : IsPos (Ideal.exp a) := by
  obtain ⟨r, rfl⟩ := h
  exact ⟨Real.exp r, Real.exp_pos r, Ideal.exp_coe r⟩

/-- The greatest of finitely many real numbers is one of them, so a real number. -/
theorem isR_sup' {ι : Type*} (s : Finset ι) (H : s.Nonempty) (f : ι → EReal) (hf : ∀ i, IsR (f i)) :
    IsR (s.sup' H f) := by
  obtain ⟨i, _, h⟩ := Finset.exists_mem_eq_sup' H f
  rw [h]; exact hf i

/-! ## The constants -/

/-- The binary word of 8192.0 denotes 8192. -/
theorem ofBits_rows : Ideal.ofBits .f32 0x46000000#32 = ((8192 : ℝ) : EReal) := by
  simp [Ideal.ofBits, Ideal.ieee, -EReal.coe_mul]; norm_num

/-- The binary word of 0.0 denotes 0. -/
theorem ofBits_zero : Ideal.ofBits .f32 0x00000000#32 = 0 := by
  simp [Ideal.ofBits, Ideal.ieee]

/-- The binary word of −∞ denotes the least extended real. -/
theorem ofBits_ninf : Ideal.ofBits .f32 0xFF800000#32 = ⊥ := by
  simp [Ideal.ofBits, Ideal.ieee]

/-- The binary word of ε (sign 0, exponent 110, fraction 2606508) denotes 10995116 · 2⁻⁴⁰. -/
theorem ofBits_eps :
    Ideal.ofBits .f32 0x3727C5AC#32 = (((10995116 : ℝ) * (2 : ℝ) ^ (-40 : ℤ) : ℝ) : EReal) := by
  simp [Ideal.ofBits, Ideal.ieee, -EReal.coe_mul]

/-- ε is a positive real number. -/
theorem ofBits_eps_pos : IsPos (Ideal.ofBits .f32 0x3727C5AC#32) :=
  ⟨_, by positivity, ofBits_eps⟩

/-! ## The variance, in its two arrangements -/

/-- The sum of the squares centred at any number `m`: Σ (f − m)² = Σ f² − 2m Σ f + n m². -/
theorem sum_centred_sq {ι : Type*} [Fintype ι] (f : ι → ℝ) (m : ℝ) :
    ∑ i, (f i - m) * (f i - m)
      = (∑ i, f i * f i) - 2 * m * (∑ i, f i) + (Fintype.card ι : ℝ) * (m * m) := by
  have e : ∀ i, (f i - m) * (f i - m) = f i * f i - 2 * m * f i + m * m := fun i => by ring
  rw [Finset.sum_congr rfl (fun i _ => e i), Finset.sum_add_distrib, Finset.sum_sub_distrib, ← Finset.mul_sum,
    Finset.sum_const, Finset.card_univ, nsmul_eq_mul]

/-- Over real entries, with `N` the number of entries: the mean of the squares centred at the mean is the mean
    of the squares less the square of the mean. -/
theorem var_eq {ι : Type*} [Fintype ι] (z : ι → EReal) (hz : ∀ i, IsR (z i)) (N : ℝ)
    (hN : (Fintype.card ι : ℝ) = N) (h0 : N ≠ 0) :
    Ideal.div (∑ i, (z i - Ideal.div (∑ k, z k) N) * (z i - Ideal.div (∑ k, z k) N)) N
      = Ideal.div (∑ i, z i * z i) N - Ideal.div (∑ k, z k) N * Ideal.div (∑ k, z k) N := by
  obtain ⟨f, rfl⟩ := exists_real_family z hz
  simp only [← coe_sum, div_coe_coe _ h0, ← EReal.coe_sub, ← EReal.coe_mul]
  refine congrArg Real.toEReal ?_
  rw [sum_centred_sq, hN]
  field_simp
  ring

/-- Over real entries, the mean of the squares centred at any real number is a real number not below zero. -/
theorem var_nonneg {ι : Type*} [Fintype ι] (z : ι → EReal) (hz : ∀ i, IsR (z i)) (m : EReal) (hm : IsR m)
    (N : ℝ) (hN : 0 < N) : IsNonneg (Ideal.div (∑ i, (z i - m) * (z i - m)) N) := by
  obtain ⟨f, rfl⟩ := exists_real_family z hz
  obtain ⟨m', rfl⟩ := hm
  simp only [← coe_sum, div_coe_coe _ hN.ne', ← EReal.coe_sub, ← EReal.coe_mul]
  exact ⟨_, div_nonneg (Finset.sum_nonneg fun i _ => mul_self_nonneg _) hN.le, rfl⟩

/-! ## The normalised weighted sum, in its two arrangements -/

/-- Over positive real weights `e` and real values `v`: Σ (e / Σ e) · v = (Σ e · v) / Σ e. -/
theorem att_eq {ι : Type*} [Fintype ι] [Nonempty ι] (e v : ι → EReal) (he : ∀ i, IsPos (e i))
    (hv : ∀ i, IsR (v i)) :
    ∑ i, Ideal.div (e i) (∑ k, e k) * v i = Ideal.div (∑ i, e i * v i) (∑ k, e k) := by
  obtain ⟨D, hD, hDe⟩ := IsPos.sum e he
  obtain ⟨f, rfl⟩ := exists_real_family e fun i => (he i).isR
  obtain ⟨g, rfl⟩ := exists_real_family v hv
  rw [hDe]
  simp only [← coe_sum, div_coe_coe _ hD.ne', ← EReal.coe_mul]
  refine congrArg Real.toEReal ?_
  rw [Finset.sum_div]
  exact Finset.sum_congr rfl fun i _ => by ring

/-- Over positive real weights and real values, the normalised weighted sum is a real number. -/
theorem att_isR {ι : Type*} [Fintype ι] [Nonempty ι] (e v : ι → EReal) (he : ∀ i, IsPos (e i))
    (hv : ∀ i, IsR (v i)) : IsR (Ideal.div (∑ i, e i * v i) (∑ k, e k)) :=
  IsR.div_pos (IsR.sum _ _ fun i _ => (he i).isR.mul (hv i)) (IsPos.sum e he)

end Cert.Spec

end
-- ==== Proof.NetEq.lean ====
/-
  The network of Spec.lean in its two arrangements is one function of finite inputs.

  Finiteness is carried through the network: the column mean of a finite array is a real number, its
  variance a real number not below zero, so the normalised array is finite; projections and logits are finite
  sums of products; every shifted exponential is a positive real, so every row sum is one, and the attention
  rows, the heads and the sum of the heads onto the normalised array are finite.  On finite arrays the two
  variances agree and the two attention rows agree, and the heads are summed in either order.
-/
import proofs.«408560_j30485677867710_3_alg».proof.Proof.Spec
import proofs.«408560_j30485677867710_3_alg».proof.Proof.NetEqBase

noncomputable section

namespace Cert.Spec

open Idealize.ShloMosaic
open scoped BigOperators

/-! ## The constants -/

theorem rows_eq : rows = ((8192 : ℝ) : EReal) := ofBits_rows
theorem zero_eq : zero = 0 := ofBits_zero
theorem ninf_eq : ninf = ⊥ := ofBits_ninf
theorem eps_pos : IsPos eps := ofBits_eps_pos
theorem rows_pos : IsPos rows := ⟨8192, by norm_num, rows_eq⟩

/-! ## Finite arrays -/

theorem Finite2.isR {A B : Nat} {z : Fin A → Fin B → EReal} (h : Finite2 z) (a : Fin A) (b : Fin B) : IsR (z a b) :=
  isR_iff.mpr (h a b)

theorem Finite3.isR {A B : Nat} {z : Fin 2 → Fin A → Fin B → EReal} (h : Finite3 z) (i : Fin 2) (a : Fin A)
    (b : Fin B) : IsR (z i a b) :=
  isR_iff.mpr (h i a b)

theorem Finite3.finite2 {A B : Nat} {z : Fin 2 → Fin A → Fin B → EReal} (h : Finite3 z) (i : Fin 2) :
    Finite2 (z i) := h i

theorem finite2_of_isR {A B : Nat} {z : Fin A → Fin B → EReal} (h : ∀ a b, IsR (z a b)) : Finite2 z :=
  fun a b => isR_iff.mp (h a b)

/-! ## Batch normalisation -/

/-- The column mean of a finite array is a real number. -/
theorem mean_isR (z : Mat 8192 256) (hz : Finite2 z) (j : Fin 256) : IsR (mean z j) :=
  IsR.div_pos (IsR.sum _ _ fun r _ => hz.isR r j) rows_pos

/-- On a finite array the two variances agree. -/
theorem varR_eq_varK (z : Mat 8192 256) (hz : Finite2 z) : varR z = varK z := by
  funext j
  unfold varR varK mean colSum colSumSq
  rw [rows_eq]
  exact var_eq (fun r => z r j) (fun r => hz.isR r j) 8192 (by simp) (by norm_num)

/-- The variance of a finite array is a real number not below zero. -/
theorem varR_nonneg (z : Mat 8192 256) (hz : Finite2 z) (j : Fin 256) : IsNonneg (varR z j) := by
  unfold varR
  rw [rows_eq]
  exact var_nonneg (fun r => z r j) (fun r => hz.isR r j) (mean z j) (mean_isR z hz j) 8192 (by norm_num)

/-- In the other arrangement too. -/
theorem varK_nonneg (z : Mat 8192 256) (hz : Finite2 z) (j : Fin 256) : IsNonneg (varK z j) := by
  rw [← varR_eq_varK z hz]; exact varR_nonneg z hz j

/-- A finite array normalised by variances not below zero is finite. -/
theorem norm_finite (z : Mat 8192 256) (v : Fin 256 → EReal) (hz : Finite2 z) (hv : ∀ j, IsNonneg (v j)) :
    Finite2 (norm z v) :=
  finite2_of_isR fun r j => ((hz.isR r j).sub (mean_isR z hz j)).mul ((hv j).add_pos eps_pos).rsqrt.isR

/-! ## One attention head -/

theorem proj_finite (h : Mat 8192 256) (w : Mat 256 128) (hh : Finite2 h) (hw : Finite2 w) : Finite2 (proj h w) :=
  finite2_of_isR fun r d => IsR.sum _ _ fun l _ => (hh.isR r l).mul (hw.isR l d)

theorem logit_finite (q k : Mat 8192 128) (hq : Finite2 q) (hk : Finite2 k) : Finite2 (logit q k) :=
  finite2_of_isR fun r r' => IsR.sum _ _ fun d _ => (hq.isR r d).mul (hk.isR r' d)

/-- The row maximum of finite logits is a real number: the greatest of the row, −∞ below it. -/
theorem rowMax_isR (s : Fin 8192 → Fin 8192 → EReal) (hs : Finite2 s) (r : Fin 8192) : IsR (rowMax s r) := by
  unfold rowMax
  rw [ninf_eq, max_eq_right bot_le]
  exact isR_sup' _ _ _ fun r' => hs.isR r r'

/-- Every shifted exponential of finite logits is a positive real number. -/
theorem expo_pos (s : Fin 8192 → Fin 8192 → EReal) (hs : Finite2 s) (r r' : Fin 8192) : IsPos (expo s r r') :=
  ((hs.isR r r').sub (rowMax_isR s hs r)).exp_pos

/-- Every row sum of the shifted exponentials is a positive real number. -/
theorem denom_pos (s : Fin 8192 → Fin 8192 → EReal) (hs : Finite2 s) (r : Fin 8192) : IsPos (denom s r) :=
  IsPos.sum _ fun r' => expo_pos s hs r r'

/-- On finite logits and finite values the two attention rows agree. -/
theorem attR_eq_attK (s : Fin 8192 → Fin 8192 → EReal) (v : Mat 8192 128) (hs : Finite2 s) (hv : Finite2 v) :
    attR s v = attK s v := by
  funext r d
  unfold attR attK denom
  exact att_eq (fun r' => expo s r r') (fun r' => v r' d) (fun r' => expo_pos s hs r r') (fun r' => hv.isR r' d)

theorem attK_finite (s : Fin 8192 → Fin 8192 → EReal) (v : Mat 8192 128) (hs : Finite2 s) (hv : Finite2 v) :
    Finite2 (attK s v) :=
  finite2_of_isR fun r d =>
    att_isR (fun r' => expo s r r') (fun r' => v r' d) (fun r' => expo_pos s hs r r') (fun r' => hv.isR r' d)

theorem up_finite (a : Mat 8192 128) (vu : Mat 128 256) (ha : Finite2 a) (hvu : Finite2 vu) : Finite2 (up a vu) :=
  finite2_of_isR fun r j => IsR.sum _ _ fun d _ => (ha.isR r d).mul (hvu.isR d j)

/-- On a finite normalised array and finite weights the two heads agree. -/
theorem headR_eq_headK (h : Mat 8192 256) (Q K Vd : Mat2 256 128) (Vu : Mat2 128 256) (i : Fin 2)
    (hh : Finite2 h) (hQ : Finite3 Q) (hK : Finite3 K) (hVd : Finite3 Vd) :
    headR h Q K Vd Vu i = headK h Q K Vd Vu i := by
  unfold headR headK
  rw [attR_eq_attK _ _ (logit_finite _ _ (proj_finite h (Q i) hh (hQ i)) (proj_finite h (K i) hh (hK i)))
    (proj_finite h (Vd i) hh (hVd i))]

/-- A head of a finite normalised array and finite weights is finite. -/
theorem headK_finite (h : Mat 8192 256) (Q K Vd : Mat2 256 128) (Vu : Mat2 128 256) (i : Fin 2)
    (hh : Finite2 h) (hQ : Finite3 Q) (hK : Finite3 K) (hVd : Finite3 Vd) (hVu : Finite3 Vu) :
    Finite2 (headK h Q K Vd Vu i) :=
  up_finite _ _
    (attK_finite _ _ (logit_finite _ _ (proj_finite h (Q i) hh (hQ i)) (proj_finite h (K i) hh (hK i)))
      (proj_finite h (Vd i) hh (hVd i)))
    (hVu i)

/-! ## The sum of the heads onto the normalised array -/

/-- The kernel's accumulation: (h + p₀) + p₁. -/
def accK (h : Mat 8192 256) (Q K Vd : Mat2 256 128) (Vu : Mat2 128 256) : Mat 8192 256 :=
  fun r j => (h r j + headK h Q K Vd Vu 0 r j) + headK h Q K Vd Vu 1 r j

/-- The reference's accumulation: h + ((0 + p₀) + p₁). -/
def accR (h : Mat 8192 256) (Q K Vd : Mat2 256 128) (Vu : Mat2 128 256) : Mat 8192 256 :=
  fun r j => h r j + ((zero + headR h Q K Vd Vu 0 r j) + headR h Q K Vd Vu 1 r j)

theorem netK_eq (x : Mat 8192 256) (Q K Vd : Mat2 256 128) (Vu : Mat2 128 256) (W : Mat2 256 256)
    (b : Fin 2 → Fin 256 → EReal) :
    netK x Q K Vd Vu W b
      = layer (layer (norm (accK (norm x (varK x)) Q K Vd Vu) (varK (accK (norm x (varK x)) Q K Vd Vu))) (W 0) (b 0))
          (W 1) (b 1) := rfl

theorem netR_eq (x : Mat 8192 256) (Q K Vd : Mat2 256 128) (Vu : Mat2 128 256) (W : Mat2 256 256)
    (b : Fin 2 → Fin 256 → EReal) :
    netR x Q K Vd Vu W b
      = layer (layer (norm (accR (norm x (varR x)) Q K Vd Vu) (varR (accR (norm x (varR x)) Q K Vd Vu))) (W 0) (b 0))
          (W 1) (b 1) := rfl

/-- The two accumulations agree: the heads agree, zero is the neutral element and the sum is associative. -/
theorem accR_eq_accK (h : Mat 8192 256) (Q K Vd : Mat2 256 128) (Vu : Mat2 128 256)
    (hh : Finite2 h) (hQ : Finite3 Q) (hK : Finite3 K) (hVd : Finite3 Vd) :
    accR h Q K Vd Vu = accK h Q K Vd Vu := by
  funext r j
  unfold accR accK
  rw [headR_eq_headK h Q K Vd Vu 0 hh hQ hK hVd, headR_eq_headK h Q K Vd Vu 1 hh hQ hK hVd, zero_eq, zero_add,
    add_assoc]

/-- The accumulation of finite heads onto a finite array is finite. -/
theorem accK_finite (h : Mat 8192 256) (Q K Vd : Mat2 256 128) (Vu : Mat2 128 256)
    (hh : Finite2 h) (hQ : Finite3 Q) (hK : Finite3 K) (hVd : Finite3 Vd) (hVu : Finite3 Vu) :
    Finite2 (accK h Q K Vd Vu) :=
  finite2_of_isR fun r j =>
    ((hh.isR r j).add ((headK_finite h Q K Vd Vu 0 hh hQ hK hVd hVu).isR r j)).add
      ((headK_finite h Q K Vd Vu 1 hh hQ hK hVd hVu).isR r j)

/-! ## The whole network -/

/-- The first normalisation of finite inputs is finite. -/
theorem norm_x_finite (x : Mat 8192 256) (hx : Finite2 x) : Finite2 (norm x (varK x)) :=
  norm_finite x (varK x) hx (varK_nonneg x hx)

/-- On finite inputs the reference's arrangement and the kernel's arrangement are one function. -/
theorem netR_eq_netK (x : Mat 8192 256) (Q K Vd : Mat2 256 128) (Vu : Mat2 128 256) (W : Mat2 256 256)
    (b : Fin 2 → Fin 256 → EReal)
    (hx : Finite2 x) (hQ : Finite3 Q) (hK : Finite3 K) (hVd : Finite3 Vd) (hVu : Finite3 Vu) (hW : Finite3 W)
    (hb : Finite2 b) :
    netR x Q K Vd Vu W b = netK x Q K Vd Vu W b := by
  have hh : Finite2 (norm x (varK x)) := norm_x_finite x hx
  rw [netR_eq, netK_eq, varR_eq_varK x hx, accR_eq_accK _ Q K Vd Vu hh hQ hK hVd,
    varR_eq_varK _ (accK_finite _ Q K Vd Vu hh hQ hK hVd hVu)]

end Cert.Spec

end
-- ==== Proof.KGlue.lean ====
/-
  The kernel's four regions and three host stretches, chained at the level of index-wise families.

  Each hypothesis is what one region or one host stretch computes, written index by index; the conclusion is that the last
  region's output is the network as the kernel arranges it.  The steps: the first host stretch turns the column sums into the
  column mean and variance; the first region's normalised rows are the network's; the three thirds of the projection by the
  concatenated weights are the per-head projections, which are finite arrays, so the attention region applies; the four
  blocks' partial sums add up to the sums over all rows, and zero added in front changes nothing, so the third host
  stretch gives the second mean and variance; the transposed weights give the two linear layers' sums.
-/
import proofs.«408560_j30485677867710_3_alg».proof.Proof.Spec
import proofs.«408560_j30485677867710_3_alg».proof.Proof.NetEq
import Mathlib.Data.Fintype.BigOperators
import Mathlib.Logic.Equiv.Fin.Basic

noncomputable section

namespace Cert.Spec

open Idealize.ShloMosaic
open scoped BigOperators

/-! ## The rows in four blocks of 2048 -/

/-- A row number is a block number and a row within the block: r = q · 2048 + r'. -/
def blockEquiv : Fin 4 × Fin 2048 ≃ Fin 8192 where
  toFun p := ⟨p.1.val * 2048 + p.2.val, by omega⟩
  invFun r := (⟨r.val / 2048, by omega⟩, ⟨r.val % 2048, Nat.mod_lt _ (by norm_num)⟩)
  left_inv p := Prod.ext (Fin.ext (by show (p.1.val * 2048 + p.2.val) / 2048 = p.1.val; omega))
    (Fin.ext (by show (p.1.val * 2048 + p.2.val) % 2048 = p.2.val; omega))
  right_inv r := Fin.ext (by show r.val / 2048 * 2048 + r.val % 2048 = r.val; omega)

/-- The four blocks' sums add up to the sum over all rows. -/
theorem sum_blocks (f : Fin 8192 → EReal) :
    ∑ q : Fin 4, ∑ r' : Fin 2048, f ⟨q.val * 2048 + r'.val, by omega⟩ = ∑ r : Fin 8192, f r := by
  rw [← Equiv.sum_comp blockEquiv f, Fintype.sum_prod_type]
  exact Finset.sum_congr rfl fun q _ => Finset.sum_congr rfl fun r' _ => rfl

/-! ## The chain -/

theorem kglue (x : Mat 8192 256) (Q K Vd : Mat2 256 128) (Vu : Mat2 128 256) (W : Mat2 256 256) (b : Fin 2 → Fin 256 → EReal)
    (hx : Finite2 x) (hQ : Finite3 Q) (hK : Finite3 K) (hVd : Finite3 Vd)
    -- region 0: column sums and sums of squares
    (s ss : Fin 256 → EReal) (hs : ∀ j, s j = colSum x j) (hss : ∀ j, ss j = colSumSq x j)
    -- host stretch 1
    (m1 v1 : Fin 256 → EReal) (hm1 : ∀ j, m1 j = Ideal.div (s j) rows)
    (hv1 : ∀ j, v1 j = Ideal.div (ss j) rows - Ideal.div (s j) rows * Ideal.div (s j) rows)
    (wqkv : Mat 256 768)
    (hwq : ∀ (l : Fin 256) (i : Fin 2) (d : Fin 128) (hlt : i.val * 128 + d.val < 768), wqkv l ⟨i.val * 128 + d.val, hlt⟩ = Q i l d)
    (hwk : ∀ (l : Fin 256) (i : Fin 2) (d : Fin 128) (hlt : 256 + (i.val * 128 + d.val) < 768), wqkv l ⟨256 + (i.val * 128 + d.val), hlt⟩ = K i l d)
    (hwv : ∀ (l : Fin 256) (i : Fin 2) (d : Fin 128) (hlt : 512 + (i.val * 128 + d.val) < 768), wqkv l ⟨512 + (i.val * 128 + d.val), hlt⟩ = Vd i l d)
    -- region 1: the normalised rows and their projection by the concatenated weights
    (h : Mat 8192 256) (hh : ∀ r l, h r l = (x r l - m1 l) * Ideal.rsqrt (v1 l + eps))
    (pr : Mat 8192 768) (hpr : ∀ r n, pr r n = ∑ l : Fin 256, h r l * wqkv l n)
    -- host stretch 2: the three thirds of the projection, per head
    (qa ka va : Fin 2 → Mat 8192 128)
    (hqa : ∀ (i : Fin 2) (r : Fin 8192) (d : Fin 128) (hlt : i.val * 128 + d.val < 768), qa i r d = pr r ⟨i.val * 128 + d.val, hlt⟩)
    (hka : ∀ (i : Fin 2) (r : Fin 8192) (d : Fin 128) (hlt : 256 + (i.val * 128 + d.val) < 768), ka i r d = pr r ⟨256 + (i.val * 128 + d.val), hlt⟩)
    (hva : ∀ (i : Fin 2) (r : Fin 8192) (d : Fin 128) (hlt : 512 + (i.val * 128 + d.val) < 768), va i r d = pr r ⟨512 + (i.val * 128 + d.val), hlt⟩)
    (vu : Mat2 128 256) (hvu : ∀ i d j, vu i d j = Vu i d j)
    -- region 2: attention, given that its q, k, v operands are real
    (o : Mat 8192 256)
    (ho : Finite3 qa → Finite3 ka → Finite3 va → ∀ r j, o r j = (h r j + up (attK (logit (qa 0) (ka 0)) (va 0)) (vu 0) r j) + up (attK (logit (qa 1) (ka 1)) (va 1)) (vu 1) r j)
    (ps pss : Fin 4 → Fin 256 → EReal)
    (hps : ∀ (q : Fin 4) (j : Fin 256), ps q j = ∑ r' : Fin 2048, o ⟨q.val * 2048 + r'.val, by omega⟩ j)
    (hpss : ∀ (q : Fin 4) (j : Fin 256), pss q j = ∑ r' : Fin 2048, o ⟨q.val * 2048 + r'.val, by omega⟩ j * o ⟨q.val * 2048 + r'.val, by omega⟩ j)
    -- host stretch 3
    (m2 v2 : Fin 256 → EReal) (hm2 : ∀ j, m2 j = Ideal.div (zero + ∑ q : Fin 4, ps q j) rows)
    (hv2 : ∀ j, v2 j = Ideal.div (zero + ∑ q : Fin 4, pss q j) rows - Ideal.div (zero + ∑ q : Fin 4, ps q j) rows * Ideal.div (zero + ∑ q : Fin 4, ps q j) rows)
    (wt : Mat2 256 256) (hwt : ∀ i l j, wt i l j = W i j l)
    -- region 3
    (out : Mat 8192 256)
    (hout : ∀ r j, out r j = max ((∑ l : Fin 256, (max ((∑ l' : Fin 256, ((o r l' - m2 l') * Ideal.rsqrt (v2 l' + eps)) * wt 0 l' l) + b 0 l) zero) * wt 1 l j) + b 1 j) zero) :
    out = netK x Q K Vd Vu W b := by
  -- the first mean and variance
  have em1 : m1 = mean x := funext fun j => by rw [hm1, hs]; rfl
  have ev1 : v1 = varK x := funext fun j => by rw [hv1, hs, hss]; rfl
  subst em1 ev1
  -- the normalised rows
  have eh : h = norm x (varK x) := funext fun r => funext fun l => by rw [hh]; rfl
  subst eh
  -- the three thirds of the projection, per head
  have eqa : ∀ i, qa i = proj (norm x (varK x)) (Q i) := fun i => funext fun r => funext fun d => by
    rw [hqa i r d (by omega), hpr]
    exact Finset.sum_congr rfl fun l _ => by rw [hwq]
  have eka : ∀ i, ka i = proj (norm x (varK x)) (K i) := fun i => funext fun r => funext fun d => by
    rw [hka i r d (by omega), hpr]
    exact Finset.sum_congr rfl fun l _ => by rw [hwk]
  have eva : ∀ i, va i = proj (norm x (varK x)) (Vd i) := fun i => funext fun r => funext fun d => by
    rw [hva i r d (by omega), hpr]
    exact Finset.sum_congr rfl fun l _ => by rw [hwv]
  -- they are finite
  have hN : Finite2 (norm x (varK x)) := norm_x_finite x hx
  have fqa : Finite3 qa := fun i => by rw [eqa i]; exact proj_finite _ _ hN (hQ i)
  have fka : Finite3 ka := fun i => by rw [eka i]; exact proj_finite _ _ hN (hK i)
  have fva : Finite3 va := fun i => by rw [eva i]; exact proj_finite _ _ hN (hVd i)
  -- the attention region's output is the network's
  have evu : vu = Vu := funext fun i => funext fun d => funext fun j => hvu i d j
  subst evu
  have eo : o = fun r j => (norm x (varK x) r j + headK (norm x (varK x)) Q K Vd vu 0 r j)
      + headK (norm x (varK x)) Q K Vd vu 1 r j := funext fun r => funext fun j => by
    rw [ho fqa fka fva r j, eqa 0, eqa 1, eka 0, eka 1, eva 0, eva 1]; rfl
  -- the second mean and variance
  have ecs : ∀ j, ∑ q : Fin 4, ps q j = colSum o j := fun j => by
    simp only [hps]; exact sum_blocks fun r => o r j
  have ecss : ∀ j, ∑ q : Fin 4, pss q j = colSumSq o j := fun j => by
    simp only [hpss]; exact sum_blocks fun r => o r j * o r j
  have em2 : m2 = mean o := funext fun j => by rw [hm2, ecs, zero_eq]; simp only [zero_add]; rfl
  have ev2 : v2 = varK o := funext fun j => by rw [hv2, ecs, ecss, zero_eq]; simp only [zero_add]; rfl
  subst em2 ev2
  -- the two linear layers
  funext r j
  rw [hout r j]
  simp only [hwt]
  subst eo
  rfl

end Cert.Spec

end
-- ==== Proof.LibNary3.lean ====
/-
  Result lemmas for `StableHlo.nary` over a LITERAL family of three references (a concatenate of three operands),
  in the shape of the library's lemma for four (`nary4_result`, Lib/StableHlo/Run.lean), their forms for `simp`, and a
  form whose right side takes the three operands' contents as three plain arguments (`nary3Val`), so that a `simp`
  pass goes on rewriting them. General: it imports no program.
-/
import Idealize.ShloMosaic.Lib.StableHlo.Run

noncomputable section

namespace Idealize.ShloMosaic.StableHlo

open Idealize.SL Idealize.SL.Sem

variable {τ : Topo} {sig : RefSig} {Val : EltTy → Type}

section Nary3

variable {x a b y : Ref sig .tc}

/-- `nary` over a literal family of three references `![x, a, b]`: after the operation the result buffer `y` holds the
    operation's function `f` applied to the three operands' contents, each read AT ITS OWN REFERENCE — the family
    `Fin.cons (F ↑x) (Fin.cons (F ↑a) (Fin.cons (F ↑b) _))` in place of `fun k => F ↑(![x, a, b] k)` —, so that a
    rewriting of the operands' contents (each itself some operation's result) can go on below the function: under the
    binder the reference `![x, a, b] k` is no literal. The two families agree at each of the three indices by `rfl`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference un-indexed, for use as a `simp` lemma (as the library's `nary4_result'`). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A function `f` of a family of contents over the three references `![x, a, b]`, at the family of the three
    contents `A`, `B`, `C`: the three as plain arguments. (When `f` builds a concatenate, the family sits inside its
    operand list, on which a later proof argument depends: a `simp` pass does not rewrite there, and it does rewrite
    the arguments of this function.) By `rfl` it is `f` at the family, and the family at `0`, `1`, `2` is `A`, `B`, `C`. -/
def nary3Val (f : ((k : Fin 3) → ((![x, a, b] : Fin 3 → Ref sig .tc) k).ty.Contents Val) → y.ty.Contents Val)
    (A : x.ty.Contents Val) (B : a.ty.Contents Val) (C : b.ty.Contents Val) : y.ty.Contents Val :=
  f (Fin.cons A (Fin.cons B (Fin.cons C (fun i => i.elim0))))

/-- `nary3_result'` with the right side as `nary3Val` of the three operands' contents: the form for a `simp` pass that
    is to go on rewriting the operands' contents (each itself some operation's result). -/
theorem nary3_result_val'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = nary3Val f (F (Proc.devRef .tc x)) (F (Proc.devRef .tc a)) (F (Proc.devRef .tc b)) :=
  nary3_result f hxs hy F

end Nary3

end Idealize.ShloMosaic.StableHlo

end
-- ==== Proof.KHost.lean ====
/-
  The three stretches of host operations between the kernel's four regions, read at an index.

  For arbitrary contents W of the buffers before a stretch, what the stretch leaves at each array the next region reads
  is stated entry by entry in terms of W at the arrays the stretch reads:
  * after the first region: the column means (the column sums over the 8192 rows), the column variances (the mean of the
    squares less the square of the mean), and the three pairs of [256,128] projection weights laid side by side as one
    [256,768] matrix (pair k at columns 256·k + 128·i + d);
  * after the second region: the [8192,768] projections cut back into three pairs of [8192,128] arrays (queries, keys,
    values: band k, head i, coordinate d at column 256·k + 128·i + d), and the up-projection weights unchanged;
  * after the third region: the column means and variances of the second normalisation, from the four blocks' partial
    sums added up from zero, and the two layers' weight matrices transposed.
  The narrowing to bfloat16 is the identity on the ideal values.
-/
import proofs.«408560_j30485677867710_3_alg».proof.Proof.Gen.KernelIdeal.Launch
import proofs.«408560_j30485677867710_3_alg».proof.Proof.Spec
import proofs.«408560_j30485677867710_3_alg».proof.Proof.LibNary3
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

noncomputable section

namespace Cert.KernelIdeal.KHost

open Cert.KernelIdeal Cert.KernelIdeal.Gen Cert.Spec
open Idealize.ShloMosaic Idealize.ShloMosaic.TcCoe Idealize.ShloMosaic.ValueIdx
open scoped BigOperators

/-! # The host stretches' arrays read at an index

Each lemma reads one composed term of host operations (a quotient by the broadcast row count, a difference of a
quotient and a square, a transpose followed by a reshape, a concatenate, a slice followed by a reshape and a
transpose, a reduction over the leading axis) at an index given by coordinates. -/

section Arrays

/-- The scalar constant 8192.0 broadcast over a row. -/
abbrev bcRows (h : S_.BroadcastsInDim S1x256 (![] : Fin 0 → Fin S1x256.rank)) : FVec Ideal S1x256 .f32 :=
  broadcastInDim S1x256 ![] h (constant (F := Ideal) S_ .f32 0x46000000#32)

/-- A row divided by the broadcast row count, at a column: the entry over the row count. -/
theorem divRows_apply (x : FVec Ideal S1x256 .f32) (h : S_.BroadcastsInDim S1x256 (![] : Fin 0 → Fin S1x256.rank)) (j : Fin 256) :
    mat2 (Host.divf x (bcRows h)) 0 j = Ideal.div (mat2 x 0 j) rows := by
  show Ideal.div (x (ix2 0 j)) (broadcastInDim S1x256 ![] h (constant (F := Ideal) S_ .f32 0x46000000#32) (ix2 0 j)) = _
  rw [broadcastInDim_scalar_apply]
  rfl

/-- The mean of the squares less the square of the mean, at a column. -/
theorem varRows_apply (x y : FVec Ideal S1x256 .f32) (h h' : S_.BroadcastsInDim S1x256 (![] : Fin 0 → Fin S1x256.rank)) (j : Fin 256) :
    mat2 (subf (Host.divf y (bcRows h')) (mulf (Host.divf x (bcRows h)) (Host.divf x (bcRows h)))) 0 j
      = Ideal.div (mat2 y 0 j) rows - Ideal.div (mat2 x 0 j) rows * Ideal.div (mat2 x 0 j) rows := by
  show mat2 (Host.divf y (bcRows h')) 0 j - mat2 (Host.divf x (bcRows h)) 0 j * mat2 (Host.divf x (bcRows h)) 0 j = _
  rw [divRows_apply, divRows_apply]

/-- A pair of [256,128] matrices laid side by side: the transpose to [256,2,128] and the reshape to [256,256] read, at
    row l and column i·128 + d, matrix i at (l, d). -/
theorem sideBySide_apply (a : FVec Ideal S2x256x128 .f32) (ht : S2x256x128.Transposes [1, 0, 2] S256x2x128)
    (hs : S256x2x128.ShapeCasts S256x256) (l : Fin 256) (i : Fin 2) (d : Fin 128) (c : Fin 256) (hc : c.val = i.val * 128 + d.val) :
    shapeCast S256x256 (transpose S256x2x128 [1, 0, 2] a ht) hs (ix2 l c) = a (ix3 i l d) := by
  refine (shapeCast_apply _ hs (ix2 l c) (ix3 l i d) ?_).trans ?_
  · rw [Shape.rowMajor_val_three, Shape.rowMajor_val_two]
    show (l.val * 2 + i.val) * 128 + d.val = l.val * 256 + c.val
    omega
  · exact transpose_apply _ a ht (ix3 l i d) (ix3 i l d) fun b => match b with | ⟨0, _⟩ => rfl | ⟨1, _⟩ => rfl | ⟨2, _⟩ => rfl

/-- Three [256,256] matrices laid side by side and narrowed, read at a column of the first: that matrix at the column. -/
theorem cat3_apply0 (A B C : FVec Ideal S256x256 .f32) (hcat : Shape.Concatenates [S256x256, S256x256, S256x256] S256x768 1)
    (hlt : FTy.bits .bf16 < FTy.bits .f32) (l : Fin 256) (c : Fin 256) (c' : Fin 768) (h : c'.val = c.val) :
    mat2 (truncf .bf16 (concatenate S256x768 1 [⟨S256x256, A⟩, ⟨S256x256, B⟩, ⟨S256x256, C⟩] hcat) hlt) l c' = A (ix2 l c) := by
  show concatenate S256x768 1 [⟨S256x256, A⟩, ⟨S256x256, B⟩, ⟨S256x256, C⟩] hcat (ix2 l c') = A (ix2 l c)
  exact concatenate_apply_piece (t := S256x768) (1 : Fin 2) [⟨S256x256, A⟩, ⟨S256x256, B⟩, ⟨S256x256, C⟩] hcat (ix2 l c') 0 (by show (0 : Nat) < 3; omega) S256x256 A rfl rfl 0 rfl (ix2 l c)
    (fun b hb => match b, hb with | ⟨0, _⟩, _ => rfl | ⟨1, _⟩, hb => absurd rfl hb) (by show 0 + c.val = c'.val; omega)

/-- At a column of the second: that matrix at the column less 256. -/
theorem cat3_apply1 (A B C : FVec Ideal S256x256 .f32) (hcat : Shape.Concatenates [S256x256, S256x256, S256x256] S256x768 1)
    (hlt : FTy.bits .bf16 < FTy.bits .f32) (l : Fin 256) (c : Fin 256) (c' : Fin 768) (h : c'.val = 256 + c.val) :
    mat2 (truncf .bf16 (concatenate S256x768 1 [⟨S256x256, A⟩, ⟨S256x256, B⟩, ⟨S256x256, C⟩] hcat) hlt) l c' = B (ix2 l c) := by
  show concatenate S256x768 1 [⟨S256x256, A⟩, ⟨S256x256, B⟩, ⟨S256x256, C⟩] hcat (ix2 l c') = B (ix2 l c)
  exact concatenate_apply_piece (t := S256x768) (1 : Fin 2) [⟨S256x256, A⟩, ⟨S256x256, B⟩, ⟨S256x256, C⟩] hcat (ix2 l c') 1 (by show (1 : Nat) < 3; omega) S256x256 B rfl rfl 256 rfl (ix2 l c)
    (fun b hb => match b, hb with | ⟨0, _⟩, _ => rfl | ⟨1, _⟩, hb => absurd rfl hb) (by show 256 + c.val = c'.val; omega)

/-- At a column of the third: that matrix at the column less 512. -/
theorem cat3_apply2 (A B C : FVec Ideal S256x256 .f32) (hcat : Shape.Concatenates [S256x256, S256x256, S256x256] S256x768 1)
    (hlt : FTy.bits .bf16 < FTy.bits .f32) (l : Fin 256) (c : Fin 256) (c' : Fin 768) (h : c'.val = 512 + c.val) :
    mat2 (truncf .bf16 (concatenate S256x768 1 [⟨S256x256, A⟩, ⟨S256x256, B⟩, ⟨S256x256, C⟩] hcat) hlt) l c' = C (ix2 l c) := by
  show concatenate S256x768 1 [⟨S256x256, A⟩, ⟨S256x256, B⟩, ⟨S256x256, C⟩] hcat (ix2 l c') = C (ix2 l c)
  exact concatenate_apply_piece (t := S256x768) (1 : Fin 2) [⟨S256x256, A⟩, ⟨S256x256, B⟩, ⟨S256x256, C⟩] hcat (ix2 l c') 2 (by show (2 : Nat) < 3; omega) S256x256 C rfl rfl 512 rfl (ix2 l c)
    (fun b hb => match b, hb with | ⟨0, _⟩, _ => rfl | ⟨1, _⟩, hb => absurd rfl hb) (by show 512 + c.val = c'.val; omega)

/-- A band of 256 columns of the [8192,768] projections from column o, reshaped to [8192,2,128] and transposed to
    [2,8192,128], reads at (i, r, d) the projections at row r and column o + i·128 + d. -/
theorem band_apply (o : Nat) (P : FVec Ideal S8192x768 .bf16) (hsl : S8192x768.Slices ![0, o] S8192x256)
    (hsc : S8192x256.ShapeCasts S8192x2x128) (htr : S8192x2x128.Transposes [1, 0, 2] S2x8192x128)
    (i : Fin 2) (r : Fin 8192) (d : Fin 128) (c : Fin 768) (hc : c.val = o + (i.val * 128 + d.val)) :
    transpose S2x8192x128 [1, 0, 2] (shapeCast S8192x2x128 (extractStridedSlice S8192x256 ![0, o] P hsl) hsc) htr (ix3 i r d)
      = P (ix2 r c) := by
  have hi := i.isLt
  have hd := d.isLt
  refine (transpose_apply _ _ htr (ix3 i r d) (ix3 r i d) fun b => match b with | ⟨0, _⟩ => rfl | ⟨1, _⟩ => rfl | ⟨2, _⟩ => rfl).trans ?_
  refine (shapeCast_apply _ hsc (ix3 r i d) (ix2 r (⟨i.val * 128 + d.val, by omega⟩ : Fin 256)) ?_).trans ?_
  · rw [Shape.rowMajor_val_three, Shape.rowMajor_val_two]
    show r.val * 256 + (i.val * 128 + d.val) = (r.val * 2 + i.val) * 128 + d.val
    omega
  · exact slice2_axis1_apply o P hsl r _ c hc

/-- The sum over the four blocks of a [4,1,256] array from the constant zero, over the broadcast row count, at a
    column. -/
theorem meanBlocks_apply (X : FVec Ideal S4x1x256 .f32) (hred : S4x1x256.ReducesTo [0] S1x256) (hu : 0 < S_.numel)
    (h : S_.BroadcastsInDim S1x256 (![] : Fin 0 → Fin S1x256.rank)) (j : Fin 256) :
    mat2 (Host.divf (Host.reduceAdd X (constant (F := Ideal) S_ .f32 0x00000000#32) hred hu) (bcRows h)) 0 j
      = Ideal.div (zero + ∑ q : Fin 4, mat3 X q 0 j) rows := by
  rw [divRows_apply]
  congr 1
  show Ideal.hostReduceAdd hred X _ (ix2 0 j) = _
  rw [Ideal.hostReduceAdd_single hred (by decide : S4x1x256.Reduces [0] S1x256)]
  refine congrArg₂ (· + ·) rfl (Finset.sum_congr rfl fun q _ => congrArg X (funext fun a => ?_))
  match a with
  | ⟨0, _⟩ => first | rfl | exact Fin.ext rfl
  | ⟨1, _⟩ => first | rfl | exact Fin.ext rfl
  | ⟨2, _⟩ => first | rfl | exact Fin.ext rfl

/-- The same for the squares, less the square of the mean. -/
theorem varBlocks_apply (X Y : FVec Ideal S4x1x256 .f32) (hred : S4x1x256.ReducesTo [0] S1x256) (hu : 0 < S_.numel)
    (h h' : S_.BroadcastsInDim S1x256 (![] : Fin 0 → Fin S1x256.rank)) (j : Fin 256) :
    mat2 (subf (Host.divf (Host.reduceAdd Y (constant (F := Ideal) S_ .f32 0x00000000#32) hred hu) (bcRows h'))
        (mulf (Host.divf (Host.reduceAdd X (constant (F := Ideal) S_ .f32 0x00000000#32) hred hu) (bcRows h))
          (Host.divf (Host.reduceAdd X (constant (F := Ideal) S_ .f32 0x00000000#32) hred hu) (bcRows h)))) 0 j
      = Ideal.div (zero + ∑ q : Fin 4, mat3 Y q 0 j) rows
        - Ideal.div (zero + ∑ q : Fin 4, mat3 X q 0 j) rows * Ideal.div (zero + ∑ q : Fin 4, mat3 X q 0 j) rows := by
  show mat2 (Host.divf (Host.reduceAdd Y _ hred hu) (bcRows h')) 0 j
    - mat2 (Host.divf (Host.reduceAdd X _ hred hu) (bcRows h)) 0 j * mat2 (Host.divf (Host.reduceAdd X _ hred hu) (bcRows h)) 0 j = _
  rw [meanBlocks_apply, meanBlocks_apply]

/-- A pair of [256,256] matrices, each transposed. -/
theorem transposed_apply (A : FVec Ideal S2x256x256 .f32) (h : S2x256x256.Transposes [0, 2, 1] S2x256x256) (i : Fin 2) (l j : Fin 256) :
    mat3 (transpose S2x256x256 [0, 2, 1] A h) i l j = mat3 A i j l :=
  transpose_ix3_021_apply A h i l j

end Arrays

/-! # The stretches evaluated

What each stretch leaves at the arrays the next region reads, as the operations' composed term of the contents
before the stretch. -/

section Eval

variable (W : Valuation τ sig (Elt Ideal))

/-- One pass over a stretch: each operation's result at its own array is its function of its operands' contents,
    and any other array keeps what it held. -/
local macro "host_results" : tactic =>
  `(tactic| simp (disch := decide) only [StableHlo.after_cons, StableHlo.after_nil,
      StableHlo.nullary_result', StableHlo.unary_result', StableHlo.binary_result', StableHlo.reshape_result',
      StableHlo.nary3_result_val',
      StableHlo.nullary_result_ne', StableHlo.unary_result_ne', StableHlo.binary_result_ne', StableHlo.reshape_result_ne',
      StableHlo.nary_result_ne'])

/-! ## After the first region -/

theorem v2_eq : StableHlo.after (hostOps1 (F := Ideal)) W (Proc.devRef .tc main_v2)
    = Host.divf (W (Proc.devRef .tc main_v0_0)) (bcRows Gen.bcast_S_S1x256) := by
  host_results <;> rfl

theorem v6_eq : StableHlo.after (hostOps1 (F := Ideal)) W (Proc.devRef .tc main_v6)
    = subf (Host.divf (W (Proc.devRef .tc main_v0_1)) (bcRows Gen.bcast_S_S1x256))
        (mulf (Host.divf (W (Proc.devRef .tc main_v0_0)) (bcRows Gen.bcast_S_S1x256))
          (Host.divf (W (Proc.devRef .tc main_v0_0)) (bcRows Gen.bcast_S_S1x256))) := by
  host_results <;> rfl

/-- One of the three weight pairs laid side by side. -/
abbrev sideBySide (a : FVec Ideal S2x256x128 .f32) : FVec Ideal S256x256 .f32 :=
  shapeCast S256x256 (transpose S256x2x128 [1, 0, 2] a Gen.transposes_S2x256x128_S256x2x128_1_0_2) Gen.shapeCasts_S256x2x128_S256x256

theorem v14_eq : StableHlo.after (hostOps1 (F := Ideal)) W (Proc.devRef .tc main_v14)
    = truncf .bf16 (concatenate S256x768 1
        [⟨S256x256, sideBySide (W (Proc.devRef .tc main_arg1))⟩, ⟨S256x256, sideBySide (W (Proc.devRef .tc main_arg2))⟩,
          ⟨S256x256, sideBySide (W (Proc.devRef .tc main_arg3))⟩]
        Gen.concatenates_S256x256_S256x256_S256x256_S256x768_d1) Gen.bitsLt_bf16_f32 := by
  host_results <;> rfl

/-! ## After the second region -/

/-- A band of 256 columns of the projections as a pair of [8192,128] arrays. -/
abbrev band (o : Nat) (hsl : S8192x768.Slices ![0, o] S8192x256) (P : FVec Ideal S8192x768 .bf16) : FVec Ideal S2x8192x128 .bf16 :=
  transpose S2x8192x128 [1, 0, 2]
    (shapeCast S8192x2x128 (extractStridedSlice S8192x256 ![0, o] P hsl) Gen.shapeCasts_S8192x256_S8192x2x128)
    Gen.transposes_S8192x2x128_S2x8192x128_1_0_2

theorem v20_eq : StableHlo.after (hostOps2 (F := Ideal)) W (Proc.devRef .tc main_v20)
    = band 0 Gen.slices_S8192x768_S8192x256_0_0 (W (Proc.devRef .tc main_v15_1)) := by
  host_results <;> rfl

theorem v22_eq : StableHlo.after (hostOps2 (F := Ideal)) W (Proc.devRef .tc main_v22)
    = band 256 Gen.slices_S8192x768_S8192x256_0_256 (W (Proc.devRef .tc main_v15_1)) := by
  host_results <;> rfl

theorem v24_eq : StableHlo.after (hostOps2 (F := Ideal)) W (Proc.devRef .tc main_v24)
    = band 512 Gen.slices_S8192x768_S8192x256_0_512 (W (Proc.devRef .tc main_v15_1)) := by
  host_results <;> rfl

theorem v25_eq : StableHlo.after (hostOps2 (F := Ideal)) W (Proc.devRef .tc main_v25)
    = (truncf .bf16 (W (Proc.devRef .tc main_arg4) : FVec Ideal S2x128x256 .f32) Gen.bitsLt_bf16_f32 : FVec Ideal S2x128x256 .bf16) := by
  host_results <;> rfl

/-! ## After the third region -/

/-- The four blocks' partial sums added up from zero, over the row count. -/
abbrev meanBlocks (X : FVec Ideal S4x1x256 .f32) : FVec Ideal S1x256 .f32 :=
  Host.divf (Host.reduceAdd X (constant (F := Ideal) S_ .f32 0x00000000#32) Gen.reducesTo_S4x1x256_S1x256_d0 Gen.h_S_)
    (bcRows Gen.bcast_S_S1x256)

theorem v29_eq : StableHlo.after (hostOps3 (F := Ideal)) W (Proc.devRef .tc main_v29)
    = meanBlocks (W (Proc.devRef .tc main_v26_1)) := by
  host_results <;> rfl

theorem v34_eq : StableHlo.after (hostOps3 (F := Ideal)) W (Proc.devRef .tc main_v34)
    = subf (meanBlocks (W (Proc.devRef .tc main_v26_2)))
        (mulf (meanBlocks (W (Proc.devRef .tc main_v26_1))) (meanBlocks (W (Proc.devRef .tc main_v26_1)))) := by
  host_results <;> rfl

theorem v36_eq : StableHlo.after (hostOps3 (F := Ideal)) W (Proc.devRef .tc main_v36)
    = (truncf .bf16 (transpose S2x256x256 [0, 2, 1] (W (Proc.devRef .tc main_arg5) : FVec Ideal S2x256x256 .f32) Gen.transposes_S2x256x256_S2x256x256_0_2_1)
        Gen.bitsLt_bf16_f32 : FVec Ideal S2x256x256 .bf16) := by
  host_results <;> rfl

end Eval

/-! # The stretches read at an index -/

section Final

variable (W : Valuation τ sig (Elt Ideal))

/-! ## After the first region: the first normalisation's statistics and the projection weights -/

/-- The column mean: the column sum over the number of rows. -/
theorem mean1 (j : Fin 256) :
    mat2 (StableHlo.after (hostOps1 (F := Ideal)) W (Proc.devRef .tc main_v2)) 0 j
      = Ideal.div (mat2 (W (Proc.devRef .tc main_v0_0)) 0 j) rows := by
  rw [v2_eq]; exact divRows_apply _ _ j

/-- The column variance: the mean of the squares less the square of the mean. -/
theorem var1 (j : Fin 256) :
    mat2 (StableHlo.after (hostOps1 (F := Ideal)) W (Proc.devRef .tc main_v6)) 0 j
      = Ideal.div (mat2 (W (Proc.devRef .tc main_v0_1)) 0 j) rows
        - Ideal.div (mat2 (W (Proc.devRef .tc main_v0_0)) 0 j) rows * Ideal.div (mat2 (W (Proc.devRef .tc main_v0_0)) 0 j) rows := by
  rw [v6_eq]; exact varRows_apply _ _ _ _ j

/-- The query weights: head i's entry (l, d) sits at row l and column 128·i + d. -/
theorem wq (l : Fin 256) (i : Fin 2) (d : Fin 128) (c : Fin 768) (hc : c.val = i.val * 128 + d.val) :
    mat2 (StableHlo.after (hostOps1 (F := Ideal)) W (Proc.devRef .tc main_v14)) l c = mat3 (W (Proc.devRef .tc main_arg1)) i l d := by
  have hi := i.isLt
  have hd := d.isLt
  rw [v14_eq]
  refine (cat3_apply0 _ _ _ _ _ l (⟨i.val * 128 + d.val, by omega⟩ : Fin 256) c hc).trans ?_
  exact sideBySide_apply (W (Proc.devRef .tc main_arg1)) _ _ l i d _ rfl

/-- The key weights: head i's entry (l, d) sits at row l and column 256 + 128·i + d. -/
theorem wk (l : Fin 256) (i : Fin 2) (d : Fin 128) (c : Fin 768) (hc : c.val = 256 + (i.val * 128 + d.val)) :
    mat2 (StableHlo.after (hostOps1 (F := Ideal)) W (Proc.devRef .tc main_v14)) l c = mat3 (W (Proc.devRef .tc main_arg2)) i l d := by
  have hi := i.isLt
  have hd := d.isLt
  rw [v14_eq]
  refine (cat3_apply1 _ _ _ _ _ l (⟨i.val * 128 + d.val, by omega⟩ : Fin 256) c hc).trans ?_
  exact sideBySide_apply (W (Proc.devRef .tc main_arg2)) _ _ l i d _ rfl

/-- The value weights: head i's entry (l, d) sits at row l and column 512 + 128·i + d. -/
theorem wv (l : Fin 256) (i : Fin 2) (d : Fin 128) (c : Fin 768) (hc : c.val = 512 + (i.val * 128 + d.val)) :
    mat2 (StableHlo.after (hostOps1 (F := Ideal)) W (Proc.devRef .tc main_v14)) l c = mat3 (W (Proc.devRef .tc main_arg3)) i l d := by
  have hi := i.isLt
  have hd := d.isLt
  rw [v14_eq]
  refine (cat3_apply2 _ _ _ _ _ l (⟨i.val * 128 + d.val, by omega⟩ : Fin 256) c hc).trans ?_
  exact sideBySide_apply (W (Proc.devRef .tc main_arg3)) _ _ l i d _ rfl

/-! ## After the second region: the projections by head -/

/-- Head i's queries: row r, coordinate d is the projections' row r at column 128·i + d. -/
theorem qall (i : Fin 2) (r : Fin 8192) (d : Fin 128) (c : Fin 768) (hc : c.val = i.val * 128 + d.val) :
    mat3 (StableHlo.after (hostOps2 (F := Ideal)) W (Proc.devRef .tc main_v20)) i r d = mat2 (W (Proc.devRef .tc main_v15_1)) r c := by
  rw [v20_eq]; exact band_apply 0 _ _ _ _ i r d c (by omega)

/-- Head i's keys: column 256 + 128·i + d. -/
theorem kall (i : Fin 2) (r : Fin 8192) (d : Fin 128) (c : Fin 768) (hc : c.val = 256 + (i.val * 128 + d.val)) :
    mat3 (StableHlo.after (hostOps2 (F := Ideal)) W (Proc.devRef .tc main_v22)) i r d = mat2 (W (Proc.devRef .tc main_v15_1)) r c := by
  rw [v22_eq]; exact band_apply 256 _ _ _ _ i r d c hc

/-- Head i's values: column 512 + 128·i + d. -/
theorem vall (i : Fin 2) (r : Fin 8192) (d : Fin 128) (c : Fin 768) (hc : c.val = 512 + (i.val * 128 + d.val)) :
    mat3 (StableHlo.after (hostOps2 (F := Ideal)) W (Proc.devRef .tc main_v24)) i r d = mat2 (W (Proc.devRef .tc main_v15_1)) r c := by
  rw [v24_eq]; exact band_apply 512 _ _ _ _ i r d c hc

/-- The up-projection weights are unchanged. -/
theorem vup (i : Fin 2) (d : Fin 128) (j : Fin 256) :
    mat3 (StableHlo.after (hostOps2 (F := Ideal)) W (Proc.devRef .tc main_v25)) i d j = mat3 (W (Proc.devRef .tc main_arg4)) i d j := by
  rw [v25_eq]; rfl

/-! ## After the third region: the second normalisation's statistics and the layers' weights -/

/-- The column mean: the four blocks' column sums added up from zero, over the number of rows. -/
theorem mean2 (j : Fin 256) :
    mat2 (StableHlo.after (hostOps3 (F := Ideal)) W (Proc.devRef .tc main_v29)) 0 j
      = Ideal.div (zero + ∑ q : Fin 4, mat3 (W (Proc.devRef .tc main_v26_1)) q 0 j) rows := by
  rw [v29_eq]; exact meanBlocks_apply _ _ _ _ j

/-- The column variance: the mean of the squares less the square of the mean. -/
theorem var2 (j : Fin 256) :
    mat2 (StableHlo.after (hostOps3 (F := Ideal)) W (Proc.devRef .tc main_v34)) 0 j
      = Ideal.div (zero + ∑ q : Fin 4, mat3 (W (Proc.devRef .tc main_v26_2)) q 0 j) rows
        - Ideal.div (zero + ∑ q : Fin 4, mat3 (W (Proc.devRef .tc main_v26_1)) q 0 j) rows
          * Ideal.div (zero + ∑ q : Fin 4, mat3 (W (Proc.devRef .tc main_v26_1)) q 0 j) rows := by
  rw [v34_eq]; exact varBlocks_apply _ _ _ _ _ _ j

/-- The layers' weight matrices, each transposed. -/
theorem wt (i : Fin 2) (l j : Fin 256) :
    mat3 (StableHlo.after (hostOps3 (F := Ideal)) W (Proc.devRef .tc main_v36)) i l j = mat3 (W (Proc.devRef .tc main_arg5)) i j l := by
  rw [v36_eq]; exact transposed_apply _ _ i l j

end Final

end Cert.KernelIdeal.KHost

end
-- ==== Proof.Reg0Value.lean ====
import proofs.«408560_j30485677867710_3_alg».proof.Proof.Gen.KernelIdeal.Launch
import proofs.«408560_j30485677867710_3_alg».proof.Proof.Gen.KernelIdeal.Skeleton
import proofs.«408560_j30485677867710_3_alg».proof.Proof.Gen.KernelIdeal.Points
import proofs.«408560_j30485677867710_3_alg».proof.Proof.Reg0
import proofs.«408560_j30485677867710_3_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.Reg0Value

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # The batch statistics read at an index, over the extended reals -/

/-! ## The body's payloads -/

/-- The zero fill of the sum's accumulator is the extended real 0 everywhere. -/
theorem pay1_apply (j : Fin 256) : k0_pay1 (F := Ideal) (ix2 (0 : Fin 1) j) = 0 := by
  unfold k0_pay1
  exact Ideal.ofBits_zero_f32

/-- The zero fill of the sum of squares' accumulator likewise. -/
theorem pay2_apply (j : Fin 256) : k0_pay2 (F := Ideal) (ix2 (0 : Fin 1) j) = 0 := by
  unfold k0_pay2
  exact Ideal.ofBits_zero_f32

/-- One update of the sum at column `j`: what the accumulator held plus the block's column sum. -/
theorem pay3_apply (x : Vec Ideal S2048x256 .f32) (a : Vec Ideal S1x256 .f32) (j : Fin 256) :
    k0_pay3 x a (ix2 (0 : Fin 1) j) = a (ix2 (0 : Fin 1) j) + ∑ r : Fin 2048, x (ix2 r j) := by
  unfold k0_pay3
  rw [addf_apply, shapeCast_self]
  refine congrArg (a (ix2 (0 : Fin 1) j) + ·) ?_
  refine (shapeCast_addUnit_apply ![256] _ shapeCasts_S256_S1x256 (ix2 (0 : Fin 1) j)).trans ?_
  refine (Ideal.multiReduction_add_single _ _ reduces_S2048x256_S256 _ _ _).trans ?_
  refine Finset.sum_congr rfl fun r _ => congrArg x ?_
  funext b
  match b with
  | ⟨0, _⟩ => rfl
  | ⟨1, _⟩ => rfl

/-- One update of the sum of squares at column `j`: what the accumulator held plus the block's column sum of squares. -/
theorem pay4_apply (x : Vec Ideal S2048x256 .f32) (a : Vec Ideal S1x256 .f32) (j : Fin 256) :
    k0_pay4 x a (ix2 (0 : Fin 1) j) = a (ix2 (0 : Fin 1) j) + ∑ r : Fin 2048, x (ix2 r j) * x (ix2 r j) := by
  unfold k0_pay4
  rw [addf_apply, shapeCast_self]
  refine congrArg (a (ix2 (0 : Fin 1) j) + ·) ?_
  refine (shapeCast_addUnit_apply ![256] _ shapeCasts_S256_S1x256 (ix2 (0 : Fin 1) j)).trans ?_
  refine (Ideal.multiReduction_add_single _ _ reduces_S2048x256_S256 _ _ _).trans ?_
  refine Finset.sum_congr rfl fun r _ => ?_
  rw [mulf_apply]
  have e : reduces_S2048x256_S256.lift (fun a => (ix2 (0 : Fin 1) j) a.succ) r = ix2 r j := by
    funext b
    match b with
    | ⟨0, _⟩ => rfl
    | ⟨1, _⟩ => rfl
  rw [e]
  rfl

/-! ## The rows, block by block -/

/-- A sum over the 8192 rows is the sum over the four blocks of the sums over each block's 2048 rows. -/
theorem sum_rows (f : Fin 8192 → EReal) :
    ∑ r : Fin 8192, f r = ∑ t : Fin 4, ∑ r : Fin 2048, f ⟨2048 * t.val + r.val, by have := t.isLt; have := r.isLt; omega⟩ := by
  have e := Equiv.sum_comp (finProdFinEquiv (m := 4) (n := 2048)) f
  rw [show (∑ r : Fin 8192, f r) = ∑ x : Fin (4 * 2048), f x from rfl, ← e, Fintype.sum_prod_type]
  refine Finset.sum_congr rfl fun t _ => Finset.sum_congr rfl fun r _ => congrArg f (Fin.ext ?_)
  show r.val + 2048 * t.val = 2048 * t.val + r.val
  omega

/-! ## The input's blocks in its array -/

variable (V : (c : Dev nD) → (b : Ref sig .tc) → Buf (Elt Ideal) ((c : Thread nD τ).loc b))

/-- The input array as the region finds it, at its literal type. -/
abbrev xarr (c : Dev nD) : Vec Ideal S8192x256 .f32 := V c main_arg0

theorem lt4 (t : Fin cfg0.N) : t.val < 4 := lt_of_lt_of_eq t.isLt (show cfg0.N = 4 from N_0)

/-- The block at point `t` reads the array's rows from `2048 t` on. -/
theorem xblk_apply (c : Dev nD) (t : Fin cfg0.N) (r : Fin 2048) (j : Fin 256) :
    Reg0.xblk V c t (ix2 r j)
      = xarr V c (ix2 (⟨2048 * t.val + r.val, by have := lt4 t; have := r.isLt; omega⟩ : Fin 8192) j) := by
  have hi : win0_0.index t 0 = t.val ∧ win0_0.index t 1 = 0 := by
    rcases fin_N0 t with rfl | rfl | rfl | rfl <;> decide
  show Reg0.iblk V c 0 t (ix2 r j) = _
  unfold Reg0.iblk
  rw [View.read_apply]
  show V c main_arg0 _ = V c main_arg0 _
  congr 1
  funext a
  apply Fin.ext
  match a with
  | ⟨0, _⟩ => show win0_0.index t 0 * 2048 + 1 * r.val = 2048 * t.val + r.val; rw [hi.1]; omega
  | ⟨1, _⟩ => show win0_0.index t 1 * 256 + 1 * j.val = j.val; rw [hi.2]; omega

/-! ## The accumulators after the last point -/

theorem h0 : 0 < cfg0.N := by rw [show cfg0.N = 4 from N_0]; decide
theorem h1 : 1 < cfg0.N := by rw [show cfg0.N = 4 from N_0]; decide
theorem h2 : 2 < cfg0.N := by rw [show cfg0.N = 4 from N_0]; decide
theorem h3 : 3 < cfg0.N := by rw [show cfg0.N = 4 from N_0]; decide

/-- The sum's accumulator after the last point, at column `j`: the column sum over all the rows. -/
theorem acc1_last_apply (c : Dev nD) (j : Fin 256) :
    Reg0.acc1 V c 3 h3 (ix2 (0 : Fin 1) j) = ∑ r : Fin 8192, xarr V c (ix2 r j) := by
  have e3 : Reg0.acc1 V c 3 h3 = k0_pay3 (Reg0.xblk V c t0_3) (Reg0.acc1 V c 2 h2) := Reg0.acc1_later V c t0_3 (by decide)
  have e2 : Reg0.acc1 V c 2 h2 = k0_pay3 (Reg0.xblk V c t0_2) (Reg0.acc1 V c 1 h1) := Reg0.acc1_later V c t0_2 (by decide)
  have e1 : Reg0.acc1 V c 1 h1 = k0_pay3 (Reg0.xblk V c t0_1) (Reg0.acc1 V c 0 h0) := Reg0.acc1_later V c t0_1 (by decide)
  have e0 : Reg0.acc1 V c 0 h0 = k0_pay3 (Reg0.xblk V c t0_0) (k0_pay1 (F := Ideal)) := Reg0.acc1_first V c t0_0 rfl
  rw [e3, pay3_apply, e2, pay3_apply, e1, pay3_apply, e0, pay3_apply, pay1_apply, zero_add, sum_rows, Fin.sum_univ_four]
  simp only [xblk_apply]
  rfl

/-- The sum of squares' accumulator after the last point, at column `j`: the column sum of squares over all the rows. -/
theorem acc2_last_apply (c : Dev nD) (j : Fin 256) :
    Reg0.acc2 V c 3 h3 (ix2 (0 : Fin 1) j) = ∑ r : Fin 8192, xarr V c (ix2 r j) * xarr V c (ix2 r j) := by
  have e3 : Reg0.acc2 V c 3 h3 = k0_pay4 (Reg0.xblk V c t0_3) (Reg0.acc2 V c 2 h2) := Reg0.acc2_later V c t0_3 (by decide)
  have e2 : Reg0.acc2 V c 2 h2 = k0_pay4 (Reg0.xblk V c t0_2) (Reg0.acc2 V c 1 h1) := Reg0.acc2_later V c t0_2 (by decide)
  have e1 : Reg0.acc2 V c 1 h1 = k0_pay4 (Reg0.xblk V c t0_1) (Reg0.acc2 V c 0 h0) := Reg0.acc2_later V c t0_1 (by decide)
  have e0 : Reg0.acc2 V c 0 h0 = k0_pay4 (Reg0.xblk V c t0_0) (k0_pay2 (F := Ideal)) := Reg0.acc2_first V c t0_0 rfl
  rw [e3, pay4_apply, e2, pay4_apply, e1, pay4_apply, e0, pay4_apply, pay2_apply, zero_add, sum_rows, Fin.sum_univ_four]
  simp only [xblk_apply]
  rfl

/-! ## The two result arrays after the region -/

/-- What the sum's array ends holding: the accumulator after the last point (its one block is the array). -/
abbrev result1 (c : Dev nD) : Buf (Elt Ideal) ((c : Thread nD τ).loc main_v0_0) := Reg0.acc1 V c 3 h3
/-- What the sum of squares' array ends holding. -/
abbrev result2 (c : Dev nD) : Buf (Elt Ideal) ((c : Thread nD τ).loc main_v0_1) := Reg0.acc2 V c 3 h3

theorem hz1 : (fun a => win0_1.index t0_3 a * main_v0_0.ty.shape.size a) = fun _ => 0 := funext fun a => by fin_cases a <;> decide
theorem hz2 : (fun a => win0_2.index t0_3 a * main_v0_1.ty.shape.size a) = fun _ => 0 := funext fun a => by fin_cases a <;> decide

/-- The one write-back of the sum, at the last point, writes the accumulator: block (0, 0) of the [1,256] array read
    through zero offsets is the array. -/
theorem flushed1_eq (c : Dev nD) (t : Fin cfg0.N) (hf : (cfg0.win 1).flush t = true) :
    (Reg0.dat V c).flushed 1 t = ((cfg0.win 1).blk t).view.read (Elt Ideal) (result1 V c) := by
  have ht : t.val = 3 := by have := (flush0_1 t).mp hf; have := lt4 t; omega
  obtain rfl : t = t0_3 := Fin.ext ht
  show (cfg0.win 1).cut (grid0.coords t0_3) ((Reg0.dat V c).after 1 t0_3) = _
  rw [Reg0.after_1]
  exact (Memref.read_access_unit_zero (Elt Ideal) main_v0_0 hz1 (fun a => by rw [congrFun hz1 a]; simp) (result1 V c)).symm

theorem flushed2_eq (c : Dev nD) (t : Fin cfg0.N) (hf : (cfg0.win 2).flush t = true) :
    (Reg0.dat V c).flushed 2 t = ((cfg0.win 2).blk t).view.read (Elt Ideal) (result2 V c) := by
  have ht : t.val = 3 := by have := (flush0_2 t).mp hf; have := lt4 t; omega
  obtain rfl : t = t0_3 := Fin.ext ht
  show (cfg0.win 2).cut (grid0.coords t0_3) ((Reg0.dat V c).after 2 t0_3) = _
  rw [Reg0.after_2]
  exact (Memref.read_access_unit_zero (Elt Ideal) main_v0_1 hz2 (fun a => by rw [congrFun hz2 a]; simp) (result2 V c)).symm

/-- The sum's array after the region is the accumulator after the last point: the last point's block covers it. -/
theorem arrAt_1 (c : Dev nD) : (Reg0.dat V c).arrAt 1 cfg0.N = result1 V c :=
  (Reg0.dat V c).arrAt_eq_of_cover 1 (result1 V c) (flushed1_eq V c) fun i =>
    ⟨t0_3, (flush0_1 t0_3).mpr rfl, by
      show i ∈ ((View.whole main_v0_0).slice (win0_1.rect t0_3)).set
      rw [View.set_slice_whole, Rect.mem_set_unit]
      intro a
      have b0 : (i 0 : Nat) < 1 := (i 0).isLt
      have b1 : (i 1 : Nat) < 256 := (i 1).isLt
      match a with
      | ⟨0, _⟩ =>
        show win0_1.index t0_3 0 * win0_1.size 0 ≤ (i 0 : Nat) ∧ (i 0 : Nat) < win0_1.index t0_3 0 * win0_1.size 0 + win0_1.xsize (grid0.coords t0_3) 0
        rw [show win0_1.index t0_3 0 * win0_1.size 0 = 0 from by decide +kernel, show win0_1.xsize (grid0.coords t0_3) 0 = 1 from by decide +kernel]; omega
      | ⟨1, _⟩ =>
        show win0_1.index t0_3 1 * win0_1.size 1 ≤ (i 1 : Nat) ∧ (i 1 : Nat) < win0_1.index t0_3 1 * win0_1.size 1 + win0_1.xsize (grid0.coords t0_3) 1
        rw [show win0_1.index t0_3 1 * win0_1.size 1 = 0 from by decide +kernel, show win0_1.xsize (grid0.coords t0_3) 1 = 256 from by decide +kernel]; omega⟩

theorem arrAt_2 (c : Dev nD) : (Reg0.dat V c).arrAt 2 cfg0.N = result2 V c :=
  (Reg0.dat V c).arrAt_eq_of_cover 2 (result2 V c) (flushed2_eq V c) fun i =>
    ⟨t0_3, (flush0_2 t0_3).mpr rfl, by
      show i ∈ ((View.whole main_v0_1).slice (win0_2.rect t0_3)).set
      rw [View.set_slice_whole, Rect.mem_set_unit]
      intro a
      have b0 : (i 0 : Nat) < 1 := (i 0).isLt
      have b1 : (i 1 : Nat) < 256 := (i 1).isLt
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 1 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 256 from by decide +kernel]; omega⟩

/-! ## The value of the region -/

/-- The input array is left as the region found it. -/
theorem arrAt_in (c : Dev nD) : (Reg0.dat V c).arrAt 0 cfg0.N = V c (Pipeline.arrRef spec0 0) :=
  ((Reg0.dat V c).arrAt_in 0 rfl _).trans (Reg0.A_eq V c 0)

/-- THE SUMS: after the region the first result array holds, at column `j`, the sum of the input's column `j`. -/
theorem arrAt_sum (c : Dev nD) (j : Fin 256) :
    ((Reg0.dat V c).arrAt 1 cfg0.N : Vec Ideal S1x256 .f32) (ix2 (0 : Fin 1) j)
      = Cert.Spec.colSum (Cert.Spec.mat2 (xarr V c)) j := by
  rw [arrAt_1]
  exact acc1_last_apply V c j

/-- THE SUMS OF SQUARES: the second result array holds, at column `j`, the sum of the squares of the input's column `j`. -/
theorem arrAt_sumsq (c : Dev nD) (j : Fin 256) :
    ((Reg0.dat V c).arrAt 2 cfg0.N : Vec Ideal S1x256 .f32) (ix2 (0 : Fin 1) j)
      = Cert.Spec.colSumSq (Cert.Spec.mat2 (xarr V c)) j := by
  rw [arrAt_2]
  exact acc2_last_apply V c j

end Cert.KernelIdeal.Reg0Value

end
-- ==== Proof.Reg1Value.lean ====
/- Kernel region 1 at the ideal values, read index by index: the normalised rows and their projection as formulas
   of the region's four input arrays. -/
import proofs.«408560_j30485677867710_3_alg».proof.Proof.Reg1
import proofs.«408560_j30485677867710_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg1Value

open Cert.KernelIdeal Cert.KernelIdeal.Gen Cert.KernelIdeal.Reg1
open Idealize.ShloMosaic Idealize.ShloMosaic.TcCoe Idealize.ShloMosaic.ValueIdx
open Idealize.SL Idealize.SL.Sem
open Idealize.ShloMosaic.Pipeline (Dat Cfg Window)
open scoped BigOperators

/-! ## The payloads at an index -/

theorem hz : (![0, 0] : Fin 2 → Nat) = fun _ => 0 := funext fun a => by
  match a with
  | ⟨0, _⟩ => rfl
  | ⟨1, _⟩ => rfl

/-- The first payload at row `p`, column `q`: the entry less the column's mean, times the inverse root of the
    column's variance plus ε. -/
theorem pay1_apply (v0 : Vec Ideal S1x256 .f32) (v5 : Vec Ideal S2048x256 .f32) (v6 : Vec Ideal S1x256 .f32)
    (p : Fin 2048) (q : Fin 256) :
    k1_pay1 v0 v5 v6 (ix2 p q)
      = (v5 (ix2 p q) - v6 (ix2 (0 : Fin 1) q)) * Ideal.rsqrt (v0 (ix2 (0 : Fin 1) q) + Cert.Spec.eps) := by
  unfold k1_pay1
  rw [mulf_apply, subf_apply, broadcastTo_1b_ab_apply, broadcastTo_1b_ab_apply, shapeCast_self, shapeCast_self]
  rfl

/-! The matmul's operand indices, axis by axis. -/

theorem lhs_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide),
    dif_pos (show (0 : Fin S2048x256.rank) ∈ dot_S2048x256_S256x768_S2048x768_1_0_0_1_n_n.lhsNonContracting by decide)]
  rfl
theorem lhs_1 (i : S2048x768.Idx) (q : dot_S2048x256_S256x768_S2048x768_1_0_0_1_n_n.contr.Idx) :
    (dot_S2048x256_S256x768_S2048x768_1_0_0_1_n_n.lhsIdx i q 1).val = (q ⟨0, by decide⟩).val :=
  dot_S2048x256_S256x768_S2048x768_1_0_0_1_n_n.lhsIdx_val_of_single rfl i q
theorem rhs_0 (i : S2048x768.Idx) (q : dot_S2048x256_S256x768_S2048x768_1_0_0_1_n_n.contr.Idx) :
    (dot_S2048x256_S256x768_S2048x768_1_0_0_1_n_n.rhsIdx i q 0).val = (q ⟨0, by decide⟩).val :=
  dot_S2048x256_S256x768_S2048x768_1_0_0_1_n_n.rhsIdx_val_of_single rfl i q
theorem rhs_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide),
    dif_pos (show (1 : Fin S256x768.rank) ∈ dot_S2048x256_S256x768_S2048x768_1_0_0_1_n_n.rhsNonContracting by decide)]
  rfl

/-- The second payload at row `p`, column `n`: the row of the first payload against the column of the
    weights. -/
theorem pay2_apply (v0 : Vec Ideal S1x256 .f32) (v5 : Vec Ideal S2048x256 .f32) (v6 : Vec Ideal S1x256 .f32)
    (v14 : Vec Ideal S256x768 .bf16) (p : Fin 2048) (n : Fin 768) :
    k1_pay2 v0 v5 v6 v14 (ix2 p n) = ∑ l : Fin 256, k1_pay1 v0 v5 v6 (ix2 p l) * v14 (ix2 l n) := by
  unfold k1_pay2
  rw [truncf_apply]
  refine (Ideal.matmul_constant_zero_apply dot_S2048x256_S256x768_S2048x768_1_0_0_1_n_n none _ _ (ix2 p n)).trans ?_
  rw [← Equiv.sum_comp (contrEquiv1 dot_S2048x256_S256x768_S2048x768_1_0_0_1_n_n 256 rfl rfl).symm]
  refine Finset.sum_congr rfl fun k _ => ?_
  have hk := contrEquiv1_symm_val dot_S2048x256_S256x768_S2048x768_1_0_0_1_n_n 256 rfl rfl k
  have el : dot_S2048x256_S256x768_S2048x768_1_0_0_1_n_n.lhsIdx (ix2 p n)
      ((contrEquiv1 dot_S2048x256_S256x768_S2048x768_1_0_0_1_n_n 256 rfl rfl).symm k) = ix2 p k :=
    funext fun a => Fin.ext (by
      match a with
      | ⟨0, _⟩ => exact lhs_0 _ _
      | ⟨1, _⟩ => exact (lhs_1 _ _).trans hk)
  have er : dot_S2048x256_S256x768_S2048x768_1_0_0_1_n_n.rhsIdx (ix2 p n)
      ((contrEquiv1 dot_S2048x256_S256x768_S2048x768_1_0_0_1_n_n 256 rfl rfl).symm k) = ix2 k n :=
    funext fun a => Fin.ext (by
      match a with
      | ⟨0, _⟩ => exact (rhs_0 _ _).trans hk
      | ⟨1, _⟩ => exact rhs_1 _ _)
  rw [el, er, shapeCast_self]
  rfl

/-! ## The region's arrays by coordinates -/

variable (V : (c : Dev nD) → (b : Ref sig .tc) → Buf (Elt Ideal) ((c : Thread nD τ).loc b))

/-- The normalised rows: the entry less the column's mean, times the inverse root of the column's variance plus ε. -/
def hn (X : Cert.Spec.Mat 8192 256) (M Vr : Cert.Spec.Mat 1 256) : Cert.Spec.Mat 8192 256 :=
  fun r l => (X r l - M 0 l) * Ideal.rsqrt (Vr 0 l + Cert.Spec.eps)

/-- The region's four input arrays as it finds them, by coordinates: the rows, the columns' means, their variances,
    the weights. -/
abbrev X (c : Dev nD) : Cert.Spec.Mat 8192 256 := Cert.Spec.mat2 (V c main_arg0)
abbrev M (c : Dev nD) : Cert.Spec.Mat 1 256 := Cert.Spec.mat2 (V c main_v2)
abbrev Vr (c : Dev nD) : Cert.Spec.Mat 1 256 := Cert.Spec.mat2 (V c main_v6)
abbrev Wm (c : Dev nD) : Cert.Spec.Mat 256 768 := Cert.Spec.mat2 (V c main_v14)

/-- The same four arrays as functions of an index into extended reals. -/
abbrev Ax (c : Dev nD) : S8192x256.Idx → EReal := V c main_arg0
abbrev Am (c : Dev nD) : S1x256.Idx → EReal := V c main_v2
abbrev Av (c : Dev nD) : S1x256.Idx → EReal := V c main_v6
abbrev Aw (c : Dev nD) : S256x768.Idx → EReal := V c main_v14

/-- What output window 4's array ends holding: the normalised rows. -/
def G4 (c : Dev nD) : S8192x256.Idx → Elt Ideal .f32 :=
  fun i => hn (X V c) (M V c) (Vr V c) (i 0) (i 1)

/-- What output window 5's array ends holding: the normalised rows against the weights' columns. -/
def G5 (c : Dev nD) : S8192x768.Idx → Elt Ideal .bf16 :=
  fun i => ∑ l : Fin 256, hn (X V c) (M V c) (Vr V c) (i 0) l * Wm V c l (i 1)

/-- The printed index maps, decided over the grid: the row blocks of windows 0, 4 and 5 move with the point, every
    other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 4 := lt_of_lt_of_eq t.isLt N_1

/-- Row `p` of the block at point `t` is row `2048 t + p` of the array. -/
def row (t : Fin cfg1.N) (p : Fin 2048) : Fin 8192 := ⟨t.val * 2048 + p.val, by have := point_lt t; have := p.isLt; omega⟩

/-! Where a block's element sits in its array, window by window. -/

theorem emb0 (t : Fin cfg1.N) (p : Fin 2048) (q : Fin 256) :
    ((cfg1.win 0).blk t).view.emb (ix2 p q) = ix2 (row t p) q := by
  obtain ⟨e00, e01, -⟩ := idx_facts t
  funext a; apply Fin.ext
  match a with
  | ⟨0, _⟩ => show win1_0.index t (0 : Fin 2) * 2048 + 1 * p.val = t.val * 2048 + p.val; omega
  | ⟨1, _⟩ => show win1_0.index t (1 : Fin 2) * 256 + 1 * q.val = q.val; omega

theorem emb1 (t : Fin cfg1.N) (q : Fin 256) :
    ((cfg1.win 1).blk t).view.emb (ix2 (0 : Fin 1) q) = ix2 (0 : Fin 1) q := by
  obtain ⟨-, -, e10, e11, -⟩ := idx_facts t
  funext a; apply Fin.ext
  match a with
  | ⟨0, _⟩ => show win1_1.index t (0 : Fin 2) * 1 + 1 * 0 = 0; omega
  | ⟨1, _⟩ => show win1_1.index t (1 : Fin 2) * 256 + 1 * q.val = q.val; omega

theorem emb2 (t : Fin cfg1.N) (q : Fin 256) :
    ((cfg1.win 2).blk t).view.emb (ix2 (0 : Fin 1) q) = ix2 (0 : Fin 1) q := by
  obtain ⟨-, -, -, -, e20, e21, -⟩ := idx_facts t
  funext a; apply Fin.ext
  match a with
  | ⟨0, _⟩ => show win1_2.index t (0 : Fin 2) * 1 + 1 * 0 = 0; omega
  | ⟨1, _⟩ => show win1_2.index t (1 : Fin 2) * 256 + 1 * q.val = q.val; omega

theorem emb3 (t : Fin cfg1.N) (l : Fin 256) (n : Fin 768) :
    ((cfg1.win 3).blk t).view.emb (ix2 l n) = ix2 l n := by
  obtain ⟨-, -, -, -, -, -, e30, e31, -⟩ := idx_facts t
  funext a; apply Fin.ext
  match a with
  | ⟨0, _⟩ => show win1_3.index t (0 : Fin 2) * 256 + 1 * l.val = l.val; omega
  | ⟨1, _⟩ => show win1_3.index t (1 : Fin 2) * 768 + 1 * n.val = n.val; omega

theorem emb4 (t : Fin cfg1.N) (p : Fin 2048) (q : Fin 256) :
    ((cfg1.win 4).blk t).view.emb (ix2 p q) = ix2 (row t p) q := by
  obtain ⟨-, -, -, -, -, -, -, -, e40, e41, -⟩ := idx_facts t
  funext a; apply Fin.ext
  match a with
  | ⟨0, _⟩ => show win1_4.index t (0 : Fin 2) * 2048 + 1 * p.val = t.val * 2048 + p.val; omega
  | ⟨1, _⟩ => show win1_4.index t (1 : Fin 2) * 256 + 1 * q.val = q.val; omega

theorem emb5 (t : Fin cfg1.N) (p : Fin 2048) (n : Fin 768) :
    ((cfg1.win 5).blk t).view.emb (ix2 p n) = ix2 (row t p) n := by
  obtain ⟨-, -, -, -, -, -, -, -, -, -, e50, e51⟩ := idx_facts t
  funext a; apply Fin.ext
  match a with
  | ⟨0, _⟩ => show win1_5.index t (0 : Fin 2) * 2048 + 1 * p.val = t.val * 2048 + p.val; omega
  | ⟨1, _⟩ => show win1_5.index t (1 : Fin 2) * 768 + 1 * n.val = n.val; omega

/-! ## What each point writes back -/

/-- The first payload of the blocks at point `t`, at an index: the normalised entry of the array's row. -/
theorem pay1_blocks (c : Dev nD) (t : Fin cfg1.N) (p : Fin 2048) (q : Fin 256) :
    k1_pay1 (iblk V c 2 t) (iblk V c 0 t) (iblk V c 1 t) (ix2 p q) = hn (X V c) (M V c) (Vr V c) (row t p) q := by
  rw [pay1_apply]
  show (Ax V c (((cfg1.win 0).blk t).view.emb (ix2 p q)) - Am V c (((cfg1.win 1).blk t).view.emb (ix2 (0 : Fin 1) q)))
      * Ideal.rsqrt (Av V c (((cfg1.win 2).blk t).view.emb (ix2 (0 : Fin 1) q)) + Cert.Spec.eps) = _
  rw [emb0, emb1, emb2]
  rfl

/-- What point `t` writes back of window 4 is block `t` of the normalised rows. -/
theorem flushed4_eq (c : Dev nD) (t : Fin cfg1.N) :
    (dat V c).flushed 4 t = ((cfg1.win 4).blk t).view.read (Elt Ideal) (G4 V c) := by
  show (cfg1.win 4).cut (grid1.coords t) ((dat V c).after 4 t) = _
  rw [after_4]
  unfold after4 out4
  rw [View.canon_unit_zero hz]
  simp only [View.ld_unit_zero (S := S2048x256) hz, View.ld_unit_zero (S := S1x256) hz]
  funext j
  obtain ⟨p, q, rfl⟩ : ∃ (p : Fin 2048) (q : Fin 256), j = ix2 p q := ⟨j 0, j 1, eq_ix2 j⟩
  show k1_pay1 (iblk V c 2 t) (iblk V c 0 t) (iblk V c 1 t) (ix2 p q) = G4 V c (((cfg1.win 4).blk t).view.emb (ix2 p q))
  rw [pay1_blocks, emb4]
  rfl

/-- What point `t` writes back of window 5 is block `t` of the projected rows. -/
theorem flushed5_eq (c : Dev nD) (t : Fin cfg1.N) :
    (dat V c).flushed 5 t = ((cfg1.win 5).blk t).view.read (Elt Ideal) (G5 V c) := by
  show (cfg1.win 5).cut (grid1.coords t) ((dat V c).after 5 t) = _
  rw [after_5]
  unfold after5 out5
  rw [View.canon_unit_zero hz]
  simp only [View.ld_unit_zero (S := S2048x256) hz, View.ld_unit_zero (S := S1x256) hz, View.ld_unit_zero (S := S256x768) hz]
  funext j
  obtain ⟨p, n, rfl⟩ : ∃ (p : Fin 2048) (n : Fin 768), j = ix2 p n := ⟨j 0, j 1, eq_ix2 j⟩
  show k1_pay2 (iblk V c 2 t) (iblk V c 0 t) (iblk V c 1 t) (iblk V c 3 t) (ix2 p n) = G5 V c (((cfg1.win 5).blk t).view.emb (ix2 p n))
  rw [pay2_apply, emb5]
  show _ = ∑ l : Fin 256, hn (X V c) (M V c) (Vr V c) (row t p) l * Wm V c l n
  refine Finset.sum_congr rfl fun l _ => ?_
  rw [pay1_blocks]
  show _ * Aw V c (((cfg1.win 3).blk t).view.emb (ix2 l n)) = _
  rw [emb3]
  rfl

/-! ## The blocks tile the arrays -/

theorem mem_blk4 (t : Fin cfg1.N) (i : S8192x256.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v15_0).slice (win1_4.rect t)).set ↔ _
  rw [View.set_slice_whole, Rect.mem_set_unit]
  exact Iff.rfl

theorem mem_blk5 (t : Fin cfg1.N) (i : S8192x768.Idx) :
    i ∈ ((cfg1.win 5).blk t).view.set ↔ ∀ a : Fin 2, win1_5.index t a * S2048x768.size a ≤ (i a).val
      ∧ (i a).val < win1_5.index t a * S2048x768.size a + S2048x768.size a := by
  show i ∈ ((View.whole main_v15_1).slice (win1_5.rect t)).set ↔ _
  rw [View.set_slice_whole, Rect.mem_set_unit]
  exact Iff.rfl

/-- Row `r` is in the block of point `r / 2048`. -/
theorem covered4 (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  have hN : (i 0).val / 2048 < cfg1.N := lt_of_lt_of_eq (by omega) N_1.symm
  obtain ⟨-, -, -, -, -, -, -, -, e40, e41, -⟩ := idx_facts ⟨(i 0).val / 2048, hN⟩
  refine ⟨⟨(i 0).val / 2048, hN⟩, flush1_4 _, ?_⟩
  rw [mem_blk4]
  intro a
  match a with
  | ⟨0, _⟩ =>
    show win1_4.index ⟨(i 0).val / 2048, hN⟩ (0 : Fin 2) * 2048 ≤ (i 0).val
      ∧ (i 0).val < win1_4.index ⟨(i 0).val / 2048, hN⟩ (0 : Fin 2) * 2048 + 2048
    rw [e40]; show (i 0).val / 2048 * 2048 ≤ (i 0).val ∧ (i 0).val < (i 0).val / 2048 * 2048 + 2048; omega
  | ⟨1, _⟩ =>
    show win1_4.index ⟨(i 0).val / 2048, hN⟩ (1 : Fin 2) * 256 ≤ (i 1).val
      ∧ (i 1).val < win1_4.index ⟨(i 0).val / 2048, hN⟩ (1 : Fin 2) * 256 + 256
    omega

theorem covered5 (i : S8192x768.Idx) :
    ∃ t : Fin cfg1.N, (cfg1.win 5).flush t = true ∧ i ∈ ((cfg1.win 5).blk t).view.set := by
  have hi0 : (i 0).val < 8192 := (i 0).isLt
  have hi1 : (i 1).val < 768 := (i 1).isLt
  have hN : (i 0).val / 2048 < cfg1.N := lt_of_lt_of_eq (by omega) N_1.symm
  obtain ⟨-, -, -, -, -, -, -, -, -, -, e50, e51⟩ := idx_facts ⟨(i 0).val / 2048, hN⟩
  refine ⟨⟨(i 0).val / 2048, hN⟩, flush1_5 _, ?_⟩
  rw [mem_blk5]
  intro a
  match a with
  | ⟨0, _⟩ =>
    show win1_5.index ⟨(i 0).val / 2048, hN⟩ (0 : Fin 2) * 2048 ≤ (i 0).val
      ∧ (i 0).val < win1_5.index ⟨(i 0).val / 2048, hN⟩ (0 : Fin 2) * 2048 + 2048
    rw [e50]; show (i 0).val / 2048 * 2048 ≤ (i 0).val ∧ (i 0).val < (i 0).val / 2048 * 2048 + 2048; omega
  | ⟨1, _⟩ =>
    show win1_5.index ⟨(i 0).val / 2048, hN⟩ (1 : Fin 2) * 768 ≤ (i 1).val
      ∧ (i 1).val < win1_5.index ⟨(i 0).val / 2048, hN⟩ (1 : Fin 2) * 768 + 768
    omega

/-! ## The output arrays after the run -/

theorem arrAt4_eq (c : Dev nD) : (dat V c).arrAt 4 cfg1.N = G4 V c :=
  (dat V c).arrAt_eq_of_cover 4 (G4 V c) (fun t _ => flushed4_eq V c t) covered4

theorem arrAt5_eq (c : Dev nD) : (dat V c).arrAt 5 cfg1.N = G5 V c :=
  (dat V c).arrAt_eq_of_cover 5 (G5 V c) (fun t _ => flushed5_eq V c t) covered5

/-- The first output array after the run, entry by entry: the normalised rows. -/
theorem arrAt_h (c : Dev nD) (r : Fin 8192) (l : Fin 256) :
    (dat V c).arrAt 4 cfg1.N (ix2 r l) = hn (X V c) (M V c) (Vr V c) r l := by
  rw [arrAt4_eq]; rfl

/-- The second output array after the run, entry by entry: the normalised rows against the weights' columns. -/
theorem arrAt_proj (c : Dev nD) (r : Fin 8192) (n : Fin 768) :
    (dat V c).arrAt 5 cfg1.N (ix2 r n) = ∑ l : Fin 256, hn (X V c) (M V c) (Vr V c) r l * Wm V c l n := by
  rw [arrAt5_eq]; rfl

end Cert.KernelIdeal.Reg1Value

end
-- ==== Proof.Reg2ValueA.lean ====
/- The payloads of kernel region 2 at the ideal values, read index by index: the logits of a query block against a
   key block, the running row maximum, the two rescaling exponentials, the running denominator, the running weighted
   sum, the projected quotient added into the output, and the two column sums. -/
import proofs.«408560_j30485677867710_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg2Value

open Cert.KernelIdeal Cert.KernelIdeal.Gen
open Idealize.ShloMosaic Idealize.ShloMosaic.TcCoe Idealize.ShloMosaic.ValueIdx
open scoped BigOperators

/-! ## Layout operations on a column -/

section Layout
variable {α : Type}

/-- A vector of `a` entries cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two literals -/

/-- The word of −∞ is the bottom of the extended reals. -/
theorem ofBits_ninf : Ideal.ofBits .f32 0xFF800000#32 = ⊥ := by simp [Ideal.ofBits, Ideal.ieee]

/-! ## The lane reductions -/

/-- The row maximum of a square block: at row `p` the fold of `max` from −∞ over the row's entries. -/
theorem rowMax_apply (src : FVec Ideal S2048x2048 .f32) (p : Fin 2048) :
    multiReduction (F := Ideal) .maximumf [1] S2048 src 0xFF800000#32 reduces_S2048x2048_S2048 (.inl rfl) rfl (ix1 p)
      = Finset.univ.fold max (⊥ : EReal) (fun k : Fin 2048 => src (ix2 p k)) := by
  refine (Ideal.multiReduction_maximumf_single src 0xFF800000#32 reduces_S2048x2048_S2048 (.inl rfl) rfl (ix1 p)).trans ?_
  show Finset.univ.fold max (Ideal.ofBits .f32 0xFF800000#32) _ = _
  rw [ofBits_ninf]
  refine congrArg (fun f => Finset.univ.fold max (⊥ : EReal) f) (funext fun k => congrArg src (funext fun a => Fin.ext ?_))
  match a with
  | ⟨0, _⟩ => rfl
  | ⟨1, _⟩ => rfl

/-- The row sum of a square block. -/
theorem rowSum_apply (src : FVec Ideal S2048x2048 .f32) (p : Fin 2048) :
    multiReduction (F := Ideal) .add [1] S2048 src 0x00000000#32 reduces_S2048x2048_S2048 (.inl rfl) rfl (ix1 p)
      = ∑ k : Fin 2048, src (ix2 p k) := by
  refine (Ideal.multiReduction_add_single src 0x00000000#32 reduces_S2048x2048_S2048 (.inl rfl) rfl (ix1 p)).trans ?_
  refine Finset.sum_congr rfl fun k _ => congrArg src (funext fun a => Fin.ext ?_)
  match a with
  | ⟨0, _⟩ => rfl
  | ⟨1, _⟩ => rfl

/-- The column sum of an output block. -/
theorem colSum_apply (src : FVec Ideal S2048x256 .f32) (j : Fin 256) :
    multiReduction (F := Ideal) .add [0] S256 src 0x00000000#32 reduces_S2048x256_S256 (.inl rfl) rfl (ix1 j)
      = ∑ r : Fin 2048, src (ix2 r j) := by
  refine (Ideal.multiReduction_add_single src 0x00000000#32 reduces_S2048x256_S256 (.inl rfl) rfl (ix1 j)).trans ?_
  refine Finset.sum_congr rfl fun k _ => congrArg src (funext fun a => Fin.ext ?_)
  match a with
  | ⟨0, _⟩ => rfl
  | ⟨1, _⟩ => rfl

/-! ## The three products' operand indices, axis by axis -/

theorem qk_lhs_0 (i : S2048x2048.Idx) (q : dot_S2048x128_S2048x128_S2048x2048_1_1_0_0_n_n.contr.Idx) :
    (dot_S2048x128_S2048x128_S2048x2048_1_1_0_0_n_n.lhsIdx i q 0).val = (i 0).val := by
  unfold DotDims.lhsIdx
  rw [dif_neg (show ¬(0 : Fin S2048x128.rank) ∈ dot_S2048x128_S2048x128_S2048x2048_1_1_0_0_n_n.lhsBatch by decide),
    dif_pos (show (0 : Fin S2048x128.rank) ∈ dot_S2048x128_S2048x128_S2048x2048_1_1_0_0_n_n.lhsNonContracting by decide)]
  rfl
theorem qk_lhs_1 (i : S2048x2048.Idx) (q : dot_S2048x128_S2048x128_S2048x2048_1_1_0_0_n_n.contr.Idx) :
    (dot_S2048x128_S2048x128_S2048x2048_1_1_0_0_n_n.lhsIdx i q 1).val = (q ⟨0, by decide⟩).val :=
  dot_S2048x128_S2048x128_S2048x2048_1_1_0_0_n_n.lhsIdx_val_of_single rfl i q
theorem qk_rhs_1 (i : S2048x2048.Idx) (q : dot_S2048x128_S2048x128_S2048x2048_1_1_0_0_n_n.contr.Idx) :
    (dot_S2048x128_S2048x128_S2048x2048_1_1_0_0_n_n.rhsIdx i q 1).val = (q ⟨0, by decide⟩).val :=
  dot_S2048x128_S2048x128_S2048x2048_1_1_0_0_n_n.rhsIdx_val_of_single rfl i q
theorem qk_rhs_0 (i : S2048x2048.Idx) (q : dot_S2048x128_S2048x128_S2048x2048_1_1_0_0_n_n.contr.Idx) :
    (dot_S2048x128_S2048x128_S2048x2048_1_1_0_0_n_n.rhsIdx i q 0).val = (i 1).val := by
  unfold DotDims.rhsIdx
  rw [dif_neg (show ¬(0 : Fin S2048x128.rank) ∈ dot_S2048x128_S2048x128_S2048x2048_1_1_0_0_n_n.rhsBatch by decide),
    dif_pos (show (0 : Fin S2048x128.rank) ∈ dot_S2048x128_S2048x128_S2048x2048_1_1_0_0_n_n.rhsNonContracting by decide)]
  rfl

theorem pv_lhs_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide),
    dif_pos (show (0 : Fin S2048x2048.rank) ∈ dot_S2048x2048_S2048x128_S2048x128_1_0_0_1_n_n.lhsNonContracting by decide)]
  rfl
theorem pv_lhs_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem pv_rhs_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem pv_rhs_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide),
    dif_pos (show (1 : Fin S2048x128.rank) ∈ dot_S2048x2048_S2048x128_S2048x128_1_0_0_1_n_n.rhsNonContracting by decide)]
  rfl

theorem au_lhs_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl
theorem au_lhs_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem au_rhs_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem au_rhs_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

/-- Rows of a left operand against ROWS of a right operand (the query block against the key block). -/
theorem matmul_qk_apply (x y : FVec Ideal S2048x128 .bf16) (p r : Fin 2048) :
    matmul dot_S2048x128_S2048x128_S2048x2048_1_1_0_0_n_n none x y (constant S2048x2048 .f32 0x00000000#32) (ix2 p r)
      = ∑ d : Fin 128, x (ix2 p d) * y (ix2 r d) := by
  show FloatOps.matmul dot_S2048x128_S2048x128_S2048x2048_1_1_0_0_n_n none x y (constant S2048x2048 .f32 0x00000000#32) (ix2 p r) = _
  rw [Ideal.matmul_constant_zero_apply,
    ← Equiv.sum_comp (contrEquiv1 dot_S2048x128_S2048x128_S2048x2048_1_1_0_0_n_n 128 rfl rfl).symm]
  refine Finset.sum_congr rfl fun k _ => ?_
  have hk := contrEquiv1_symm_val dot_S2048x128_S2048x128_S2048x2048_1_1_0_0_n_n 128 rfl rfl k
  have el : dot_S2048x128_S2048x128_S2048x2048_1_1_0_0_n_n.lhsIdx (ix2 p r)
      ((contrEquiv1 dot_S2048x128_S2048x128_S2048x2048_1_1_0_0_n_n 128 rfl rfl).symm k) = ix2 p k :=
    funext fun a => Fin.ext (by
      match a with
      | ⟨0, _⟩ => exact qk_lhs_0 _ _
      | ⟨1, _⟩ => exact (qk_lhs_1 _ _).trans hk)
  have er : dot_S2048x128_S2048x128_S2048x2048_1_1_0_0_n_n.rhsIdx (ix2 p r)
      ((contrEquiv1 dot_S2048x128_S2048x128_S2048x2048_1_1_0_0_n_n 128 rfl rfl).symm k) = ix2 r k :=
    funext fun a => Fin.ext (by
      match a with
      | ⟨0, _⟩ => exact qk_rhs_0 _ _
      | ⟨1, _⟩ => exact (qk_rhs_1 _ _).trans hk)
  rw [el, er]

/-- Rows of the weights against columns of the value block. -/
theorem matmul_pv_apply (x : FVec Ideal S2048x2048 .bf16) (y : FVec Ideal S2048x128 .bf16) (p : Fin 2048) (d : Fin 128) :
    matmul dot_S2048x2048_S2048x128_S2048x128_1_0_0_1_n_n none x y (constant S2048x128 .f32 0x00000000#32) (ix2 p d)
      = ∑ r : Fin 2048, x (ix2 p r) * y (ix2 r d) := by
  show FloatOps.matmul dot_S2048x2048_S2048x128_S2048x128_1_0_0_1_n_n none x y (constant S2048x128 .f32 0x00000000#32) (ix2 p d) = _
  rw [Ideal.matmul_constant_zero_apply,
    ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 p d)
      ((contrEquiv1 dot_S2048x2048_S2048x128_S2048x128_1_0_0_1_n_n 2048 rfl rfl).symm k) = ix2 p k :=
    funext fun a => Fin.ext (by
      match a with
      | ⟨0, _⟩ => exact pv_lhs_0 _ _
      | ⟨1, _⟩ => exact (pv_lhs_1 _ _).trans hk)
  have er : dot_S2048x2048_S2048x128_S2048x128_1_0_0_1_n_n.rhsIdx (ix2 p d)
      ((contrEquiv1 dot_S2048x2048_S2048x128_S2048x128_1_0_0_1_n_n 2048 rfl rfl).symm k) = ix2 k d :=
    funext fun a => Fin.ext (by
      match a with
      | ⟨0, _⟩ => exact (pv_rhs_0 _ _).trans hk
      | ⟨1, _⟩ => exact pv_rhs_1 _ _)
  rw [el, er]

/-- Rows of the normalised sum against columns of the output projection. -/
theorem matmul_au_apply (x : FVec Ideal S2048x128 .bf16) (y : FVec Ideal S128x256 .bf16) (p : Fin 2048) (j : Fin 256) :
    matmul dot_S2048x128_S128x256_S2048x256_1_0_0_1_n_n none x y (constant S2048x256 .f32 0x00000000#32) (ix2 p j)
      = ∑ d : Fin 128, x (ix2 p d) * y (ix2 d j) := by
  show FloatOps.matmul dot_S2048x128_S128x256_S2048x256_1_0_0_1_n_n none x y (constant S2048x256 .f32 0x00000000#32) (ix2 p j) = _
  rw [Ideal.matmul_constant_zero_apply,
    ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p j)
      ((contrEquiv1 dot_S2048x128_S128x256_S2048x256_1_0_0_1_n_n 128 rfl rfl).symm k) = ix2 p k :=
    funext fun a => Fin.ext (by
      match a with
      | ⟨0, _⟩ => exact au_lhs_0 _ _
      | ⟨1, _⟩ => exact (au_lhs_1 _ _).trans hk)
  have er : dot_S2048x128_S128x256_S2048x256_1_0_0_1_n_n.rhsIdx (ix2 p j)
      ((contrEquiv1 dot_S2048x128_S128x256_S2048x256_1_0_0_1_n_n 128 rfl rfl).symm k) = ix2 k j :=
    funext fun a => Fin.ext (by
      match a with
      | ⟨0, _⟩ => exact (au_rhs_0 _ _).trans hk
      | ⟨1, _⟩ => exact au_rhs_1 _ _)
  rw [el, er]

/-! ## The payloads at an index -/

/-- The exponential of a vector, entry by entry. -/
theorem exp_apply {s : Shape} (x : FVec Ideal s .f32) (i : s.Idx) : exp x i = Ideal.exp (x i) := rfl

/-- The scratch and the output pass through their stores unchanged. -/
theorem pay1_eq (v : FVec Ideal S2048x1 .f32) : k2_pay1 (F := Ideal) v = v := by unfold k2_pay1; exact shapeCast_self _ _
theorem pay3_eq (v : FVec Ideal S2048x1 .f32) : k2_pay3 (F := Ideal) v = v := by unfold k2_pay3; exact shapeCast_self _ _
theorem pay5_eq (v : Vec Ideal S2048x256 .f32) : k2_pay5 v = v := by unfold k2_pay5; exact shapeCast_self _ _
theorem pay8_eq (v : Vec Ideal S2048x256 .f32) : k2_pay8 v = v := by unfold k2_pay8; exact shapeCast_self _ _

/-- The reset values: −∞ for the running maximum, 0 for the running denominator and the running sum. -/
theorem pay9_apply (i : S2048x1.Idx) : k2_pay9 (F := Ideal) i = ⊥ := by
  unfold k2_pay9
  try dsimp only
  rw [shapeCast_self]
  exact ofBits_ninf
theorem pay10_apply (i : S2048x1.Idx) : k2_pay10 (F := Ideal) i = 0 := by
  unfold k2_pay10
  try dsimp only
  rw [shapeCast_self]
  exact Ideal.ofBits_zero_f32
theorem pay11_apply (i : S2048x128.Idx) : k2_pay11 (F := Ideal) i = 0 := by
  unfold k2_pay11
  try dsimp only
  rw [shapeCast_self]
  exact Ideal.ofBits_zero_f32

/-- The value block without its unit axis. -/
theorem pay12_apply (v : Vec Ideal S1x2048x128 .bf16) (r : Fin 2048) (d : Fin 128) :
    k2_pay12 v (ix2 r d) = v (ix3 (0 : Fin 1) r d) := by
  unfold k2_pay12
  exact shapeCast_1ab_ab_apply _ _ _ _

/-- The logits of the query block against the key block: row `p` of the one against row `r` of the other. -/
theorem pay13_apply (q k : Vec Ideal S1x2048x128 .bf16) (p r : Fin 2048) :
    k2_pay13 q k (ix2 p r) = ∑ d : Fin 128, q (ix3 (0 : Fin 1) p d) * k (ix3 (0 : Fin 1) r d) := by
  unfold k2_pay13
  try dsimp only
  rw [matmul_qk_apply]
  refine Finset.sum_congr rfl fun d _ => ?_
  rw [shapeCast_1ab_ab_apply, shapeCast_1ab_ab_apply]

/-- The new running maximum: the old one against the block's row maximum. -/
theorem pay14_apply (q k : Vec Ideal S1x2048x128 .bf16) (m : Vec Ideal S2048x1 .f32) (p : Fin 2048) (u : Fin 1) :
    k2_pay14 q k m (ix2 p u)
      = max (m (ix2 p u)) (Finset.univ.fold max (⊥ : EReal) (fun r : Fin 2048 => k2_pay13 q k (ix2 p r))) := by
  unfold k2_pay14
  try dsimp only
  rw [maximumf_apply, shapeCast_a_a1_apply, rowMax_apply]

/-- The factor that rescales what was accumulated under the old maximum. -/
theorem pay15_apply (q k : Vec Ideal S1x2048x128 .bf16) (m mo : Vec Ideal S2048x1 .f32) (p : Fin 2048) (u : Fin 1) :
    k2_pay15 q k m mo (ix2 p u) = Ideal.exp (mo (ix2 p u) - k2_pay14 q k m (ix2 p u)) := by
  unfold k2_pay15
  try dsimp only
  rw [exp_apply, subf_apply]

/-- The block's exponentials relative to the new maximum. -/
theorem pay16_apply (q k : Vec Ideal S1x2048x128 .bf16) (m : Vec Ideal S2048x1 .f32) (p r : Fin 2048) :
    k2_pay16 q k m (ix2 p r) = Ideal.exp (k2_pay13 q k (ix2 p r) - k2_pay14 q k m (ix2 p (0 : Fin 1))) := by
  unfold k2_pay16
  try dsimp only
  rw [exp_apply, subf_apply, broadcastTo_a1_ab_apply]

/-- The new running denominator: the old one rescaled plus the block's row sum of exponentials. -/
theorem pay17_apply (q k : Vec Ideal S1x2048x128 .bf16) (m mo l : Vec Ideal S2048x1 .f32) (p : Fin 2048) (u : Fin 1) :
    k2_pay17 q k m mo l (ix2 p u)
      = k2_pay15 q k m mo (ix2 p u) * l (ix2 p u) + ∑ r : Fin 2048, k2_pay16 q k m (ix2 p r) := by
  unfold k2_pay17
  try dsimp only
  rw [addf_apply, mulf_apply, shapeCast_a_a1_apply, rowSum_apply]

/-- The new running weighted sum: the old one rescaled plus the block's weights against the value block. -/
theorem pay2_apply (v13 : Vec Ideal S2048x128 .bf16) (v21 : Vec Ideal S2048x1 .f32) (v24 : Vec Ideal S2048x2048 .f32)
    (v33 : Vec Ideal S2048x128 .f32) (p : Fin 2048) (d : Fin 128) :
    k2_pay2 v13 v21 v24 v33 (ix2 p d)
      = v21 (ix2 p (0 : Fin 1)) * v33 (ix2 p d) + ∑ r : Fin 2048, v24 (ix2 p r) * v13 (ix2 r d) := by
  unfold k2_pay2
  try dsimp only
  rw [shapeCast_self, addf_apply, mulf_apply, broadcastTo_a1_ab_apply, matmul_pv_apply]
  rfl

/-- The output block with one head's contribution added: the running sum over the running denominator, row by row,
    against the head's output projection. -/
theorem pay4_apply (a : Vec Ideal S2048x128 .f32) (l : Vec Ideal S2048x1 .f32) (w : Vec Ideal S1x128x256 .bf16)
    (o : Vec Ideal S2048x256 .f32) (p : Fin 2048) (j : Fin 256) :
    k2_pay4 a l w o (ix2 p j)
      = o (ix2 p j) + ∑ d : Fin 128, Ideal.div (a (ix2 p d)) (l (ix2 p (0 : Fin 1))) * w (ix3 (0 : Fin 1) d j) := by
  unfold k2_pay4
  try dsimp only
  rw [addf_apply, shapeCast_self, matmul_au_apply]
  refine congrArg (o (ix2 p j) + ·) (Finset.sum_congr rfl fun d _ => ?_)
  rw [truncf_apply, divf_apply, broadcastTo_a1_ab_apply, shapeCast_1ab_ab_apply]

/-- The column sums of the output block. -/
theorem pay6_apply (o : Vec Ideal S2048x256 .f32) (a b : Fin 1) (j : Fin 256) :
    k2_pay6 o (ix3 a b j) = ∑ r : Fin 2048, o (ix2 r j) := by
  unfold k2_pay6
  try dsimp only
  rw [pay5_eq, shapeCast_ab_1ab_apply, shapeCast_a_1a_apply, colSum_apply]

/-- The column sums of the output block's squares. -/
theorem pay7_apply (o : Vec Ideal S2048x256 .f32) (a b : Fin 1) (j : Fin 256) :
    k2_pay7 o (ix3 a b j) = ∑ r : Fin 2048, o (ix2 r j) * o (ix2 r j) := by
  unfold k2_pay7
  try dsimp only
  rw [pay5_eq, shapeCast_ab_1ab_apply, shapeCast_a_1a_apply, colSum_apply]
  rfl

end Cert.KernelIdeal.Reg2Value

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.LibOnlineWeightedSum.lean ====
/-
  The weighted sum that rides along an online softmax, against the plain softmax-weighted sum.

  A row of real scores s and a row of real values v are walked in n blocks of B columns. Beside the online
  softmax's state (m, l) — the running maximum and the running sum of exp (s - m), see LibOnlineSoftmax — a
  running weighted sum a is kept: a new block moves it to exp (m - m') · a + Σ_q exp (s q - m') · v q, with m' the new
  maximum; before the first block it is 0. After the last block a = Σ_c exp (s c - M) · v c over all n · B columns,
  M the row's maximum, so a / l is the softmax-weighted average Σ_c v c · (exp (s c - M) / Σ_c' exp (s c' - M)):
  what a blocked attention kernel computes against a reference that materialises the softmax. Everything is
  stated over the extended reals with real scores and values (at an infinite score a difference of infinities
  is a convention, not a number).
-/
import proofs.«408560_j30485677867710_3_alg».proof.Proof.LibOnlineSoftmax

noncomputable section

namespace OnlineSoftmax

open Idealize.ShloMosaic

/-! ### The running weighted sum -/

/-- One step of the running weighted sum: the state (m, l) of the online softmax meets a block of B columns
    with scores row and values val; the old weighted sum a is rescaled by exp (m - m'), m' the new maximum,
    and the block's values weighted by the exponentials relative to m' are added. -/
def updA {B : ℕ} (row val : Fin B → EReal) (ml : EReal × EReal) (a : EReal) : EReal :=
  Ideal.exp (ml.1 - (upd row ml).1) * a + ∑ q, Ideal.exp (row q - (upd row ml).1) * val q

/-- The running weighted sum after the first k blocks; before the first block it is 0. -/
def accA {B : ℕ} (s v : ℕ → Fin B → EReal) : ℕ → EReal
  | 0 => 0
  | k + 1 => updA (s k) (v k) (acc s k) (accA s v k)

/-- Before the first block. -/
theorem accA_zero {B : ℕ} (s v : ℕ → Fin B → EReal) : accA s v 0 = 0 := rfl

/-- After one more block. -/
theorem accA_succ {B : ℕ} (s v : ℕ → Fin B → EReal) (k : ℕ) :
    accA s v (k + 1) = Ideal.exp ((acc s k).1 - (acc s (k + 1)).1) * accA s v k
      + ∑ q, Ideal.exp (s k q - (acc s (k + 1)).1) * v k q := rfl

/-- Block j of a row of n · B reals: column q of block j is column j · B + q (0 past the last block). -/
def blk {n B : ℕ} (f : Fin (n * B) → ℝ) : ℕ → Fin B → ℝ :=
  fun j q => if h : j < n then f ⟨j * B + q.val, blk_lt h q⟩ else 0

/-- The exponentials of a real block relative to a real maximum, times real values, sum to a real. -/
theorem sum_exp_mul_coe {B : ℕ} (row val : Fin B → ℝ) (M : ℝ) :
    ∑ q, Ideal.exp (((row q : ℝ) : EReal) - (M : EReal)) * ((val q : ℝ) : EReal)
      = ((∑ q, Real.exp (row q - M) * val q : ℝ) : EReal) := by
  rw [coe_sum]
  refine Finset.sum_congr rfl fun q _ => ?_
  rw [← EReal.coe_sub, Ideal.exp_coe, ← EReal.coe_mul]

/-- After k ≥ 1 blocks of real scores s and real values v the running weighted sum is
    Σ_{j < k} Σ_q exp (s j q - M) · v j q, M the running maximum after those blocks: the step multiplies the old sum
    by exp (M_old - M_new), and exp (M_old - M_new) · exp (s - M_old) = exp (s - M_new). -/
theorem accA_real {B : ℕ} (hB : 0 < B) (s v : ℕ → Fin B → ℝ) (k : ℕ) (hk : 0 < k) (M : ℝ)
    (hM : (acc (fun j q => ((s j q : ℝ) : EReal)) k).1 = (M : EReal)) :
    accA (fun j q => ((s j q : ℝ) : EReal)) (fun j q => ((v j q : ℝ) : EReal)) k
      = ((∑ j ∈ Finset.range k, ∑ q, Real.exp (s j q - M) * v j q : ℝ) : EReal) := by
  obtain ⟨k, rfl⟩ : ∃ k', k = k' + 1 := ⟨k - 1, by omega⟩
  clear hk
  induction k generalizing M with
  | zero =>
    rw [accA_succ, hM, accA_zero, mul_zero, zero_add, sum_exp_mul_coe, Finset.sum_range_one]
  | succ k ih =>
    obtain ⟨Mk, -, -, h1, -⟩ := acc_real hB s (k + 1) (Nat.succ_pos k)
    rw [accA_succ, hM, h1, ih Mk h1, sum_exp_mul_coe, ← EReal.coe_sub, Ideal.exp_coe, ← EReal.coe_mul,
      ← EReal.coe_add]
    congr 1
    rw [Finset.sum_range_succ _ (k + 1), Finset.mul_sum]
    congr 1
    refine Finset.sum_congr rfl fun j _ => ?_
    rw [Finset.mul_sum]
    refine Finset.sum_congr rfl fun q _ => ?_
    rw [← mul_assoc, ← Real.exp_add]
    congr 2
    ring

/-- A block-wise double sum of a function of a row's score and value is the sum over all the row's
    columns. -/
theorem sum_range_blocks2 {n B : ℕ} (sf vf : Fin (n * B) → ℝ) (F : ℝ → ℝ → ℝ) :
    ∑ j ∈ Finset.range n, ∑ q : Fin B, F (blk sf j q) (blk vf j q) = ∑ c : Fin (n * B), F (sf c) (vf c) := by
  rw [← sum_blocks (fun c => F (sf c) (vf c)),
    ← Fin.sum_univ_eq_sum_range (fun j => ∑ q : Fin B, F (blk sf j q) (blk vf j q)) n]
  refine Finset.sum_congr rfl fun j _ => Finset.sum_congr rfl fun q _ => ?_
  unfold blk
  rw [dif_pos j.isLt, dif_pos j.isLt]

/-- THE ROW: for a row of n · B real scores sf and real values vf, walked in n blocks of B columns, the
    final weighted sum divided by the final sum of exponentials is the plain softmax-weighted sum of the
    values over all columns, the plain softmax written as a host reference computes it (the row maximum folded
    from -∞ and once more against -∞, the exponentials divided by 0 + their sum). The law is
    (Σ_j e_j · v_j) / S = Σ_j v_j · (e_j / S), with S real and positive because every score is real. -/
theorem row_attn {n B : ℕ} (hn : 0 < n) (hB : 0 < B) (sf vf : Fin (n * B) → ℝ) :
    Ideal.div (accA (fun j q => ((blk sf j q : ℝ) : EReal)) (fun j q => ((blk vf j q : ℝ) : EReal)) n)
        (acc (fun j q => ((blk sf j q : ℝ) : EReal)) n).2
      = ∑ j : Fin (n * B), ((vf j : ℝ) : EReal) *
          Ideal.div (Ideal.exp (((sf j : ℝ) : EReal)
              - max ⊥ (Finset.univ.fold max (⊥ : EReal) (fun j => ((sf j : ℝ) : EReal)))))
            ((0 : EReal) + ∑ j' : Fin (n * B), Ideal.exp (((sf j' : ℝ) : EReal)
              - max ⊥ (Finset.univ.fold max (⊥ : EReal) (fun j => ((sf j : ℝ) : EReal))))) := by
  obtain ⟨M, -, -, hM, ha1, ha2⟩ := acc_row hn hB sf
  have ha1' : (acc (fun j q => ((blk sf j q : ℝ) : EReal)) n).1 = (M : EReal) := ha1
  have ha2' : (acc (fun j q => ((blk sf j q : ℝ) : EReal)) n).2
      = ((∑ c, Real.exp (sf c - M) : ℝ) : EReal) := ha2
  have hA := accA_real hB (blk sf) (blk vf) n hn M ha1'
  have hSpos : 0 < ∑ c, Real.exp (sf c - M) :=
    Finset.sum_pos (fun _ _ => Real.exp_pos _) ⟨⟨0, Nat.mul_pos hn hB⟩, Finset.mem_univ _⟩
  have hblocks := sum_range_blocks2 sf vf (fun x y => Real.exp (x - M) * y)
  have hL : Ideal.div (accA (fun j q => ((blk sf j q : ℝ) : EReal)) (fun j q => ((blk vf j q : ℝ) : EReal)) n)
        (acc (fun j q => ((blk sf j q : ℝ) : EReal)) n).2
      = ((∑ j, vf j * (Real.exp (sf j - M) * (1 / ∑ c, Real.exp (sf c - M))) : ℝ) : EReal) := by
    rw [hA, ha2', Ideal.div_coe hSpos.ne', ← EReal.coe_mul]
    congr 1
    rw [show (∑ j ∈ Finset.range n, ∑ q : Fin B, Real.exp (blk sf j q - M) * blk vf j q)
        = ∑ c : Fin (n * B), Real.exp (sf c - M) * vf c from hblocks, Finset.sum_mul]
    refine Finset.sum_congr rfl fun j _ => ?_
    ring
  rw [hL, coe_sum]
  refine Finset.sum_congr rfl fun j _ => ?_
  rw [hM, max_eq_right bot_le, zero_add, sum_exp_coe, ← EReal.coe_sub, Ideal.exp_coe,
    Ideal.div_coe hSpos.ne', ← EReal.coe_mul, ← EReal.coe_mul]

end OnlineSoftmax

end
-- ==== Proof.Reg2ValueB.lean ====
/- One attention row over four key blocks: the state the online softmax reaches after the four blocks of a row of
   8192 real logits, with the weighted sum of real values that rides along, gives the row of the attention as the
   specification writes it (the weighted sum divided once by the sum of the shifted exponentials). -/
import proofs.«408560_j30485677867710_3_alg».proof.Proof.LibOnlineWeightedSum
import proofs.«408560_j30485677867710_3_alg».proof.Proof.Spec

set_option maxRecDepth 16384

noncomputable section

namespace Cert.KernelIdeal.Reg2Value

open Idealize.ShloMosaic OnlineSoftmax
open scoped BigOperators

/-! ## Real entries -/

/-- An extended real that is neither infinity is the coercion of a real. -/
def IsReal (x : EReal) : Prop := x ≠ ⊤ ∧ x ≠ ⊥

theorem IsReal.eq_coe {x : EReal} (h : IsReal x) : x = ((x.toReal : ℝ) : EReal) := (EReal.coe_toReal h.1 h.2).symm

theorem isReal_coe (r : ℝ) : IsReal (r : EReal) := ⟨EReal.coe_ne_top r, EReal.coe_ne_bot r⟩

/-- A finite sum of products of reals is a real. -/
theorem isReal_sum_mul {n : ℕ} (a b : Fin n → EReal) (ha : ∀ d, IsReal (a d)) (hb : ∀ d, IsReal (b d)) :
    IsReal (∑ d, a d * b d) := by
  have e : (∑ d, a d * b d) = ((∑ d, (a d).toReal * (b d).toReal : ℝ) : EReal) := by
    rw [coe_sum]
    refine Finset.sum_congr rfl fun d _ => ?_
    rw [EReal.coe_mul, ← (ha d).eq_coe, ← (hb d).eq_coe]
  rw [e]
  exact isReal_coe _

/-! ## The maximum of a row -/

/-- The supremum of a nonempty finite family of extended reals is the fold of `max` from −∞ over it. -/
theorem sup'_eq_fold {n : ℕ} (h : (Finset.univ : Finset (Fin n)).Nonempty) (f : Fin n → EReal) :
    Finset.univ.sup' h f = Finset.univ.fold max (⊥ : EReal) f := by
  rw [Finset.sup'_eq_sup]
  rfl

theorem ninf_eq_bot : Cert.Spec.ninf = ⊥ := by
  unfold Cert.Spec.ninf
  simp [Ideal.ofBits, Ideal.ieee]

/-! ## The four blocks of a row -/

/-- Block `j` of a row of 8192 entries: entry `q` of block `j` is entry `2048 j + q` (0 past the fourth block). -/
def blkE (f : Fin 8192 → EReal) : ℕ → Fin 2048 → EReal :=
  fun j q => if h : j < 4 then f ⟨j * 2048 + q.val, by have := q.isLt; omega⟩ else 0

theorem blkE_of_lt (f : Fin 8192 → EReal) {j : ℕ} (h : j < 4) (q : Fin 2048) :
    blkE f j q = f ⟨j * 2048 + q.val, by have := q.isLt; omega⟩ := dif_pos h

theorem blkE_coe (sf : Fin 8192 → ℝ) :
    blkE (fun c => ((sf c : ℝ) : EReal)) = fun j q => ((blk (n := 4) (B := 2048) sf j q : ℝ) : EReal) := by
  funext j q
  unfold blkE blk
  by_cases h : j < 4
  · rw [dif_pos h, dif_pos h]
  · rw [dif_neg h, dif_neg h]; rfl

/-- THE ROW. For real logits `s` and real values `v` over the 8192 keys, walked in four blocks of 2048: the running
    weighted sum over the running denominator after the fourth block is the weighted sum of the values by the
    exponentials shifted by the row maximum, divided by the sum of those exponentials. -/
theorem attn_row (s v : Fin 8192 → EReal) (hs : ∀ c, IsReal (s c)) (hv : ∀ c, IsReal (v c)) :
    Ideal.div (accA (blkE s) (blkE v) 4) (acc (blkE s) 4).2
      = Ideal.div (∑ c, Ideal.exp (s c - max Cert.Spec.ninf (Finset.univ.sup' Finset.univ_nonempty s)) * v c)
          (∑ c, Ideal.exp (s c - max Cert.Spec.ninf (Finset.univ.sup' Finset.univ_nonempty s))) := by
  obtain ⟨sf, rfl⟩ : ∃ sf : Fin 8192 → ℝ, s = fun c => ((sf c : ℝ) : EReal) :=
    ⟨fun c => (s c).toReal, funext fun c => (hs c).eq_coe⟩
  obtain ⟨vf, rfl⟩ : ∃ vf : Fin 8192 → ℝ, v = fun c => ((vf c : ℝ) : EReal) :=
    ⟨fun c => (v c).toReal, funext fun c => (hv c).eq_coe⟩
  rw [blkE_coe, blkE_coe]
  obtain ⟨M, -, -, hM, ha1, ha2⟩ := acc_row (n := 4) (B := 2048) (by norm_num) (by norm_num) sf
  have ha1' : (acc (fun j q => ((blk (n := 4) (B := 2048) sf j q : ℝ) : EReal)) 4).1 = (M : EReal) := ha1
  have ha2' : (acc (fun j q => ((blk (n := 4) (B := 2048) sf j q : ℝ) : EReal)) 4).2
      = ((∑ c : Fin 8192, Real.exp (sf c - M) : ℝ) : EReal) := ha2
  have hA := accA_real (B := 2048) (by norm_num) (blk (n := 4) (B := 2048) sf) (blk (n := 4) (B := 2048) vf) 4 (by norm_num) M ha1'
  have hblocks : (∑ j ∈ Finset.range 4, ∑ q : Fin 2048,
        Real.exp (blk (n := 4) (B := 2048) sf j q - M) * blk (n := 4) (B := 2048) vf j q)
      = ∑ c : Fin 8192, Real.exp (sf c - M) * vf c :=
    sum_range_blocks2 (n := 4) (B := 2048) sf vf (fun x y => Real.exp (x - M) * y)
  have hmax : max Cert.Spec.ninf (Finset.univ.sup' Finset.univ_nonempty fun c : Fin 8192 => ((sf c : ℝ) : EReal)) = (M : EReal) := by
    rw [sup'_eq_fold, ninf_eq_bot]
    exact (congrArg (max ⊥) hM).trans (max_eq_right bot_le)
  rw [hA, ha2', hmax, hblocks]
  refine congrArg₂ Ideal.div ?_ ?_
  · exact (sum_exp_mul_coe sf vf M).symm
  · exact (sum_exp_coe sf M).symm

end Cert.KernelIdeal.Reg2Value

end
-- ==== Proof.Reg2Blocks.lean ====
/- Region 2's five input blocks read through the index maps: at grid point t (key block t mod 4, head (t / 4) mod 2,
   query block t / 8) the query block is rows (t / 8) · 2048 … of the head's query array, the key and value blocks are
   rows (t mod 4) · 2048 … of the head's key and value arrays, the projection block is the head's whole projection, and
   the residual block is rows (t / 8) · 2048 … of the normalised rows. -/
import proofs.«408560_j30485677867710_3_alg».proof.Proof.Reg2Defs
import proofs.«408560_j30485677867710_3_alg».proof.Proof.Spec
import Idealize.ShloMosaic.Lib.Pipeline.Value
import Idealize.ShloMosaic.Lib.ValueIdx

set_option maxRecDepth 16384

noncomputable section

namespace Cert.KernelIdeal.Reg2Value

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The grid point's three coordinates -/

theorem lt_32 (t : Fin cfg2.N) : t.val < 32 := lt_of_lt_of_eq t.isLt N_2

/-- The head of point t. -/
def hd (t : Fin cfg2.N) : Fin 2 := ⟨(t.val / 4) % 2, Nat.mod_lt _ (by norm_num)⟩

/-- Row p of the query block of point t, as a row of the whole array. -/
def qrow (t : Fin cfg2.N) (p : Fin 2048) : Fin 8192 :=
  ⟨(t.val / 8) * 2048 + p.val, by have h := lt_32 t; have := p.isLt; omega⟩

/-- Row r of the key block of point t, as a row of the whole array. -/
def krow (t : Fin cfg2.N) (r : Fin 2048) : Fin 8192 :=
  ⟨(t.val % 4) * 2048 + r.val, by have := r.isLt; omega⟩

/-! ## The index maps over the grid -/

/-- The five input windows' block indices at every point of the grid. -/
theorem idx_facts : ∀ t : Fin cfg2.N,
    win2_0.index t (0 : Fin 3) = (t.val / 4) % 2 ∧ win2_0.index t (1 : Fin 3) = t.val / 8 ∧ win2_0.index t (2 : Fin 3) = 0
    ∧ win2_1.index t (0 : Fin 3) = (t.val / 4) % 2 ∧ win2_1.index t (1 : Fin 3) = t.val % 4 ∧ win2_1.index t (2 : Fin 3) = 0
    ∧ win2_2.index t (0 : Fin 3) = (t.val / 4) % 2 ∧ win2_2.index t (1 : Fin 3) = t.val % 4 ∧ win2_2.index t (2 : Fin 3) = 0
    ∧ win2_3.index t (0 : Fin 3) = (t.val / 4) % 2 ∧ win2_3.index t (1 : Fin 3) = 0 ∧ win2_3.index t (2 : Fin 3) = 0
    ∧ win2_4.index t (0 : Fin 2) = t.val / 8 ∧ win2_4.index t (1 : Fin 2) = 0 :=
  (by decide +kernel : ∀ t : Fin grid2.N, _)

/-! ## The blocks as parts of the arrays -/

theorem qblk_apply (c : Dev nD) (t : Fin cfg2.N) (p : Fin 2048) (d : Fin 128) :
    Reg2.qblk V c t (ix3 (0 : Fin 1) p d) = Cert.Spec.mat3 (V c main_v20 : S2x8192x128.Idx → EReal) (hd t) (qrow t p) d := by
  obtain ⟨e0, e1, e2, -⟩ := idx_facts t
  unfold Reg2.qblk Reg2.iblk
  rw [View.read_apply]
  show V c main_v20 _ = V c main_v20 _
  congr 1
  funext a
  apply Fin.ext
  match a with
  | ⟨0, _⟩ => show win2_0.index t (0 : Fin 3) * 1 + 1 * 0 = (t.val / 4) % 2; rw [e0]; omega
  | ⟨1, _⟩ => show win2_0.index t (1 : Fin 3) * 2048 + 1 * p.val = (t.val / 8) * 2048 + p.val; rw [e1]; omega
  | ⟨2, _⟩ => show win2_0.index t (2 : Fin 3) * 128 + 1 * d.val = d.val; rw [e2]; omega

theorem kblk_apply (c : Dev nD) (t : Fin cfg2.N) (r : Fin 2048) (d : Fin 128) :
    Reg2.kblk V c t (ix3 (0 : Fin 1) r d) = Cert.Spec.mat3 (V c main_v22 : S2x8192x128.Idx → EReal) (hd t) (krow t r) d := by
  obtain ⟨-, -, -, e0, e1, e2, -⟩ := idx_facts t
  unfold Reg2.kblk Reg2.iblk
  rw [View.read_apply]
  show V c main_v22 _ = V c main_v22 _
  congr 1
  funext a
  apply Fin.ext
  match a with
  | ⟨0, _⟩ => show win2_1.index t (0 : Fin 3) * 1 + 1 * 0 = (t.val / 4) % 2; rw [e0]; omega
  | ⟨1, _⟩ => show win2_1.index t (1 : Fin 3) * 2048 + 1 * r.val = (t.val % 4) * 2048 + r.val; rw [e1]; omega
  | ⟨2, _⟩ => show win2_1.index t (2 : Fin 3) * 128 + 1 * d.val = d.val; rw [e2]; omega

theorem vblk_apply (c : Dev nD) (t : Fin cfg2.N) (r : Fin 2048) (d : Fin 128) :
    Reg2.vblk V c t (ix3 (0 : Fin 1) r d) = Cert.Spec.mat3 (V c main_v24 : S2x8192x128.Idx → EReal) (hd t) (krow t r) d := by
  obtain ⟨-, -, -, -, -, -, e0, e1, e2, -⟩ := idx_facts t
  unfold Reg2.vblk Reg2.iblk
  rw [View.read_apply]
  show V c main_v24 _ = V c main_v24 _
  congr 1
  funext a
  apply Fin.ext
  match a with
  | ⟨0, _⟩ => show win2_2.index t (0 : Fin 3) * 1 + 1 * 0 = (t.val / 4) % 2; rw [e0]; omega
  | ⟨1, _⟩ => show win2_2.index t (1 : Fin 3) * 2048 + 1 * r.val = (t.val % 4) * 2048 + r.val; rw [e1]; omega
  | ⟨2, _⟩ => show win2_2.index t (2 : Fin 3) * 128 + 1 * d.val = d.val; rw [e2]; omega

theorem ublk_apply (c : Dev nD) (t : Fin cfg2.N) (d : Fin 128) (j : Fin 256) :
    Reg2.ublk V c t (ix3 (0 : Fin 1) d j) = Cert.Spec.mat3 (V c main_v25 : S2x128x256.Idx → EReal) (hd t) d j := by
  obtain ⟨-, -, -, -, -, -, -, -, -, e0, e1, e2, -⟩ := idx_facts t
  unfold Reg2.ublk Reg2.iblk
  rw [View.read_apply]
  show V c main_v25 _ = V c main_v25 _
  congr 1
  funext a
  apply Fin.ext
  match a with
  | ⟨0, _⟩ => show win2_3.index t (0 : Fin 3) * 1 + 1 * 0 = (t.val / 4) % 2; rw [e0]; omega
  | ⟨1, _⟩ => show win2_3.index t (1 : Fin 3) * 128 + 1 * d.val = d.val; rw [e1]; omega
  | ⟨2, _⟩ => show win2_3.index t (2 : Fin 3) * 256 + 1 * j.val = j.val; rw [e2]; omega

theorem hblk_apply (c : Dev nD) (t : Fin cfg2.N) (p : Fin 2048) (j : Fin 256) :
    Reg2.hblk V c t (ix2 p j) = Cert.Spec.mat2 (V c main_v15_0 : S8192x256.Idx → EReal) (qrow t p) j := by
  obtain ⟨-, -, -, -, -, -, -, -, -, -, -, -, e0, e1⟩ := idx_facts t
  unfold Reg2.hblk Reg2.iblk
  rw [View.read_apply]
  show V c main_v15_0 _ = V c main_v15_0 _
  congr 1
  funext a
  apply Fin.ext
  match a with
  | ⟨0, _⟩ => show win2_4.index t (0 : Fin 2) * 2048 + 1 * p.val = (t.val / 8) * 2048 + p.val; rw [e0]; omega
  | ⟨1, _⟩ => show win2_4.index t (1 : Fin 2) * 256 + 1 * j.val = j.val; rw [e1]; omega

end Cert.KernelIdeal.Reg2Value

end
-- ==== Proof.Reg2ValueC.lean ====
/- One point of kernel region 2 at a row of its blocks: the running maximum and denominator move as one step of the
   online softmax on the row of logits, the running weighted sum as the step that rides along, and the output block
   takes the head's projected quotient at the last key block. Then the four points of a head, and the eight of a
   query block: the output block a query block ends with is its rows of the specification's output. -/
import proofs.«408560_j30485677867710_3_alg».proof.Proof.Reg2Defs
import proofs.«408560_j30485677867710_3_alg».proof.Proof.Reg2ValueA
import proofs.«408560_j30485677867710_3_alg».proof.Proof.Reg2ValueB
import proofs.«408560_j30485677867710_3_alg».proof.Proof.Reg2Blocks
import proofs.«408560_j30485677867710_3_alg».proof.Proof.LibOnlineWeightedSum
import proofs.«408560_j30485677867710_3_alg».proof.Proof.Spec

set_option maxRecDepth 16384

noncomputable section

namespace Cert.KernelIdeal.Reg2Value

open Cert.KernelIdeal Cert.KernelIdeal.Gen Cert.KernelIdeal.Reg2
open Idealize.ShloMosaic Idealize.ShloMosaic.TcCoe Idealize.ShloMosaic.ValueIdx OnlineSoftmax
open scoped BigOperators

/-! ## A row of the carried state -/

/-- Row `p` of the running maximum and the running denominator. -/
def rowML (s : St Ideal) (p : Fin 2048) : EReal × EReal := (s.m (ix2 p (0 : Fin 1)), s.l (ix2 p (0 : Fin 1)))

/-- Entry `(p, d)` of the running weighted sum. -/
def rowA (s : St Ideal) (p : Fin 2048) (d : Fin 128) : EReal := s.acc (ix2 p d)

/-- The update of the running maximum and denominator, at row `p`, is the online softmax's step on the row of
    logits of the query block against the key block. -/
theorem ml_step (q k : Vec Ideal S1x2048x128 .bf16) (m0 l0 : Vec Ideal S2048x1 .f32) (p : Fin 2048) :
    ((k2_pay3 (k2_pay14 q k m0) (ix2 p (0 : Fin 1)), k2_pay1 (k2_pay17 q k m0 m0 l0) (ix2 p (0 : Fin 1))) : EReal × EReal)
      = upd (fun r : Fin 2048 => k2_pay13 q k (ix2 p r)) (m0 (ix2 p (0 : Fin 1)), l0 (ix2 p (0 : Fin 1))) := by
  rw [pay3_eq, pay1_eq]
  have h14 := pay14_apply q k m0 p (0 : Fin 1)
  refine Prod.ext h14 ?_
  show k2_pay17 q k m0 m0 l0 (ix2 p (0 : Fin 1)) = _
  rw [pay17_apply, pay15_apply]
  simp only [pay16_apply]
  rw [h14]
  rfl

/-- The update of the running weighted sum, at `(p, d)`, is the step that rides along: the old sum rescaled plus the
    block's exponentials against column `d` of the value block. -/
theorem a_step (q k v : Vec Ideal S1x2048x128 .bf16) (m0 l0 : Vec Ideal S2048x1 .f32) (a0 : Vec Ideal S2048x128 .f32)
    (p : Fin 2048) (d : Fin 128) :
    k2_pay2 (k2_pay12 v) (k2_pay15 q k m0 m0) (k2_pay16 q k m0) a0 (ix2 p d)
      = updA (fun r : Fin 2048 => k2_pay13 q k (ix2 p r)) (fun r : Fin 2048 => v (ix3 (0 : Fin 1) r d))
          (m0 (ix2 p (0 : Fin 1)), l0 (ix2 p (0 : Fin 1))) (a0 (ix2 p d)) := by
  rw [pay2_apply, pay15_apply]
  simp only [pay16_apply, pay12_apply]
  rw [pay14_apply]
  rfl

/-! ## One point -/

/-- The state a point starts its update from: reset at the first key block of a head. -/
def ml0 (n : ℕ) (s : St Ideal) (p : Fin 2048) : EReal × EReal := if n % 4 = 0 then ((⊥ : EReal), (0 : EReal)) else rowML s p
def a0 (n : ℕ) (s : St Ideal) (p : Fin 2048) (d : Fin 128) : EReal := if n % 4 = 0 then 0 else rowA s p d

theorem stepAt_rowML (n : ℕ) (q k v : Vec Ideal S1x2048x128 .bf16) (u : Vec Ideal S1x128x256 .bf16)
    (h : Vec Ideal S2048x256 .f32) (s : St Ideal) (p : Fin 2048) :
    rowML (stepAt n q k v u h s) p = upd (fun r : Fin 2048 => k2_pay13 q k (ix2 p r)) (ml0 n s p) := by
  unfold stepAt rowML ml0
  dsimp only
  rw [ml_step]
  congr 1
  by_cases h4 : n % 4 = 0
  · rw [if_pos h4, if_pos h4, if_pos h4, pay9_apply, pay10_apply]
  · rw [if_neg h4, if_neg h4, if_neg h4]; rfl

theorem stepAt_rowA (n : ℕ) (q k v : Vec Ideal S1x2048x128 .bf16) (u : Vec Ideal S1x128x256 .bf16)
    (h : Vec Ideal S2048x256 .f32) (s : St Ideal) (p : Fin 2048) (d : Fin 128) :
    rowA (stepAt n q k v u h s) p d
      = updA (fun r : Fin 2048 => k2_pay13 q k (ix2 p r)) (fun r : Fin 2048 => v (ix3 (0 : Fin 1) r d)) (ml0 n s p) (a0 n s p d) := by
  unfold stepAt rowA ml0 a0
  dsimp only
  rw [a_step q k v _ (if n % 4 = 0 then (k2_pay10 (F := Ideal)) else s.l)]
  congr 1
  · by_cases h4 : n % 4 = 0
    · rw [if_pos h4, if_pos h4, if_pos h4, pay9_apply, pay10_apply]
    · rw [if_neg h4, if_neg h4, if_neg h4]; rfl
  · by_cases h4 : n % 4 = 0
    · rw [if_pos h4, if_pos h4, pay11_apply]
    · rw [if_neg h4, if_neg h4]; rfl

/-- The output block after a point: seeded with the residual block at the first point of a query block, and with
    the head's quotient, projected, added at the head's last key block. -/
theorem stepAt_o (n : ℕ) (q k v : Vec Ideal S1x2048x128 .bf16) (u : Vec Ideal S1x128x256 .bf16)
    (h : Vec Ideal S2048x256 .f32) (s : St Ideal) (p : Fin 2048) (j : Fin 256) :
    (stepAt n q k v u h s).o (ix2 p j)
      = if n % 4 = 3 then
          (if n % 8 = 0 then h (ix2 p j) else s.o (ix2 p j))
            + ∑ d : Fin 128, Ideal.div (rowA (stepAt n q k v u h s) p d) (rowML (stepAt n q k v u h s) p).2
                * u (ix3 (0 : Fin 1) d j)
        else (if n % 8 = 0 then h (ix2 p j) else s.o (ix2 p j)) := by
  unfold stepAt rowA rowML
  dsimp only
  by_cases h3 : n % 4 = 3
  · rw [if_pos h3, if_pos h3, pay4_apply]
    by_cases h8 : n % 8 = 0
    · rw [if_pos h8, if_pos h8, pay8_eq]
    · rw [if_neg h8, if_neg h8]
  · rw [if_neg h3, if_neg h3]
    by_cases h8 : n % 8 = 0
    · rw [if_pos h8, if_pos h8, pay8_eq]
    · rw [if_neg h8, if_neg h8]

/-! ## The points of a head, one after another -/

section Run

variable (V : (c : Dev nD) → (b : Ref sig .tc) → Buf (Elt Ideal) ((c : Thread nD τ).loc b))

/-- The state after point `n`, unfolded once. -/
theorem stAt_step (c : Dev nD) (n : ℕ) (hN : n < cfg2.N) :
    stAt V c (n + 1) = stepAt n (qblk V c ⟨n, hN⟩) (kblk V c ⟨n, hN⟩) (vblk V c ⟨n, hN⟩) (ublk V c ⟨n, hN⟩)
      (hblk V c ⟨n, hN⟩) (stAt V c n) :=
  stAt_succ V c ⟨n, hN⟩

/-- One more key block of a head that starts at point `b`: if the row's maximum and denominator before point `b + j`
    are the online softmax's state after `j` blocks of the rows `sb`, and block `j`'s logits are `sb j`, then after
    the point they are its state after `j + 1` blocks. -/
theorem run_ml_succ (c : Dev nD) (b j : ℕ) (hb4 : b % 4 = 0) (hj : j < 4) (hN : b + j < cfg2.N) (p : Fin 2048)
    (sb : ℕ → Fin 2048 → EReal)
    (hs : ∀ r, k2_pay13 (qblk V c ⟨b + j, hN⟩) (kblk V c ⟨b + j, hN⟩) (ix2 p r) = sb j r)
    (ih : j ≠ 0 → rowML (stAt V c (b + j)) p = acc sb j) :
    rowML (stAt V c (b + j + 1)) p = acc sb (j + 1) := by
  rw [stAt_step V c (b + j) hN, stepAt_rowML, acc_succ,
    show (fun r : Fin 2048 => k2_pay13 (qblk V c ⟨b + j, hN⟩) (kblk V c ⟨b + j, hN⟩) (ix2 p r)) = sb j from funext hs]
  congr 1
  unfold ml0
  by_cases h0 : j = 0
  · subst h0
    rw [if_pos (by simpa using hb4)]
    rfl
  · rw [if_neg (by omega)]
    exact ih h0

/-- The same for the running weighted sum against the value rows `vb`. -/
theorem run_a_succ (c : Dev nD) (b j : ℕ) (hb4 : b % 4 = 0) (hj : j < 4) (hN : b + j < cfg2.N) (p : Fin 2048) (d : Fin 128)
    (sb vb : ℕ → Fin 2048 → EReal)
    (hs : ∀ r, k2_pay13 (qblk V c ⟨b + j, hN⟩) (kblk V c ⟨b + j, hN⟩) (ix2 p r) = sb j r)
    (hv : ∀ r, vblk V c ⟨b + j, hN⟩ (ix3 (0 : Fin 1) r d) = vb j r)
    (ihml : j ≠ 0 → rowML (stAt V c (b + j)) p = acc sb j)
    (iha : j ≠ 0 → rowA (stAt V c (b + j)) p d = accA sb vb j) :
    rowA (stAt V c (b + j + 1)) p d = accA sb vb (j + 1) := by
  rw [stAt_step V c (b + j) hN, stepAt_rowA,
    show (fun r : Fin 2048 => k2_pay13 (qblk V c ⟨b + j, hN⟩) (kblk V c ⟨b + j, hN⟩) (ix2 p r)) = sb j from funext hs,
    show (fun r : Fin 2048 => vblk V c ⟨b + j, hN⟩ (ix3 (0 : Fin 1) r d)) = vb j from funext hv]
  show updA (sb j) (vb j) _ _ = updA (sb j) (vb j) (acc sb j) (accA sb vb j)
  unfold ml0 a0
  by_cases h0 : j = 0
  · subst h0
    rw [if_pos (by simpa using hb4), if_pos (by simpa using hb4)]
    rfl
  · rw [if_neg (by omega), if_neg (by omega), ihml h0, iha h0]

/-- After the four key blocks of a head that starts at point `b`: the online softmax's state after four blocks. -/
theorem head_ml (c : Dev nD) (b : ℕ) (hb4 : b % 4 = 0) (hN : b + 3 < cfg2.N) (p : Fin 2048)
    (sb : ℕ → Fin 2048 → EReal)
    (hs : ∀ (j : ℕ) (hj : j < 4) (hN' : b + j < cfg2.N) (r : Fin 2048),
      k2_pay13 (qblk V c ⟨b + j, hN'⟩) (kblk V c ⟨b + j, hN'⟩) (ix2 p r) = sb j r) :
    rowML (stAt V c (b + 3 + 1)) p = acc sb (3 + 1) := by
  have e1 := run_ml_succ V c b 0 hb4 (by omega) (by omega) p sb (hs 0 (by omega) (by omega)) (fun h => absurd rfl h)
  have e2 := run_ml_succ V c b 1 hb4 (by omega) (by omega) p sb (hs 1 (by omega) (by omega)) (fun _ => e1)
  have e3 := run_ml_succ V c b 2 hb4 (by omega) (by omega) p sb (hs 2 (by omega) (by omega)) (fun _ => e2)
  exact run_ml_succ V c b 3 hb4 (by omega) (by omega) p sb (hs 3 (by omega) (by omega)) (fun _ => e3)

theorem head_a (c : Dev nD) (b : ℕ) (hb4 : b % 4 = 0) (hN : b + 3 < cfg2.N) (p : Fin 2048) (d : Fin 128)
    (sb vb : ℕ → Fin 2048 → EReal)
    (hs : ∀ (j : ℕ) (hj : j < 4) (hN' : b + j < cfg2.N) (r : Fin 2048),
      k2_pay13 (qblk V c ⟨b + j, hN'⟩) (kblk V c ⟨b + j, hN'⟩) (ix2 p r) = sb j r)
    (hv : ∀ (j : ℕ) (hj : j < 4) (hN' : b + j < cfg2.N) (r : Fin 2048),
      vblk V c ⟨b + j, hN'⟩ (ix3 (0 : Fin 1) r d) = vb j r) :
    rowA (stAt V c (b + 3 + 1)) p d = accA sb vb (3 + 1) := by
  have m1 := run_ml_succ V c b 0 hb4 (by omega) (by omega) p sb (hs 0 (by omega) (by omega)) (fun h => absurd rfl h)
  have m2 := run_ml_succ V c b 1 hb4 (by omega) (by omega) p sb (hs 1 (by omega) (by omega)) (fun _ => m1)
  have m3 := run_ml_succ V c b 2 hb4 (by omega) (by omega) p sb (hs 2 (by omega) (by omega)) (fun _ => m2)
  have e1 := run_a_succ V c b 0 hb4 (by omega) (by omega) p d sb vb (hs 0 (by omega) (by omega)) (hv 0 (by omega) (by omega))
    (fun h => absurd rfl h) (fun h => absurd rfl h)
  have e2 := run_a_succ V c b 1 hb4 (by omega) (by omega) p d sb vb (hs 1 (by omega) (by omega)) (hv 1 (by omega) (by omega))
    (fun _ => m1) (fun _ => e1)
  have e3 := run_a_succ V c b 2 hb4 (by omega) (by omega) p d sb vb (hs 2 (by omega) (by omega)) (hv 2 (by omega) (by omega))
    (fun _ => m2) (fun _ => e2)
  exact run_a_succ V c b 3 hb4 (by omega) (by omega) p d sb vb (hs 3 (by omega) (by omega)) (hv 3 (by omega) (by omega))
    (fun _ => m3) (fun _ => e3)

/-- The output block after point `n`, from the output block before it. -/
theorem o_succ (c : Dev nD) (n : ℕ) (hN : n < cfg2.N) (p : Fin 2048) (j : Fin 256) :
    (stAt V c (n + 1)).o (ix2 p j)
      = if n % 4 = 3 then
          (if n % 8 = 0 then hblk V c ⟨n, hN⟩ (ix2 p j) else (stAt V c n).o (ix2 p j))
            + ∑ d : Fin 128, Ideal.div (rowA (stAt V c (n + 1)) p d) (rowML (stAt V c (n + 1)) p).2
                * ublk V c ⟨n, hN⟩ (ix3 (0 : Fin 1) d j)
        else (if n % 8 = 0 then hblk V c ⟨n, hN⟩ (ix2 p j) else (stAt V c n).o (ix2 p j)) := by
  rw [stAt_step V c n hN]
  exact stepAt_o n _ _ _ _ _ _ p j

end Run

/-! ## The arrays the region reads, and what it is to compute -/

section Arrays

variable (V : (c : Dev nD) → (b : Ref sig .tc) → Buf (Elt Ideal) ((c : Thread nD τ).loc b))

/-- The queries, keys and values of the two heads, the two output projections, and the residual rows. -/
abbrev Qa (c : Dev nD) : Fin 2 → Fin 8192 → Fin 128 → EReal := Cert.Spec.mat3 (V c main_v20 : S2x8192x128.Idx → EReal)
abbrev Ka (c : Dev nD) : Fin 2 → Fin 8192 → Fin 128 → EReal := Cert.Spec.mat3 (V c main_v22 : S2x8192x128.Idx → EReal)
abbrev Va (c : Dev nD) : Fin 2 → Fin 8192 → Fin 128 → EReal := Cert.Spec.mat3 (V c main_v24 : S2x8192x128.Idx → EReal)
abbrev Uu (c : Dev nD) : Fin 2 → Fin 128 → Fin 256 → EReal := Cert.Spec.mat3 (V c main_v25 : S2x128x256.Idx → EReal)
abbrev Hh (c : Dev nD) : Fin 8192 → Fin 256 → EReal := Cert.Spec.mat2 (V c main_v15_0 : S8192x256.Idx → EReal)

/-- The residual rows plus the two heads' attention, each projected back to the features: the first head's added
    first. -/
def oSpec (c : Dev nD) : Cert.Spec.Mat 8192 256 := fun r j =>
  (Hh V c r j + Cert.Spec.up (Cert.Spec.attK (Cert.Spec.logit (Qa V c 0) (Ka V c 0)) (Va V c 0)) (Uu V c 0) r j)
    + Cert.Spec.up (Cert.Spec.attK (Cert.Spec.logit (Qa V c 1) (Ka V c 1)) (Va V c 1)) (Uu V c 1) r j

/-- Row `p` of query block `qi` among the 8192 rows. -/
def grow (qi : Fin 4) (p : Fin 2048) : Fin 8192 :=
  ⟨qi.val * 2048 + p.val, by have := qi.isLt; have := p.isLt; omega⟩

/-- Point `8 qi + 4 i + j` (`j < 4`) works on head `i`, query block `qi`, key block `j`. -/
theorem point_facts (qi : Fin 4) (i : Fin 2) (j : ℕ) (hj : j < 4) (hN : 8 * qi.val + 4 * i.val + j < cfg2.N) :
    hd ⟨8 * qi.val + 4 * i.val + j, hN⟩ = i
      ∧ (∀ p : Fin 2048, qrow ⟨8 * qi.val + 4 * i.val + j, hN⟩ p = grow qi p)
      ∧ ∀ r : Fin 2048, (krow ⟨8 * qi.val + 4 * i.val + j, hN⟩ r).val = j * 2048 + r.val := by
  have h1 := qi.isLt
  have h2 := i.isLt
  refine ⟨Fin.ext ?_, fun p => Fin.ext ?_, fun r => ?_⟩
  · show (8 * qi.val + 4 * i.val + j) / 4 % 2 = i.val
    omega
  · show (8 * qi.val + 4 * i.val + j) / 8 * 2048 + p.val = qi.val * 2048 + p.val
    omega
  · show (8 * qi.val + 4 * i.val + j) % 4 * 2048 + r.val = j * 2048 + r.val
    omega

/-- THE HEAD. After the four key blocks of head `i` on query block `qi`, the running weighted sum over the running
    denominator, at row `p`, is the attention row of the specification. -/
theorem head_quot (c : Dev nD) (qi : Fin 4) (i : Fin 2) (p : Fin 2048) (d : Fin 128)
    (hq : Cert.Spec.Finite3 (Qa V c)) (hk : Cert.Spec.Finite3 (Ka V c)) (hv : Cert.Spec.Finite3 (Va V c))
    (m : ℕ) (hm : m = 8 * qi.val + 4 * i.val + 3 + 1) :
    Ideal.div (rowA (stAt V c m) p d) (rowML (stAt V c m) p).2
      = Cert.Spec.attK (Cert.Spec.logit (Qa V c i) (Ka V c i)) (Va V c i) (grow qi p) d := by
  subst hm
  have hN32 : cfg2.N = 32 := N_2
  have h1 := qi.isLt
  have h2 := i.isLt
  have hb4 : (8 * qi.val + 4 * i.val) % 4 = 0 := by omega
  have hN : 8 * qi.val + 4 * i.val + 3 < cfg2.N := by omega
  have hs : ∀ (j : ℕ) (hj : j < 4) (hN' : 8 * qi.val + 4 * i.val + j < cfg2.N) (r : Fin 2048),
      k2_pay13 (qblk V c ⟨8 * qi.val + 4 * i.val + j, hN'⟩) (kblk V c ⟨8 * qi.val + 4 * i.val + j, hN'⟩) (ix2 p r)
        = blkE (Cert.Spec.logit (Qa V c i) (Ka V c i) (grow qi p)) j r := by
    intro j hj hN' r
    obtain ⟨f1, f2, f3⟩ := point_facts qi i j hj hN'
    rw [pay13_apply, blkE_of_lt _ hj]
    refine Finset.sum_congr rfl fun d' _ => ?_
    rw [qblk_apply, kblk_apply, f1, f2, show krow ⟨8 * qi.val + 4 * i.val + j, hN'⟩ r
      = (⟨j * 2048 + r.val, by have := r.isLt; omega⟩ : Fin 8192) from Fin.ext (f3 r)]
  have hv' : ∀ (j : ℕ) (hj : j < 4) (hN' : 8 * qi.val + 4 * i.val + j < cfg2.N) (r : Fin 2048),
      vblk V c ⟨8 * qi.val + 4 * i.val + j, hN'⟩ (ix3 (0 : Fin 1) r d) = blkE (fun r' => Va V c i r' d) j r := by
    intro j hj hN' r
    obtain ⟨f1, f2, f3⟩ := point_facts qi i j hj hN'
    rw [vblk_apply, blkE_of_lt _ hj, f1, show krow ⟨8 * qi.val + 4 * i.val + j, hN'⟩ r
      = (⟨j * 2048 + r.val, by have := r.isLt; omega⟩ : Fin 8192) from Fin.ext (f3 r)]
  rw [head_a V c _ hb4 hN p d _ _ hs hv', head_ml V c _ hb4 hN p _ hs]
  refine (attn_row _ _ (fun r => ?_) (fun r => hv i r d)).trans rfl
  exact isReal_sum_mul _ _ (fun d' => hq i _ d') (fun d' => hk i r d')

/-- THE QUERY BLOCK. After its eight points the output block holds, at row `p`, the specification's output at row
    `p` of the block. -/
theorem o_block (c : Dev nD) (qi : Fin 4) (p : Fin 2048) (j : Fin 256)
    (hq : Cert.Spec.Finite3 (Qa V c)) (hk : Cert.Spec.Finite3 (Ka V c)) (hv : Cert.Spec.Finite3 (Va V c)) :
    (stAt V c (8 * qi.val + 8)).o (ix2 p j) = oSpec V c (grow qi p) j := by
  have hN32 : cfg2.N = 32 := N_2
  have h1 := qi.isLt
  have o1 : (stAt V c (8 * qi.val + 1)).o (ix2 p j) = Hh V c (grow qi p) j := by
    refine (o_succ V c (8 * qi.val) (by omega) p j).trans ?_
    rw [if_neg (by omega), if_pos (by omega), hblk_apply]
    exact congrArg (fun r => Hh V c r j) (Fin.ext (by show 8 * qi.val / 8 * 2048 + p.val = qi.val * 2048 + p.val; omega))
  have o2 : (stAt V c (8 * qi.val + 2)).o (ix2 p j) = Hh V c (grow qi p) j := by
    refine (o_succ V c (8 * qi.val + 1) (by omega) p j).trans ?_
    rw [if_neg (by omega), if_neg (by omega)]
    exact o1
  have o3 : (stAt V c (8 * qi.val + 3)).o (ix2 p j) = Hh V c (grow qi p) j := by
    refine (o_succ V c (8 * qi.val + 2) (by omega) p j).trans ?_
    rw [if_neg (by omega), if_neg (by omega)]
    exact o2
  have o4 : (stAt V c (8 * qi.val + 4)).o (ix2 p j)
      = Hh V c (grow qi p) j
        + Cert.Spec.up (Cert.Spec.attK (Cert.Spec.logit (Qa V c 0) (Ka V c 0)) (Va V c 0)) (Uu V c 0) (grow qi p) j := by
    refine (o_succ V c (8 * qi.val + 3) (by omega) p j).trans ?_
    rw [if_pos (by omega), if_neg (by omega), o3]
    refine congrArg (Hh V c (grow qi p) j + ·) (Finset.sum_congr rfl fun d _ => ?_)
    rw [head_quot V c qi 0 p d hq hk hv _ (by show _ = 8 * qi.val + 4 * 0 + 3 + 1; omega), ublk_apply]
    exact congrArg (fun i => _ * Uu V c i d j) (Fin.ext (by show (8 * qi.val + 3) / 4 % 2 = 0; omega))
  have o5 : (stAt V c (8 * qi.val + 5)).o (ix2 p j) = _ :=
    ((o_succ V c (8 * qi.val + 4) (by omega) p j).trans (by rw [if_neg (by omega), if_neg (by omega)])).trans o4
  have o6 : (stAt V c (8 * qi.val + 6)).o (ix2 p j) = _ :=
    ((o_succ V c (8 * qi.val + 5) (by omega) p j).trans (by rw [if_neg (by omega), if_neg (by omega)])).trans o5
  have o7 : (stAt V c (8 * qi.val + 7)).o (ix2 p j) = _ :=
    ((o_succ V c (8 * qi.val + 6) (by omega) p j).trans (by rw [if_neg (by omega), if_neg (by omega)])).trans o6
  refine (o_succ V c (8 * qi.val + 7) (by omega) p j).trans ?_
  rw [if_pos (by omega), if_neg (by omega), o7]
  unfold oSpec
  refine congrArg (fun x => (Hh V c (grow qi p) j
    + Cert.Spec.up (Cert.Spec.attK (Cert.Spec.logit (Qa V c 0) (Ka V c 0)) (Va V c 0)) (Uu V c 0) (grow qi p) j) + x)
    (Finset.sum_congr rfl fun d _ => ?_)
  rw [head_quot V c qi 1 p d hq hk hv _ (by show _ = 8 * qi.val + 4 * 1 + 3 + 1; omega), ublk_apply]
  exact congrArg (fun i => _ * Uu V c i d j) (Fin.ext (by show (8 * qi.val + 7) / 4 % 2 = 1; omega))

end Arrays

end Cert.KernelIdeal.Reg2Value

end
-- ==== Proof.Reg2Value.lean ====
/- Kernel region 2's three output arrays after its grid, read index by index: the output rows are the rows of the
   specification's output when the queries, keys and values are real; the two reduction outputs are the column sums of
   each query block's output rows and of their squares. Stated for any proof data whose staging contents of the three
   output windows after a point are the carried output block and its two column sums. -/
import proofs.«408560_j30485677867710_3_alg».proof.Proof.Reg2ValueC
import proofs.«408560_j30485677867710_3_alg».proof.Proof.Gen.KernelIdeal.Points
import Idealize.ShloMosaic.Lib.Pipeline.Value
import Idealize.ShloMosaic.Lib.ValueIdx

set_option maxRecDepth 16384

noncomputable section

namespace Cert.KernelIdeal.Reg2Value

open Cert.KernelIdeal Cert.KernelIdeal.Gen Cert.KernelIdeal.Reg2
open Idealize.ShloMosaic Idealize.ShloMosaic.TcCoe Idealize.ShloMosaic.ValueIdx
open Idealize.SL Idealize.SL.RA Idealize.SL.BI
open Idealize.SL.Sem
open Idealize.ShloMosaic.Pipeline (Dat Cfg Window)
open scoped BigOperators

variable (V : (c : Dev nD) → (b : Ref sig .tc) → Buf (Elt Ideal) ((c : Thread nD τ).loc b))

/-! ## The output windows' blocks -/

/-- The three output windows' block indices at every point of the grid: the query block's, on the leading axis. -/
theorem out_idx_facts : ∀ t : Fin cfg2.N,
    win2_5.index t (0 : Fin 2) = t.val / 8 ∧ win2_5.index t (1 : Fin 2) = 0
    ∧ win2_6.index t (0 : Fin 3) = t.val / 8 ∧ win2_6.index t (1 : Fin 3) = 0 ∧ win2_6.index t (2 : Fin 3) = 0
    ∧ win2_7.index t (0 : Fin 3) = t.val / 8 ∧ win2_7.index t (1 : Fin 3) = 0 ∧ win2_7.index t (2 : Fin 3) = 0 :=
  (by decide +kernel : ∀ t : Fin grid2.N, _)

theorem mem_blk5 (t : Fin cfg2.N) (i : S8192x256.Idx) :
    i ∈ ((cfg2.win 5).blk t).view.set ↔ ∀ a : Fin 2, win2_5.index t a * S2048x256.size a ≤ (i a).val
      ∧ (i a).val < win2_5.index t a * S2048x256.size a + S2048x256.size a := by
  show i ∈ ((View.whole main_v26_0).slice (win2_5.rect t)).set ↔ _
  rw [View.set_slice_whole, Rect.mem_set_unit]
  exact Iff.rfl

theorem mem_blk6 (t : Fin cfg2.N) (i : S4x1x256.Idx) :
    i ∈ ((cfg2.win 6).blk t).view.set ↔ ∀ a : Fin 3, win2_6.index t a * S1x1x256.size a ≤ (i a).val
      ∧ (i a).val < win2_6.index t a * S1x1x256.size a + S1x1x256.size a := by
  show i ∈ ((View.whole main_v26_1).slice (win2_6.rect t)).set ↔ _
  rw [View.set_slice_whole, Rect.mem_set_unit]
  exact Iff.rfl

theorem mem_blk7 (t : Fin cfg2.N) (i : S4x1x256.Idx) :
    i ∈ ((cfg2.win 7).blk t).view.set ↔ ∀ a : Fin 3, win2_7.index t a * S1x1x256.size a ≤ (i a).val
      ∧ (i a).val < win2_7.index t a * S1x1x256.size a + S1x1x256.size a := by
  show i ∈ ((View.whole main_v26_2).slice (win2_7.rect t)).set ↔ _
  rw [View.set_slice_whole, Rect.mem_set_unit]
  exact Iff.rfl

/-! ## What the points leave, as whole arrays -/

/-- The output rows as the points leave them: row `r` is row `r mod 2048` of the output block that query block
    `r / 2048` ends with. -/
def oFin (c : Dev nD) : S8192x256.Idx → EReal := fun i =>
  (stAt V c (8 * ((i 0).val / 2048) + 8)).o (ix2 ⟨(i 0).val % 2048, Nat.mod_lt _ (by norm_num)⟩ (i 1))

/-- The column sums of each query block's final output block, and of its squares. -/
def psFin (c : Dev nD) : S4x1x256.Idx → EReal := fun i =>
  ∑ r : Fin 2048, (stAt V c (8 * (i 0).val + 8)).o (ix2 r (i 2))
def pssFin (c : Dev nD) : S4x1x256.Idx → EReal := fun i =>
  ∑ r : Fin 2048, (stAt V c (8 * (i 0).val + 8)).o (ix2 r (i 2)) * (stAt V c (8 * (i 0).val + 8)).o (ix2 r (i 2))

section Data

variable {c : Dev nD} (dat : Dat τ (Elt Ideal) Unit ℕ (UR sig nD τ) ℕ cfg2 c)

/-- What a writing point writes back into the output rows is its block of `oFin`. -/
theorem flushed5_eq (h5 : ∀ t : Fin cfg2.N, dat.after 5 t = (stAt V c (t.val + 1)).o) (t : Fin cfg2.N)
    (hf : (cfg2.win 5).flush t = true) :
    dat.flushed 5 t = ((cfg2.win 5).blk t).view.read (Elt Ideal) (oFin V c) := by
  have ht : t.val % 8 = 7 := (flush2_5 t).mp hf
  obtain ⟨e0, e1, -⟩ := out_idx_facts t
  show dat.after 5 t = _
  rw [h5]
  funext y
  rw [View.read_apply]
  obtain ⟨p, j, rfl⟩ : ∃ (p : Fin 2048) (j : Fin 256), y = ix2 p j := ⟨y 0, y 1, eq_ix2 y⟩
  have c0 : ((((cfg2.win 5).blk t).view.emb (ix2 p j)) 0).val = t.val / 8 * 2048 + p.val := by
    show win2_5.index t (0 : Fin 2) * 2048 + 1 * p.val = _
    rw [e0]; omega
  have c1 : ((((cfg2.win 5).blk t).view.emb (ix2 p j)) 1).val = j.val := by
    show win2_5.index t (1 : Fin 2) * 256 + 1 * j.val = _
    rw [e1]; omega
  show (stAt V c (t.val + 1)).o (ix2 p j) = oFin V c (((cfg2.win 5).blk t).view.emb (ix2 p j))
  unfold oFin
  have hn : 8 * (((((cfg2.win 5).blk t).view.emb (ix2 p j)) 0).val / 2048) + 8 = t.val + 1 := by
    rw [c0]; have := p.isLt; omega
  rw [hn]
  refine congrArg (stAt V c (t.val + 1)).o (funext fun a => Fin.ext ?_)
  match a with
  | ⟨0, _⟩ =>
    show p.val = ((((cfg2.win 5).blk t).view.emb (ix2 p j)) 0).val % 2048
    rw [c0]; have := p.isLt; omega
  | ⟨1, _⟩ => exact c1.symm

/-- Every output row is in some writing point's block. -/
theorem cover5 (i : S8192x256.Idx) :
    ∃ t : Fin cfg2.N, (cfg2.win 5).flush t = true ∧ i ∈ ((cfg2.win 5).blk t).view.set := by
  have hi0 : (i 0).val < 8192 := (i 0).isLt
  have hi1 : (i 1).val < 256 := (i 1).isLt
  have hN : 8 * ((i 0).val / 2048) + 7 < cfg2.N := by rw [show cfg2.N = 32 from N_2]; omega
  refine ⟨⟨8 * ((i 0).val / 2048) + 7, hN⟩, (flush2_5 _).mpr (by show (8 * ((i 0).val / 2048) + 7) % 8 = 7; omega), ?_⟩
  obtain ⟨e0, e1, -⟩ := out_idx_facts ⟨8 * ((i 0).val / 2048) + 7, hN⟩
  rw [mem_blk5]
  intro a
  match a with
  | ⟨0, _⟩ =>
    show win2_5.index ⟨8 * ((i 0).val / 2048) + 7, hN⟩ (0 : Fin 2) * 2048 ≤ (i 0).val
      ∧ (i 0).val < win2_5.index ⟨8 * ((i 0).val / 2048) + 7, hN⟩ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win2_5.index ⟨8 * ((i 0).val / 2048) + 7, hN⟩ (1 : Fin 2) * 256 ≤ (i 1).val
      ∧ (i 1).val < win2_5.index ⟨8 * ((i 0).val / 2048) + 7, hN⟩ (1 : Fin 2) * 256 + 256
    rw [e1]
    omega

/-- THE OUTPUT ROWS after the grid. -/
theorem arrAt5_eq (h5 : ∀ t : Fin cfg2.N, dat.after 5 t = (stAt V c (t.val + 1)).o) :
    dat.arrAt 5 cfg2.N = oFin V c :=
  dat.arrAt_eq_of_cover 5 (oFin V c) (fun t hf => flushed5_eq V dat h5 t hf) cover5

/-- What a writing point writes back into reduction output 1 is its block of `psFin`. -/
theorem flushed6_eq (h6 : ∀ t : Fin cfg2.N, dat.after 6 t = k2_pay6 (stAt V c (t.val + 1)).o) (t : Fin cfg2.N)
    (hf : (cfg2.win 6).flush t = true) :
    dat.flushed 6 t = ((cfg2.win 6).blk t).view.read (Elt Ideal) (psFin V c) := by
  have ht : t.val % 8 = 7 := (flush2_6 t).mp hf
  obtain ⟨-, -, e0, e1, e2, -⟩ := out_idx_facts t
  show dat.after 6 t = _
  rw [h6]
  funext y
  rw [View.read_apply]
  obtain ⟨a, b, j, rfl⟩ : ∃ (a b : Fin 1) (j : Fin 256), y = ix3 a b j := ⟨y 0, y 1, y 2, eq_ix3 y⟩
  have c0 : ((((cfg2.win 6).blk t).view.emb (ix3 a b j)) 0).val = t.val / 8 := by
    show win2_6.index t (0 : Fin 3) * 1 + 1 * a.val = _
    rw [e0]; have := a.isLt; omega
  have c2 : ((((cfg2.win 6).blk t).view.emb (ix3 a b j)) 2).val = j.val := by
    show win2_6.index t (2 : Fin 3) * 256 + 1 * j.val = _
    rw [e2]; omega
  show k2_pay6 (stAt V c (t.val + 1)).o (ix3 a b j) = psFin V c (((cfg2.win 6).blk t).view.emb (ix3 a b j))
  rw [pay6_apply]
  unfold psFin
  have hn : 8 * ((((cfg2.win 6).blk t).view.emb (ix3 a b j)) 0).val + 8 = t.val + 1 := by rw [c0]; omega
  rw [hn]
  have hx : ∀ r : Fin 2048, (ix2 r j : S2048x256.Idx) = ix2 r ((((cfg2.win 6).blk t).view.emb (ix3 a b j)) 2) := fun r =>
    funext fun x => Fin.ext (by
      match x with
      | ⟨0, _⟩ => rfl
      | ⟨1, _⟩ => exact c2.symm)
  exact Finset.sum_congr rfl fun r _ => congrArg (stAt V c (t.val + 1)).o (hx r)

/-- Every entry of reduction output 1 is in some writing point's block. -/
theorem cover6 (i : S4x1x256.Idx) :
    ∃ t : Fin cfg2.N, (cfg2.win 6).flush t = true ∧ i ∈ ((cfg2.win 6).blk t).view.set := by
  have hi0 : (i 0).val < 4 := (i 0).isLt
  have hi1 : (i 1).val < 1 := (i 1).isLt
  have hi2 : (i 2).val < 256 := (i 2).isLt
  have hN : 8 * (i 0).val + 7 < cfg2.N := by rw [show cfg2.N = 32 from N_2]; omega
  refine ⟨⟨8 * (i 0).val + 7, hN⟩, (flush2_6 _).mpr (by show (8 * (i 0).val + 7) % 8 = 7; omega), ?_⟩
  obtain ⟨-, -, e0, e1, e2, -⟩ := out_idx_facts ⟨8 * (i 0).val + 7, hN⟩
  rw [mem_blk6]
  intro a
  match a with
  | ⟨0, _⟩ =>
    show win2_6.index ⟨8 * (i 0).val + 7, hN⟩ (0 : Fin 3) * 1 ≤ (i 0).val
      ∧ (i 0).val < win2_6.index ⟨8 * (i 0).val + 7, hN⟩ (0 : Fin 3) * 1 + 1
    rw [e0]
    show (8 * (i 0).val + 7) / 8 * 1 ≤ (i 0).val ∧ (i 0).val < (8 * (i 0).val + 7) / 8 * 1 + 1
    omega
  | ⟨1, _⟩ =>
    show win2_6.index ⟨8 * (i 0).val + 7, hN⟩ (1 : Fin 3) * 1 ≤ (i 1).val
      ∧ (i 1).val < win2_6.index ⟨8 * (i 0).val + 7, hN⟩ (1 : Fin 3) * 1 + 1
    rw [e1]
    omega
  | ⟨2, _⟩ =>
    show win2_6.index ⟨8 * (i 0).val + 7, hN⟩ (2 : Fin 3) * 256 ≤ (i 2).val
      ∧ (i 2).val < win2_6.index ⟨8 * (i 0).val + 7, hN⟩ (2 : Fin 3) * 256 + 256
    rw [e2]
    omega

/-- REDUCTION OUTPUT 1 after the grid. -/
theorem arrAt6_eq (h6 : ∀ t : Fin cfg2.N, dat.after 6 t = k2_pay6 (stAt V c (t.val + 1)).o) :
    dat.arrAt 6 cfg2.N = psFin V c :=
  dat.arrAt_eq_of_cover 6 (psFin V c) (fun t hf => flushed6_eq V dat h6 t hf) cover6

/-- What a writing point writes back into reduction output 2 is its block of `pssFin`. -/
theorem flushed7_eq (h7 : ∀ t : Fin cfg2.N, dat.after 7 t = k2_pay7 (stAt V c (t.val + 1)).o) (t : Fin cfg2.N)
    (hf : (cfg2.win 7).flush t = true) :
    dat.flushed 7 t = ((cfg2.win 7).blk t).view.read (Elt Ideal) (pssFin V c) := by
  have ht : t.val % 8 = 7 := (flush2_7 t).mp hf
  obtain ⟨-, -, -, -, -, e0, e1, e2⟩ := out_idx_facts t
  show dat.after 7 t = _
  rw [h7]
  funext y
  rw [View.read_apply]
  obtain ⟨a, b, j, rfl⟩ : ∃ (a b : Fin 1) (j : Fin 256), y = ix3 a b j := ⟨y 0, y 1, y 2, eq_ix3 y⟩
  have c0 : ((((cfg2.win 7).blk t).view.emb (ix3 a b j)) 0).val = t.val / 8 := by
    show win2_7.index t (0 : Fin 3) * 1 + 1 * a.val = _
    rw [e0]; have := a.isLt; omega
  have c2 : ((((cfg2.win 7).blk t).view.emb (ix3 a b j)) 2).val = j.val := by
    show win2_7.index t (2 : Fin 3) * 256 + 1 * j.val = _
    rw [e2]; omega
  show k2_pay7 (stAt V c (t.val + 1)).o (ix3 a b j) = pssFin V c (((cfg2.win 7).blk t).view.emb (ix3 a b j))
  rw [pay7_apply]
  unfold pssFin
  have hn : 8 * ((((cfg2.win 7).blk t).view.emb (ix3 a b j)) 0).val + 8 = t.val + 1 := by rw [c0]; omega
  rw [hn]
  have hx : ∀ r : Fin 2048, (ix2 r j : S2048x256.Idx) = ix2 r ((((cfg2.win 7).blk t).view.emb (ix3 a b j)) 2) := fun r =>
    funext fun x => Fin.ext (by
      match x with
      | ⟨0, _⟩ => rfl
      | ⟨1, _⟩ => exact c2.symm)
  exact Finset.sum_congr rfl fun r _ =>
    congrArg (fun z : EReal => z * z) (congrArg (stAt V c (t.val + 1)).o (hx r))

/-- Every entry of reduction output 2 is in some writing point's block. -/
theorem cover7 (i : S4x1x256.Idx) :
    ∃ t : Fin cfg2.N, (cfg2.win 7).flush t = true ∧ i ∈ ((cfg2.win 7).blk t).view.set := by
  have hi0 : (i 0).val < 4 := (i 0).isLt
  have hi1 : (i 1).val < 1 := (i 1).isLt
  have hi2 : (i 2).val < 256 := (i 2).isLt
  have hN : 8 * (i 0).val + 7 < cfg2.N := by rw [show cfg2.N = 32 from N_2]; omega
  refine ⟨⟨8 * (i 0).val + 7, hN⟩, (flush2_7 _).mpr (by show (8 * (i 0).val + 7) % 8 = 7; omega), ?_⟩
  obtain ⟨-, -, -, -, -, e0, e1, e2⟩ := out_idx_facts ⟨8 * (i 0).val + 7, hN⟩
  rw [mem_blk7]
  intro a
  match a with
  | ⟨0, _⟩ =>
    show win2_7.index ⟨8 * (i 0).val + 7, hN⟩ (0 : Fin 3) * 1 ≤ (i 0).val
      ∧ (i 0).val < win2_7.index ⟨8 * (i 0).val + 7, hN⟩ (0 : Fin 3) * 1 + 1
    rw [e0]
    show (8 * (i 0).val + 7) / 8 * 1 ≤ (i 0).val ∧ (i 0).val < (8 * (i 0).val + 7) / 8 * 1 + 1
    omega
  | ⟨1, _⟩ =>
    show win2_7.index ⟨8 * (i 0).val + 7, hN⟩ (1 : Fin 3) * 1 ≤ (i 1).val
      ∧ (i 1).val < win2_7.index ⟨8 * (i 0).val + 7, hN⟩ (1 : Fin 3) * 1 + 1
    rw [e1]
    omega
  | ⟨2, _⟩ =>
    show win2_7.index ⟨8 * (i 0).val + 7, hN⟩ (2 : Fin 3) * 256 ≤ (i 2).val
      ∧ (i 2).val < win2_7.index ⟨8 * (i 0).val + 7, hN⟩ (2 : Fin 3) * 256 + 256
    rw [e2]
    omega

/-- REDUCTION OUTPUT 2 after the grid. -/
theorem arrAt7_eq (h7 : ∀ t : Fin cfg2.N, dat.after 7 t = k2_pay7 (stAt V c (t.val + 1)).o) :
    dat.arrAt 7 cfg2.N = pssFin V c :=
  dat.arrAt_eq_of_cover 7 (pssFin V c) (fun t hf => flushed7_eq V dat h7 t hf) cover7

/-! ## The three arrays, read -/

/-- Row `r` of the output block of query block `q`, read off the final output rows. -/
theorem oFin_grow (q : Fin 4) (r : Fin 2048) (j : Fin 256) :
    oFin V c (ix2 (grow q r) j) = (stAt V c (8 * q.val + 8)).o (ix2 r j) := by
  show (stAt V c (8 * ((grow q r).val / 2048) + 8)).o (ix2 ⟨(grow q r).val % 2048, _⟩ j) = _
  have hr := r.isLt
  have hn : 8 * ((grow q r).val / 2048) + 8 = 8 * q.val + 8 := by
    show 8 * ((q.val * 2048 + r.val) / 2048) + 8 = _
    omega
  rw [hn]
  refine congrArg (stAt V c (8 * q.val + 8)).o (funext fun x => Fin.ext ?_)
  match x with
  | ⟨0, _⟩ =>
    show (q.val * 2048 + r.val) % 2048 = r.val
    omega
  | ⟨1, _⟩ => rfl

/-- THE OUTPUT ROWS: with real queries, keys and values, entry `(r, j)` is the specification's. -/
theorem arrAt_o (h5 : ∀ t : Fin cfg2.N, dat.after 5 t = (stAt V c (t.val + 1)).o)
    (hq : Cert.Spec.Finite3 (Qa V c)) (hk : Cert.Spec.Finite3 (Ka V c)) (hv : Cert.Spec.Finite3 (Va V c))
    (r : Fin 8192) (j : Fin 256) :
    Cert.Spec.mat2 (dat.arrAt 5 cfg2.N : S8192x256.Idx → EReal) r j = oSpec V c r j := by
  show (dat.arrAt 5 cfg2.N : S8192x256.Idx → EReal) (ix2 r j) = _
  have hr := r.isLt
  have e : grow ⟨r.val / 2048, by omega⟩ ⟨r.val % 2048, Nat.mod_lt _ (by norm_num)⟩ = r :=
    Fin.ext (by show r.val / 2048 * 2048 + r.val % 2048 = r.val; omega)
  have h := o_block V c ⟨r.val / 2048, by omega⟩ ⟨r.val % 2048, Nat.mod_lt _ (by norm_num)⟩ j hq hk hv
  rw [← oFin_grow, e] at h
  rw [arrAt5_eq V dat h5]
  exact h

/-- THE COLUMN SUMS: entry `(q, 0, j)` is the sum over the rows of query block `q` of the output rows' column `j`. -/
theorem arrAt_psum (h5 : ∀ t : Fin cfg2.N, dat.after 5 t = (stAt V c (t.val + 1)).o)
    (h6 : ∀ t : Fin cfg2.N, dat.after 6 t = k2_pay6 (stAt V c (t.val + 1)).o) (q : Fin 4) (j : Fin 256) :
    Cert.Spec.mat3 (dat.arrAt 6 cfg2.N : S4x1x256.Idx → EReal) q (0 : Fin 1) j
      = ∑ r' : Fin 2048, Cert.Spec.mat2 (dat.arrAt 5 cfg2.N : S8192x256.Idx → EReal) (grow q r') j := by
  unfold Cert.Spec.mat3 Cert.Spec.mat2
  rw [arrAt6_eq V dat h6, arrAt5_eq V dat h5]
  show ∑ r : Fin 2048, (stAt V c (8 * q.val + 8)).o (ix2 r j) = _
  exact Finset.sum_congr rfl fun r _ => (oFin_grow V q r j).symm

/-- THE COLUMN SUMS OF SQUARES likewise. -/
theorem arrAt_psumsq (h5 : ∀ t : Fin cfg2.N, dat.after 5 t = (stAt V c (t.val + 1)).o)
    (h7 : ∀ t : Fin cfg2.N, dat.after 7 t = k2_pay7 (stAt V c (t.val + 1)).o) (q : Fin 4) (j : Fin 256) :
    Cert.Spec.mat3 (dat.arrAt 7 cfg2.N : S4x1x256.Idx → EReal) q (0 : Fin 1) j
      = ∑ r' : Fin 2048, Cert.Spec.mat2 (dat.arrAt 5 cfg2.N : S8192x256.Idx → EReal) (grow q r') j
          * Cert.Spec.mat2 (dat.arrAt 5 cfg2.N : S8192x256.Idx → EReal) (grow q r') j := by
  unfold Cert.Spec.mat3 Cert.Spec.mat2
  rw [arrAt7_eq V dat h7, arrAt5_eq V dat h5]
  show ∑ r : Fin 2048, (stAt V c (8 * q.val + 8)).o (ix2 r j) * (stAt V c (8 * q.val + 8)).o (ix2 r j) = _
  exact Finset.sum_congr rfl fun r _ => by rw [oFin_grow V q r j]

end Data

end Cert.KernelIdeal.Reg2Value

end
-- ==== Proof.Reg3Value.lean ====
import proofs.«408560_j30485677867710_3_alg».proof.Proof.Reg3
import proofs.«408560_j30485677867710_3_alg».proof.Proof.Spec
import Idealize.ShloMosaic.Lib.Pipeline.Value
import Idealize.ShloMosaic.Lib.ValueIdx
import Idealize.ShloMosaic.PureOps.Ideal.Laws

/-!
# Kernel region 3 at the ideal values: what its result array holds, index by index

At the ideal values the region's body computes, for row `p` and column `j` of a block of 2048 rows,
`max (Σ_l max (Σ_l' h(p,l')·W₀(l',l) + b₀(l)) 0 · W₁(l,j) + b₁(j)) 0` with
`h(p,l') = (z(p,l') − mean(l')) · rsqrt (var(l') + ε)`: a product of a block with a 256 × 256 matrix is
the sum over the 256 features, a change of float format is the identity, and the layout operations
(unit axes cast away and back, rows laid along the block) only rename indices.  The four blocks of the
grid tile the 8192 rows, so the array after the run is that formula of the arrays the region found.
-/

set_option maxRecDepth 16384

noncomputable section

namespace Cert.KernelIdeal.Reg3Value

open Cert.KernelIdeal Cert.KernelIdeal.Gen Cert.KernelIdeal.Reg3
open Idealize.ShloMosaic Idealize.ShloMosaic.TcCoe Idealize.SL.Sem
open Idealize.ShloMosaic.Pipeline (Dat)
open Idealize.ShloMosaic.ValueIdx
open scoped BigOperators

/-! ## The product of a 2048 × 256 block with a 256 × 256 matrix, at an index -/

theorem lhs_dot_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem lhs_dot_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

theorem rhs_dot_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

theorem rhs_dot_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The block product into a zero accumulator, at row `p` and column `j`: the sum over the 256 features. -/
theorem mm_apply (a : FVec Ideal S2048x256 .bf16) (b : FVec Ideal S256x256 .bf16) (p : Fin 2048) (j : Fin 256) :
    matmul dot_S2048x256_S256x256_S2048x256_1_0_0_1_n_n none a b (constant S2048x256 .f32 0x00000000#32) (ix2 p j)
      = ∑ l : Fin 256, a (ix2 p l) * b (ix2 l j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p j) ((ValueIdx.contrEquiv1 dot_S2048x256_S256x256_S2048x256_1_0_0_1_n_n 256 rfl rfl).symm k) = ix2 p k :=
    funext fun a => Fin.ext (by
      match a with
      | ⟨0, _⟩ => exact lhs_dot_0 _ _
      | ⟨1, _⟩ => exact (lhs_dot_1 _ _).trans hk)
  have er : dot_S2048x256_S256x256_S2048x256_1_0_0_1_n_n.rhsIdx (ix2 p j) ((ValueIdx.contrEquiv1 dot_S2048x256_S256x256_S2048x256_1_0_0_1_n_n 256 rfl rfl).symm k) = ix2 k j :=
    funext fun a => Fin.ext (by
      match a with
      | ⟨0, _⟩ => exact (rhs_dot_0 _ _).trans hk
      | ⟨1, _⟩ => exact rhs_dot_1 _ _)
  rw [el, er]

/-! ## The layout operations of the body, at an index -/

theorem hz2 : (![0, 0] : Fin 2 → Nat) = fun _ => 0 := funext fun a => by fin_cases a <;> rfl

/-- One of the two weight matrices, its unit axis cast away, at an index. -/
theorem wcast_apply (w : FVec Ideal S1x256x256 .bf16) (l j : Fin 256) :
    shapeCast S256x256 w shapeCasts_S1x256x256_S256x256 (ix2 l j) = w (ix3 0 l j) :=
  shapeCast_apply w shapeCasts_S1x256x256_S256x256 (ix2 l j) (ix3 0 l j) (by
    rw [Shape.rowMajor_val_three, Shape.rowMajor_val_two]
    show (0 * 256 + l.val) * 256 + j.val = l.val * 256 + j.val
    omega)

/-- A row laid along every row of the block, at an index. -/
theorem row_bcast_apply (b : FVec Ideal S1x256 .f32) (p : Fin 2048) (j : Fin 256) :
    broadcastTo S2048x256 b broadcasts_S1x256_S2048x256 (ix2 p j) = b (ix2 0 j) :=
  broadcastTo_apply b broadcasts_S1x256_S2048x256 (ix2 p j) (ix2 0 j) (by
    intro a
    match a with
    | ⟨0, _⟩ => rfl
    | ⟨1, _⟩ => rfl)

/-- One linear layer with its rectifier, at row `p` and column `j` of the block. -/
theorem layer_apply (y : FVec Ideal S2048x256 .f32) (w : FVec Ideal S1x256x256 .bf16) (b : FVec Ideal S1x256 .f32) (p : Fin 2048) (j : Fin 256) :
    maximumf (addf (matmul dot_S2048x256_S256x256_S2048x256_1_0_0_1_n_n none (truncf .bf16 y bitsLt_bf16_f32) (shapeCast S256x256 w shapeCasts_S1x256x256_S256x256) (constant S2048x256 .f32 0x00000000#32))
        (broadcastTo S2048x256 (shapeCast S1x256 (shapeCast S256 b shapeCasts_S1x256_S256) shapeCasts_S256_S1x256) broadcasts_S1x256_S2048x256))
      (broadcast S2048x256 (Scalar.ofBits .f32 0x00000000#32)) (ix2 p j)
    = max ((∑ l : Fin 256, y (ix2 p l) * w (ix3 0 l j)) + b (ix2 0 j)) Cert.Spec.zero := by
  rw [maximumf_apply, addf_apply, mm_apply, shapeCast_shapeCast, row_bcast_apply]
  refine congrArg₂ max (congrArg₂ (· + ·) (Finset.sum_congr rfl fun l _ => ?_) rfl) rfl
  rw [wcast_apply]; rfl

/-- The normalisation, at row `p` and column `l` of the block. -/
theorem hn_apply (x0 : FVec Ideal S2048x256 .f32) (x1 x2 : FVec Ideal S1x256 .f32) (p : Fin 2048) (l : Fin 256) :
    mulf (subf (shapeCast S2048x256 x0 shapeCasts_S2048x256_S2048x256) (broadcastTo S2048x256 (shapeCast S1x256 x1 shapeCasts_S1x256_S1x256) broadcasts_S1x256_S2048x256))
      (broadcastTo S2048x256 (rsqrt (addf (shapeCast S1x256 x2 shapeCasts_S1x256_S1x256) (broadcast S1x256 (Scalar.ofBits .f32 0x3727C5AC#32)))) broadcasts_S1x256_S2048x256) (ix2 p l)
    = (x0 (ix2 p l) - x1 (ix2 0 l)) * Ideal.rsqrt (x2 (ix2 0 l) + Cert.Spec.eps) := by
  rw [mulf_apply, subf_apply, row_bcast_apply, row_bcast_apply, shapeCast_self, shapeCast_self, shapeCast_self]
  rfl

/-- The loads of the two weight matrices and of the two bias rows, at an index. -/
theorem ld_W0 (x3 : Vec Ideal S2x256x256 .bf16) (l j : Fin 256) : View.ld x3 rW0 (ix3 0 l j) = x3 (ix3 0 l j) :=
  congrArg x3 (funext fun a => Fin.ext (by
    match a with
    | ⟨0, _⟩ => rfl
    | ⟨1, _⟩ => show 0 + 1 * l.val = l.val; omega
    | ⟨2, _⟩ => show 0 + 1 * j.val = j.val; omega))
theorem ld_W1 (x3 : Vec Ideal S2x256x256 .bf16) (l j : Fin 256) : View.ld x3 rW1 (ix3 0 l j) = x3 (ix3 1 l j) :=
  congrArg x3 (funext fun a => Fin.ext (by
    match a with
    | ⟨0, _⟩ => rfl
    | ⟨1, _⟩ => show 0 + 1 * l.val = l.val; omega
    | ⟨2, _⟩ => show 0 + 1 * j.val = j.val; omega))
theorem ld_B0 (x4 : Vec Ideal S2x256 .f32) (j : Fin 256) : View.ld x4 rB0 (ix2 0 j) = x4 (ix2 0 j) :=
  congrArg x4 (funext fun a => Fin.ext (by
    match a with
    | ⟨0, _⟩ => rfl
    | ⟨1, _⟩ => show 0 + 1 * j.val = j.val; omega))
theorem ld_B1 (x4 : Vec Ideal S2x256 .f32) (j : Fin 256) : View.ld x4 rB1 (ix2 0 j) = x4 (ix2 1 j) :=
  congrArg x4 (funext fun a => Fin.ext (by
    match a with
    | ⟨0, _⟩ => rfl
    | ⟨1, _⟩ => show 0 + 1 * j.val = j.val; omega))
/-! ## The body's value at an index of the block -/

/-- What the body stores at row `p` and column `j` of the result's block, from the five input blocks: the
    normalised row through the first layer and its rectifier, then through the second and its rectifier. -/
theorem pay_apply (x0 : Vec Ideal S2048x256 .f32) (x1 x2 : Vec Ideal S1x256 .f32) (x3 : Vec Ideal S2x256x256 .bf16) (x4 : Vec Ideal S2x256 .f32)
    (p : Fin 2048) (j : Fin 256) :
    Reg3.pay x0 x1 x2 x3 x4 (ix2 p j) =
      max ((∑ l : Fin 256, max ((∑ l' : Fin 256, (x0 (ix2 p l') - x1 (ix2 0 l')) * Ideal.rsqrt (x2 (ix2 0 l') + Cert.Spec.eps) * x3 (ix3 0 l' l))
          + x4 (ix2 0 l)) Cert.Spec.zero * x3 (ix3 1 l j)) + x4 (ix2 1 j)) Cert.Spec.zero := by
  unfold Reg3.pay k3_pay1
  simp only [View.ld_unit_zero (S := S2048x256) hz2, View.ld_unit_zero (S := S1x256) hz2]
  rw [layer_apply]
  simp only [layer_apply, hn_apply]
  refine congrArg₂ max (congrArg₂ (· + ·) (Finset.sum_congr rfl fun l _ => ?_) (ld_B1 x4 j)) rfl
  refine congrArg₂ (· * ·) (congrArg₂ max (congrArg₂ (· + ·) (Finset.sum_congr rfl fun l' _ => ?_) (ld_B0 x4 l)) rfl) (ld_W1 x3 l j)
  exact congrArg (_ * ·) (ld_W0 x3 l' l)

/-! ## The region's result as one function of the arrays it finds -/

variable (V : (c : Dev nD) → (b : Ref sig .tc) → Buf (Elt Ideal) ((c : Thread nD τ).loc b))

/-- The rows normalised: (z − mean) · (var + ε)^(−1/2), feature by feature. -/
def hn (Z : Cert.Spec.Mat 8192 256) (M Vr : Cert.Spec.Mat 1 256) : Cert.Spec.Mat 8192 256 :=
  fun r l => (Z r l - M 0 l) * Ideal.rsqrt (Vr 0 l + Cert.Spec.eps)

/-- One linear layer with its rectifier: max (Σ_l y(r,l)·Wt(l,j) + b(j)) 0. -/
def lin (y : Cert.Spec.Mat 8192 256) (Wt : Fin 256 → Fin 256 → EReal) (b : Fin 256 → EReal) : Cert.Spec.Mat 8192 256 :=
  fun r j => max ((∑ l : Fin 256, y r l * Wt l j) + b j) Cert.Spec.zero

/-- The region's result from the arrays it finds: the normalised rows through the two layers. -/
def res (c : Dev nD) : Cert.Spec.Mat 8192 256 :=
  lin (lin (hn (Cert.Spec.mat2 (V c main_v26_0)) (Cert.Spec.mat2 (V c main_v29)) (Cert.Spec.mat2 (V c main_v34)))
      (Cert.Spec.mat3 (V c main_v36) 0) (Cert.Spec.mat2 (V c main_arg6) 0))
    (Cert.Spec.mat3 (V c main_v36) 1) (Cert.Spec.mat2 (V c main_arg6) 1)

/-- The same as an array of the program's shape. -/
def G (c : Dev nD) : S8192x256.Idx → EReal := fun i => res V c (i 0) (i 1)

/-! ## The windows' blocks as parts of the arrays -/

/-- The printed index maps, decided over the grid: the activations' and the result's block at point `t` is the
    `t`-th block of 2048 rows; every other window's block is the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 3) = 0 ∧ win3_3.index t (1 : Fin 3) = 0 ∧ win3_3.index t (2 : Fin 3) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the block at point `t` is row `2048 t + p` of the array. -/
def row (t : Fin cfg3.N) (p : Fin 2048) : Fin 8192 :=
  ⟨2048 * t.val + p.val, by have h : t.val < 4 := lt_of_lt_of_eq t.isLt N_3; have := p.isLt; omega⟩

theorem iblk0_apply (c : Dev nD) (t : Fin cfg3.N) (p : Fin 2048) (l : Fin 256) :
    (iblk V c 0 t : Vec Ideal S2048x256 .f32) (ix2 p l) = (V c main_v26_0 : S8192x256.Idx → EReal) (ix2 (row t p) l) := by
  obtain ⟨e0, e1, -⟩ := idx_facts t
  unfold iblk
  rw [View.read_apply]
  show V c main_v26_0 _ = V c main_v26_0 _
  congr 1
  funext a
  apply Fin.ext
  match a with
  | ⟨0, _⟩ => show win3_0.index t (0 : Fin 2) * 2048 + 1 * p.val = 2048 * t.val + p.val; rw [e0]; omega
  | ⟨1, _⟩ => show win3_0.index t (1 : Fin 2) * 256 + 1 * l.val = l.val; rw [e1]; omega

theorem iblk1_eq (c : Dev nD) (t : Fin cfg3.N) : (iblk V c 1 t : Vec Ideal S1x256 .f32) = (V c main_v29 : S1x256.Idx → EReal) := by
  obtain ⟨-, -, e0, e1, -⟩ := idx_facts t
  funext x
  unfold iblk
  rw [View.read_apply]
  show V c main_v29 _ = V c main_v29 _
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 256 + 1 * (x 1).val = (x 1).val; rw [e1]; omega

theorem iblk2_eq (c : Dev nD) (t : Fin cfg3.N) : (iblk V c 2 t : Vec Ideal S1x256 .f32) = (V c main_v34 : S1x256.Idx → EReal) := by
  obtain ⟨-, -, -, -, e0, e1, -⟩ := idx_facts t
  funext x
  unfold iblk
  rw [View.read_apply]
  show V c main_v34 _ = V c main_v34 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega

theorem iblk3_eq (c : Dev nD) (t : Fin cfg3.N) : (iblk V c 3 t : Vec Ideal S2x256x256 .bf16) = (V c main_v36 : S2x256x256.Idx → EReal) := by
  obtain ⟨-, -, -, -, -, -, e0, e1, e2, -⟩ := idx_facts t
  funext x
  unfold iblk
  rw [View.read_apply]
  show V c main_v36 _ = V c main_v36 _
  congr 1
  funext a
  apply Fin.ext
  match a with
  | ⟨0, _⟩ => show win3_3.index t (0 : Fin 3) * 2 + 1 * (x 0).val = (x 0).val; rw [e0]; omega
  | ⟨1, _⟩ => show win3_3.index t (1 : Fin 3) * 256 + 1 * (x 1).val = (x 1).val; rw [e1]; omega
  | ⟨2, _⟩ => show win3_3.index t (2 : Fin 3) * 256 + 1 * (x 2).val = (x 2).val; rw [e2]; omega

theorem iblk4_eq (c : Dev nD) (t : Fin cfg3.N) : (iblk V c 4 t : Vec Ideal S2x256 .f32) = (V c main_arg6 : S2x256.Idx → EReal) := by
  obtain ⟨-, -, -, -, -, -, -, -, -, e0, e1, -⟩ := idx_facts t
  funext x
  unfold iblk
  rw [View.read_apply]
  show V c main_arg6 _ = V c main_arg6 _
  congr 1
  funext a
  apply Fin.ext
  match a with
  | ⟨0, _⟩ => show win3_4.index t (0 : Fin 2) * 2 + 1 * (x 0).val = (x 0).val; rw [e0]; omega
  | ⟨1, _⟩ => show win3_4.index t (1 : Fin 2) * 256 + 1 * (x 1).val = (x 1).val; rw [e1]; omega

/-- An element of the result's block at point `t` sits in the array at row `2048 t + p`. -/
theorem emb5 (t : Fin cfg3.N) (p : Fin 2048) (j : Fin 256) :
    ((cfg3.win 5).blk t).view.emb (ix2 p j) = (ix2 (row t p) j : S8192x256.Idx) := by
  obtain ⟨-, -, -, -, -, -, -, -, -, -, -, e0, e1⟩ := idx_facts t
  funext a
  apply Fin.ext
  match a with
  | ⟨0, _⟩ => show win3_5.index t (0 : Fin 2) * 2048 + 1 * p.val = 2048 * t.val + p.val; rw [e0]; omega
  | ⟨1, _⟩ => show win3_5.index t (1 : Fin 2) * 256 + 1 * j.val = j.val; rw [e1]; omega

/-! ## What each point writes back, and the array after the run -/

/-- What point `t` writes back is block `t` of `G`. -/
theorem flushed_eq (c : Dev nD) (t : Fin cfg3.N) (hf : (cfg3.win 5).flush t = true) :
    (dat V c).flushed 5 t = ((cfg3.win 5).blk t).view.read (Elt Ideal) (G V c) := by
  show (cfg3.win 5).cut (grid3.coords t) ((dat V c).after 5 t) = _
  rw [after_5]
  unfold out5
  rw [View.canon_unit_zero hz2]
  funext y
  obtain ⟨p, j, rfl⟩ : ∃ (p : Fin 2048) (j : Fin 256), y = ix2 p j := ⟨y 0, y 1, eq_ix2 y⟩
  show Reg3.pay (iblk V c 0 t) (iblk V c 1 t) (iblk V c 2 t) (iblk V c 3 t) (iblk V c 4 t) (ix2 p j)
    = G V c (((cfg3.win 5).blk t).view.emb (ix2 p j))
  rw [pay_apply, emb5, iblk1_eq, iblk2_eq, iblk3_eq, iblk4_eq]
  simp only [iblk0_apply]
  rfl

/-- An index of the array is in point `t`'s block iff each coordinate is in the block's range on its axis. -/
theorem mem_blk5 (t : Fin cfg3.N) (i : S8192x256.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v37).slice (win3_5.rect t)).set ↔ _
  rw [View.set_slice_whole, Rect.mem_set_unit]
  exact Iff.rfl

/-- Every index of the array is in some point's block: row `r` in the block of point `r / 2048`. -/
theorem cover (i : S8192x256.Idx) : ∃ t : Fin cfg3.N, (cfg3.win 5).flush t = true ∧ i ∈ ((cfg3.win 5).blk t).view.set := by
  have hi0 : (i 0).val < 8192 := (i 0).isLt
  have hi1 : (i 1).val < 256 := (i 1).isLt
  refine ⟨⟨(i 0).val / 2048, lt_of_lt_of_eq (by omega) N_3.symm⟩, flush3_5 _, ?_⟩
  rw [mem_blk5]
  obtain ⟨-, -, -, -, -, -, -, -, -, -, -, e0, e1⟩ := idx_facts ⟨(i 0).val / 2048, lt_of_lt_of_eq (by omega) N_3.symm⟩
  intro a
  match a with
  | ⟨0, _⟩ =>
    show win3_5.index _ (0 : Fin 2) * 2048 ≤ (i 0).val ∧ (i 0).val < win3_5.index _ (0 : Fin 2) * 2048 + 2048
    rw [e0]; show (i 0).val / 2048 * 2048 ≤ (i 0).val ∧ (i 0).val < (i 0).val / 2048 * 2048 + 2048; omega
  | ⟨1, _⟩ =>
    show win3_5.index _ (1 : Fin 2) * 256 ≤ (i 1).val ∧ (i 1).val < win3_5.index _ (1 : Fin 2) * 256 + 256
    rw [e1]; omega

/-- The result's array after the run is `G`. -/
theorem arrAt_eq (c : Dev nD) : (dat (F := Ideal) V c).arrAt 5 cfg3.N = G V c :=
  (dat V c).arrAt_eq_of_cover 5 (G V c) (flushed_eq V c) cover

/-- The result's array after the run, index by index: the normalised rows through the two layers. -/
theorem arrAt_out (c : Dev nD) (r : Fin 8192) (j : Fin 256) :
    (dat (F := Ideal) V c).arrAt 5 cfg3.N (ix2 r j) = res V c r j := by
  rw [arrAt_eq]; rfl

/-- The input windows' arrays are as the region found them. -/
theorem arrAt_in0 (c : Dev nD) : (dat (F := Ideal) V c).arrAt 0 cfg3.N = V c main_v26_0 :=
  ((dat V c).arrAt_in 0 rfl cfg3.N).trans (A_eq V c 0)
theorem arrAt_in1 (c : Dev nD) : (dat (F := Ideal) V c).arrAt 1 cfg3.N = V c main_v29 :=
  ((dat V c).arrAt_in 1 rfl cfg3.N).trans (A_eq V c 1)
theorem arrAt_in2 (c : Dev nD) : (dat (F := Ideal) V c).arrAt 2 cfg3.N = V c main_v34 :=
  ((dat V c).arrAt_in 2 rfl cfg3.N).trans (A_eq V c 2)
theorem arrAt_in3 (c : Dev nD) : (dat (F := Ideal) V c).arrAt 3 cfg3.N = V c main_v36 :=
  ((dat V c).arrAt_in 3 rfl cfg3.N).trans (A_eq V c 3)
theorem arrAt_in4 (c : Dev nD) : (dat (F := Ideal) V c).arrAt 4 cfg3.N = V c main_arg6 :=
  ((dat V c).arrAt_in 4 rfl cfg3.N).trans (A_eq V c 4)

end Cert.KernelIdeal.Reg3Value

end
-- ==== Proof.KValue.lean ====
/-
  The kernel program's result as the network of its arguments.

  Between two items of @main the buffers hold a fold of the launch contents: a region overwrites its output arrays, a
  host stretch applies its operations.  Read by coordinates at those boundaries, region 0 leaves the column sums and
  the column sums of the squares of the rows; the first host stretch the first mean and variance and the three weight
  pairs side by side; region 1 the normalised rows and their projection; the second host stretch the per-head queries,
  keys and values and the output projections; region 2 the rows plus the two heads' attention and the four blocks'
  column sums of that and of its squares; the third host stretch the second mean and variance and the transposed layer
  weights; region 3 the two linear layers of the second normalisation.  An argument array, and an earlier item's
  output, is unchanged wherever a later item reads it, because nothing in between writes it.  Chained, these say the
  result buffer holds the network as the kernel arranges it.
-/
import proofs.«408560_j30485677867710_3_alg».proof.Proof.Run
import proofs.«408560_j30485677867710_3_alg».proof.Proof.KGlue
import proofs.«408560_j30485677867710_3_alg».proof.Proof.KHost
import proofs.«408560_j30485677867710_3_alg».proof.Proof.Reg0Value
import proofs.«408560_j30485677867710_3_alg».proof.Proof.Reg1Value
import proofs.«408560_j30485677867710_3_alg».proof.Proof.Reg2Value
import proofs.«408560_j30485677867710_3_alg».proof.Proof.Reg3Value
import Idealize.ShloMosaic.Lib.ValueIdx

set_option maxRecDepth 16384

noncomputable section

namespace Cert.KernelIdeal.KValue

open Cert.KernelIdeal Cert.KernelIdeal.Gen Cert.KernelIdeal.Run
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

/-! ## A buffer nothing has written yet holds its launch contents -/

theorem W1_kept (b : Ref sig .tc) (h0 : ∀ w, Pipeline.arrRef spec0 w = b → (cfg0.win w).isOut = false) :
    W1 m c (Proc.devRef .tc b) = m ((c : Thread nD τ).loc b) :=
  (W1_keep m c b h0).trans rfl

theorem W2_kept (b : Ref sig .tc) (h0 : ∀ w, Pipeline.arrRef spec0 w = b → (cfg0.win w).isOut = false)
    (h1 : b ∉ hostOps1_W) : W2 m c (Proc.devRef .tc b) = m ((c : Thread nD τ).loc b) :=
  (StableHlo.after_of_writes_sub hostOps1 _ hostOps1_writes h1).trans (W1_kept m c b h0)

theorem W3_kept (b : Ref sig .tc) (h0 : ∀ w, Pipeline.arrRef spec0 w = b → (cfg0.win w).isOut = false)
    (h1 : b ∉ hostOps1_W) (h2 : ∀ w, Pipeline.arrRef spec1 w = b → (cfg1.win w).isOut = false) :
    W3 m c (Proc.devRef .tc b) = m ((c : Thread nD τ).loc b) :=
  (W3_keep m c b h2).trans (W2_kept m c b h0 h1)

theorem W4_kept (b : Ref sig .tc) (h0 : ∀ w, Pipeline.arrRef spec0 w = b → (cfg0.win w).isOut = false)
    (h1 : b ∉ hostOps1_W) (h2 : ∀ w, Pipeline.arrRef spec1 w = b → (cfg1.win w).isOut = false)
    (h3 : b ∉ hostOps2_W) : W4 m c (Proc.devRef .tc b) = m ((c : Thread nD τ).loc b) :=
  (StableHlo.after_of_writes_sub hostOps2 _ hostOps2_writes h3).trans (W3_kept m c b h0 h1 h2)

theorem W5_kept (b : Ref sig .tc) (h0 : ∀ w, Pipeline.arrRef spec0 w = b → (cfg0.win w).isOut = false)
    (h1 : b ∉ hostOps1_W) (h2 : ∀ w, Pipeline.arrRef spec1 w = b → (cfg1.win w).isOut = false)
    (h3 : b ∉ hostOps2_W) (h4 : ∀ w, Pipeline.arrRef spec2 w = b → (cfg2.win w).isOut = false) :
    W5 m c (Proc.devRef .tc b) = m ((c : Thread nD τ).loc b) :=
  (W5_keep m c b h4).trans (W4_kept m c b h0 h1 h2 h3)

theorem W6_kept (b : Ref sig .tc) (h0 : ∀ w, Pipeline.arrRef spec0 w = b → (cfg0.win w).isOut = false)
    (h1 : b ∉ hostOps1_W) (h2 : ∀ w, Pipeline.arrRef spec1 w = b → (cfg1.win w).isOut = false)
    (h3 : b ∉ hostOps2_W) (h4 : ∀ w, Pipeline.arrRef spec2 w = b → (cfg2.win w).isOut = false)
    (h5 : b ∉ hostOps3_W) : W6 m c (Proc.devRef .tc b) = m ((c : Thread nD τ).loc b) :=
  (StableHlo.after_of_writes_sub hostOps3 _ hostOps3_writes h5).trans (W5_kept m c b h0 h1 h2 h3 h4)

/-- The rows as region 1 finds them are the launch's. -/
theorem W2_arg0 : W2 m c (Proc.devRef .tc main_arg0) = m ((c : Thread nD τ).loc main_arg0) :=
  W2_kept m c main_arg0 (by decide) (by decide)
/-- The weights as the first host stretch finds them are the launch's. -/
theorem W1_arg1 : W1 m c (Proc.devRef .tc main_arg1) = m ((c : Thread nD τ).loc main_arg1) :=
  W1_kept m c main_arg1 (by decide)
theorem W1_arg2 : W1 m c (Proc.devRef .tc main_arg2) = m ((c : Thread nD τ).loc main_arg2) :=
  W1_kept m c main_arg2 (by decide)
theorem W1_arg3 : W1 m c (Proc.devRef .tc main_arg3) = m ((c : Thread nD τ).loc main_arg3) :=
  W1_kept m c main_arg3 (by decide)
/-- The output projections as the second host stretch finds them are the launch's. -/
theorem W3_arg4 : W3 m c (Proc.devRef .tc main_arg4) = m ((c : Thread nD τ).loc main_arg4) :=
  W3_kept m c main_arg4 (by decide) (by decide) (by decide)
/-- The layers' weights as the third host stretch finds them are the launch's. -/
theorem W5_arg5 : W5 m c (Proc.devRef .tc main_arg5) = m ((c : Thread nD τ).loc main_arg5) :=
  W5_kept m c main_arg5 (by decide) (by decide) (by decide) (by decide) (by decide)
/-- The biases as region 3 finds them are the launch's. -/
theorem W6_arg6 : W6 m c (Proc.devRef .tc main_arg6) = m ((c : Thread nD τ).loc main_arg6) :=
  W6_kept m c main_arg6 (by decide) (by decide) (by decide) (by decide) (by decide) (by decide)
/-- The normalised rows as region 2 finds them are what region 1 left. -/
theorem W4_v15_0 : W4 m c (Proc.devRef .tc main_v15_0) = W3 m c (Proc.devRef .tc main_v15_0) :=
  StableHlo.after_of_writes_sub hostOps2 _ hostOps2_writes (by decide)
/-- The attention output as region 3 finds it is what region 2 left. -/
theorem W6_v26_0 : W6 m c (Proc.devRef .tc main_v26_0) = W5 m c (Proc.devRef .tc main_v26_0) :=
  StableHlo.after_of_writes_sub hostOps3 _ hostOps3_writes (by decide)

/-! ## The arrays by coordinates -/

/-- The seven argument arrays at launch. -/
abbrev aX : Cert.Spec.Mat 8192 256 := Cert.Spec.mat2 (A := 8192) (B := 256) (m ((c.tc : Thread nD τ).loc main_arg0))
abbrev aQ : Cert.Spec.Mat2 256 128 := Cert.Spec.mat3 (A := 2) (B := 256) (C := 128) (m ((c.tc : Thread nD τ).loc main_arg1))
abbrev aK : Cert.Spec.Mat2 256 128 := Cert.Spec.mat3 (A := 2) (B := 256) (C := 128) (m ((c.tc : Thread nD τ).loc main_arg2))
abbrev aVd : Cert.Spec.Mat2 256 128 := Cert.Spec.mat3 (A := 2) (B := 256) (C := 128) (m ((c.tc : Thread nD τ).loc main_arg3))
abbrev aVu : Cert.Spec.Mat2 128 256 := Cert.Spec.mat3 (A := 2) (B := 128) (C := 256) (m ((c.tc : Thread nD τ).loc main_arg4))
abbrev aW : Cert.Spec.Mat2 256 256 := Cert.Spec.mat3 (A := 2) (B := 256) (C := 256) (m ((c.tc : Thread nD τ).loc main_arg5))
abbrev aB : Fin 2 → Fin 256 → EReal := Cert.Spec.mat2 (A := 2) (B := 256) (m ((c.tc : Thread nD τ).loc main_arg6))

/-- Region 0's outputs: the column sums and the column sums of the squares. -/
abbrev fS (j : Fin 256) : EReal := Cert.Spec.mat2 (A := 1) (B := 256) (W1 m c (Proc.devRef .tc main_v0_0)) 0 j
abbrev fSS (j : Fin 256) : EReal := Cert.Spec.mat2 (A := 1) (B := 256) (W1 m c (Proc.devRef .tc main_v0_1)) 0 j
/-- The first host stretch's outputs: the mean, the variance, the concatenated weights. -/
abbrev fM1 (j : Fin 256) : EReal := Cert.Spec.mat2 (A := 1) (B := 256) (W2 m c (Proc.devRef .tc main_v2)) 0 j
abbrev fV1 (j : Fin 256) : EReal := Cert.Spec.mat2 (A := 1) (B := 256) (W2 m c (Proc.devRef .tc main_v6)) 0 j
abbrev fWqkv : Cert.Spec.Mat 256 768 := Cert.Spec.mat2 (A := 256) (B := 768) (W2 m c (Proc.devRef .tc main_v14))
/-- Region 1's outputs: the normalised rows and their projection. -/
abbrev fH : Cert.Spec.Mat 8192 256 := Cert.Spec.mat2 (A := 8192) (B := 256) (W3 m c (Proc.devRef .tc main_v15_0))
abbrev fPr : Cert.Spec.Mat 8192 768 := Cert.Spec.mat2 (A := 8192) (B := 768) (W3 m c (Proc.devRef .tc main_v15_1))
/-- The second host stretch's outputs: the per-head queries, keys, values and output projections. -/
abbrev fQa : Fin 2 → Cert.Spec.Mat 8192 128 := Cert.Spec.mat3 (A := 2) (B := 8192) (C := 128) (W4 m c (Proc.devRef .tc main_v20))
abbrev fKa : Fin 2 → Cert.Spec.Mat 8192 128 := Cert.Spec.mat3 (A := 2) (B := 8192) (C := 128) (W4 m c (Proc.devRef .tc main_v22))
abbrev fVa : Fin 2 → Cert.Spec.Mat 8192 128 := Cert.Spec.mat3 (A := 2) (B := 8192) (C := 128) (W4 m c (Proc.devRef .tc main_v24))
abbrev fVu : Cert.Spec.Mat2 128 256 := Cert.Spec.mat3 (A := 2) (B := 128) (C := 256) (W4 m c (Proc.devRef .tc main_v25))
/-- Region 2's outputs: the attention output and the four blocks' column sums of it and of its squares. -/
abbrev fO : Cert.Spec.Mat 8192 256 := Cert.Spec.mat2 (A := 8192) (B := 256) (W5 m c (Proc.devRef .tc main_v26_0))
abbrev fPs (q : Fin 4) (j : Fin 256) : EReal :=
  Cert.Spec.mat3 (A := 4) (B := 1) (C := 256) (W5 m c (Proc.devRef .tc main_v26_1)) q 0 j
abbrev fPss (q : Fin 4) (j : Fin 256) : EReal :=
  Cert.Spec.mat3 (A := 4) (B := 1) (C := 256) (W5 m c (Proc.devRef .tc main_v26_2)) q 0 j
/-- The third host stretch's outputs: the second mean and variance, the transposed layer weights. -/
abbrev fM2 (j : Fin 256) : EReal := Cert.Spec.mat2 (A := 1) (B := 256) (W6 m c (Proc.devRef .tc main_v29)) 0 j
abbrev fV2 (j : Fin 256) : EReal := Cert.Spec.mat2 (A := 1) (B := 256) (W6 m c (Proc.devRef .tc main_v34)) 0 j
abbrev fWt : Cert.Spec.Mat2 256 256 := Cert.Spec.mat3 (A := 2) (B := 256) (C := 256) (W6 m c (Proc.devRef .tc main_v36))
/-- Region 3's output. -/
abbrev fOut : Cert.Spec.Mat 8192 256 := Cert.Spec.mat2 (A := 8192) (B := 256) (W7 m c (Proc.devRef .tc main_v37))

/-! ## What each region and each host stretch computes, at the boundaries' contents -/

-- region 0
theorem h_s (j : Fin 256) : fS m c j = Cert.Spec.colSum (aX m c) j :=
  (congrFun (W1_arr m c 1) (ix2 (0 : Fin 1) j)).trans (Reg0Value.arrAt_sum (atTc (W0 m)) c j)
theorem h_ss (j : Fin 256) : fSS m c j = Cert.Spec.colSumSq (aX m c) j :=
  (congrFun (W1_arr m c 2) (ix2 (0 : Fin 1) j)).trans (Reg0Value.arrAt_sumsq (atTc (W0 m)) c j)
-- host stretch 1
theorem h_m1 (j : Fin 256) : fM1 m c j = Ideal.div (fS m c j) Cert.Spec.rows := KHost.mean1 (W1 m c) j
theorem h_v1 (j : Fin 256) :
    fV1 m c j = Ideal.div (fSS m c j) Cert.Spec.rows
      - Ideal.div (fS m c j) Cert.Spec.rows * Ideal.div (fS m c j) Cert.Spec.rows := KHost.var1 (W1 m c) j
theorem h_wq (l : Fin 256) (i : Fin 2) (d : Fin 128) (hlt : i.val * 128 + d.val < 768) :
    fWqkv m c l ⟨i.val * 128 + d.val, hlt⟩ = aQ m c i l d :=
  (KHost.wq (W1 m c) l i d ⟨_, hlt⟩ rfl).trans
    (congrArg (fun v => Cert.Spec.mat3 (A := 2) (B := 256) (C := 128) v i l d) (W1_arg1 m c))
theorem h_wk (l : Fin 256) (i : Fin 2) (d : Fin 128) (hlt : 256 + (i.val * 128 + d.val) < 768) :
    fWqkv m c l ⟨256 + (i.val * 128 + d.val), hlt⟩ = aK m c i l d :=
  (KHost.wk (W1 m c) l i d ⟨_, hlt⟩ rfl).trans
    (congrArg (fun v => Cert.Spec.mat3 (A := 2) (B := 256) (C := 128) v i l d) (W1_arg2 m c))
theorem h_wv (l : Fin 256) (i : Fin 2) (d : Fin 128) (hlt : 512 + (i.val * 128 + d.val) < 768) :
    fWqkv m c l ⟨512 + (i.val * 128 + d.val), hlt⟩ = aVd m c i l d :=
  (KHost.wv (W1 m c) l i d ⟨_, hlt⟩ rfl).trans
    (congrArg (fun v => Cert.Spec.mat3 (A := 2) (B := 256) (C := 128) v i l d) (W1_arg3 m c))
-- region 1
/-- Region 1's first output, entry by entry, with the rows it read named as the launch's. -/
theorem h_h (r : Fin 8192) (l : Fin 256) :
    fH m c r l = (aX m c r l - fM1 m c l) * Ideal.rsqrt (fV1 m c l + Cert.Spec.eps) := by
  refine (congrFun (W3_arr m c 4) (ix2 r l)).trans ((Reg1Value.arrAt_h (atTc (W2 m)) c r l).trans ?_)
  have eX : Reg1Value.X (atTc (W2 m)) c = aX m c :=
    congrArg (Cert.Spec.mat2 (A := 8192) (B := 256)) (W2_arg0 m c)
  exact (congrArg (fun X => Reg1Value.hn X (Reg1Value.M (atTc (W2 m)) c) (Reg1Value.Vr (atTc (W2 m)) c) r l) eX).trans rfl
theorem h_pr (r : Fin 8192) (n : Fin 768) : fPr m c r n = ∑ l : Fin 256, fH m c r l * fWqkv m c l n := by
  have e : fPr m c r n
      = ∑ l : Fin 256, Reg1Value.hn (Reg1Value.X (atTc (W2 m)) c) (Reg1Value.M (atTc (W2 m)) c)
          (Reg1Value.Vr (atTc (W2 m)) c) r l * fWqkv m c l n :=
    (congrFun (W3_arr m c 5) (ix2 r n)).trans (Reg1Value.arrAt_proj (atTc (W2 m)) c r n)
  have eh : ∀ l : Fin 256, fH m c r l
      = Reg1Value.hn (Reg1Value.X (atTc (W2 m)) c) (Reg1Value.M (atTc (W2 m)) c) (Reg1Value.Vr (atTc (W2 m)) c) r l :=
    fun l => (congrFun (W3_arr m c 4) (ix2 r l)).trans (Reg1Value.arrAt_h (atTc (W2 m)) c r l)
  rw [e]
  exact Finset.sum_congr rfl fun l _ => by rw [eh l]
-- host stretch 2
theorem h_qa (i : Fin 2) (r : Fin 8192) (d : Fin 128) (hlt : i.val * 128 + d.val < 768) :
    fQa m c i r d = fPr m c r ⟨i.val * 128 + d.val, hlt⟩ := KHost.qall (W3 m c) i r d ⟨_, hlt⟩ rfl
theorem h_ka (i : Fin 2) (r : Fin 8192) (d : Fin 128) (hlt : 256 + (i.val * 128 + d.val) < 768) :
    fKa m c i r d = fPr m c r ⟨256 + (i.val * 128 + d.val), hlt⟩ := KHost.kall (W3 m c) i r d ⟨_, hlt⟩ rfl
theorem h_va (i : Fin 2) (r : Fin 8192) (d : Fin 128) (hlt : 512 + (i.val * 128 + d.val) < 768) :
    fVa m c i r d = fPr m c r ⟨512 + (i.val * 128 + d.val), hlt⟩ := KHost.vall (W3 m c) i r d ⟨_, hlt⟩ rfl
theorem h_vu (i : Fin 2) (d : Fin 128) (j : Fin 256) : fVu m c i d j = aVu m c i d j :=
  (KHost.vup (W3 m c) i d j).trans
    (congrArg (fun v => Cert.Spec.mat3 (A := 2) (B := 128) (C := 256) v i d j) (W3_arg4 m c))
-- region 2
/-- Region 2's specified output with the rows it read named at where region 1 left them. -/
theorem oSpec_eq (V : (c : Dev nD) → (b : Ref sig .tc) → Buf (Elt Ideal) ((c : Thread nD τ).loc b))
    (H : Cert.Spec.Mat 8192 256) (hH : Cert.Spec.mat2 (A := 8192) (B := 256) (V c main_v15_0) = H)
    (r : Fin 8192) (j : Fin 256) :
    Reg2Value.oSpec V c r j
      = (H r j + Cert.Spec.up (Cert.Spec.attK (Cert.Spec.logit (Reg2Value.Qa V c 0) (Reg2Value.Ka V c 0))
            (Reg2Value.Va V c 0)) (Reg2Value.Uu V c 0) r j)
        + Cert.Spec.up (Cert.Spec.attK (Cert.Spec.logit (Reg2Value.Qa V c 1) (Reg2Value.Ka V c 1))
            (Reg2Value.Va V c 1)) (Reg2Value.Uu V c 1) r j := by
  subst hH
  rfl

theorem h_o (hq : Cert.Spec.Finite3 (fQa m c)) (hk : Cert.Spec.Finite3 (fKa m c)) (hv : Cert.Spec.Finite3 (fVa m c))
    (r : Fin 8192) (j : Fin 256) :
    fO m c r j
      = (fH m c r j
          + Cert.Spec.up (Cert.Spec.attK (Cert.Spec.logit (fQa m c 0) (fKa m c 0)) (fVa m c 0)) (fVu m c 0) r j)
        + Cert.Spec.up (Cert.Spec.attK (Cert.Spec.logit (fQa m c 1) (fKa m c 1)) (fVa m c 1)) (fVu m c 1) r j :=
  (congrFun (W5_arr m c 5) (ix2 r j)).trans <|
    (Reg2Value.arrAt_o (atTc (W4 m)) (Reg2.dat (atTc (W4 m)) c) (Reg2.after_5 (atTc (W4 m)) c) hq hk hv r j).trans <|
      oSpec_eq c (atTc (W4 m)) (fH m c) (congrArg (Cert.Spec.mat2 (A := 8192) (B := 256)) (W4_v15_0 m c)) r j
/-- Region 2's first output array, by coordinates, is the attention output the later items read. -/
theorem arr5_eq : Cert.Spec.mat2 (A := 8192) (B := 256) ((Reg2.dat (atTc (W4 m)) c).arrAt 5 cfg2.N) = fO m c :=
  congrArg (Cert.Spec.mat2 (A := 8192) (B := 256)) (W5_arr m c 5).symm

theorem h_ps (q : Fin 4) (j : Fin 256) :
    fPs m c q j = ∑ r' : Fin 2048, fO m c ⟨q.val * 2048 + r'.val, by omega⟩ j := by
  have e : fPs m c q j = ∑ r' : Fin 2048,
      Cert.Spec.mat2 (A := 8192) (B := 256) ((Reg2.dat (atTc (W4 m)) c).arrAt 5 cfg2.N) (Reg2Value.grow q r') j :=
    (congrFun (W5_arr m c 6) (ix3 q (0 : Fin 1) j)).trans
      (Reg2Value.arrAt_psum (atTc (W4 m)) (Reg2.dat (atTc (W4 m)) c) (Reg2.after_5 (atTc (W4 m)) c)
        (Reg2.after_6 (atTc (W4 m)) c) q j)
  exact e.trans (Finset.sum_congr rfl fun r' _ => congrFun (congrFun (arr5_eq m c) (Reg2Value.grow q r')) j)
theorem h_pss (q : Fin 4) (j : Fin 256) :
    fPss m c q j
      = ∑ r' : Fin 2048, fO m c ⟨q.val * 2048 + r'.val, by omega⟩ j * fO m c ⟨q.val * 2048 + r'.val, by omega⟩ j := by
  have e : fPss m c q j = ∑ r' : Fin 2048,
      Cert.Spec.mat2 (A := 8192) (B := 256) ((Reg2.dat (atTc (W4 m)) c).arrAt 5 cfg2.N) (Reg2Value.grow q r') j
        * Cert.Spec.mat2 (A := 8192) (B := 256) ((Reg2.dat (atTc (W4 m)) c).arrAt 5 cfg2.N) (Reg2Value.grow q r') j :=
    (congrFun (W5_arr m c 7) (ix3 q (0 : Fin 1) j)).trans
      (Reg2Value.arrAt_psumsq (atTc (W4 m)) (Reg2.dat (atTc (W4 m)) c) (Reg2.after_5 (atTc (W4 m)) c)
        (Reg2.after_7 (atTc (W4 m)) c) q j)
  exact e.trans (Finset.sum_congr rfl fun r' _ => by
    rw [congrFun (congrFun (arr5_eq m c) (Reg2Value.grow q r')) j]; rfl)
-- host stretch 3
theorem h_m2 (j : Fin 256) :
    fM2 m c j = Ideal.div (Cert.Spec.zero + ∑ q : Fin 4, fPs m c q j) Cert.Spec.rows := KHost.mean2 (W5 m c) j
theorem h_v2 (j : Fin 256) :
    fV2 m c j = Ideal.div (Cert.Spec.zero + ∑ q : Fin 4, fPss m c q j) Cert.Spec.rows
      - Ideal.div (Cert.Spec.zero + ∑ q : Fin 4, fPs m c q j) Cert.Spec.rows
        * Ideal.div (Cert.Spec.zero + ∑ q : Fin 4, fPs m c q j) Cert.Spec.rows := KHost.var2 (W5 m c) j
theorem h_wt (i : Fin 2) (l j : Fin 256) : fWt m c i l j = aW m c i j l :=
  (KHost.wt (W5 m c) i l j).trans
    (congrArg (fun v => Cert.Spec.mat3 (A := 2) (B := 256) (C := 256) v i j l) (W5_arg5 m c))
-- region 3
/-- Region 3's result with the two arrays it read that earlier items left named at where they were left. -/
theorem res_eq (V : (c : Dev nD) → (b : Ref sig .tc) → Buf (Elt Ideal) ((c : Thread nD τ).loc b))
    (Z : Cert.Spec.Mat 8192 256) (B : Fin 2 → Fin 256 → EReal)
    (hZ : Cert.Spec.mat2 (A := 8192) (B := 256) (V c main_v26_0) = Z)
    (hB : Cert.Spec.mat2 (A := 2) (B := 256) (V c main_arg6) = B) (r : Fin 8192) (j : Fin 256) :
    Reg3Value.res V c r j
      = max ((∑ l : Fin 256,
            (max ((∑ l' : Fin 256,
                ((Z r l' - Cert.Spec.mat2 (A := 1) (B := 256) (V c main_v29) 0 l')
                    * Ideal.rsqrt (Cert.Spec.mat2 (A := 1) (B := 256) (V c main_v34) 0 l' + Cert.Spec.eps))
                  * Cert.Spec.mat3 (A := 2) (B := 256) (C := 256) (V c main_v36) 0 l' l) + B 0 l)
              Cert.Spec.zero) * Cert.Spec.mat3 (A := 2) (B := 256) (C := 256) (V c main_v36) 1 l j) + B 1 j)
          Cert.Spec.zero := by
  subst hZ hB
  rfl

theorem h_out (r : Fin 8192) (j : Fin 256) :
    fOut m c r j
      = max ((∑ l : Fin 256,
            (max ((∑ l' : Fin 256,
                ((fO m c r l' - fM2 m c l') * Ideal.rsqrt (fV2 m c l' + Cert.Spec.eps)) * fWt m c 0 l' l) + aB m c 0 l)
              Cert.Spec.zero) * fWt m c 1 l j) + aB m c 1 j) Cert.Spec.zero :=
  (congrFun (W7_arr m c 5) (ix2 r j)).trans <| (Reg3Value.arrAt_out (atTc (W6 m)) c r j).trans <|
    res_eq c (atTc (W6 m)) (fO m c) (aB m c)
      (congrArg (Cert.Spec.mat2 (A := 8192) (B := 256)) (W6_v26_0 m c))
      (congrArg (Cert.Spec.mat2 (A := 2) (B := 256)) (W6_arg6 m c)) r j

/-! ## The kernel program's result -/

/-- At the end of @main the result buffer holds the network, as the kernel arranges it, of the launch's arguments. -/
theorem W7_value
    (hx : Cert.Spec.Finite2 (Cert.Spec.mat2 (A := 8192) (B := 256) (m ((c.tc : Thread nD τ).loc main_arg0))))
    (hQ : Cert.Spec.Finite3 (Cert.Spec.mat3 (A := 2) (B := 256) (C := 128) (m ((c.tc : Thread nD τ).loc main_arg1))))
    (hK : Cert.Spec.Finite3 (Cert.Spec.mat3 (A := 2) (B := 256) (C := 128) (m ((c.tc : Thread nD τ).loc main_arg2))))
    (hVd : Cert.Spec.Finite3 (Cert.Spec.mat3 (A := 2) (B := 256) (C := 128) (m ((c.tc : Thread nD τ).loc main_arg3)))) :
    Run.W7 (F := Ideal) m c (Proc.devRef .tc main_v37)
      = Cert.Spec.arr2 (Cert.Spec.netK (aX m c) (aQ m c) (aK m c) (aVd m c) (aVu m c) (aW m c) (aB m c)) :=
  (Cert.Spec.arr2_mat2 (A := 8192) (B := 256) _).symm.trans <| congrArg Cert.Spec.arr2 <|
    Cert.Spec.kglue (aX m c) (aQ m c) (aK m c) (aVd m c) (aVu m c) (aW m c) (aB m c) hx hQ hK hVd
      (fS m c) (fSS m c) (h_s m c) (h_ss m c)
      (fM1 m c) (fV1 m c) (h_m1 m c) (h_v1 m c)
      (fWqkv m c) (h_wq m c) (h_wk m c) (h_wv m c)
      (fH m c) (h_h m c) (fPr m c) (h_pr m c)
      (fQa m c) (fKa m c) (fVa m c) (h_qa m c) (h_ka m c) (h_va m c)
      (fVu m c) (h_vu m c)
      (fO m c) (h_o m c)
      (fPs m c) (fPss m c) (h_ps m c) (h_pss m c)
      (fM2 m c) (fV2 m c) (h_m2 m c) (h_v2 m c)
      (fWt m c) (h_wt m c)
      (fOut m c) (h_out m c)

end Cert.KernelIdeal.KValue

end
-- ==== Proof.RefRun.lean ====
import proofs.«408560_j30485677867710_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as pure functions of the argument arrays -/

/-- The column means of an 8192×256 array, as a 1×256 row: each column's sum over the 8192 rows, divided by 8192. -/
def rowMean (x : FVec F S8192x256 .f32) : FVec F S1x256 .f32 :=
  Host.divf (broadcastInDim S1x256 ![1] bcast_S256_S1x256_1 (Host.reduceAdd x (constant S_ .f32 0x00000000#32) reducesTo_S8192x256_S256_d0 h_S_))
    (broadcastInDim S1x256 ![] bcast_S_S1x256 (constant S_ .f32 0x46000000#32))

/-- The array with its column means subtracted. -/
def centered (x : FVec F S8192x256 .f32) : FVec F S8192x256 .f32 :=
  subf x (broadcastInDim S8192x256 ![0, 1] bcast_S1x256_S8192x256_0_1 (rowMean x))

/-- The variance's divisor: 8192 minus the degrees of freedom taken off (none), as a scalar. -/
def varCount : FVec F S_ .f32 :=
  subf (constant S_ .f32 0x46000000#32) (sitofp .f32 (constantI S_ 32 0#32))

/-- The column variances before the guard: the column sums of the squared centred entries, divided by the divisor. -/
def rowVarRaw (x : FVec F S8192x256 .f32) : FVec F S1x256 .f32 :=
  Host.divf (broadcastInDim S1x256 ![1] bcast_S256_S1x256_1
      (Host.reduceAdd (mulf (centered x) (centered x)) (constant S_ .f32 0x00000000#32) reducesTo_S8192x256_S256_d0 h_S_))
    (broadcastInDim S1x256 ![] bcast_S_S1x256 varCount)

/-- The column variances as printed: where the divisor is positive the quotient, elsewhere a NaN constant. -/
def rowVar (x : FVec F S8192x256 .f32) : FVec F S1x256 .f32 :=
  select (broadcastInDim S1x256 ![] bcast_S_S1x256 (cmpf .ogt (varCount (F := F)) (constant S_ .f32 0x00000000#32)))
    (rowVarRaw x) (broadcastInDim S1x256 ![] bcast_S_S1x256 (constant S_ .f32 0x7FC00000#32))

/-- Batch normalisation over the rows: centred, times the reciprocal square root of variance plus epsilon. -/
def batchNorm (x : FVec F S8192x256 .f32) : FVec F S8192x256 .f32 :=
  mulf (centered x) (broadcastInDim S8192x256 ![0, 1] bcast_S1x256_S8192x256_0_1
    (Host.rsqrt (addf (rowVar x) (broadcastInDim S1x256 ![] bcast_S_S1x256 (constant S_ .f32 0x3727C5AC#32)))))

/-- Head 0's 256×128 block of a stacked projection array. -/
def projW0 (a : FVec F S2x256x128 .f32) : FVec F S256x128 .f32 :=
  shapeCast S256x128 (extractStridedSlice S1x256x128 ![0, 0, 0] a slices_S2x256x128_S1x256x128_0_0_0) shapeCasts_S1x256x128_S256x128

/-- Head 1's 256×128 block of a stacked projection array. -/
def projW1 (a : FVec F S2x256x128 .f32) : FVec F S256x128 .f32 :=
  shapeCast S256x128 (extractStridedSlice S1x256x128 ![1, 0, 0] a slices_S2x256x128_S1x256x128_1_0_0) shapeCasts_S1x256x128_S256x128

/-- Head 0's 128×256 block of the stacked output projection. -/
def outW0 (a : FVec F S2x128x256 .f32) : FVec F S128x256 .f32 :=
  shapeCast S128x256 (extractStridedSlice S1x128x256 ![0, 0, 0] a slices_S2x128x256_S1x128x256_0_0_0) shapeCasts_S1x128x256_S128x256

/-- Head 1's 128×256 block of the stacked output projection. -/
def outW1 (a : FVec F S2x128x256 .f32) : FVec F S128x256 .f32 :=
  shapeCast S128x256 (extractStridedSlice S1x128x256 ![1, 0, 0] a slices_S2x128x256_S1x128x256_1_0_0) shapeCasts_S1x128x256_S128x256

/-- A projection of the normalised rows: the 8192×256 array times a 256×128 block. -/
def proj (x : FVec F S8192x256 .f32) (w : FVec F S256x128 .f32) : FVec F S8192x128 .f32 :=
  Host.dotGeneral dot_S8192x256_S256x128_S8192x128_1_0_0_1_n_n none x w

/-- The 8192×8192 scores of one head: queries times the transposed keys. -/
def scores (q k : FVec F S8192x128 .f32) : FVec F S8192x8192 .f32 :=
  Host.dotGeneral dot_S8192x128_S128x8192_S8192x8192_1_0_0_1_n_n none q (transpose S128x8192 [1, 0] k transposes_S8192x128_S128x8192_1_0)

/-- A vector over the rows, spread along each row of an 8192×8192 array. -/
def spreadRows (v : FVec F S8192 .f32) : FVec F S8192x8192 .f32 :=
  broadcastInDim S8192x8192 ![0, 1] bcast_S8192x1_S8192x8192_0_1 (broadcastInDim S8192x1 ![0] bcast_S8192_S8192x1_0 v)

/-- The row maxima of the scores (the fold from minus infinity, then the maximum with minus infinity). -/
def rowMax (s : FVec F S8192x8192 .f32) : FVec F S8192 .f32 :=
  maximumf (broadcastInDim S8192 ![] bcast_S_S8192 (constant S_ .f32 0xFF800000#32))
    (Host.reduce FloatOps.maximumf s (constant S_ .f32 0xFF800000#32) reducesTo_S8192x8192_S8192_d1 h_S_)

/-- The exponentials of the scores shifted by their row maxima. -/
def expShift (s : FVec F S8192x8192 .f32) : FVec F S8192x8192 .f32 :=
  Host.exp (subf s (spreadRows (rowMax s)))

/-- The row-wise softmax of the scores. -/
def softmaxRows (s : FVec F S8192x8192 .f32) : FVec F S8192x8192 .f32 :=
  Host.divf (expShift s) (spreadRows (Host.reduceAdd (expShift s) (constant S_ .f32 0x00000000#32) reducesTo_S8192x8192_S8192_d1 h_S_))

/-- One attention head's contribution: softmax of the scores, times the values, times the head's output block. -/
def headOut (x : FVec F S8192x256 .f32) (wq wk wv : FVec F S256x128 .f32) (wo : FVec F S128x256 .f32) : FVec F S8192x256 .f32 :=
  Host.dotGeneral dot_S8192x128_S128x256_S8192x256_1_0_0_1_n_n none
    (Host.dotGeneral dot_S8192x8192_S8192x128_S8192x128_1_0_0_1_n_n none (softmaxRows (scores (proj x wq) (proj x wk))) (proj x wv)) wo

/-- Head 0's contribution added to the zero array. -/
def attn0 (x : FVec F S8192x256 .f32) (a1 a2 a3 : FVec F S2x256x128 .f32) (a4 : FVec F S2x128x256 .f32) : FVec F S8192x256 .f32 :=
  addf (broadcastInDim S8192x256 ![] bcast_S_S8192x256 (constant S_ .f32 0x00000000#32)) (headOut x (projW0 a1) (projW0 a2) (projW0 a3) (outW0 a4))

/-- The normalised rows plus both heads' contributions (the residual connection). -/
def attnResidual (x acc : FVec F S8192x256 .f32) (a1 a2 a3 : FVec F S2x256x128 .f32) (a4 : FVec F S2x128x256 .f32) : FVec F S8192x256 .f32 :=
  addf x (addf acc (headOut x (projW1 a1) (projW1 a2) (projW1 a3) (outW1 a4)))

/-- Layer 0's 256×256 weight block, transposed. -/
def linW0 (a : FVec F S2x256x256 .f32) : FVec F S256x256 .f32 :=
  transpose S256x256 [1, 0] (shapeCast S256x256 (extractStridedSlice S1x256x256 ![0, 0, 0] a slices_S2x256x256_S1x256x256_0_0_0) shapeCasts_S1x256x256_S256x256) transposes_S256x256_S256x256_1_0

/-- Layer 1's 256×256 weight block, transposed. -/
def linW1 (a : FVec F S2x256x256 .f32) : FVec F S256x256 .f32 :=
  transpose S256x256 [1, 0] (shapeCast S256x256 (extractStridedSlice S1x256x256 ![1, 0, 0] a slices_S2x256x256_S1x256x256_1_0_0) shapeCasts_S1x256x256_S256x256) transposes_S256x256_S256x256_1_0

/-- Layer 0's bias row, spread over the 8192 rows. -/
def linB0 (a : FVec F S2x256 .f32) : FVec F S8192x256 .f32 :=
  broadcastInDim S8192x256 ![0, 1] bcast_S1x256_S8192x256_0_1 (broadcastInDim S1x256 ![1] bcast_S256_S1x256_1
    (shapeCast S256 (extractStridedSlice S1x256 ![0, 0] a slices_S2x256_S1x256_0_0) shapeCasts_S1x256_S256))

/-- Layer 1's bias row, spread over the 8192 rows. -/
def linB1 (a : FVec F S2x256 .f32) : FVec F S8192x256 .f32 :=
  broadcastInDim S8192x256 ![0, 1] bcast_S1x256_S8192x256_0_1 (broadcastInDim S1x256 ![1] bcast_S256_S1x256_1
    (shapeCast S256 (extractStridedSlice S1x256 ![1, 0] a slices_S2x256_S1x256_1_0) shapeCasts_S1x256_S256))

/-- The maximum with zero, entry by entry. -/
def relu (x : FVec F S8192x256 .f32) : FVec F S8192x256 .f32 :=
  maximumf x (broadcastInDim S8192x256 ![] bcast_S_S8192x256 (constant S_ .f32 0x00000000#32))

/-- A linear layer followed by the maximum with zero: the rows times a 256×256 block, plus the bias rows. -/
def linRelu (x : FVec F S8192x256 .f32) (w : FVec F S256x256 .f32) (b : FVec F S8192x256 .f32) : FVec F S8192x256 .f32 :=
  relu (addf (Host.dotGeneral dot_S8192x256_S256x256_S8192x256_1_0_0_1_n_n none x w) b)

/-- The value of the program's result as a function of the seven argument arrays: batch normalisation, the two
    attention heads with the residual connection, batch normalisation again, then the two linear layers. -/
def result (a0 : FVec F S8192x256 .f32) (a1 a2 a3 : FVec F S2x256x128 .f32) (a4 : FVec F S2x128x256 .f32)
    (a5 : FVec F S2x256x256 .f32) (a6 : FVec F S2x256 .f32) : FVec F S8192x256 .f32 :=
  linRelu (linRelu (batchNorm (attnResidual (batchNorm a0) (attn0 (batchNorm a0) a1 a2 a3 a4) a1 a2 a3 a4)) (linW0 a5) (linB0 a6)) (linW1 a5) (linB1 a6)

/-! ## The operations, stage by stage -/

/-- Batch normalisation of the first argument: @main's operations 1 … 38, the variance function's and its guard's inlined. -/
abbrev opsA : List (HloOp τ sig (Elt F)) :=
  [ StableHlo.nullary main_cst (constant S_ .f32 0x00000000#32),
    StableHlo.binary main_arg0 main_cst main_v0 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.unary main_v0 main_v1 (broadcastInDim S1x256 ![1] bcast_S256_S1x256_1 : (⟨S256, .f32⟩ : BufTy).Contents (Elt F) → (⟨S1x256, .f32⟩ : BufTy).Contents (Elt F)),
    StableHlo.nullary main_cst_0 (constant S_ .f32 0x46000000#32),
    StableHlo.unary main_cst_0 main_v2 (broadcastInDim S1x256 ![] bcast_S_S1x256 : (⟨S_, .f32⟩ : BufTy).Contents (Elt F) → (⟨S1x256, .f32⟩ : BufTy).Contents (Elt F)),
    StableHlo.binary main_v1 main_v2 main_v3 (Host.divf : (⟨S1x256, .f32⟩ : BufTy).Contents (Elt F) → (⟨S1x256, .f32⟩ : BufTy).Contents (Elt F) → (⟨S1x256, .f32⟩ : BufTy).Contents (Elt F)),
    StableHlo.nullary main_c (constantI S_ 32 0#32),
    StableHlo.TRef.nullary main_call0.cst (constant S_ .f32 0x00000000#32),
    StableHlo.TRef.binary (.of main_arg0 : TRef sig ⟨S8192x256, .f32⟩) main_call0.cst main_call0.v0 (fun x v => Host.reduceAdd x v reducesTo_S8192x256_S256_d0 h_S_),
    StableHlo.TRef.unary main_call0.v0 main_call0.v1 (broadcastInDim S1x256 ![1] bcast_S256_S1x256_1),
    StableHlo.TRef.nullary main_call0.cst_0 (constant S_ .f32 0x46000000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S8192x256 ![0, 1] bcast_S1x256_S8192x256_0_1),
    StableHlo.TRef.binary (.of main_arg0 : TRef sig ⟨S8192x256, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x256_S256_d0 h_S_),
    StableHlo.TRef.unary main_call0.v9 main_call0.v10 (broadcastInDim S1x256 ![1] bcast_S256_S1x256_1),
    StableHlo.TRef.unary main_call0.v8 main_call0.v11 (broadcastInDim S1x256 ![] bcast_S_S1x256),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x256 ![] bcast_S_S1x256),
    StableHlo.TRef.ternary main_call0.v13 main_call0.v12 main_call0.call0.v1 main_call0.call0.v2 (fun p a b => select (broadcastInDim S1x256 ![] bcast_S_S1x256 p) a b),
    StableHlo.unary main_v3 main_v5 (broadcastInDim S8192x256 ![0, 1] bcast_S1x256_S8192x256_0_1 : (⟨S1x256, .f32⟩ : BufTy).Contents (Elt F) → (⟨S8192x256, .f32⟩ : BufTy).Contents (Elt F)),
    StableHlo.binary main_arg0 main_v5 main_v6 (subf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x3727C5AC#32),
    StableHlo.unary main_cst_1 main_v7 (broadcastInDim S1x256 ![] bcast_S_S1x256 : (⟨S_, .f32⟩ : BufTy).Contents (Elt F) → (⟨S1x256, .f32⟩ : BufTy).Contents (Elt F)),
    StableHlo.binary main_v4 main_v7 main_v8 (addf : (⟨S1x256, .f32⟩ : BufTy).Contents (Elt F) → (⟨S1x256, .f32⟩ : BufTy).Contents (Elt F) → (⟨S1x256, .f32⟩ : BufTy).Contents (Elt F)),
    StableHlo.unary main_v8 main_v9 (Host.rsqrt : (⟨S1x256, .f32⟩ : BufTy).Contents (Elt F) → (⟨S1x256, .f32⟩ : BufTy).Contents (Elt F)),
    StableHlo.unary main_v9 main_v10 (broadcastInDim S8192x256 ![0, 1] bcast_S1x256_S8192x256_0_1 : (⟨S1x256, .f32⟩ : BufTy).Contents (Elt F) → (⟨S8192x256, .f32⟩ : BufTy).Contents (Elt F)),
    StableHlo.binary main_v6 main_v10 main_v11 (mulf : (⟨S8192x256, .f32⟩ : BufTy).Contents (Elt F) → (⟨S8192x256, .f32⟩ : BufTy).Contents (Elt F) → (⟨S8192x256, .f32⟩ : BufTy).Contents (Elt F)) ]

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩

/-- The zero accumulator and attention head 0: @main's operations 39 … 70. -/
abbrev opsB : List (HloOp τ sig (Elt F)) :=
  [ StableHlo.nullary main_cst_2 (constant S_ .f32 0x00000000#32),
    StableHlo.unary main_cst_2 main_v12 (broadcastInDim S8192x256 ![] bcast_S_S8192x256 : (⟨S_, .f32⟩ : BufTy).Contents (Elt F) → (⟨S8192x256, .f32⟩ : BufTy).Contents (Elt F)),
    StableHlo.unary main_arg1 main_v13 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v13 main_v14 rfl shapeCasts_S1x256x128_S256x128,
    StableHlo.binary main_v11 main_v14 main_v15 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg2 main_v16 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v16 main_v17 rfl shapeCasts_S1x256x128_S256x128,
    StableHlo.binary main_v11 main_v17 main_v18 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_v18 main_v19 ((transpose S128x8192 [1, 0] · transposes_S8192x128_S128x8192_1_0) : (⟨S8192x128, .f32⟩ : BufTy).Contents (Elt F) → (⟨S128x8192, .f32⟩ : BufTy).Contents (Elt F)),
    StableHlo.binary main_v15 main_v19 main_v20 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_3 (constant S_ .f32 0xFF800000#32),
    StableHlo.binary main_v20 main_cst_3 main_v21 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_4 (constant S_ .f32 0xFF800000#32),
    StableHlo.unary main_cst_4 main_v22 (broadcastInDim S8192 ![] bcast_S_S8192 : (⟨S_, .f32⟩ : BufTy).Contents (Elt F) → (⟨S8192, .f32⟩ : BufTy).Contents (Elt F)),
    StableHlo.binary main_v22 main_v21 main_v23 (maximumf : (⟨S8192, .f32⟩ : BufTy).Contents (Elt F) → (⟨S8192, .f32⟩ : BufTy).Contents (Elt F) → (⟨S8192, .f32⟩ : BufTy).Contents (Elt F)),
    StableHlo.unary main_v23 main_v24 (broadcastInDim S8192x1 ![0] bcast_S8192_S8192x1_0 : (⟨S8192, .f32⟩ : BufTy).Contents (Elt F) → (⟨S8192x1, .f32⟩ : BufTy).Contents (Elt F)),
    StableHlo.unary main_v24 main_v25 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v20 main_v25 main_v26 (subf : (⟨S8192x8192, .f32⟩ : BufTy).Contents (Elt F) → (⟨S8192x8192, .f32⟩ : BufTy).Contents (Elt F) → (⟨S8192x8192, .f32⟩ : BufTy).Contents (Elt F)),
    StableHlo.unary main_v26 main_v27 (Host.exp : (⟨S8192x8192, .f32⟩ : BufTy).Contents (Elt F) → (⟨S8192x8192, .f32⟩ : BufTy).Contents (Elt F)),
    StableHlo.nullary main_cst_5 (constant S_ .f32 0x00000000#32),
    StableHlo.binary main_v27 main_cst_5 main_v28 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v28 main_v29 (broadcastInDim S8192x1 ![0] bcast_S8192_S8192x1_0 : (⟨S8192, .f32⟩ : BufTy).Contents (Elt F) → (⟨S8192x1, .f32⟩ : BufTy).Contents (Elt F)),
    StableHlo.unary main_v29 main_v30 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v27 main_v30 main_v31 (Host.divf : (⟨S8192x8192, .f32⟩ : BufTy).Contents (Elt F) → (⟨S8192x8192, .f32⟩ : BufTy).Contents (Elt F) → (⟨S8192x8192, .f32⟩ : BufTy).Contents (Elt F)),
    StableHlo.unary main_arg3 main_v32 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v32 main_v33 rfl shapeCasts_S1x256x128_S256x128,
    StableHlo.binary main_v11 main_v33 main_v34 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.binary main_v31 main_v34 main_v35 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    StableHlo.unary main_arg4 main_v36 ((extractStridedSlice S1x128x256 ![0, 0, 0] · slices_S2x128x256_S1x128x256_0_0_0) : (⟨S2x128x256, .f32⟩ : BufTy).Contents (Elt F) → (⟨S1x128x256, .f32⟩ : BufTy).Contents (Elt F)),
    StableHlo.reshape main_v36 main_v37 rfl shapeCasts_S1x128x256_S128x256,
    StableHlo.binary main_v35 main_v37 main_v38 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.binary main_v12 main_v38 main_v39 (addf : (⟨S8192x256, .f32⟩ : BufTy).Contents (Elt F) → (⟨S8192x256, .f32⟩ : BufTy).Contents (Elt F) → (⟨S8192x256, .f32⟩ : BufTy).Contents (Elt F)) ]

theorem opsB_sub : (opsB : List (HloOp τ sig (Elt F))).Forall fun op => op.bufs ⊆ tcRefs τ sig :=
  ⟨nullary_bufs_sub .., unary_bufs_sub .., unary_bufs_sub .., reshape_bufs_sub .., binary_bufs_sub .., unary_bufs_sub .., reshape_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., binary_bufs_sub .., binary_bufs_sub .., unary_bufs_sub .., reshape_bufs_sub .., binary_bufs_sub .., binary_bufs_sub ..⟩

/-- Attention head 1 up to the row maxima's fold: @main's operations 71 … 82 (the end of the first printed window). -/
abbrev opsC0 : List (HloOp τ sig (Elt F)) :=
  [ StableHlo.unary main_arg1 main_v40 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v40 main_v41 rfl shapeCasts_S1x256x128_S256x128,
    StableHlo.binary main_v11 main_v41 main_v42 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg2 main_v43 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v43 main_v44 rfl shapeCasts_S1x256x128_S256x128,
    StableHlo.binary main_v11 main_v44 main_v45 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_v45 main_v46 ((transpose S128x8192 [1, 0] · transposes_S8192x128_S128x8192_1_0) : (⟨S8192x128, .f32⟩ : BufTy).Contents (Elt F) → (⟨S128x8192, .f32⟩ : BufTy).Contents (Elt F)),
    StableHlo.binary main_v42 main_v46 main_v47 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_6 (constant S_ .f32 0xFF800000#32),
    StableHlo.binary main_v47 main_cst_6 main_v48 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_7 (constant S_ .f32 0xFF800000#32),
    StableHlo.unary main_cst_7 main_v49 (broadcastInDim S8192 ![] bcast_S_S8192 : (⟨S_, .f32⟩ : BufTy).Contents (Elt F) → (⟨S8192, .f32⟩ : BufTy).Contents (Elt F)) ]

theorem opsC0_sub : (opsC0 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., binary_bufs_sub .., nullary_bufs_sub .., binary_bufs_sub .., nullary_bufs_sub .., unary_bufs_sub ..⟩

/-- Attention head 1 from the row maxima on, its contribution added and the residual connection: @main's operations 83 … 101. -/
abbrev opsC1 : List (HloOp τ sig (Elt F)) :=
  [ StableHlo.binary main_v49 main_v48 main_v50 (maximumf : (⟨S8192, .f32⟩ : BufTy).Contents (Elt F) → (⟨S8192, .f32⟩ : BufTy).Contents (Elt F) → (⟨S8192, .f32⟩ : BufTy).Contents (Elt F)),
    StableHlo.unary main_v50 main_v51 (broadcastInDim S8192x1 ![0] bcast_S8192_S8192x1_0 : (⟨S8192, .f32⟩ : BufTy).Contents (Elt F) → (⟨S8192x1, .f32⟩ : BufTy).Contents (Elt F)),
    StableHlo.unary main_v51 main_v52 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v47 main_v52 main_v53 (subf : (⟨S8192x8192, .f32⟩ : BufTy).Contents (Elt F) → (⟨S8192x8192, .f32⟩ : BufTy).Contents (Elt F) → (⟨S8192x8192, .f32⟩ : BufTy).Contents (Elt F)),
    StableHlo.unary main_v53 main_v54 (Host.exp : (⟨S8192x8192, .f32⟩ : BufTy).Contents (Elt F) → (⟨S8192x8192, .f32⟩ : BufTy).Contents (Elt F)),
    StableHlo.nullary main_cst_8 (constant S_ .f32 0x00000000#32),
    StableHlo.binary main_v54 main_cst_8 main_v55 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v55 main_v56 (broadcastInDim S8192x1 ![0] bcast_S8192_S8192x1_0 : (⟨S8192, .f32⟩ : BufTy).Contents (Elt F) → (⟨S8192x1, .f32⟩ : BufTy).Contents (Elt F)),
    StableHlo.unary main_v56 main_v57 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v54 main_v57 main_v58 (Host.divf : (⟨S8192x8192, .f32⟩ : BufTy).Contents (Elt F) → (⟨S8192x8192, .f32⟩ : BufTy).Contents (Elt F) → (⟨S8192x8192, .f32⟩ : BufTy).Contents (Elt F)),
    StableHlo.unary main_arg3 main_v59 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v59 main_v60 rfl shapeCasts_S1x256x128_S256x128,
    StableHlo.binary main_v11 main_v60 main_v61 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.binary main_v58 main_v61 main_v62 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    StableHlo.unary main_arg4 main_v63 ((extractStridedSlice S1x128x256 ![1, 0, 0] · slices_S2x128x256_S1x128x256_1_0_0) : (⟨S2x128x256, .f32⟩ : BufTy).Contents (Elt F) → (⟨S1x128x256, .f32⟩ : BufTy).Contents (Elt F)),
    StableHlo.reshape main_v63 main_v64 rfl shapeCasts_S1x128x256_S128x256,
    StableHlo.binary main_v62 main_v64 main_v65 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.binary main_v39 main_v65 main_v66 (addf : (⟨S8192x256, .f32⟩ : BufTy).Contents (Elt F) → (⟨S8192x256, .f32⟩ : BufTy).Contents (Elt F) → (⟨S8192x256, .f32⟩ : BufTy).Contents (Elt F)),
    StableHlo.binary main_v11 main_v66 main_v67 (addf : (⟨S8192x256, .f32⟩ : BufTy).Contents (Elt F) → (⟨S8192x256, .f32⟩ : BufTy).Contents (Elt F) → (⟨S8192x256, .f32⟩ : BufTy).Contents (Elt F)) ]

theorem opsC1_sub : (opsC1 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., binary_bufs_sub .., binary_bufs_sub .., unary_bufs_sub .., reshape_bufs_sub .., binary_bufs_sub .., binary_bufs_sub .., binary_bufs_sub ..⟩

/-- Attention head 1 and the residual connection: @main's operations 71 … 101. -/
abbrev opsC : List (HloOp τ sig (Elt F)) := opsC0 ++ opsC1

/-- Batch normalisation of the attention block's result: @main's operations 102 … 139, the variance function's and its guard's inlined. -/
abbrev opsD : List (HloOp τ sig (Elt F)) :=
  [ StableHlo.nullary main_cst_9 (constant S_ .f32 0x00000000#32),
    StableHlo.binary main_v67 main_cst_9 main_v68 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.unary main_v68 main_v69 (broadcastInDim S1x256 ![1] bcast_S256_S1x256_1 : (⟨S256, .f32⟩ : BufTy).Contents (Elt F) → (⟨S1x256, .f32⟩ : BufTy).Contents (Elt F)),
    StableHlo.nullary main_cst_10 (constant S_ .f32 0x46000000#32),
    StableHlo.unary main_cst_10 main_v70 (broadcastInDim S1x256 ![] bcast_S_S1x256 : (⟨S_, .f32⟩ : BufTy).Contents (Elt F) → (⟨S1x256, .f32⟩ : BufTy).Contents (Elt F)),
    StableHlo.binary main_v69 main_v70 main_v71 (Host.divf : (⟨S1x256, .f32⟩ : BufTy).Contents (Elt F) → (⟨S1x256, .f32⟩ : BufTy).Contents (Elt F) → (⟨S1x256, .f32⟩ : BufTy).Contents (Elt F)),
    StableHlo.nullary main_c_11 (constantI S_ 32 0#32),
    StableHlo.TRef.nullary main_call1.cst (constant S_ .f32 0x00000000#32),
    StableHlo.TRef.binary (.of main_v67 : TRef sig ⟨S8192x256, .f32⟩) main_call1.cst main_call1.v0 (fun x v => Host.reduceAdd x v reducesTo_S8192x256_S256_d0 h_S_),
    StableHlo.TRef.unary main_call1.v0 main_call1.v1 (broadcastInDim S1x256 ![1] bcast_S256_S1x256_1),
    StableHlo.TRef.nullary main_call1.cst_0 (constant S_ .f32 0x46000000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S8192x256 ![0, 1] bcast_S1x256_S8192x256_0_1),
    StableHlo.TRef.binary (.of main_v67 : TRef sig ⟨S8192x256, .f32⟩) main_call1.v4 main_call1.v5 subf,
    StableHlo.TRef.binary main_call1.v5 main_call1.v5 main_call1.v6 mulf,
    StableHlo.TRef.unary (.of main_c_11 : TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x256_S256_d0 h_S_),
    StableHlo.TRef.unary main_call1.v9 main_call1.v10 (broadcastInDim S1x256 ![1] bcast_S256_S1x256_1),
    StableHlo.TRef.unary main_call1.v8 main_call1.v11 (broadcastInDim S1x256 ![] bcast_S_S1x256),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x256 ![] bcast_S_S1x256),
    StableHlo.TRef.ternary main_call1.v13 main_call1.v12 main_call1.call0.v1 main_call1.call0.v2 (fun p a b => select (broadcastInDim S1x256 ![] bcast_S_S1x256 p) a b),
    StableHlo.unary main_v71 main_v73 (broadcastInDim S8192x256 ![0, 1] bcast_S1x256_S8192x256_0_1 : (⟨S1x256, .f32⟩ : BufTy).Contents (Elt F) → (⟨S8192x256, .f32⟩ : BufTy).Contents (Elt F)),
    StableHlo.binary main_v67 main_v73 main_v74 (subf : (⟨S8192x256, .f32⟩ : BufTy).Contents (Elt F) → (⟨S8192x256, .f32⟩ : BufTy).Contents (Elt F) → (⟨S8192x256, .f32⟩ : BufTy).Contents (Elt F)),
    StableHlo.nullary main_cst_12 (constant S_ .f32 0x3727C5AC#32),
    StableHlo.unary main_cst_12 main_v75 (broadcastInDim S1x256 ![] bcast_S_S1x256 : (⟨S_, .f32⟩ : BufTy).Contents (Elt F) → (⟨S1x256, .f32⟩ : BufTy).Contents (Elt F)),
    StableHlo.binary main_v72 main_v75 main_v76 (addf : (⟨S1x256, .f32⟩ : BufTy).Contents (Elt F) → (⟨S1x256, .f32⟩ : BufTy).Contents (Elt F) → (⟨S1x256, .f32⟩ : BufTy).Contents (Elt F)),
    StableHlo.unary main_v76 main_v77 (Host.rsqrt : (⟨S1x256, .f32⟩ : BufTy).Contents (Elt F) → (⟨S1x256, .f32⟩ : BufTy).Contents (Elt F)),
    StableHlo.unary main_v77 main_v78 (broadcastInDim S8192x256 ![0, 1] bcast_S1x256_S8192x256_0_1 : (⟨S1x256, .f32⟩ : BufTy).Contents (Elt F) → (⟨S8192x256, .f32⟩ : BufTy).Contents (Elt F)),
    StableHlo.binary main_v74 main_v78 main_v79 (mulf : (⟨S8192x256, .f32⟩ : BufTy).Contents (Elt F) → (⟨S8192x256, .f32⟩ : BufTy).Contents (Elt F) → (⟨S8192x256, .f32⟩ : BufTy).Contents (Elt F)) ]

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩

/-- Linear layer 0 and the maximum with zero: @main's operations 140 … 151. -/
abbrev opsE : List (HloOp τ sig (Elt F)) :=
  [ StableHlo.unary main_arg5 main_v80 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v80 main_v81 rfl shapeCasts_S1x256x256_S256x256,
    StableHlo.unary main_v81 main_v82 ((transpose S256x256 [1, 0] · transposes_S256x256_S256x256_1_0) : (⟨S256x256, .f32⟩ : BufTy).Contents (Elt F) → (⟨S256x256, .f32⟩ : BufTy).Contents (Elt F)),
    StableHlo.binary main_v79 main_v82 main_v83 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg6 main_v84 ((extractStridedSlice S1x256 ![0, 0] · slices_S2x256_S1x256_0_0) : (⟨S2x256, .f32⟩ : BufTy).Contents (Elt F) → (⟨S1x256, .f32⟩ : BufTy).Contents (Elt F)),
    StableHlo.reshape main_v84 main_v85 rfl shapeCasts_S1x256_S256,
    StableHlo.unary main_v85 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S8192x256 ![0, 1] bcast_S1x256_S8192x256_0_1 : (⟨S1x256, .f32⟩ : BufTy).Contents (Elt F) → (⟨S8192x256, .f32⟩ : BufTy).Contents (Elt F)),
    StableHlo.binary main_v83 main_v87 main_v88 (addf : (⟨S8192x256, .f32⟩ : BufTy).Contents (Elt F) → (⟨S8192x256, .f32⟩ : BufTy).Contents (Elt F) → (⟨S8192x256, .f32⟩ : BufTy).Contents (Elt F)),
    StableHlo.TRef.nullary main_call2.cst (constant S_ .f32 0x00000000#32),
    StableHlo.TRef.unary main_call2.cst main_call2.v0 (broadcastInDim S8192x256 ![] bcast_S_S8192x256),
    StableHlo.TRef.binary (.of main_v88 : TRef sig ⟨S8192x256, .f32⟩) main_call2.v0 main_call2.v1 maximumf ]

theorem opsE_sub : (opsE : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Linear layer 1 and the maximum with zero: @main's operations 152 … 163. -/
abbrev opsF : List (HloOp τ sig (Elt F)) :=
  [ StableHlo.unary main_arg5 main_v90 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v90 main_v91 rfl shapeCasts_S1x256x256_S256x256,
    StableHlo.unary main_v91 main_v92 ((transpose S256x256 [1, 0] · transposes_S256x256_S256x256_1_0) : (⟨S256x256, .f32⟩ : BufTy).Contents (Elt F) → (⟨S256x256, .f32⟩ : BufTy).Contents (Elt F)),
    StableHlo.binary main_v89 main_v92 main_v93 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg6 main_v94 ((extractStridedSlice S1x256 ![1, 0] · slices_S2x256_S1x256_1_0) : (⟨S2x256, .f32⟩ : BufTy).Contents (Elt F) → (⟨S1x256, .f32⟩ : BufTy).Contents (Elt F)),
    StableHlo.reshape main_v94 main_v95 rfl shapeCasts_S1x256_S256,
    StableHlo.unary main_v95 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S8192x256 ![0, 1] bcast_S1x256_S8192x256_0_1 : (⟨S1x256, .f32⟩ : BufTy).Contents (Elt F) → (⟨S8192x256, .f32⟩ : BufTy).Contents (Elt F)),
    StableHlo.binary main_v93 main_v97 main_v98 (addf : (⟨S8192x256, .f32⟩ : BufTy).Contents (Elt F) → (⟨S8192x256, .f32⟩ : BufTy).Contents (Elt F) → (⟨S8192x256, .f32⟩ : BufTy).Contents (Elt F)),
    StableHlo.TRef.nullary main_call3.cst (constant S_ .f32 0x00000000#32),
    StableHlo.TRef.unary main_call3.cst main_call3.v0 (broadcastInDim S8192x256 ![] bcast_S_S8192x256),
    StableHlo.TRef.binary (.of main_v98 : TRef sig ⟨S8192x256, .f32⟩) main_call3.v0 main_call3.v1 maximumf ]

theorem opsF_sub : (opsF : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- @main's 163 operations in order, the outlined functions' operations at their call sites. -/
abbrev ops : List (HloOp τ sig (Elt F)) := opsA ++ opsB ++ opsC ++ opsD ++ opsE ++ opsF

/-! ## @main is that line -/

set_option maxRecDepth 8192 in
set_option maxHeartbeats 4000000 in
/-- The first printed window is its operations in order (the functions' bodies unfold at their calls). -/
theorem main_part0_eq (c : Dev nD) : main_part0 (F := F) c = seq (opsA ++ opsB ++ opsC0) := rfl

set_option maxRecDepth 8192 in
set_option maxHeartbeats 4000000 in
/-- The second printed window is its operations in order. -/
theorem main_part1_eq (c : Dev nD) : main_part1 (F := F) c = seq (opsC1 ++ opsD ++ opsE ++ opsF) := rfl

/-- The whole list, regrouped at the printed windows' boundary. -/
theorem ops_windows : (ops : List (HloOp τ sig (Elt F))) = (opsA ++ opsB ++ opsC0) ++ (opsC1 ++ opsD ++ opsE ++ opsF) := by
  simp only [ops, opsC, List.append_assoc]

/-- @main is the straight line of its operations: one window after the other. -/
theorem main_eq (c : Dev nD) : main (F := F) c = seq ops := by
  rw [ops_windows, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsC, List.mem_append] at h
    rcases h with ((((h | h) | (h | h)) | h) | h) | h
    exacts [List.forall_iff_forall_mem.mp opsA_sub op h, List.forall_iff_forall_mem.mp opsB_sub op h,
      List.forall_iff_forall_mem.mp opsC0_sub op h, List.forall_iff_forall_mem.mp opsC1_sub op h,
      List.forall_iff_forall_mem.mp opsD_sub op h, List.forall_iff_forall_mem.mp opsE_sub op h,
      List.forall_iff_forall_mem.mp opsF_sub op h]

/-! ## What each stage leaves, from any contents -/

/-- The contents after two lines run one after the other. -/
theorem after_app : ∀ (l₁ l₂ : List (HloOp τ sig (Elt F))) (W : Valuation τ sig (Elt F)), after (l₁ ++ l₂) W = after l₂ (after l₁ W)
  | [], _, _ => rfl
  | op :: l₁, l₂, W => by rw [List.cons_append, after_cons, after_cons, after_app l₁ l₂]

set_option maxRecDepth 8192 in
set_option maxHeartbeats 4000000 in
theorem opsA_out (W : Valuation τ sig (Elt F)) :
    after opsA W (no_index (Proc.devRef .tc main_v11)) = batchNorm (W (Proc.devRef .tc main_arg0)) := by
  simp only [opsA]
  after_results_simp
  rfl

set_option maxRecDepth 8192 in
set_option maxHeartbeats 4000000 in
theorem opsA_keep_arg0 (W : Valuation τ sig (Elt F)) :
    after opsA W (no_index (Proc.devRef .tc main_arg0)) = W (Proc.devRef .tc main_arg0) := by
  simp only [opsA]
  after_results_simp

set_option maxRecDepth 8192 in
set_option maxHeartbeats 4000000 in
theorem opsA_keep_arg1 (W : Valuation τ sig (Elt F)) :
    after opsA W (no_index (Proc.devRef .tc main_arg1)) = W (Proc.devRef .tc main_arg1) := by
  simp only [opsA]
  after_results_simp

set_option maxRecDepth 8192 in
set_option maxHeartbeats 4000000 in
theorem opsA_keep_arg2 (W : Valuation τ sig (Elt F)) :
    after opsA W (no_index (Proc.devRef .tc main_arg2)) = W (Proc.devRef .tc main_arg2) := by
  simp only [opsA]
  after_results_simp

set_option maxRecDepth 8192 in
set_option maxHeartbeats 4000000 in
theorem opsA_keep_arg3 (W : Valuation τ sig (Elt F)) :
    after opsA W (no_index (Proc.devRef .tc main_arg3)) = W (Proc.devRef .tc main_arg3) := by
  simp only [opsA]
  after_results_simp

set_option maxRecDepth 8192 in
set_option maxHeartbeats 4000000 in
theorem opsA_keep_arg4 (W : Valuation τ sig (Elt F)) :
    after opsA W (no_index (Proc.devRef .tc main_arg4)) = W (Proc.devRef .tc main_arg4) := by
  simp only [opsA]
  after_results_simp

set_option maxRecDepth 8192 in
set_option maxHeartbeats 4000000 in
theorem opsA_keep_arg5 (W : Valuation τ sig (Elt F)) :
    after opsA W (no_index (Proc.devRef .tc main_arg5)) = W (Proc.devRef .tc main_arg5) := by
  simp only [opsA]
  after_results_simp

set_option maxRecDepth 8192 in
set_option maxHeartbeats 4000000 in
theorem opsA_keep_arg6 (W : Valuation τ sig (Elt F)) :
    after opsA W (no_index (Proc.devRef .tc main_arg6)) = W (Proc.devRef .tc main_arg6) := by
  simp only [opsA]
  after_results_simp

set_option maxRecDepth 8192 in
set_option maxHeartbeats 4000000 in
theorem opsB_out (W : Valuation τ sig (Elt F)) :
    after opsB W (no_index (Proc.devRef .tc main_v39)) = attn0 (W (Proc.devRef .tc main_v11)) (W (Proc.devRef .tc main_arg1)) (W (Proc.devRef .tc main_arg2)) (W (Proc.devRef .tc main_arg3)) (W (Proc.devRef .tc main_arg4)) := by
  simp only [opsB]
  after_results_simp
  rfl

set_option maxRecDepth 8192 in
set_option maxHeartbeats 4000000 in
theorem opsB_keep_arg0 (W : Valuation τ sig (Elt F)) :
    after opsB W (no_index (Proc.devRef .tc main_arg0)) = W (Proc.devRef .tc main_arg0) := by
  simp only [opsB]
  after_results_simp

set_option maxRecDepth 8192 in
set_option maxHeartbeats 4000000 in
theorem opsB_keep_arg1 (W : Valuation τ sig (Elt F)) :
    after opsB W (no_index (Proc.devRef .tc main_arg1)) = W (Proc.devRef .tc main_arg1) := by
  simp only [opsB]
  after_results_simp

set_option maxRecDepth 8192 in
set_option maxHeartbeats 4000000 in
theorem opsB_keep_arg2 (W : Valuation τ sig (Elt F)) :
    after opsB W (no_index (Proc.devRef .tc main_arg2)) = W (Proc.devRef .tc main_arg2) := by
  simp only [opsB]
  after_results_simp

set_option maxRecDepth 8192 in
set_option maxHeartbeats 4000000 in
theorem opsB_keep_arg3 (W : Valuation τ sig (Elt F)) :
    after opsB W (no_index (Proc.devRef .tc main_arg3)) = W (Proc.devRef .tc main_arg3) := by
  simp only [opsB]
  after_results_simp

set_option maxRecDepth 8192 in
set_option maxHeartbeats 4000000 in
theorem opsB_keep_arg4 (W : Valuation τ sig (Elt F)) :
    after opsB W (no_index (Proc.devRef .tc main_arg4)) = W (Proc.devRef .tc main_arg4) := by
  simp only [opsB]
  after_results_simp

set_option maxRecDepth 8192 in
set_option maxHeartbeats 4000000 in
theorem opsB_keep_arg5 (W : Valuation τ sig (Elt F)) :
    after opsB W (no_index (Proc.devRef .tc main_arg5)) = W (Proc.devRef .tc main_arg5) := by
  simp only [opsB]
  after_results_simp

set_option maxRecDepth 8192 in
set_option maxHeartbeats 4000000 in
theorem opsB_keep_arg6 (W : Valuation τ sig (Elt F)) :
    after opsB W (no_index (Proc.devRef .tc main_arg6)) = W (Proc.devRef .tc main_arg6) := by
  simp only [opsB]
  after_results_simp

set_option maxRecDepth 8192 in
set_option maxHeartbeats 4000000 in
theorem opsB_keep_v11 (W : Valuation τ sig (Elt F)) :
    after opsB W (no_index (Proc.devRef .tc main_v11)) = W (Proc.devRef .tc main_v11) := by
  simp only [opsB]
  after_results_simp

set_option maxRecDepth 8192 in
set_option maxHeartbeats 4000000 in
theorem opsC_out (W : Valuation τ sig (Elt F)) :
    after opsC W (no_index (Proc.devRef .tc main_v67)) = attnResidual (W (Proc.devRef .tc main_v11)) (W (Proc.devRef .tc main_v39)) (W (Proc.devRef .tc main_arg1)) (W (Proc.devRef .tc main_arg2)) (W (Proc.devRef .tc main_arg3)) (W (Proc.devRef .tc main_arg4)) := by
  simp only [opsC, opsC0, opsC1, List.cons_append, List.nil_append]
  after_results_simp
  rfl

set_option maxRecDepth 8192 in
set_option maxHeartbeats 4000000 in
theorem opsC_keep_arg0 (W : Valuation τ sig (Elt F)) :
    after opsC W (no_index (Proc.devRef .tc main_arg0)) = W (Proc.devRef .tc main_arg0) := by
  simp only [opsC, opsC0, opsC1, List.cons_append, List.nil_append]
  after_results_simp

set_option maxRecDepth 8192 in
set_option maxHeartbeats 4000000 in
theorem opsC_keep_arg1 (W : Valuation τ sig (Elt F)) :
    after opsC W (no_index (Proc.devRef .tc main_arg1)) = W (Proc.devRef .tc main_arg1) := by
  simp only [opsC, opsC0, opsC1, List.cons_append, List.nil_append]
  after_results_simp

set_option maxRecDepth 8192 in
set_option maxHeartbeats 4000000 in
theorem opsC_keep_arg2 (W : Valuation τ sig (Elt F)) :
    after opsC W (no_index (Proc.devRef .tc main_arg2)) = W (Proc.devRef .tc main_arg2) := by
  simp only [opsC, opsC0, opsC1, List.cons_append, List.nil_append]
  after_results_simp

set_option maxRecDepth 8192 in
set_option maxHeartbeats 4000000 in
theorem opsC_keep_arg3 (W : Valuation τ sig (Elt F)) :
    after opsC W (no_index (Proc.devRef .tc main_arg3)) = W (Proc.devRef .tc main_arg3) := by
  simp only [opsC, opsC0, opsC1, List.cons_append, List.nil_append]
  after_results_simp

set_option maxRecDepth 8192 in
set_option maxHeartbeats 4000000 in
theorem opsC_keep_arg4 (W : Valuation τ sig (Elt F)) :
    after opsC W (no_index (Proc.devRef .tc main_arg4)) = W (Proc.devRef .tc main_arg4) := by
  simp only [opsC, opsC0, opsC1, List.cons_append, List.nil_append]
  after_results_simp

set_option maxRecDepth 8192 in
set_option maxHeartbeats 4000000 in
theorem opsC_keep_arg5 (W : Valuation τ sig (Elt F)) :
    after opsC W (no_index (Proc.devRef .tc main_arg5)) = W (Proc.devRef .tc main_arg5) := by
  simp only [opsC, opsC0, opsC1, List.cons_append, List.nil_append]
  after_results_simp

set_option maxRecDepth 8192 in
set_option maxHeartbeats 4000000 in
theorem opsC_keep_arg6 (W : Valuation τ sig (Elt F)) :
    after opsC W (no_index (Proc.devRef .tc main_arg6)) = W (Proc.devRef .tc main_arg6) := by
  simp only [opsC, opsC0, opsC1, List.cons_append, List.nil_append]
  after_results_simp

set_option maxRecDepth 8192 in
set_option maxHeartbeats 4000000 in
theorem opsD_out (W : Valuation τ sig (Elt F)) :
    after opsD W (no_index (Proc.devRef .tc main_v79)) = batchNorm (W (Proc.devRef .tc main_v67)) := by
  simp only [opsD]
  after_results_simp
  rfl

set_option maxRecDepth 8192 in
set_option maxHeartbeats 4000000 in
theorem opsD_keep_arg0 (W : Valuation τ sig (Elt F)) :
    after opsD W (no_index (Proc.devRef .tc main_arg0)) = W (Proc.devRef .tc main_arg0) := by
  simp only [opsD]
  after_results_simp

set_option maxRecDepth 8192 in
set_option maxHeartbeats 4000000 in
theorem opsD_keep_arg1 (W : Valuation τ sig (Elt F)) :
    after opsD W (no_index (Proc.devRef .tc main_arg1)) = W (Proc.devRef .tc main_arg1) := by
  simp only [opsD]
  after_results_simp

set_option maxRecDepth 8192 in
set_option maxHeartbeats 4000000 in
theorem opsD_keep_arg2 (W : Valuation τ sig (Elt F)) :
    after opsD W (no_index (Proc.devRef .tc main_arg2)) = W (Proc.devRef .tc main_arg2) := by
  simp only [opsD]
  after_results_simp

set_option maxRecDepth 8192 in
set_option maxHeartbeats 4000000 in
theorem opsD_keep_arg3 (W : Valuation τ sig (Elt F)) :
    after opsD W (no_index (Proc.devRef .tc main_arg3)) = W (Proc.devRef .tc main_arg3) := by
  simp only [opsD]
  after_results_simp

set_option maxRecDepth 8192 in
set_option maxHeartbeats 4000000 in
theorem opsD_keep_arg4 (W : Valuation τ sig (Elt F)) :
    after opsD W (no_index (Proc.devRef .tc main_arg4)) = W (Proc.devRef .tc main_arg4) := by
  simp only [opsD]
  after_results_simp

set_option maxRecDepth 8192 in
set_option maxHeartbeats 4000000 in
theorem opsD_keep_arg5 (W : Valuation τ sig (Elt F)) :
    after opsD W (no_index (Proc.devRef .tc main_arg5)) = W (Proc.devRef .tc main_arg5) := by
  simp only [opsD]
  after_results_simp

set_option maxRecDepth 8192 in
set_option maxHeartbeats 4000000 in
theorem opsD_keep_arg6 (W : Valuation τ sig (Elt F)) :
    after opsD W (no_index (Proc.devRef .tc main_arg6)) = W (Proc.devRef .tc main_arg6) := by
  simp only [opsD]
  after_results_simp

set_option maxRecDepth 8192 in
set_option maxHeartbeats 4000000 in
theorem opsE_out (W : Valuation τ sig (Elt F)) :
    after opsE W (no_index (Proc.devRef .tc main_v89)) = linRelu (W (Proc.devRef .tc main_v79)) (linW0 (W (Proc.devRef .tc main_arg5))) (linB0 (W (Proc.devRef .tc main_arg6))) := by
  simp only [opsE]
  after_results_simp
  rfl

set_option maxRecDepth 8192 in
set_option maxHeartbeats 4000000 in
theorem opsE_keep_arg0 (W : Valuation τ sig (Elt F)) :
    after opsE W (no_index (Proc.devRef .tc main_arg0)) = W (Proc.devRef .tc main_arg0) := by
  simp only [opsE]
  after_results_simp

set_option maxRecDepth 8192 in
set_option maxHeartbeats 4000000 in
theorem opsE_keep_arg1 (W : Valuation τ sig (Elt F)) :
    after opsE W (no_index (Proc.devRef .tc main_arg1)) = W (Proc.devRef .tc main_arg1) := by
  simp only [opsE]
  after_results_simp

set_option maxRecDepth 8192 in
set_option maxHeartbeats 4000000 in
theorem opsE_keep_arg2 (W : Valuation τ sig (Elt F)) :
    after opsE W (no_index (Proc.devRef .tc main_arg2)) = W (Proc.devRef .tc main_arg2) := by
  simp only [opsE]
  after_results_simp

set_option maxRecDepth 8192 in
set_option maxHeartbeats 4000000 in
theorem opsE_keep_arg3 (W : Valuation τ sig (Elt F)) :
    after opsE W (no_index (Proc.devRef .tc main_arg3)) = W (Proc.devRef .tc main_arg3) := by
  simp only [opsE]
  after_results_simp

set_option maxRecDepth 8192 in
set_option maxHeartbeats 4000000 in
theorem opsE_keep_arg4 (W : Valuation τ sig (Elt F)) :
    after opsE W (no_index (Proc.devRef .tc main_arg4)) = W (Proc.devRef .tc main_arg4) := by
  simp only [opsE]
  after_results_simp

set_option maxRecDepth 8192 in
set_option maxHeartbeats 4000000 in
theorem opsE_keep_arg5 (W : Valuation τ sig (Elt F)) :
    after opsE W (no_index (Proc.devRef .tc main_arg5)) = W (Proc.devRef .tc main_arg5) := by
  simp only [opsE]
  after_results_simp

set_option maxRecDepth 8192 in
set_option maxHeartbeats 4000000 in
theorem opsE_keep_arg6 (W : Valuation τ sig (Elt F)) :
    after opsE W (no_index (Proc.devRef .tc main_arg6)) = W (Proc.devRef .tc main_arg6) := by
  simp only [opsE]
  after_results_simp

set_option maxRecDepth 8192 in
set_option maxHeartbeats 4000000 in
theorem opsF_out (W : Valuation τ sig (Elt F)) :
    after opsF W (no_index (Proc.devRef .tc main_v99)) = linRelu (W (Proc.devRef .tc main_v89)) (linW1 (W (Proc.devRef .tc main_arg5))) (linB1 (W (Proc.devRef .tc main_arg6))) := by
  simp only [opsF]
  after_results_simp
  rfl

set_option maxRecDepth 8192 in
set_option maxHeartbeats 4000000 in
theorem opsF_keep_arg0 (W : Valuation τ sig (Elt F)) :
    after opsF W (no_index (Proc.devRef .tc main_arg0)) = W (Proc.devRef .tc main_arg0) := by
  simp only [opsF]
  after_results_simp

set_option maxRecDepth 8192 in
set_option maxHeartbeats 4000000 in
theorem opsF_keep_arg1 (W : Valuation τ sig (Elt F)) :
    after opsF W (no_index (Proc.devRef .tc main_arg1)) = W (Proc.devRef .tc main_arg1) := by
  simp only [opsF]
  after_results_simp

set_option maxRecDepth 8192 in
set_option maxHeartbeats 4000000 in
theorem opsF_keep_arg2 (W : Valuation τ sig (Elt F)) :
    after opsF W (no_index (Proc.devRef .tc main_arg2)) = W (Proc.devRef .tc main_arg2) := by
  simp only [opsF]
  after_results_simp

set_option maxRecDepth 8192 in
set_option maxHeartbeats 4000000 in
theorem opsF_keep_arg3 (W : Valuation τ sig (Elt F)) :
    after opsF W (no_index (Proc.devRef .tc main_arg3)) = W (Proc.devRef .tc main_arg3) := by
  simp only [opsF]
  after_results_simp

set_option maxRecDepth 8192 in
set_option maxHeartbeats 4000000 in
theorem opsF_keep_arg4 (W : Valuation τ sig (Elt F)) :
    after opsF W (no_index (Proc.devRef .tc main_arg4)) = W (Proc.devRef .tc main_arg4) := by
  simp only [opsF]
  after_results_simp

set_option maxRecDepth 8192 in
set_option maxHeartbeats 4000000 in
theorem opsF_keep_arg5 (W : Valuation τ sig (Elt F)) :
    after opsF W (no_index (Proc.devRef .tc main_arg5)) = W (Proc.devRef .tc main_arg5) := by
  simp only [opsF]
  after_results_simp

set_option maxRecDepth 8192 in
set_option maxHeartbeats 4000000 in
theorem opsF_keep_arg6 (W : Valuation τ sig (Elt F)) :
    after opsF W (no_index (Proc.devRef .tc main_arg6)) = W (Proc.devRef .tc main_arg6) := by
  simp only [opsF]
  after_results_simp

/-! ## The whole line -/

/-- The contents after the whole line: the stages in order. -/
theorem after_ops (V : Valuation τ sig (Elt F)) : after ops V = after opsF (after opsE (after opsD (after opsC (after opsB (after opsA V))))) := by
  simp only [ops, after_app]

/-- The result buffer after the whole line, from any contents: the stages composed over the arguments' contents. -/
theorem result_eq (V : Valuation τ sig (Elt F)) :
    after ops V (Proc.devRef .tc main_v99)
      = result (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_ops]
  simp only [opsA_out, opsB_out, opsC_out, opsD_out, opsE_out, opsF_out, opsB_keep_v11,
    opsA_keep_arg0, opsB_keep_arg0, opsC_keep_arg0, opsD_keep_arg0, opsE_keep_arg0, opsF_keep_arg0,
    opsA_keep_arg1, opsB_keep_arg1, opsC_keep_arg1, opsD_keep_arg1, opsE_keep_arg1, opsF_keep_arg1,
    opsA_keep_arg2, opsB_keep_arg2, opsC_keep_arg2, opsD_keep_arg2, opsE_keep_arg2, opsF_keep_arg2,
    opsA_keep_arg3, opsB_keep_arg3, opsC_keep_arg3, opsD_keep_arg3, opsE_keep_arg3, opsF_keep_arg3,
    opsA_keep_arg4, opsB_keep_arg4, opsC_keep_arg4, opsD_keep_arg4, opsE_keep_arg4, opsF_keep_arg4,
    opsA_keep_arg5, opsB_keep_arg5, opsC_keep_arg5, opsD_keep_arg5, opsE_keep_arg5, opsF_keep_arg5,
    opsA_keep_arg6, opsB_keep_arg6, opsC_keep_arg6, opsD_keep_arg6, opsE_keep_arg6, opsF_keep_arg6]
  rfl

/-- No operation writes `main_arg0`: it keeps its contents through the whole line. -/
theorem arg0_eq (V : Valuation τ sig (Elt F)) : after ops V (Proc.devRef .tc main_arg0) = V (Proc.devRef .tc main_arg0) := by
  rw [after_ops]
  simp only [opsA_keep_arg0, opsB_keep_arg0, opsC_keep_arg0, opsD_keep_arg0, opsE_keep_arg0, opsF_keep_arg0]

/-- No operation writes `main_arg1`: it keeps its contents through the whole line. -/
theorem arg1_eq (V : Valuation τ sig (Elt F)) : after ops V (Proc.devRef .tc main_arg1) = V (Proc.devRef .tc main_arg1) := by
  rw [after_ops]
  simp only [opsA_keep_arg1, opsB_keep_arg1, opsC_keep_arg1, opsD_keep_arg1, opsE_keep_arg1, opsF_keep_arg1]

/-- No operation writes `main_arg2`: it keeps its contents through the whole line. -/
theorem arg2_eq (V : Valuation τ sig (Elt F)) : after ops V (Proc.devRef .tc main_arg2) = V (Proc.devRef .tc main_arg2) := by
  rw [after_ops]
  simp only [opsA_keep_arg2, opsB_keep_arg2, opsC_keep_arg2, opsD_keep_arg2, opsE_keep_arg2, opsF_keep_arg2]

/-- No operation writes `main_arg3`: it keeps its contents through the whole line. -/
theorem arg3_eq (V : Valuation τ sig (Elt F)) : after ops V (Proc.devRef .tc main_arg3) = V (Proc.devRef .tc main_arg3) := by
  rw [after_ops]
  simp only [opsA_keep_arg3, opsB_keep_arg3, opsC_keep_arg3, opsD_keep_arg3, opsE_keep_arg3, opsF_keep_arg3]

/-- No operation writes `main_arg4`: it keeps its contents through the whole line. -/
theorem arg4_eq (V : Valuation τ sig (Elt F)) : after ops V (Proc.devRef .tc main_arg4) = V (Proc.devRef .tc main_arg4) := by
  rw [after_ops]
  simp only [opsA_keep_arg4, opsB_keep_arg4, opsC_keep_arg4, opsD_keep_arg4, opsE_keep_arg4, opsF_keep_arg4]

/-- No operation writes `main_arg5`: it keeps its contents through the whole line. -/
theorem arg5_eq (V : Valuation τ sig (Elt F)) : after ops V (Proc.devRef .tc main_arg5) = V (Proc.devRef .tc main_arg5) := by
  rw [after_ops]
  simp only [opsA_keep_arg5, opsB_keep_arg5, opsC_keep_arg5, opsD_keep_arg5, opsE_keep_arg5, opsF_keep_arg5]

/-- No operation writes `main_arg6`: it keeps its contents through the whole line. -/
theorem arg6_eq (V : Valuation τ sig (Elt F)) : after ops V (Proc.devRef .tc main_arg6) = V (Proc.devRef .tc main_arg6) := by
  rw [after_ops]
  simp only [opsA_keep_arg6, opsB_keep_arg6, opsC_keep_arg6, opsD_keep_arg6, opsE_keep_arg6, opsF_keep_arg6]

/-- On every device, for any float values, from any memory with zero counters: every weakly fair execution of
    @main terminates with the result buffer at `result` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v99) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v99).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.RefValue.lean ====
/-
  The reference's result, read entry by entry at the ideal values: every stage function of the run — the batch
  normalisations, the two attention heads with the residual connection, the two linear layers with their rectifiers — is
  the corresponding indexed formula of the specification, so the whole result is the network in the reference's arrangement.
-/
import proofs.«408560_j30485677867710_3_alg».proof.Proof.RefRun
import proofs.«408560_j30485677867710_3_alg».proof.Proof.Spec
import proofs.«408560_j30485677867710_3_alg».proof.Proof.NetEqBase
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx
open scoped BigOperators

/-! ## Shapes and indices -/

/-- The column reduction's shape fact, in the form that names the inserted row. -/
theorem red0 : S8192x256.Reduces [0] S256 := by decide
/-- The row reduction's shape fact, in the form that names the inserted column. -/
theorem red1 : S8192x8192.Reduces [1] S8192 := by decide

/-- Column `j` with row `k` inserted is the entry `(k, j)`. -/
theorem lift0 (j : Fin 256) (k : Fin 8192) : red0.lift (ix1 j) k = ix2 k j := by
  funext a
  match a with
  | ⟨0, _⟩ => exact Fin.ext rfl
  | ⟨1, _⟩ => exact Fin.ext rfl

/-- Row `r` with column `k` inserted is the entry `(r, k)`. -/
theorem lift1 (r k : Fin 8192) : red1.lift (ix1 r) k = ix2 r k := by
  funext a
  match a with
  | ⟨0, _⟩ => exact Fin.ext rfl
  | ⟨1, _⟩ => exact Fin.ext rfl

/-! ## Broadcasts at coordinates -/

section Broadcasts
variable {α : Type}

/-- A vector over the columns as a one-row array. -/
theorem bcRow_apply (h : S256.BroadcastsInDim S1x256 (![1] : Fin 1 → Fin S1x256.rank)) (v : S256.Idx → α) (u : Fin 1) (j : Fin 256) :
    broadcastInDim S1x256 ![1] h v (ix2 u j) = v (ix1 j) :=
  broadcastInDim_apply _ h v _ _ fun a => match a with | ⟨0, _⟩ => rfl

/-- A one-row array repeated down the 8192 rows. -/
theorem bcRows_apply (h : S1x256.BroadcastsInDim S8192x256 (![0, 1] : Fin 2 → Fin S8192x256.rank)) (v : S1x256.Idx → α) (r : Fin 8192)
    (j : Fin 256) : broadcastInDim S8192x256 ![0, 1] h v (ix2 r j) = v (ix2 (0 : Fin 1) j) :=
  broadcastInDim_apply _ h v _ _ fun a => match a with | ⟨0, _⟩ => rfl | ⟨1, _⟩ => rfl

/-- A vector over the rows as a one-column array. -/
theorem bcCol_apply (h : S8192.BroadcastsInDim S8192x1 (![0] : Fin 1 → Fin S8192x1.rank)) (v : S8192.Idx → α) (r : Fin 8192) (u : Fin 1) :
    broadcastInDim S8192x1 ![0] h v (ix2 r u) = v (ix1 r) :=
  broadcastInDim_apply _ h v _ _ fun a => match a with | ⟨0, _⟩ => rfl

/-- A one-column array repeated along the 8192 columns. -/
theorem bcCols_apply (h : S8192x1.BroadcastsInDim S8192x8192 (![0, 1] : Fin 2 → Fin S8192x8192.rank)) (v : S8192x1.Idx → α)
    (r r' : Fin 8192) : broadcastInDim S8192x8192 ![0, 1] h v (ix2 r r') = v (ix2 r (0 : Fin 1)) :=
  broadcastInDim_apply _ h v _ _ fun a => match a with | ⟨0, _⟩ => rfl | ⟨1, _⟩ => rfl

end Broadcasts

/-! ## Slices of the stacked arrays at coordinates -/

section Slices
variable {α : Type}

/-- Block 0 of a stack of two matrices. -/
theorem slice3_0_apply {n1 n2 : Nat} (X : (⟨3, ![2, n1, n2]⟩ : Shape).Idx → α)
    (hs : (⟨3, ![2, n1, n2]⟩ : Shape).Slices ![0, 0, 0] ⟨3, ![1, n1, n2]⟩) (u : Fin 1) (l : Fin n1) (d : Fin n2) :
    extractStridedSlice ⟨3, ![1, n1, n2]⟩ ![0, 0, 0] X hs (ix3 u l d) = X (ix3 (0 : Fin 2) l d) :=
  extractStridedSlice_apply _ X hs _ _ fun c => match c with
    | ⟨0, _⟩ => by show (0 : ℕ) = 0 + u.val; omega
    | ⟨1, _⟩ => by show l.val = 0 + l.val; omega
    | ⟨2, _⟩ => by show d.val = 0 + d.val; omega

/-- Block 1 of a stack of two matrices. -/
theorem slice3_1_apply {n1 n2 : Nat} (X : (⟨3, ![2, n1, n2]⟩ : Shape).Idx → α)
    (hs : (⟨3, ![2, n1, n2]⟩ : Shape).Slices ![1, 0, 0] ⟨3, ![1, n1, n2]⟩) (u : Fin 1) (l : Fin n1) (d : Fin n2) :
    extractStridedSlice ⟨3, ![1, n1, n2]⟩ ![1, 0, 0] X hs (ix3 u l d) = X (ix3 (1 : Fin 2) l d) :=
  extractStridedSlice_apply _ X hs _ _ fun c => match c with
    | ⟨0, _⟩ => by show (1 : ℕ) = 1 + u.val; omega
    | ⟨1, _⟩ => by show l.val = 0 + l.val; omega
    | ⟨2, _⟩ => by show d.val = 0 + d.val; omega

/-- Row 0 of a stack of two vectors. -/
theorem slice2_0_apply {n1 : Nat} (X : (⟨2, ![2, n1]⟩ : Shape).Idx → α)
    (hs : (⟨2, ![2, n1]⟩ : Shape).Slices ![0, 0] ⟨2, ![1, n1]⟩) (u : Fin 1) (l : Fin n1) :
    extractStridedSlice ⟨2, ![1, n1]⟩ ![0, 0] X hs (ix2 u l) = X (ix2 (0 : Fin 2) l) :=
  extractStridedSlice_apply _ X hs _ _ fun c => match c with
    | ⟨0, _⟩ => by show (0 : ℕ) = 0 + u.val; omega
    | ⟨1, _⟩ => by show l.val = 0 + l.val; omega

/-- Row 1 of a stack of two vectors. -/
theorem slice2_1_apply {n1 : Nat} (X : (⟨2, ![2, n1]⟩ : Shape).Idx → α)
    (hs : (⟨2, ![2, n1]⟩ : Shape).Slices ![1, 0] ⟨2, ![1, n1]⟩) (u : Fin 1) (l : Fin n1) :
    extractStridedSlice ⟨2, ![1, n1]⟩ ![1, 0] X hs (ix2 u l) = X (ix2 (1 : Fin 2) l) :=
  extractStridedSlice_apply _ X hs _ _ fun c => match c with
    | ⟨0, _⟩ => by show (1 : ℕ) = 1 + u.val; omega
    | ⟨1, _⟩ => by show l.val = 0 + l.val; omega

end Slices

/-! ## A matrix product at coordinates -/

/-- The product of an `M × K` by a `K × N` array, read at `(a, b)`: the sum over the `K` contracted coordinates. -/
theorem plainDot_apply (M K N : Nat) (l : FVec Ideal ⟨2, ![M, K]⟩ .f32) (r : FVec Ideal ⟨2, ![K, N]⟩ .f32) (a : Fin M) (b : Fin N) :
    FloatOps.dotGeneral (DotDims.plain M K N) none .single l r (ix2 a b) = ∑ k : Fin K, l (ix2 a k) * r (ix2 k b) := by
  rw [Ideal.dotGeneral_apply, ← Equiv.sum_comp (contrEquiv1 (DotDims.plain M K N) K rfl rfl).symm]
  refine Finset.sum_congr rfl fun k _ => ?_
  have hl : (DotDims.plain M K N).lhsIdx (ix2 a b) ((contrEquiv1 (DotDims.plain M K N) K rfl rfl).symm k) = ix2 a k := by
    funext c
    match c with
    | ⟨0, _⟩ => exact Fin.ext rfl
    | ⟨1, _⟩ =>
      exact Fin.ext (((DotDims.plain M K N).lhsIdx_val_of_single (cl := 1) rfl _ _).trans (contrEquiv1_symm_val _ K rfl rfl k))
  have hr : (DotDims.plain M K N).rhsIdx (ix2 a b) ((contrEquiv1 (DotDims.plain M K N) K rfl rfl).symm k) = ix2 k b := by
    funext c
    match c with
    | ⟨0, _⟩ =>
      exact Fin.ext (((DotDims.plain M K N).rhsIdx_val_of_single (cr := 0) rfl _ _).trans (contrEquiv1_symm_val _ K rfl rfl k))
    | ⟨1, _⟩ => exact Fin.ext rfl
  rw [hl, hr]

/-! ## Pointwise host operations at an index -/

theorem hostRsqrt_apply {s : Shape} (v : FVec Ideal s .f32) (i : s.Idx) : Host.rsqrt v i = Ideal.rsqrt (v i) := rfl
theorem hostExp_apply {s : Shape} (v : FVec Ideal s .f32) (i : s.Idx) : Host.exp v i = Ideal.exp (v i) := rfl

/-- A fold of the maximum from `b` over a nonempty finite set is the maximum of `b` and the set's supremum. -/
theorem fold_max_eq {ι : Type} (s : Finset ι) (hs : s.Nonempty) (b : EReal) (f : ι → EReal) :
    s.fold max b f = max b (s.sup' hs f) := by
  refine eq_of_forall_ge_iff fun c => ?_
  rw [Finset.fold_max_le, max_le_iff, Finset.sup'_le_iff]

/-- The column sums from the literal zero: the sum over the rows. -/
theorem hostReduceAdd_cols (x : FVec Ideal S8192x256 .f32) (h' : S8192x256.ReducesTo [0] S256) (j : Fin 256) :
    Ideal.hostReduceAdd h' x (Ideal.ofBits .f32 0x00000000#32) (ix1 j) = ∑ r : Fin 8192, x (ix2 r j) := by
  rw [Ideal.hostReduceAdd_single h' red0, Ideal.ofBits_zero_f32, zero_add]
  exact Finset.sum_congr rfl fun k _ => congrArg x (lift0 j k)

/-- The row sums from the literal zero: the sum over the columns. -/
theorem hostReduceAdd_rows (s : FVec Ideal S8192x8192 .f32) (h' : S8192x8192.ReducesTo [1] S8192) (r : Fin 8192) :
    Ideal.hostReduceAdd h' s (Ideal.ofBits .f32 0x00000000#32) (ix1 r) = ∑ k : Fin 8192, s (ix2 r k) := by
  rw [Ideal.hostReduceAdd_single h' red1, Ideal.ofBits_zero_f32, zero_add]
  exact Finset.sum_congr rfl fun k _ => congrArg s (lift1 r k)

/-! ## Batch normalisation -/

theorem rowMean_apply (x : FVec Ideal S8192x256 .f32) (u : Fin 1) (j : Fin 256) :
    RefRun.rowMean x (ix2 u j) = Spec.mean (Spec.mat2 x) j := by
  unfold RefRun.rowMean Spec.mean Spec.colSum Spec.rows
  rw [hostDivf_apply, bcRow_apply, broadcastInDim_scalar_apply, constant_apply, hostReduceAdd_apply, constant_apply,
    hostReduceAdd_cols]
  rfl

theorem centered_apply (x : FVec Ideal S8192x256 .f32) (r : Fin 8192) (j : Fin 256) :
    RefRun.centered x (ix2 r j) = x (ix2 r j) - Spec.mean (Spec.mat2 x) j := by
  unfold RefRun.centered
  rw [subf_apply, bcRows_apply, rowMean_apply]

theorem varCount_apply (i : S_.Idx) : RefRun.varCount (F := Ideal) i = Spec.rows := by
  unfold RefRun.varCount Spec.rows
  rw [subf_apply, constant_apply, sitofp_apply, constantI_apply]
  show Ideal.ofBits .f32 0x46000000#32 - (((0#32 : BitVec 32).toInt : ℝ) : EReal) = _
  simp

theorem rowVarRaw_apply (x : FVec Ideal S8192x256 .f32) (u : Fin 1) (j : Fin 256) :
    RefRun.rowVarRaw x (ix2 u j) = Spec.varR (Spec.mat2 x) j := by
  unfold RefRun.rowVarRaw Spec.varR
  rw [hostDivf_apply, bcRow_apply, broadcastInDim_scalar_apply, varCount_apply, hostReduceAdd_apply, constant_apply,
    hostReduceAdd_cols]
  refine congrArg (fun s => Ideal.div s _) (Finset.sum_congr rfl fun k _ => ?_)
  rw [mulf_apply, centered_apply]
  rfl

theorem rows_gt_zero : FloatOps.cmpf (F := Ideal) (φ := .f32) .ogt Spec.rows (Ideal.ofBits .f32 0x00000000#32) = 1#1 := by
  show Ideal.cmp .ogt _ _ = _
  unfold Ideal.cmp Spec.rows
  rw [Spec.ofBits_rows, Ideal.ofBits_zero_f32]
  have h : (0 : EReal) < ((8192 : ℝ) : EReal) := by exact_mod_cast (by norm_num : (0 : ℝ) < 8192)
  simp [h]

theorem rowVar_apply (x : FVec Ideal S8192x256 .f32) (u : Fin 1) (j : Fin 256) :
    RefRun.rowVar x (ix2 u j) = Spec.varR (Spec.mat2 x) j := by
  unfold RefRun.rowVar
  rw [select_apply, broadcastInDim_scalar_apply, cmpf_apply, varCount_apply, constant_apply, rows_gt_zero, select_one,
    rowVarRaw_apply]

theorem batchNorm_apply (x : FVec Ideal S8192x256 .f32) (r : Fin 8192) (j : Fin 256) :
    RefRun.batchNorm x (ix2 r j) = Spec.norm (Spec.mat2 x) (Spec.varR (Spec.mat2 x)) r j := by
  unfold RefRun.batchNorm Spec.norm Spec.eps
  rw [mulf_apply, centered_apply, bcRows_apply, hostRsqrt_apply, addf_apply, rowVar_apply, broadcastInDim_scalar_apply,
    constant_apply]
  rfl

/-- Batch normalisation, as a whole array. -/
theorem batchNorm_eq (x : FVec Ideal S8192x256 .f32) :
    RefRun.batchNorm x = Spec.arr2 (Spec.norm (Spec.mat2 x) (Spec.varR (Spec.mat2 x))) := by
  funext i
  obtain ⟨r, j, rfl⟩ : ∃ (r : Fin 8192) (j : Fin 256), i = ix2 r j := ⟨i 0, i 1, eq_ix2 i⟩
  exact batchNorm_apply x r j

/-! ## The weights' blocks -/

theorem projW0_eq (a : FVec Ideal S2x256x128 .f32) : Spec.mat2 (RefRun.projW0 a) = Spec.mat3 a 0 := by
  funext l d
  show RefRun.projW0 a (ix2 l d) = a (ix3 0 l d)
  unfold RefRun.projW0
  rw [shapeCast_1ab_ab_apply, slice3_0_apply]

theorem projW1_eq (a : FVec Ideal S2x256x128 .f32) : Spec.mat2 (RefRun.projW1 a) = Spec.mat3 a 1 := by
  funext l d
  show RefRun.projW1 a (ix2 l d) = a (ix3 1 l d)
  unfold RefRun.projW1
  rw [shapeCast_1ab_ab_apply, slice3_1_apply]

theorem outW0_eq (a : FVec Ideal S2x128x256 .f32) : Spec.mat2 (RefRun.outW0 a) = Spec.mat3 a 0 := by
  funext l d
  show RefRun.outW0 a (ix2 l d) = a (ix3 0 l d)
  unfold RefRun.outW0
  rw [shapeCast_1ab_ab_apply, slice3_0_apply]

theorem outW1_eq (a : FVec Ideal S2x128x256 .f32) : Spec.mat2 (RefRun.outW1 a) = Spec.mat3 a 1 := by
  funext l d
  show RefRun.outW1 a (ix2 l d) = a (ix3 1 l d)
  unfold RefRun.outW1
  rw [shapeCast_1ab_ab_apply, slice3_1_apply]

theorem linW0_apply (a : FVec Ideal S2x256x256 .f32) (l j : Fin 256) : RefRun.linW0 a (ix2 l j) = Spec.mat3 a 0 j l := by
  unfold RefRun.linW0
  rw [transpose_ix2_apply, shapeCast_1ab_ab_apply, slice3_0_apply]
  rfl

theorem linW1_apply (a : FVec Ideal S2x256x256 .f32) (l j : Fin 256) : RefRun.linW1 a (ix2 l j) = Spec.mat3 a 1 j l := by
  unfold RefRun.linW1
  rw [transpose_ix2_apply, shapeCast_1ab_ab_apply, slice3_1_apply]
  rfl

theorem linB0_apply (a : FVec Ideal S2x256 .f32) (r : Fin 8192) (j : Fin 256) : RefRun.linB0 a (ix2 r j) = Spec.mat2 a 0 j := by
  unfold RefRun.linB0
  rw [bcRows_apply, bcRow_apply, shapeCast_1a_a_apply, slice2_0_apply]
  rfl

theorem linB1_apply (a : FVec Ideal S2x256 .f32) (r : Fin 8192) (j : Fin 256) : RefRun.linB1 a (ix2 r j) = Spec.mat2 a 1 j := by
  unfold RefRun.linB1
  rw [bcRows_apply, bcRow_apply, shapeCast_1a_a_apply, slice2_1_apply]
  rfl

/-! ## One attention head -/

theorem proj_eq (x : FVec Ideal S8192x256 .f32) (w : FVec Ideal S256x128 .f32) :
    RefRun.proj x w = Spec.arr2 (Spec.proj (Spec.mat2 x) (Spec.mat2 w)) := by
  funext i
  obtain ⟨r, d, rfl⟩ : ∃ (r : Fin 8192) (d : Fin 128), i = ix2 r d := ⟨i 0, i 1, eq_ix2 i⟩
  exact plainDot_apply 8192 256 128 x w r d

theorem scores_eq (q k : FVec Ideal S8192x128 .f32) :
    RefRun.scores q k = Spec.arr2 (Spec.logit (Spec.mat2 q) (Spec.mat2 k)) := by
  funext i
  obtain ⟨r, r', rfl⟩ : ∃ (r r' : Fin 8192), i = ix2 r r' := ⟨i 0, i 1, eq_ix2 i⟩
  refine (plainDot_apply 8192 128 8192 q _ r r').trans ?_
  show (∑ d : Fin 128, q (ix2 r d) * _) = ∑ d : Fin 128, Spec.mat2 q r d * Spec.mat2 k r' d
  refine Finset.sum_congr rfl fun d _ => ?_
  rw [transpose_ix2_apply]
  rfl

theorem spreadRows_apply (v : FVec Ideal S8192 .f32) (r r' : Fin 8192) : RefRun.spreadRows v (ix2 r r') = v (ix1 r) := by
  unfold RefRun.spreadRows
  rw [bcCols_apply, bcCol_apply]

theorem rowMax_apply (s : FVec Ideal S8192x8192 .f32) (r : Fin 8192) :
    RefRun.rowMax s (ix1 r) = Spec.rowMax (Spec.mat2 s) r := by
  unfold RefRun.rowMax Spec.rowMax
  rw [maximumf_apply, broadcastInDim_scalar_apply, constant_apply,
    Host.reduce_eq_fold_single FloatOps.maximumf s _ _ red1 _ (ix1 r)]
  have hf : (s ∘ red1.lift (ix1 r)) = Spec.mat2 s r := funext fun k => congrArg s (lift1 r k)
  rw [hf]
  show max Spec.ninf (Finset.fold max Spec.ninf (Spec.mat2 s r) (Finset.univ : Finset (Fin 8192))) = _
  rw [fold_max_eq _ Finset.univ_nonempty]
  exact max_eq_right (le_max_left _ _)

theorem expShift_apply (s : FVec Ideal S8192x8192 .f32) (r r' : Fin 8192) :
    RefRun.expShift s (ix2 r r') = Spec.expo (Spec.mat2 s) r r' := by
  unfold RefRun.expShift Spec.expo
  rw [hostExp_apply, subf_apply, spreadRows_apply, rowMax_apply]
  rfl

theorem softmaxRows_apply (s : FVec Ideal S8192x8192 .f32) (r r' : Fin 8192) :
    RefRun.softmaxRows s (ix2 r r') = Ideal.div (Spec.expo (Spec.mat2 s) r r') (Spec.denom (Spec.mat2 s) r) := by
  unfold RefRun.softmaxRows Spec.denom
  rw [hostDivf_apply, expShift_apply, spreadRows_apply, hostReduceAdd_apply, constant_apply, hostReduceAdd_rows]
  refine congrArg (fun t => Ideal.div _ t) (Finset.sum_congr rfl fun k _ => ?_)
  rw [expShift_apply]

/-- The softmax weights times the values, at coordinates: every weight divided by its row sum before the sum. -/
theorem weighted_apply (L : Fin 8192 → Fin 8192 → EReal) (V : Spec.Mat 8192 128) (r : Fin 8192) (d : Fin 128) :
    Host.dotGeneral (F := Ideal) (φ₁ := .f32) (φ₂ := .f32) dot_S8192x8192_S8192x128_S8192x128_1_0_0_1_n_n none
        (RefRun.softmaxRows (F := Ideal) (Spec.arr2 L : FVec Ideal S8192x8192 .f32)) (Spec.arr2 V : FVec Ideal S8192x128 .f32) (ix2 r d)
      = Spec.attR L V r d := by
  unfold Spec.attR
  exact (plainDot_apply 8192 8192 128 _ _ r d).trans (Finset.sum_congr rfl fun r' _ => by rw [softmaxRows_apply]; rfl)

/-- The same as a whole array. -/
theorem weighted_eq (L : Fin 8192 → Fin 8192 → EReal) (V : Spec.Mat 8192 128) :
    Host.dotGeneral (F := Ideal) (φ₁ := .f32) (φ₂ := .f32) dot_S8192x8192_S8192x128_S8192x128_1_0_0_1_n_n none
        (RefRun.softmaxRows (F := Ideal) (Spec.arr2 L : FVec Ideal S8192x8192 .f32)) (Spec.arr2 V : FVec Ideal S8192x128 .f32)
      = Spec.arr2 (Spec.attR L V) := by
  funext i
  obtain ⟨r, d, rfl⟩ : ∃ (r : Fin 8192) (d : Fin 128), i = ix2 r d := ⟨i 0, i 1, eq_ix2 i⟩
  exact weighted_apply L V r d

/-- The projection back to the features: one product. -/
theorem up_eq (A : Spec.Mat 8192 128) (wo : FVec Ideal S128x256 .f32) :
    Host.dotGeneral (F := Ideal) (φ₁ := .f32) (φ₂ := .f32) dot_S8192x128_S128x256_S8192x256_1_0_0_1_n_n none (Spec.arr2 A : FVec Ideal S8192x128 .f32) wo
      = Spec.arr2 (Spec.up A (Spec.mat2 wo)) := by
  funext i
  obtain ⟨r, j, rfl⟩ : ∃ (r : Fin 8192) (j : Fin 256), i = ix2 r j := ⟨i 0, i 1, eq_ix2 i⟩
  exact plainDot_apply 8192 128 256 (Spec.arr2 A : FVec Ideal S8192x128 .f32) wo r j

theorem headOut_eq (x : FVec Ideal S8192x256 .f32) (wq wk wv : FVec Ideal S256x128 .f32) (wo : FVec Ideal S128x256 .f32) :
    RefRun.headOut x wq wk wv wo
      = Spec.arr2 (Spec.up (Spec.attR (Spec.logit (Spec.proj (Spec.mat2 x) (Spec.mat2 wq)) (Spec.proj (Spec.mat2 x) (Spec.mat2 wk)))
          (Spec.proj (Spec.mat2 x) (Spec.mat2 wv))) (Spec.mat2 wo)) := by
  unfold RefRun.headOut
  rw [proj_eq, proj_eq, proj_eq, scores_eq, weighted_eq, up_eq]
  rfl

/-! ## The attention block with its residual connection -/

theorem attn0_apply (x : FVec Ideal S8192x256 .f32) (a1 a2 a3 : FVec Ideal S2x256x128 .f32) (a4 : FVec Ideal S2x128x256 .f32)
    (r : Fin 8192) (j : Fin 256) :
    RefRun.attn0 x a1 a2 a3 a4 (ix2 r j)
      = Spec.zero + Spec.headR (Spec.mat2 x) (Spec.mat3 a1) (Spec.mat3 a2) (Spec.mat3 a3) (Spec.mat3 a4) 0 r j := by
  unfold RefRun.attn0 Spec.headR
  rw [addf_apply, broadcastInDim_scalar_apply, constant_apply, headOut_eq, projW0_eq, projW0_eq, projW0_eq, outW0_eq]
  rfl

theorem attnResidual_apply (x acc : FVec Ideal S8192x256 .f32) (a1 a2 a3 : FVec Ideal S2x256x128 .f32)
    (a4 : FVec Ideal S2x128x256 .f32) (r : Fin 8192) (j : Fin 256) :
    RefRun.attnResidual x acc a1 a2 a3 a4 (ix2 r j)
      = x (ix2 r j) + (acc (ix2 r j)
          + Spec.headR (Spec.mat2 x) (Spec.mat3 a1) (Spec.mat3 a2) (Spec.mat3 a3) (Spec.mat3 a4) 1 r j) := by
  unfold RefRun.attnResidual Spec.headR
  rw [addf_apply, addf_apply, headOut_eq, projW1_eq, projW1_eq, projW1_eq, outW1_eq]
  rfl

/-! ## A linear layer with its rectifier -/

theorem linRelu_apply (x : FVec Ideal S8192x256 .f32) (w : FVec Ideal S256x256 .f32) (b : FVec Ideal S8192x256 .f32)
    (r : Fin 8192) (j : Fin 256) :
    RefRun.linRelu x w b (ix2 r j) = max ((∑ l : Fin 256, x (ix2 r l) * w (ix2 l j)) + b (ix2 r j)) Spec.zero := by
  unfold RefRun.linRelu RefRun.relu
  rw [maximumf_apply, addf_apply, broadcastInDim_scalar_apply, constant_apply]
  refine congrArg (fun t => max (t + _) _) ?_
  exact plainDot_apply 8192 256 256 x w r j

theorem layer0_eq (x : FVec Ideal S8192x256 .f32) (a5 : FVec Ideal S2x256x256 .f32) (a6 : FVec Ideal S2x256 .f32) :
    RefRun.linRelu x (RefRun.linW0 a5) (RefRun.linB0 a6)
      = Spec.arr2 (Spec.layer (Spec.mat2 x) (Spec.mat3 a5 0) (Spec.mat2 a6 0)) := by
  funext i
  obtain ⟨r, j, rfl⟩ : ∃ (r : Fin 8192) (j : Fin 256), i = ix2 r j := ⟨i 0, i 1, eq_ix2 i⟩
  rw [linRelu_apply, linB0_apply]
  refine congrArg (fun t => max (t + _) _) (Finset.sum_congr rfl fun l _ => ?_)
  rw [linW0_apply]
  rfl

theorem layer1_eq (x : FVec Ideal S8192x256 .f32) (a5 : FVec Ideal S2x256x256 .f32) (a6 : FVec Ideal S2x256 .f32) :
    RefRun.linRelu x (RefRun.linW1 a5) (RefRun.linB1 a6)
      = Spec.arr2 (Spec.layer (Spec.mat2 x) (Spec.mat3 a5 1) (Spec.mat2 a6 1)) := by
  funext i
  obtain ⟨r, j, rfl⟩ : ∃ (r : Fin 8192) (j : Fin 256), i = ix2 r j := ⟨i 0, i 1, eq_ix2 i⟩
  rw [linRelu_apply, linB1_apply]
  refine congrArg (fun t => max (t + _) _) (Finset.sum_congr rfl fun l _ => ?_)
  rw [linW1_apply]
  rfl

/-! ## The whole network -/

/-- The attention block's result, as a whole array over the normalised rows `H`. -/
theorem attnBlock_eq (H : Spec.Mat 8192 256) (a1 a2 a3 : FVec Ideal S2x256x128 .f32) (a4 : FVec Ideal S2x128x256 .f32) :
    RefRun.attnResidual (Spec.arr2 H) (RefRun.attn0 (Spec.arr2 H) a1 a2 a3 a4) a1 a2 a3 a4
      = Spec.arr2 (fun r j => H r j + ((Spec.zero + Spec.headR H (Spec.mat3 a1) (Spec.mat3 a2) (Spec.mat3 a3) (Spec.mat3 a4) 0 r j)
          + Spec.headR H (Spec.mat3 a1) (Spec.mat3 a2) (Spec.mat3 a3) (Spec.mat3 a4) 1 r j)) := by
  funext i
  obtain ⟨r, j, rfl⟩ : ∃ (r : Fin 8192) (j : Fin 256), i = ix2 r j := ⟨i 0, i 1, eq_ix2 i⟩
  rw [attnResidual_apply, attn0_apply]
  rfl

/-- The reference's result is the network of the specification in the reference's arrangement, entry by entry. -/
theorem result_eq_netR (a0 : FVec Ideal S8192x256 .f32) (a1 a2 a3 : FVec Ideal S2x256x128 .f32) (a4 : FVec Ideal S2x128x256 .f32)
    (a5 : FVec Ideal S2x256x256 .f32) (a6 : FVec Ideal S2x256 .f32) :
    RefRun.result (F := Ideal) a0 a1 a2 a3 a4 a5 a6
      = Cert.Spec.arr2 (Cert.Spec.netR (Cert.Spec.mat2 a0) (Cert.Spec.mat3 a1) (Cert.Spec.mat3 a2) (Cert.Spec.mat3 a3)
          (Cert.Spec.mat3 a4) (Cert.Spec.mat3 a5) (Cert.Spec.mat2 a6)) := by
  unfold RefRun.result
  rw [batchNorm_eq a0, attnBlock_eq, batchNorm_eq, layer0_eq, layer1_eq]
  rfl

end Cert.ReferenceIdeal.RefValue

end
-- ==== Proof.FinitePre.lean ====
/-
  From the printed precondition to "every entry of every argument array is a real number".

  The precondition is the conjunction, over the seven argument arrays, of "all entries satisfy |x| < +∞", a single bit.
  That bit being 1 gives each conjunct; a conjunct is a reduction by "and" over all axes of the entrywise comparison,
  so every entry passed the comparison; and |x| = max x (−x) lies below +∞ on the extended reals exactly when x is
  neither +∞ nor −∞.
-/
import proofs.«408560_j30485677867710_3_alg».proof.Defs
import proofs.«408560_j30485677867710_3_alg».proof.Proof.Gen.Pre_finite_inputs
import proofs.«408560_j30485677867710_3_alg».proof.Proof.Spec
import Idealize.ShloMosaic.PureOps.Ideal
import Idealize.ShloMosaic.Lib.ValueIdx
import Idealize.ShloMosaic.Lib.ReduceAll

noncomputable section

namespace Cert.FinitePre

open Idealize.ShloMosaic Idealize.SL.Sem

/-- A rank-0 array has one index. -/
instance : Subsingleton Cert.Pre_finite_inputs.S_.Idx := ⟨fun a b => funext fun d => d.elim0⟩

/-- The binary word 0x7F800000 denotes +∞. -/
theorem inf_eq_top : Ideal.ofBits .f32 0x7F800000#32 = (⊤ : EReal) := by simp [Ideal.ofBits, Ideal.ieee]

/-- An extended real whose absolute value max x (−x) is strictly below +∞ is a real number. -/
theorem real_of_abs_lt_inf (x : EReal)
    (h : Ideal.cmp .olt (max x (-x)) (Ideal.ofBits .f32 0x7F800000#32) = 1#1) : x ≠ ⊤ ∧ x ≠ ⊥ := by
  rw [inf_eq_top] at h
  unfold Ideal.cmp at h
  induction x using EReal.rec with
  | bot => simp at h
  | coe r => exact ⟨EReal.coe_ne_top r, EReal.coe_ne_bot r⟩
  | top => simp at h

open Cert.Pre_finite_inputs in
/-- One conjunct of the precondition, at any shape: if the reduction by "and" over all axes of |a| < +∞ is 1, every
    entry of a is a real number. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
          (constantI S_ 1 1#1) hr hu j = 1#1) (i : s.Idx) : a i ≠ ⊤ ∧ a i ≠ ⊥ :=
  real_of_abs_lt_inf (a i) (Host.reduce_andi_all _ _ hr hu j e i)

open Cert.Pre_finite_inputs in
/-- The entrywise "and" of two one-bit rank-0 arrays is 1 only if both are. -/
theorem andi_ix0 {x y : IVec S_ 1} (e : andi x y ValueIdx.ix0 = 1#1) :
    x ValueIdx.ix0 = 1#1 ∧ y ValueIdx.ix0 = 1#1 := IntOp.andi_eq_one.1 e

open Cert.Pre_finite_inputs in
/-- The precondition's bit is 1 only if every entry of each of the seven arrays is a real number. -/
theorem all_of_pre [Cert.Pre_finite_inputs.Facts]
    (a0 : FVec Ideal S8192x256 .f32) (a1 a2 a3 : FVec Ideal S2x256x128 .f32) (a4 : FVec Ideal S2x128x256 .f32)
    (a5 : FVec Ideal S2x256x256 .f32) (a6 : FVec Ideal S2x256 .f32)
    (h : Cert.Pre_finite_inputs.fn (F := Ideal) a0 a1 a2 a3 a4 a5 a6 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥) := by
  have e := congrFun h ValueIdx.ix0
  dsimp only [Cert.Pre_finite_inputs.fn, Cert.Pre_finite_inputs.fn_part1] at e
  obtain ⟨e, e6⟩ := andi_ix0 e
  obtain ⟨e, e5⟩ := andi_ix0 e
  obtain ⟨e, e4⟩ := andi_ix0 e
  obtain ⟨e, e3⟩ := andi_ix0 e
  obtain ⟨e, e2⟩ := andi_ix0 e
  obtain ⟨e0, e1⟩ := andi_ix0 e
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

open Cert.Pre_finite_inputs in
/-- The same, read by coordinates. -/
theorem finite_of_pre [Cert.Pre_finite_inputs.Facts]
    (a0 : FVec Ideal S8192x256 .f32) (a1 a2 a3 : FVec Ideal S2x256x128 .f32) (a4 : FVec Ideal S2x128x256 .f32)
    (a5 : FVec Ideal S2x256x256 .f32) (a6 : FVec Ideal S2x256 .f32)
    (h : Cert.Pre_finite_inputs.fn (F := Ideal) a0 a1 a2 a3 a4 a5 a6 = fun _ => 1#1) :
    Cert.Spec.Finite2 (Cert.Spec.mat2 a0) ∧ Cert.Spec.Finite3 (Cert.Spec.mat3 a1) ∧ Cert.Spec.Finite3 (Cert.Spec.mat3 a2)
      ∧ Cert.Spec.Finite3 (Cert.Spec.mat3 a3) ∧ Cert.Spec.Finite3 (Cert.Spec.mat3 a4) ∧ Cert.Spec.Finite3 (Cert.Spec.mat3 a5)
      ∧ Cert.Spec.Finite2 (Cert.Spec.mat2 a6) := by
  obtain ⟨h0, h1, h2, h3, h4, h5, h6⟩ := all_of_pre a0 a1 a2 a3 a4 a5 a6 h
  exact ⟨fun a b => h0 (ValueIdx.ix2 a b), fun i a b => h1 (ValueIdx.ix3 i a b), fun i a b => h2 (ValueIdx.ix3 i a b),
    fun i a b => h3 (ValueIdx.ix3 i a b), fun i a b => h4 (ValueIdx.ix3 i a b), fun i a b => h5 (ValueIdx.ix3 i a b),
    fun a b => h6 (ValueIdx.ix2 a b)⟩

/-- The precondition as the claims state it, on every device: every entry of the idealized kernel's seven argument
    arrays is a real number. -/
theorem finite_of_Pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Finite2 (Cert.Spec.mat2 (A := 8192) (B := 256) (m ((c.tc : Thread Cert.KernelIdeal.nD Cert.KernelIdeal.τ).loc Cert.KernelIdeal.main_arg0)))
      ∧ Cert.Spec.Finite3 (Cert.Spec.mat3 (A := 2) (B := 256) (C := 128) (m ((c.tc : Thread Cert.KernelIdeal.nD Cert.KernelIdeal.τ).loc Cert.KernelIdeal.main_arg1)))
      ∧ Cert.Spec.Finite3 (Cert.Spec.mat3 (A := 2) (B := 256) (C := 128) (m ((c.tc : Thread Cert.KernelIdeal.nD Cert.KernelIdeal.τ).loc Cert.KernelIdeal.main_arg2)))
      ∧ Cert.Spec.Finite3 (Cert.Spec.mat3 (A := 2) (B := 256) (C := 128) (m ((c.tc : Thread Cert.KernelIdeal.nD Cert.KernelIdeal.τ).loc Cert.KernelIdeal.main_arg3)))
      ∧ Cert.Spec.Finite3 (Cert.Spec.mat3 (A := 2) (B := 128) (C := 256) (m ((c.tc : Thread Cert.KernelIdeal.nD Cert.KernelIdeal.τ).loc Cert.KernelIdeal.main_arg4)))
      ∧ Cert.Spec.Finite3 (Cert.Spec.mat3 (A := 2) (B := 256) (C := 256) (m ((c.tc : Thread Cert.KernelIdeal.nD Cert.KernelIdeal.τ).loc Cert.KernelIdeal.main_arg5)))
      ∧ Cert.Spec.Finite2 (Cert.Spec.mat2 (A := 2) (B := 256) (m ((c.tc : Thread Cert.KernelIdeal.nD Cert.KernelIdeal.τ).loc Cert.KernelIdeal.main_arg6))) :=
  finite_of_pre _ _ _ _ _ _ _ (h c)

end Cert.FinitePre

end
-- ==== Proof.lean ====
/-
  The certificate's claim: a four-kernel pipeline (batch-norm statistics; normalisation fused with the Q/K/V
  projection; blocked attention over two heads with an online softmax, accumulated onto the residual, with the
  second batch norm's per-block statistics; normalisation fused with two linear layers and their rectifiers) against
  the plain reference network, over the extended reals.

  * The three frames: the kernel program is a list of four kernel regions among three host stretches; each region's
    body is run once per control case and the buffers' contents at every boundary are a fold from the launch memory,
    so every argument array ends as launched (the same text at both float instances); the reference is a straight
    run of its operations.
  * The two idealized programs compute one function of real inputs: the kernel's result is read off the last
    boundary of its fold, stage by stage (column sums in blocks add up to the column sums; the online softmax over
    four key blocks is the softmax; the concatenated projection's thirds are the three projections), the reference's
    off its operations; the two arrangements agree because E[z²] − E[z]² = E[(z − E z)²], a row's weights may be
    normalised before or after the weighted sum, and sums may be regrouped — laws of the reals, which the
    precondition (every input entry is a real number) and the positivity of var + ε and of the softmax's
    denominator make available.
-/
import proofs.«408560_j30485677867710_3_alg».proof.Defs
import proofs.«408560_j30485677867710_3_alg».proof.Proof.Gen.Kernel
import proofs.«408560_j30485677867710_3_alg».proof.Proof.Gen.KernelIdeal
import proofs.«408560_j30485677867710_3_alg».proof.Proof.Gen.ReferenceIdeal
import proofs.«408560_j30485677867710_3_alg».proof.Proof.Gen.Pre_finite_inputs
import proofs.«408560_j30485677867710_3_alg».proof.Proof.BitsRun
import proofs.«408560_j30485677867710_3_alg».proof.Proof.Run
import proofs.«408560_j30485677867710_3_alg».proof.Proof.KValue
import proofs.«408560_j30485677867710_3_alg».proof.Proof.RefRun
import proofs.«408560_j30485677867710_3_alg».proof.Proof.RefValue
import proofs.«408560_j30485677867710_3_alg».proof.Proof.NetEq
import proofs.«408560_j30485677867710_3_alg».proof.Proof.FinitePre
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_k : Cert.frame_Kernel := fun m ρ _ => Cert.Kernel.Run.frame m ρ

/-- So does its idealization: the same four regions at the ideal instance. -/
theorem frame_ki : Cert.frame_KernelIdeal := fun m ρ _ => Cert.KernelIdeal.Run.frame m ρ

/-- The reference is a straight run of host operations, none of which writes an argument. -/
theorem frame_ri : Cert.frame_ReferenceIdeal := fun m ρ _ =>
  (θ_run Cert.ReferenceIdeal.defs _ _).mono (fun _ h c => (h c).2) (Cert.ReferenceIdeal.RefRun.run (F := Ideal) m ρ)

/-- From real inputs the kernel's fold ends, at the result buffer, at the network in the kernel's arrangement, the
    reference's operations at the network in the reference's; the two arrangements are one function of real inputs. -/
theorem algebraic : Cert.algebraic_KernelIdeal_ReferenceIdeal := by
  intro m ρ m' ρ' hpre hagree
  refine ⟨fun c => Cert.Spec.arr2 (Cert.Spec.netK (Cert.Spec.mat2 (m ((c.tc : Thread Cert.KernelIdeal.nD Cert.KernelIdeal.τ).loc Cert.KernelIdeal.main_arg0))) (Cert.Spec.mat3 (m ((c.tc : Thread Cert.KernelIdeal.nD Cert.KernelIdeal.τ).loc Cert.KernelIdeal.main_arg1))) (Cert.Spec.mat3 (m ((c.tc : Thread Cert.KernelIdeal.nD Cert.KernelIdeal.τ).loc Cert.KernelIdeal.main_arg2))) (Cert.Spec.mat3 (m ((c.tc : Thread Cert.KernelIdeal.nD Cert.KernelIdeal.τ).loc Cert.KernelIdeal.main_arg3))) (Cert.Spec.mat3 (m ((c.tc : Thread Cert.KernelIdeal.nD Cert.KernelIdeal.τ).loc Cert.KernelIdeal.main_arg4))) (Cert.Spec.mat3 (m ((c.tc : Thread Cert.KernelIdeal.nD Cert.KernelIdeal.τ).loc Cert.KernelIdeal.main_arg5))) (Cert.Spec.mat2 (m ((c.tc : Thread Cert.KernelIdeal.nD Cert.KernelIdeal.τ).loc Cert.KernelIdeal.main_arg6)))), ?_, ?_⟩
  · refine (θ_run Cert.KernelIdeal.defs _ _).mono (fun r h c => ?_) (Cert.KernelIdeal.Run.run (F := Ideal) m ρ)
    obtain ⟨hx, hQ, hK, hVd, -, -, -⟩ := Cert.FinitePre.finite_of_Pre m hpre c
    exact ⟨(h c _ (Cert.KernelIdeal.Run.mem_uc Cert.KernelIdeal.main_v37 (by decide))).trans (Cert.KernelIdeal.KValue.W7_value m c hx hQ hK hVd),
      (h c _ (Cert.KernelIdeal.Run.mem_uc Cert.KernelIdeal.main_arg0 (by decide))).trans (Cert.KernelIdeal.Run.W7_kept m c Cert.KernelIdeal.main_arg0 (by decide) (by decide) (by decide) (by decide) (by decide) (by decide) (by decide)),
      (h c _ (Cert.KernelIdeal.Run.mem_uc Cert.KernelIdeal.main_arg1 (by decide))).trans (Cert.KernelIdeal.Run.W7_kept m c Cert.KernelIdeal.main_arg1 (by decide) (by decide) (by decide) (by decide) (by decide) (by decide) (by decide)),
      (h c _ (Cert.KernelIdeal.Run.mem_uc Cert.KernelIdeal.main_arg2 (by decide))).trans (Cert.KernelIdeal.Run.W7_kept m c Cert.KernelIdeal.main_arg2 (by decide) (by decide) (by decide) (by decide) (by decide) (by decide) (by decide)),
      (h c _ (Cert.KernelIdeal.Run.mem_uc Cert.KernelIdeal.main_arg3 (by decide))).trans (Cert.KernelIdeal.Run.W7_kept m c Cert.KernelIdeal.main_arg3 (by decide) (by decide) (by decide) (by decide) (by decide) (by decide) (by decide)),
      (h c _ (Cert.KernelIdeal.Run.mem_uc Cert.KernelIdeal.main_arg4 (by decide))).trans (Cert.KernelIdeal.Run.W7_kept m c Cert.KernelIdeal.main_arg4 (by decide) (by decide) (by decide) (by decide) (by decide) (by decide) (by decide)),
      (h c _ (Cert.KernelIdeal.Run.mem_uc Cert.KernelIdeal.main_arg5 (by decide))).trans (Cert.KernelIdeal.Run.W7_kept m c Cert.KernelIdeal.main_arg5 (by decide) (by decide) (by decide) (by decide) (by decide) (by decide) (by decide)),
      (h c _ (Cert.KernelIdeal.Run.mem_uc Cert.KernelIdeal.main_arg6 (by decide))).trans (Cert.KernelIdeal.Run.W7_kept m c Cert.KernelIdeal.main_arg6 (by decide) (by decide) (by decide) (by decide) (by decide) (by decide) (by decide))⟩
  · refine (θ_run Cert.ReferenceIdeal.defs _ _).mono (fun r h c => ⟨(h c).1.trans ?_, (h c).2⟩)
      (Cert.ReferenceIdeal.RefRun.run (F := Ideal) m' ρ')
    obtain ⟨hx, hQ, hK, hVd, hVu, hW, hb⟩ := Cert.FinitePre.finite_of_Pre m hpre c
    rw [Cert.ReferenceIdeal.RefValue.result_eq_netR, (hagree c).1, (hagree c).2.1, (hagree c).2.2.1, (hagree c).2.2.2.1,
      (hagree c).2.2.2.2.1, (hagree c).2.2.2.2.2.1, (hagree c).2.2.2.2.2.2,
      Cert.Spec.netR_eq_netK _ _ _ _ _ _ _ hx hQ hK hVd hVu hW hb]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
